-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S100000x291 : Shape := ⟨2, ![100000, 291]⟩
abbrev S2x100000 : Shape := ⟨2, ![2, 100000]⟩
abbrev S128x128 : Shape := ⟨2, ![128, 128]⟩
abbrev S128 : Shape := ⟨1, ![128]⟩
abbrev S291x64 : Shape := ⟨2, ![291, 64]⟩
abbrev S64 : Shape := ⟨1, ![64]⟩
abbrev S64x128 : Shape := ⟨2, ![64, 128]⟩
abbrev S768x64 : Shape := ⟨2, ![768, 64]⟩
abbrev S384x128 : Shape := ⟨2, ![384, 128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S100000x291 : S_.BroadcastsInDim S100000x291 (![] : Fin 0 → Fin S100000x291.rank)
  reducesTo_S100000x291_S_d0_1 : S100000x291.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S291x64 : S_.BroadcastsInDim S291x64 (![] : Fin 0 → Fin S291x64.rank)
  reducesTo_S291x64_S_d0_1 : S291x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S768x64 : S_.BroadcastsInDim S768x64 (![] : Fin 0 → Fin S768x64.rank)
  reducesTo_S768x64_S_d0_1 : S768x64.ReducesTo [0, 1] S_
  bcast_S_S384x128 : S_.BroadcastsInDim S384x128 (![] : Fin 0 → Fin S384x128.rank)
  reducesTo_S384x128_S_d0_1 : S384x128.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x100000 : S_.BroadcastsInDim S2x100000 (![] : Fin 0 → Fin S2x100000.rank)
  reducesTo_S2x100000_S_d0_1 : S2x100000.ReducesTo [0, 1] S_

variable [Facts]

def fn_part6 {F : FTy → Type} [FloatOps F] (main_arg2 : IVec S2x100000 32) (main_arg22 : FVec F S1 .f32) (main_v98 : IVec S_ 1) (main_v101 : IVec S32x1 1) (main_c_39 : IVec S_ 1) : IVec S_ 1 :=
  let main_v102 : IVec S_ 1 := (fun x v => Host.reduce IntOp.andi x v reducesTo_S32x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_c_42 : IVec S_ 32 := constantI S_ 32 0#32
  let main_v109 : IVec S2x100000 32 := broadcastInDim S2x100000 ![] bcast_S_S2x100000 main_c_42
  let main_v110 : IVec S2x100000 1 := cmpi .sge main_arg2 main_v109
  let main_c_43 : IVec S_ 1 := constantI S_ 1 1#1
  let main_v111 : IVec S_ 1 := (fun x v => Host.reduce IntOp.andi x v reducesTo_S2x100000_S_d0_1 h_S_) main_v110 main_c_43
  let main_v112 : IVec S_ 1 := andi main_v108 main_v111
  let main_c_44 : IVec S_ 32 := constantI S_ 32 20000#32
  let main_v113 : IVec S2x100000 32 := broadcastInDim S2x100000 ![] bcast_S_S2x100000 main_c_44
  let main_v114 : IVec S2x100000 1 := cmpi .slt main_arg2 main_v113
  let main_c_45 : IVec S_ 1 := constantI S_ 1 1#1
  let main_v115 : IVec S_ 1 := (fun x v => Host.reduce IntOp.andi x v reducesTo_S2x100000_S_d0_1 h_S_) main_v114 main_c_45
  let main_v116 : IVec S_ 1 := andi main_v112 main_v115
  main_v116

def fn_part5 {F : FTy → Type} [FloatOps F] (main_arg2 : IVec S2x100000 32) (main_arg19 : FVec F S64x32 .f32) (main_arg20 : FVec F S32 .f32) (main_arg21 : FVec F S32x1 .f32) (main_arg22 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x32 .f32 := Host.absf main_arg19
  let main_cst_34 : FVec F S_ .f32 := constant S_ .f32 0x7F800000#32
  let main_v90 : FVec F S64x32 .f32 := broadcastInDim S64x32 ![] bcast_S_S64x32 main_cst_34
  let main_v91 : IVec S64x32 1 := cmpf .olt main_v89 main_v90
  let main_c_35 : IVec S_ 1 := constantI S_ 1 1#1
  let main_v92 : IVec S_ 1 := (fun x v => Host.reduce IntOp.andi x v reducesTo_S64x32_S_d0_1 h_S_) main_v91 main_c_35
  let main_v93 : IVec S_ 1 := andi main_v88 main_v92
  let main_v94 : FVec F S32 .f32 := Host.absf main_arg20
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x1 .f32 := Host.absf main_arg21
  let main_cst_38 : FVec F S_ .f32 := constant S_ .f32 0x7F800000#32
  let main_v100 : FVec F S32x1 .f32 := broadcastInDim S32x1 ![] bcast_S_S32x1 main_cst_38
  let main_v101 : IVec S32x1 1 := cmpf .olt main_v99 main_v100
  let main_c_39 : IVec S_ 1 := constantI S_ 1 1#1
  fn_part6 (F := F) main_arg2 main_arg22 main_v98 main_v101 main_c_39

def fn_part4 {F : FTy → Type} [FloatOps F] (main_arg2 : IVec S2x100000 32) (main_arg15 : FVec F S384x128 .f32) (main_arg16 : FVec F S128 .f32) (main_arg17 : FVec F S128x64 .f32) (main_arg18 : FVec F S64 .f32) (main_arg19 : FVec F S64x32 .f32) (main_arg20 : FVec F S32 .f32) (main_arg21 : FVec F S32x1 .f32) (main_arg22 : FVec F S1 .f32) (main_v63 : IVec S_ 1) (main_v67 : IVec S_ 1) : IVec S_ 1 :=
  let main_v68 : IVec S_ 1 := andi main_v63 main_v67
  let main_v69 : FVec F S384x128 .f32 := Host.absf main_arg15
  let main_cst_26 : FVec F S_ .f32 := constant S_ .f32 0x7F800000#32
  let main_v70 : FVec F S384x128 .f32 := broadcastInDim S384x128 ![] bcast_S_S384x128 main_cst_26
  let main_v71 : IVec S384x128 1 := cmpf .olt main_v69 main_v70
  let main_c_27 : IVec S_ 1 := constantI S_ 1 1#1
  let main_v72 : IVec S_ 1 := (fun x v => Host.reduce IntOp.andi x v reducesTo_S384x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg2 main_arg19 main_arg20 main_arg21 main_arg22 main_v83 main_v84 main_cst_32

def fn_part3 {F : FTy → Type} [FloatOps F] (main_arg2 : IVec S2x100000 32) (main_arg12 : FVec F S64 .f32) (main_arg13 : FVec F S64x128 .f32) (main_arg14 : FVec F S128 .f32) (main_arg15 : FVec F S384x128 .f32) (main_arg16 : FVec F S128 .f32) (main_arg17 : FVec F S128x64 .f32) (main_arg18 : FVec F S64 .f32) (main_arg19 : FVec F S64x32 .f32) (main_arg20 : FVec F S32 .f32) (main_arg21 : FVec F S32x1 .f32) (main_arg22 : FVec F S1 .f32) (main_v48 : IVec S_ 1) (main_v49 : FVec F S768x64 .f32) (main_v50 : FVec F S768x64 .f32) : IVec S_ 1 :=
  let main_v51 : IVec S768x64 1 := cmpf .olt main_v49 main_v50
  let main_c_19 : IVec S_ 1 := constantI S_ 1 1#1
  let main_v52 : IVec S_ 1 := (fun x v => Host.reduce IntOp.andi x v reducesTo_S768x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x128 .f32 := Host.absf main_arg13
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_arg17 main_arg18 main_arg19 main_arg20 main_arg21 main_arg22 main_v63 main_v67

def fn_part2 {F : FTy → Type} [FloatOps F] (main_arg2 : IVec S2x100000 32) (main_arg8 : FVec F S64 .f32) (main_arg9 : FVec F S64x128 .f32) (main_arg10 : FVec F S128 .f32) (main_arg11 : FVec F S768x64 .f32) (main_arg12 : FVec F S64 .f32) (main_arg13 : FVec F S64x128 .f32) (main_arg14 : FVec F S128 .f32) (main_arg15 : FVec F S384x128 .f32) (main_arg16 : FVec F S128 .f32) (main_arg17 : FVec F S128x64 .f32) (main_arg18 : FVec F S64 .f32) (main_arg19 : FVec F S64x32 .f32) (main_arg20 : FVec F S32 .f32) (main_arg21 : FVec F S32x1 .f32) (main_arg22 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S768x64 .f32 := Host.absf main_arg11
  let main_cst_18 : FVec F S_ .f32 := constant S_ .f32 0x7F800000#32
  let main_v50 : FVec F S768x64 .f32 := broadcastInDim S768x64 ![] bcast_S_S768x64 main_cst_18
  fn_part3 (F := F) main_arg2 main_arg12 main_arg13 main_arg14 main_arg15 main_arg16 main_arg17 main_arg18 main_arg19 main_arg20 main_arg21 main_arg22 main_v48 main_v49 main_v50

def fn_part1 {F : FTy → Type} [FloatOps F] (main_arg2 : IVec S2x100000 32) (main_arg5 : FVec F S128x128 .f32) (main_arg6 : FVec F S128 .f32) (main_arg7 : FVec F S291x64 .f32) (main_arg8 : FVec F S64 .f32) (main_arg9 : FVec F S64x128 .f32) (main_arg10 : FVec F S128 .f32) (main_arg11 : FVec F S768x64 .f32) (main_arg12 : FVec F S64 .f32) (main_arg13 : FVec F S64x128 .f32) (main_arg14 : FVec F S128 .f32) (main_arg15 : FVec F S384x128 .f32) (main_arg16 : FVec F S128 .f32) (main_arg17 : FVec F S128x64 .f32) (main_arg18 : FVec F S64 .f32) (main_arg19 : FVec F S64x32 .f32) (main_arg20 : FVec F S32 .f32) (main_arg21 : FVec F S32x1 .f32) (main_arg22 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S291x64 .f32 := Host.absf main_arg7
  let main_cst_10 : FVec F S_ .f32 := constant S_ .f32 0x7F800000#32
  let main_v30 : FVec F S291x64 .f32 := broadcastInDim S291x64 ![] bcast_S_S291x64 main_cst_10
  let main_v31 : IVec S291x64 1 := cmpf .olt main_v29 main_v30
  let main_c_11 : IVec S_ 1 := constantI S_ 1 1#1
  let main_v32 : IVec S_ 1 := (fun x v => Host.reduce IntOp.andi x v reducesTo_S291x64_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S20000x128 .f32) (main_arg1 : FVec F S100000x291 .f32) (main_arg2 : IVec S2x100000 32) (main_arg3 : FVec F S128x128 .f32) (main_arg4 : FVec F S128 .f32) (main_arg5 : FVec F S128x128 .f32) (main_arg6 : FVec F S128 .f32) (main_arg7 : FVec F S291x64 .f32) (main_arg8 : FVec F S64 .f32) (main_arg9 : FVec F S64x128 .f32) (main_arg10 : FVec F S128 .f32) (main_arg11 : FVec F S768x64 .f32) (main_arg12 : FVec F S64 .f32) (main_arg13 : FVec F S64x128 .f32) (main_arg14 : FVec F S128 .f32) (main_arg15 : FVec F S384x128 .f32) (main_arg16 : FVec F S128 .f32) (main_arg17 : FVec F S128x64 .f32) (main_arg18 : FVec F S64 .f32) (main_arg19 : FVec F S64x32 .f32) (main_arg20 : FVec F S32 .f32) (main_arg21 : FVec F S32x1 .f32) (main_arg22 : FVec F S1 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S100000x291 .f32 := Host.absf main_arg1
  let main_cst_0 : FVec F S_ .f32 := constant S_ .f32 0x7F800000#32
  let main_v5 : FVec F S100000x291 .f32 := broadcastInDim S100000x291 ![] bcast_S_S100000x291 main_cst_0
  let main_v6 : IVec S100000x291 1 := cmpf .olt main_v4 main_v5
  let main_c_1 : IVec S_ 1 := constantI S_ 1 1#1
  let main_v7 : IVec S_ 1 := (fun x v => Host.reduce IntOp.andi x v reducesTo_S100000x291_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S20000x128 : Shape := ⟨2, ![20000, 128]⟩
abbrev S100000x291 : Shape := ⟨2, ![100000, 291]⟩
abbrev S2x100000 : Shape := ⟨2, ![2, 100000]⟩
abbrev S128x128 : Shape := ⟨2, ![128, 128]⟩
abbrev S128 : Shape := ⟨1, ![128]⟩
abbrev S291x64 : Shape := ⟨2, ![291, 64]⟩
abbrev S64 : Shape := ⟨1, ![64]⟩
abbrev S64x128 : Shape := ⟨2, ![64, 128]⟩
abbrev S768x64 : Shape := ⟨2, ![768, 64]⟩
abbrev S384x128 : Shape := ⟨2, ![384, 128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x100000 : Shape := ⟨2, ![1, 100000]⟩
abbrev S100000 : Shape := ⟨1, ![100000]⟩
abbrev S1x128 : Shape := ⟨2, ![1, 128]⟩
abbrev S2000x128 : Shape := ⟨2, ![2000, 128]⟩
abbrev S1x64 : Shape := ⟨2, ![1, 64]⟩
abbrev S100000x128 : Shape := ⟨2, ![100000, 128]⟩
abbrev S2000x291 : Shape := ⟨2, ![2000, 291]⟩
abbrev S2000x64 : Shape := ⟨2, ![2000, 64]⟩
abbrev S20000x256 : Shape := ⟨2, ![20000, 256]⟩
abbrev S100000x256 : Shape := ⟨2, ![100000, 256]⟩
abbrev S_ : Shape := ⟨0, ![]⟩
abbrev S100000x1 : Shape := ⟨2, ![100000, 1]⟩
abbrev S1x1 : Shape := ⟨2, ![1, 1]⟩
abbrev S1000x256 : Shape := ⟨2, ![1000, 256]⟩
abbrev S1000x128 : Shape := ⟨2, ![1000, 128]⟩
abbrev S1000x768 : Shape := ⟨2, ![1000, 768]⟩
abbrev S1000x64 : Shape := ⟨2, ![1000, 64]⟩
abbrev S1000x384 : Shape := ⟨2, ![1000, 384]⟩
abbrev S1x32 : Shape := ⟨2, ![1, 32]⟩
abbrev S5000x128 : Shape := ⟨2, ![5000, 128]⟩
abbrev S5000x1 : Shape := ⟨2, ![5000, 1]⟩
abbrev S5000x64 : Shape := ⟨2, ![5000, 64]⟩
abbrev S5000x32 : Shape := ⟨2, ![5000, 32]⟩

abbrev nBuf : Space → Nat
  | .hbm => 265
  | .vmem => 90
  | .smem => 0
  | _ => 0

abbrev hbmTy0_0 (i : Nat) : BufTy := match i % 128 with
  | 0 => ⟨S20000x128, .f32⟩
  | 1 => ⟨S100000x291, .f32⟩
  | 2 => ⟨S2x100000, .i32⟩
  | 3 => ⟨S128x128, .f32⟩
  | 4 => ⟨S128, .f32⟩
  | 5 => ⟨S128x128, .f32⟩
  | 6 => ⟨S128, .f32⟩
  | 7 => ⟨S291x64, .f32⟩
  | 8 => ⟨S64, .f32⟩
  | 9 => ⟨S64x128, .f32⟩
  | 10 => ⟨S128, .f32⟩
  | 11 => ⟨S768x64, .f32⟩
  | 12 => ⟨S64, .f32⟩
  | 13 => ⟨S64x128, .f32⟩
  | 14 => ⟨S128, .f32⟩
  | 15 => ⟨S384x128, .f32⟩
  | 16 => ⟨S128, .f32⟩
  | 17 => ⟨S128x64, .f32⟩
  | 18 => ⟨S64, .f32⟩
  | 19 => ⟨S64x32, .f32⟩
  | 20 => ⟨S32, .f32⟩
  | 21 => ⟨S32x1, .f32⟩
  | 22 => ⟨S1, .f32⟩
  | 23 => ⟨S1x100000, .i32⟩
  | 24 => ⟨S100000, .i32⟩
  | 25 => ⟨S1x100000, .i32⟩
  | 26 => ⟨S100000, .i32⟩
  | 27 => ⟨S1x128, .f32⟩
  | 28 => ⟨S1x128, .f32⟩
  | 29 => ⟨S20000x128, .f32⟩
  | 30 => ⟨S1x64, .f32⟩
  | 31 => ⟨S1x128, .f32⟩
  | 32 => ⟨S100000x128, .f32⟩
  | 33 => ⟨S20000x256, .f32⟩
  | 34 => ⟨S100000x256, .f32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S1, .i32⟩
  | 44 => ⟨S_, .i32⟩
  | 45 => ⟨S100000x1, .i32⟩
  | 46 => ⟨S100000x1, .i1⟩
  | 47 => ⟨S1x1, .i32⟩
  | 48 => ⟨S100000x1, .i32⟩
  | 49 => ⟨S100000x1, .i1⟩
  | 50 => ⟨S100000x1, .i1⟩
  | 51 => ⟨S_, .i1⟩
  | 52 => ⟨S100000, .i1⟩
  | 53 => ⟨S100000x256, .f32⟩
  | 54 => ⟨S100000x256, .i1⟩
  | 55 => ⟨S_, .f32⟩
  | 56 => ⟨S100000x256, .f32⟩
  | 57 => ⟨S100000x256, .f32⟩
  | 58 => ⟨S_, .i32⟩
  | 59 => ⟨S100000, .i32⟩
  | 60 => ⟨S100000, .i1⟩
  | 61 => ⟨S_, .i32⟩
  | 62 => ⟨S100000, .i32⟩
  | 63 => ⟨S100000, .i32⟩
  | 64 => ⟨S100000, .i32⟩
  | 65 => ⟨S100000x1, .i32⟩
  | 66 => ⟨S1, .i32⟩
  | 67 => ⟨S_, .i32⟩
  | 68 => ⟨S100000x1, .i32⟩
  | 69 => ⟨S100000x1, .i1⟩
  | 70 => ⟨S1x1, .i32⟩
  | 71 => ⟨S100000x1, .i32⟩
  | 72 => ⟨S100000x1, .i1⟩
  | 73 => ⟨S100000x1, .i1⟩
  | 74 => ⟨S_, .i1⟩
  | 75 => ⟨S100000, .i1⟩
  | 76 => ⟨S100000x256, .f32⟩
  | 77 => ⟨S100000x256, .i1⟩
  | 78 => ⟨S_, .f32⟩
  | 79 => ⟨S100000x256, .f32⟩
  | 80 => ⟨S100000x256, .f32⟩
  | 81 => ⟨S1x64, .f32⟩
  | 82 => ⟨S1x128, .f32⟩
  | 83 => ⟨S1x128, .f32⟩
  | 84 => ⟨S100000x128, .f32⟩
  | 85 => ⟨S100000x128, .f32⟩
  | 86 => ⟨S_, .f32⟩
  | 87 => ⟨S20000x128, .f32⟩
  | 88 => ⟨S100000x1, .i32⟩
  | 89 => ⟨S20000x128, .f32⟩
  | 90 => ⟨S20000x256, .f32⟩
  | 91 => ⟨S100000x256, .f32⟩
  | 92 => ⟨S_, .i32⟩
  | 93 => ⟨S100000, .i32⟩
  | 94 => ⟨S100000, .i1⟩
  | 95 => ⟨S_, .i32⟩
  | 96 => ⟨S100000, .i32⟩
  | 97 => ⟨S100000, .i32⟩
  | 98 => ⟨S100000, .i32⟩
  | 99 => ⟨S100000x1, .i32⟩
  | 100 => ⟨S1, .i32⟩
  | 101 => ⟨S_, .i32⟩
  | 102 => ⟨S100000x1, .i32⟩
  | 103 => ⟨S100000x1, .i1⟩
  | 104 => ⟨S1x1, .i32⟩
  | 105 => ⟨S100000x1, .i32⟩
  | 106 => ⟨S100000x1, .i1⟩
  | 107 => ⟨S100000x1, .i1⟩
  | 108 => ⟨S_, .i1⟩
  | 109 => ⟨S100000, .i1⟩
  | 110 => ⟨S100000x256, .f32⟩
  | 111 => ⟨S100000x256, .i1⟩
  | 112 => ⟨S_, .f32⟩
  | 113 => ⟨S100000x256, .f32⟩
  | 114 => ⟨S100000x256, .f32⟩
  | 115 => ⟨S_, .i32⟩
  | 116 => ⟨S100000, .i32⟩
  | 117 => ⟨S100000, .i1⟩
  | 118 => ⟨S_, .i32⟩
  | 119 => ⟨S100000, .i32⟩
  | 120 => ⟨S100000, .i32⟩
  | 121 => ⟨S100000, .i32⟩
  | 122 => ⟨S100000x1, .i32⟩
  | 123 => ⟨S1, .i32⟩
  | 124 => ⟨S_, .i32⟩
  | 125 => ⟨S100000x1, .i32⟩
  | 126 => ⟨S100000x1, .i1⟩
  | 127 => ⟨S1x1, .i32⟩
  | _ => ⟨S20000x128, .f32⟩

abbrev hbmTy0_1 (i : Nat) : BufTy := match i % 128 with
  | 0 => ⟨S100000x1, .i32⟩
  | 1 => ⟨S100000x1, .i1⟩
  | 2 => ⟨S100000x1, .i1⟩
  | 3 => ⟨S_, .i1⟩
  | 4 => ⟨S100000, .i1⟩
  | 5 => ⟨S100000x256, .f32⟩
  | 6 => ⟨S100000x256, .i1⟩
  | 7 => ⟨S_, .f32⟩
  | 8 => ⟨S100000x256, .f32⟩
  | 9 => ⟨S100000x256, .f32⟩
  | 10 => ⟨S1x64, .f32⟩
  | 11 => ⟨S1x128, .f32⟩
  | 12 => ⟨S1x128, .f32⟩
  | 13 => ⟨S100000x128, .f32⟩
  | 14 => ⟨S100000x128, .f32⟩
  | 15 => ⟨S_, .f32⟩
  | 16 => ⟨S20000x128, .f32⟩
  | 17 => ⟨S100000x1, .i32⟩
  | 18 => ⟨S20000x128, .f32⟩
  | 19 => ⟨S20000x256, .f32⟩
  | 20 => ⟨S100000x256, .f32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S1, .i32⟩
  | 30 => ⟨S_, .i32⟩
  | 31 => ⟨S100000x1, .i32⟩
  | 32 => ⟨S100000x1, .i1⟩
  | 33 => ⟨S1x1, .i32⟩
  | 34 => ⟨S100000x1, .i32⟩
  | 35 => ⟨S100000x1, .i1⟩
  | 36 => ⟨S100000x1, .i1⟩
  | 37 => ⟨S_, .i1⟩
  | 38 => ⟨S100000, .i1⟩
  | 39 => ⟨S100000x256, .f32⟩
  | 40 => ⟨S100000x256, .i1⟩
  | 41 => ⟨S_, .f32⟩
  | 42 => ⟨S100000x256, .f32⟩
  | 43 => ⟨S100000x256, .f32⟩
  | 44 => ⟨S_, .i32⟩
  | 45 => ⟨S100000, .i32⟩
  | 46 => ⟨S100000, .i1⟩
  | 47 => ⟨S_, .i32⟩
  | 48 => ⟨S100000, .i32⟩
  | 49 => ⟨S100000, .i32⟩
  | 50 => ⟨S100000, .i32⟩
  | 51 => ⟨S100000x1, .i32⟩
  | 52 => ⟨S1, .i32⟩
  | 53 => ⟨S_, .i32⟩
  | 54 => ⟨S100000x1, .i32⟩
  | 55 => ⟨S100000x1, .i1⟩
  | 56 => ⟨S1x1, .i32⟩
  | 57 => ⟨S100000x1, .i32⟩
  | 58 => ⟨S100000x1, .i1⟩
  | 59 => ⟨S100000x1, .i1⟩
  | 60 => ⟨S_, .i1⟩
  | 61 => ⟨S100000, .i1⟩
  | 62 => ⟨S100000x256, .f32⟩
  | 63 => ⟨S100000x256, .i1⟩
  | 64 => ⟨S_, .f32⟩
  | 65 => ⟨S100000x256, .f32⟩
  | 66 => ⟨S100000x256, .f32⟩
  | 67 => ⟨S1x64, .f32⟩
  | 68 => ⟨S1x128, .f32⟩
  | 69 => ⟨S1x128, .f32⟩
  | 70 => ⟨S100000x128, .f32⟩
  | 71 => ⟨S100000x128, .f32⟩
  | 72 => ⟨S_, .f32⟩
  | 73 => ⟨S20000x128, .f32⟩
  | 74 => ⟨S100000x1, .i32⟩
  | 75 => ⟨S20000x128, .f32⟩
  | 76 => ⟨S20000x256, .f32⟩
  | 77 => ⟨S100000x256, .f32⟩
  | 78 => ⟨S_, .i32⟩
  | 79 => ⟨S100000, .i32⟩
  | 80 => ⟨S100000, .i1⟩
  | 81 => ⟨S_, .i32⟩
  | 82 => ⟨S100000, .i32⟩
  | 83 => ⟨S100000, .i32⟩
  | 84 => ⟨S100000, .i32⟩
  | 85 => ⟨S100000x1, .i32⟩
  | 86 => ⟨S1, .i32⟩
  | 87 => ⟨S_, .i32⟩
  | 88 => ⟨S100000x1, .i32⟩
  | 89 => ⟨S100000x1, .i1⟩
  | 90 => ⟨S1x1, .i32⟩
  | 91 => ⟨S100000x1, .i32⟩
  | 92 => ⟨S100000x1, .i1⟩
  | 93 => ⟨S100000x1, .i1⟩
  | 94 => ⟨S_, .i1⟩
  | 95 => ⟨S100000, .i1⟩
  | 96 => ⟨S100000x256, .f32⟩
  | 97 => ⟨S100000x256, .i1⟩
  | 98 => ⟨S_, .f32⟩
  | 99 => ⟨S100000x256, .f32⟩
  | 100 => ⟨S100000x256, .f32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S100000x1, .i32⟩
  | 109 => ⟨S1, .i32⟩
  | 110 => ⟨S_, .i32⟩
  | 111 => ⟨S100000x1, .i32⟩
  | 112 => ⟨S100000x1, .i1⟩
  | 113 => ⟨S1x1, .i32⟩
  | 114 => ⟨S100000x1, .i32⟩
  | 115 => ⟨S100000x1, .i1⟩
  | 116 => ⟨S100000x1, .i1⟩
  | 117 => ⟨S_, .i1⟩
  | 118 => ⟨S100000, .i1⟩
  | 119 => ⟨S100000x256, .f32⟩
  | 120 => ⟨S100000x256, .i1⟩
  | 121 => ⟨S_, .f32⟩
  | 122 => ⟨S100000x256, .f32⟩
  | 123 => ⟨S100000x256, .f32⟩
  | 124 => ⟨S1x64, .f32⟩
  | 125 => ⟨S1x128, .f32⟩
  | 126 => ⟨S1x128, .f32⟩
  | 127 => ⟨S100000x128, .f32⟩
  | _ => ⟨S20000x128, .f32⟩

abbrev hbmTy0_2 (i : Nat) : BufTy := match i % 128 with
  | 0 => ⟨S100000x128, .f32⟩
  | 1 => ⟨S_, .f32⟩
  | 2 => ⟨S20000x128, .f32⟩
  | 3 => ⟨S100000x1, .i32⟩
  | 4 => ⟨S20000x128, .f32⟩
  | 5 => ⟨S1x64, .f32⟩
  | 6 => ⟨S1x32, .f32⟩
  | 7 => ⟨S1x1, .f32⟩
  | 8 => ⟨S100000x1, .f32⟩
  | _ => ⟨S20000x128, .f32⟩

abbrev hbmTy (i : Nat) : BufTy := match i / 128 with
  | 0 => hbmTy0_0 i
  | 1 => hbmTy0_1 i
  | 2 => hbmTy0_2 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x291, .f32⟩
  | .local _ .vmem, ⟨9, _⟩ => ⟨S2000x291, .f32⟩
  | .local _ .vmem, ⟨10, _⟩ => ⟨S291x64, .f32⟩
  | .local _ .vmem, ⟨11, _⟩ => ⟨S1x64, .f32⟩
  | .local _ .vmem, ⟨12, _⟩ => ⟨S64x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S1000x256, .f32⟩
  | .local _ .vmem, ⟨21, _⟩ => ⟨S1000x256, .f32⟩
  | .local _ .vmem, ⟨22, _⟩ => ⟨S768x64, .f32⟩
  | .local _ .vmem, ⟨23, _⟩ => ⟨S1x64, .f32⟩
  | .local _ .vmem, ⟨24, _⟩ => ⟨S64x128, .f32⟩
  | .local _ .vmem, ⟨25, _⟩ => ⟨S1x128, .f32⟩
  | .local _ .vmem, ⟨26, _⟩ => ⟨S384x128, .f32⟩
  | .local _ .vmem, ⟨27, _⟩ => ⟨S1x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S1000x256, .f32⟩
  | .local _ .vmem, ⟨33, _⟩ => ⟨S1000x256, .f32⟩
  | .local _ .vmem, ⟨34, _⟩ => ⟨S1000x256, .f32⟩
  | .local _ .vmem, ⟨35, _⟩ => ⟨S1000x256, .f32⟩
  | .local _ .vmem, ⟨36, _⟩ => ⟨S1000x256, .f32⟩
  | .local _ .vmem, ⟨37, _⟩ => ⟨S1000x256, .f32⟩
  | .local _ .vmem, ⟨38, _⟩ => ⟨S768x64, .f32⟩
  | .local _ .vmem, ⟨39, _⟩ => ⟨S1x64, .f32⟩
  | .local _ .vmem, ⟨40, _⟩ => ⟨S64x128, .f32⟩
  | .local _ .vmem, ⟨41, _⟩ => ⟨S1x128, .f32⟩
  | .local _ .vmem, ⟨42, _⟩ => ⟨S384x128, .f32⟩
  | .local _ .vmem, ⟨43, _⟩ => ⟨S1x128, .f32⟩
  | .local _ .vmem, ⟨44, _⟩ => ⟨S1000x128, .f32⟩
  | .local _ .vmem, ⟨45, _⟩ => ⟨S1000x128, .f32⟩
  | .local _ .vmem, ⟨46, _⟩ => ⟨S1000x128, .f32⟩
  | .local _ .vmem, ⟨47, _⟩ => ⟨S1000x128, .f32⟩
  | .local _ .vmem, ⟨48, _⟩ => ⟨S1000x256, .f32⟩
  | .local _ .vmem, ⟨49, _⟩ => ⟨S1000x256, .f32⟩
  | .local _ .vmem, ⟨50, _⟩ => ⟨S1000x256, .f32⟩
  | .local _ .vmem, ⟨51, _⟩ => ⟨S1000x256, .f32⟩
  | .local _ .vmem, ⟨52, _⟩ => ⟨S1000x256, .f32⟩
  | .local _ .vmem, ⟨53, _⟩ => ⟨S1000x256, .f32⟩
  | .local _ .vmem, ⟨54, _⟩ => ⟨S768x64, .f32⟩
  | .local _ .vmem, ⟨55, _⟩ => ⟨S1x64, .f32⟩
  | .local _ .vmem, ⟨56, _⟩ => ⟨S64x128, .f32⟩
  | .local _ .vmem, ⟨57, _⟩ => ⟨S1x128, .f32⟩
  | .local _ .vmem, ⟨58, _⟩ => ⟨S384x128, .f32⟩
  | .local _ .vmem, ⟨59, _⟩ => ⟨S1x128, .f32⟩
  | .local _ .vmem, ⟨60, _⟩ => ⟨S1000x128, .f32⟩
  | .local _ .vmem, ⟨61, _⟩ => ⟨S1000x128, .f32⟩
  | .local _ .vmem, ⟨62, _⟩ => ⟨S1000x128, .f32⟩
  | .local _ .vmem, ⟨63, _⟩ => ⟨S1000x128, .f32⟩
  | .local _ .vmem, ⟨64, _⟩ => ⟨S1000x256, .f32⟩
  | .local _ .vmem, ⟨65, _⟩ => ⟨S1000x256, .f32⟩
  | .local _ .vmem, ⟨66, _⟩ => ⟨S1000x256, .f32⟩
  | .local _ .vmem, ⟨67, _⟩ => ⟨S1000x256, .f32⟩
  | .local _ .vmem, ⟨68, _⟩ => ⟨S1000x256, .f32⟩
  | .local _ .vmem, ⟨69, _⟩ => ⟨S1000x256, .f32⟩
  | .local _ .vmem, ⟨70, _⟩ => ⟨S768x64, .f32⟩
  | .local _ .vmem, ⟨71, _⟩ => ⟨S1x64, .f32⟩
  | .local _ .vmem, ⟨72, _⟩ => ⟨S64x128, .f32⟩
  | .local _ .vmem, ⟨73, _⟩ => ⟨S1x128, .f32⟩
  | .local _ .vmem, ⟨74, _⟩ => ⟨S384x128, .f32⟩
  | .local _ .vmem, ⟨75, _⟩ => ⟨S1x128, .f32⟩
  | .local _ .vmem, ⟨76, _⟩ => ⟨S1000x128, .f32⟩
  | .local _ .vmem, ⟨77, _⟩ => ⟨S1000x128, .f32⟩
  | .local _ .vmem, ⟨78, _⟩ => ⟨S1000x128, .f32⟩
  | .local _ .vmem, ⟨79, _⟩ => ⟨S1000x128, .f32⟩
  | .local _ .vmem, ⟨80, _⟩ => ⟨S5000x128, .f32⟩
  | .local _ .vmem, ⟨81, _⟩ => ⟨S5000x128, .f32⟩
  | .local _ .vmem, ⟨82, _⟩ => ⟨S128x64, .f32⟩
  | .local _ .vmem, ⟨83, _⟩ => ⟨S1x64, .f32⟩
  | .local _ .vmem, ⟨84, _⟩ => ⟨S64x32, .f32⟩
  | .local _ .vmem, ⟨85, _⟩ => ⟨S1x32, .f32⟩
  | .local _ .vmem, ⟨86, _⟩ => ⟨S32x1, .f32⟩
  | .local _ .vmem, ⟨87, _⟩ => ⟨S1x1, .f32⟩
  | .local _ .vmem, ⟨88, _⟩ => ⟨S5000x1, .f32⟩
  | .local _ .vmem, ⟨89, _⟩ => ⟨S5000x1, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v12 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17_0 : Ref sig .tc := ⟨.hbm, 84, rfl⟩
abbrev main_v17_1 : Ref sig .tc := ⟨.hbm, 85, rfl⟩
abbrev main_cst : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v23 : Ref sig .tc := ⟨.hbm, 114, rfl⟩
abbrev main_call3_c : Ref sig .tc := ⟨.hbm, 115, rfl⟩
abbrev main_call3_v0 : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_c_1 : Ref sig .tc := ⟨.hbm, 123, rfl⟩
abbrev main_call3_c_2 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_c_3 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_call3_cst : Ref sig .tc := ⟨.hbm, 135, rfl⟩
abbrev main_call3_v15 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28_0 : Ref sig .tc := ⟨.hbm, 141, rfl⟩
abbrev main_v28_1 : Ref sig .tc := ⟨.hbm, 142, rfl⟩
abbrev main_cst_0 : Ref sig .tc := ⟨.hbm, 143, rfl⟩
abbrev main_v29 : Ref sig .tc := ⟨.hbm, 144, rfl⟩
abbrev main_v30 : Ref sig .tc := ⟨.hbm, 145, rfl⟩
abbrev main_v31 : Ref sig .tc := ⟨.hbm, 146, rfl⟩
abbrev main_v32 : Ref sig .tc := ⟨.hbm, 147, rfl⟩
abbrev main_v33 : Ref sig .tc := ⟨.hbm, 148, rfl⟩
abbrev main_call4_c : Ref sig .tc := ⟨.hbm, 149, rfl⟩
abbrev main_call4_v0 : Ref sig .tc := ⟨.hbm, 150, rfl⟩
abbrev main_call4_v1 : Ref sig .tc := ⟨.hbm, 151, rfl⟩
abbrev main_call4_c_0 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_c_1 : Ref sig .tc := ⟨.hbm, 157, rfl⟩
abbrev main_call4_c_2 : Ref sig .tc := ⟨.hbm, 158, rfl⟩
abbrev main_call4_v6 : Ref sig .tc := ⟨.hbm, 159, rfl⟩
abbrev main_call4_v7 : Ref sig .tc := ⟨.hbm, 160, rfl⟩
abbrev main_call4_v8 : Ref sig .tc := ⟨.hbm, 161, rfl⟩
abbrev main_call4_v9 : Ref sig .tc := ⟨.hbm, 162, rfl⟩
abbrev main_call4_v10 : Ref sig .tc := ⟨.hbm, 163, rfl⟩
abbrev main_call4_v11 : Ref sig .tc := ⟨.hbm, 164, rfl⟩
abbrev main_call4_c_3 : Ref sig .tc := ⟨.hbm, 165, rfl⟩
abbrev main_call4_v12 : Ref sig .tc := ⟨.hbm, 166, rfl⟩
abbrev main_call4_v13 : Ref sig .tc := ⟨.hbm, 167, rfl⟩
abbrev main_call4_v14 : Ref sig .tc := ⟨.hbm, 168, rfl⟩
abbrev main_call4_cst : Ref sig .tc := ⟨.hbm, 169, rfl⟩
abbrev main_call4_v15 : Ref sig .tc := ⟨.hbm, 170, rfl⟩
abbrev main_v34 : Ref sig .tc := ⟨.hbm, 171, rfl⟩
abbrev main_call5_c : Ref sig .tc := ⟨.hbm, 172, rfl⟩
abbrev main_call5_v0 : Ref sig .tc := ⟨.hbm, 173, rfl⟩
abbrev main_call5_v1 : Ref sig .tc := ⟨.hbm, 174, rfl⟩
abbrev main_call5_c_0 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_call5_v5 : Ref sig .tc := ⟨.hbm, 179, rfl⟩
abbrev main_call5_c_1 : Ref sig .tc := ⟨.hbm, 180, rfl⟩
abbrev main_call5_c_2 : Ref sig .tc := ⟨.hbm, 181, rfl⟩
abbrev main_call5_v6 : Ref sig .tc := ⟨.hbm, 182, rfl⟩
abbrev main_call5_v7 : Ref sig .tc := ⟨.hbm, 183, rfl⟩
abbrev main_call5_v8 : Ref sig .tc := ⟨.hbm, 184, rfl⟩
abbrev main_call5_v9 : Ref sig .tc := ⟨.hbm, 185, rfl⟩
abbrev main_call5_v10 : Ref sig .tc := ⟨.hbm, 186, rfl⟩
abbrev main_call5_v11 : Ref sig .tc := ⟨.hbm, 187, rfl⟩
abbrev main_call5_c_3 : Ref sig .tc := ⟨.hbm, 188, rfl⟩
abbrev main_call5_v12 : Ref sig .tc := ⟨.hbm, 189, rfl⟩
abbrev main_call5_v13 : Ref sig .tc := ⟨.hbm, 190, rfl⟩
abbrev main_call5_v14 : Ref sig .tc := ⟨.hbm, 191, rfl⟩
abbrev main_call5_cst : Ref sig .tc := ⟨.hbm, 192, rfl⟩
abbrev main_call5_v15 : Ref sig .tc := ⟨.hbm, 193, rfl⟩
abbrev main_v35 : Ref sig .tc := ⟨.hbm, 194, rfl⟩
abbrev main_v36 : Ref sig .tc := ⟨.hbm, 195, rfl⟩
abbrev main_v37 : Ref sig .tc := ⟨.hbm, 196, rfl⟩
abbrev main_v38 : Ref sig .tc := ⟨.hbm, 197, rfl⟩
abbrev main_v39_0 : Ref sig .tc := ⟨.hbm, 198, rfl⟩
abbrev main_v39_1 : Ref sig .tc := ⟨.hbm, 199, rfl⟩
abbrev main_cst_1 : Ref sig .tc := ⟨.hbm, 200, rfl⟩
abbrev main_v40 : Ref sig .tc := ⟨.hbm, 201, rfl⟩
abbrev main_v41 : Ref sig .tc := ⟨.hbm, 202, rfl⟩
abbrev main_v42 : Ref sig .tc := ⟨.hbm, 203, rfl⟩
abbrev main_v43 : Ref sig .tc := ⟨.hbm, 204, rfl⟩
abbrev main_v44 : Ref sig .tc := ⟨.hbm, 205, rfl⟩
abbrev main_call6_c : Ref sig .tc := ⟨.hbm, 206, rfl⟩
abbrev main_call6_v0 : Ref sig .tc := ⟨.hbm, 207, rfl⟩
abbrev main_call6_v1 : Ref sig .tc := ⟨.hbm, 208, rfl⟩
abbrev main_call6_c_0 : Ref sig .tc := ⟨.hbm, 209, rfl⟩
abbrev main_call6_v2 : Ref sig .tc := ⟨.hbm, 210, rfl⟩
abbrev main_call6_v3 : Ref sig .tc := ⟨.hbm, 211, rfl⟩
abbrev main_call6_v4 : Ref sig .tc := ⟨.hbm, 212, rfl⟩
abbrev main_call6_v5 : Ref sig .tc := ⟨.hbm, 213, rfl⟩
abbrev main_call6_c_1 : Ref sig .tc := ⟨.hbm, 214, rfl⟩
abbrev main_call6_c_2 : Ref sig .tc := ⟨.hbm, 215, rfl⟩
abbrev main_call6_v6 : Ref sig .tc := ⟨.hbm, 216, rfl⟩
abbrev main_call6_v7 : Ref sig .tc := ⟨.hbm, 217, rfl⟩
abbrev main_call6_v8 : Ref sig .tc := ⟨.hbm, 218, rfl⟩
abbrev main_call6_v9 : Ref sig .tc := ⟨.hbm, 219, rfl⟩
abbrev main_call6_v10 : Ref sig .tc := ⟨.hbm, 220, rfl⟩
abbrev main_call6_v11 : Ref sig .tc := ⟨.hbm, 221, rfl⟩
abbrev main_call6_c_3 : Ref sig .tc := ⟨.hbm, 222, rfl⟩
abbrev main_call6_v12 : Ref sig .tc := ⟨.hbm, 223, rfl⟩
abbrev main_call6_v13 : Ref sig .tc := ⟨.hbm, 224, rfl⟩
abbrev main_call6_v14 : Ref sig .tc := ⟨.hbm, 225, rfl⟩
abbrev main_call6_cst : Ref sig .tc := ⟨.hbm, 226, rfl⟩
abbrev main_call6_v15 : Ref sig .tc := ⟨.hbm, 227, rfl⟩
abbrev main_v45 : Ref sig .tc := ⟨.hbm, 228, rfl⟩
abbrev main_call7_c : Ref sig .tc := ⟨.hbm, 229, rfl⟩
abbrev main_call7_v0 : Ref sig .tc := ⟨.hbm, 230, rfl⟩
abbrev main_call7_v1 : Ref sig .tc := ⟨.hbm, 231, rfl⟩
abbrev main_call7_c_0 : Ref sig .tc := ⟨.hbm, 232, rfl⟩
abbrev main_call7_v2 : Ref sig .tc := ⟨.hbm, 233, rfl⟩
abbrev main_call7_v3 : Ref sig .tc := ⟨.hbm, 234, rfl⟩
abbrev main_call7_v4 : Ref sig .tc := ⟨.hbm, 235, rfl⟩
abbrev main_call7_v5 : Ref sig .tc := ⟨.hbm, 236, rfl⟩
abbrev main_call7_c_1 : Ref sig .tc := ⟨.hbm, 237, rfl⟩
abbrev main_call7_c_2 : Ref sig .tc := ⟨.hbm, 238, rfl⟩
abbrev main_call7_v6 : Ref sig .tc := ⟨.hbm, 239, rfl⟩
abbrev main_call7_v7 : Ref sig .tc := ⟨.hbm, 240, rfl⟩
abbrev main_call7_v8 : Ref sig .tc := ⟨.hbm, 241, rfl⟩
abbrev main_call7_v9 : Ref sig .tc := ⟨.hbm, 242, rfl⟩
abbrev main_call7_v10 : Ref sig .tc := ⟨.hbm, 243, rfl⟩
abbrev main_call7_v11 : Ref sig .tc := ⟨.hbm, 244, rfl⟩
abbrev main_call7_c_3 : Ref sig .tc := ⟨.hbm, 245, rfl⟩
abbrev main_call7_v12 : Ref sig .tc := ⟨.hbm, 246, rfl⟩
abbrev main_call7_v13 : Ref sig .tc := ⟨.hbm, 247, rfl⟩
abbrev main_call7_v14 : Ref sig .tc := ⟨.hbm, 248, rfl⟩
abbrev main_call7_cst : Ref sig .tc := ⟨.hbm, 249, rfl⟩
abbrev main_call7_v15 : Ref sig .tc := ⟨.hbm, 250, rfl⟩
abbrev main_v46 : Ref sig .tc := ⟨.hbm, 251, rfl⟩
abbrev main_v47 : Ref sig .tc := ⟨.hbm, 252, rfl⟩
abbrev main_v48 : Ref sig .tc := ⟨.hbm, 253, rfl⟩
abbrev main_v49 : Ref sig .tc := ⟨.hbm, 254, rfl⟩
abbrev main_v50_0 : Ref sig .tc := ⟨.hbm, 255, rfl⟩
abbrev main_v50_1 : Ref sig .tc := ⟨.hbm, 256, rfl⟩
abbrev main_cst_2 : Ref sig .tc := ⟨.hbm, 257, rfl⟩
abbrev main_v51 : Ref sig .tc := ⟨.hbm, 258, rfl⟩
abbrev main_v52 : Ref sig .tc := ⟨.hbm, 259, rfl⟩
abbrev main_v53 : Ref sig .tc := ⟨.hbm, 260, rfl⟩
abbrev main_v54 : Ref sig .tc := ⟨.hbm, 261, rfl⟩
abbrev main_v55 : Ref sig .tc := ⟨.hbm, 262, rfl⟩
abbrev main_v56 : Ref sig .tc := ⟨.hbm, 263, rfl⟩
abbrev main_v57 : Ref sig .tc := ⟨.hbm, 264, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc2_stg10_0 : Ref sig .tc := ⟨.vmem, 30, rfl⟩
abbrev cc2_stg10_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg8_0 : Ref sig .tc := ⟨.vmem, 43, rfl⟩
abbrev cc3_stg9_0 : Ref sig .tc := ⟨.vmem, 44, rfl⟩
abbrev cc3_stg9_1 : Ref sig .tc := ⟨.vmem, 45, rfl⟩
abbrev cc3_stg10_0 : Ref sig .tc := ⟨.vmem, 46, rfl⟩
abbrev cc3_stg10_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg7_0 : Ref sig .tc := ⟨.vmem, 58, rfl⟩
abbrev cc4_stg8_0 : Ref sig .tc := ⟨.vmem, 59, rfl⟩
abbrev cc4_stg9_0 : Ref sig .tc := ⟨.vmem, 60, rfl⟩
abbrev cc4_stg9_1 : Ref sig .tc := ⟨.vmem, 61, rfl⟩
abbrev cc4_stg10_0 : Ref sig .tc := ⟨.vmem, 62, rfl⟩
abbrev cc4_stg10_1 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg1_1 : Ref sig .tc := ⟨.vmem, 67, rfl⟩
abbrev cc5_stg2_0 : Ref sig .tc := ⟨.vmem, 68, rfl⟩
abbrev cc5_stg2_1 : Ref sig .tc := ⟨.vmem, 69, rfl⟩
abbrev cc5_stg3_0 : Ref sig .tc := ⟨.vmem, 70, rfl⟩
abbrev cc5_stg4_0 : Ref sig .tc := ⟨.vmem, 71, rfl⟩
abbrev cc5_stg5_0 : Ref sig .tc := ⟨.vmem, 72, rfl⟩
abbrev cc5_stg6_0 : Ref sig .tc := ⟨.vmem, 73, rfl⟩
abbrev cc5_stg7_0 : Ref sig .tc := ⟨.vmem, 74, rfl⟩
abbrev cc5_stg8_0 : Ref sig .tc := ⟨.vmem, 75, rfl⟩
abbrev cc5_stg9_0 : Ref sig .tc := ⟨.vmem, 76, rfl⟩
abbrev cc5_stg9_1 : Ref sig .tc := ⟨.vmem, 77, rfl⟩
abbrev cc5_stg10_0 : Ref sig .tc := ⟨.vmem, 78, rfl⟩
abbrev cc5_stg10_1 : Ref sig .tc := ⟨.vmem, 79, rfl⟩
abbrev cc6_stg0_0 : Ref sig .tc := ⟨.vmem, 80, rfl⟩
abbrev cc6_stg0_1 : Ref sig .tc := ⟨.vmem, 81, rfl⟩
abbrev cc6_stg1_0 : Ref sig .tc := ⟨.vmem, 82, rfl⟩
abbrev cc6_stg2_0 : Ref sig .tc := ⟨.vmem, 83, rfl⟩
abbrev cc6_stg3_0 : Ref sig .tc := ⟨.vmem, 84, rfl⟩
abbrev cc6_stg4_0 : Ref sig .tc := ⟨.vmem, 85, rfl⟩
abbrev cc6_stg5_0 : Ref sig .tc := ⟨.vmem, 86, rfl⟩
abbrev cc6_stg6_0 : Ref sig .tc := ⟨.vmem, 87, rfl⟩
abbrev cc6_stg7_0 : Ref sig .tc := ⟨.vmem, 88, rfl⟩
abbrev cc6_stg7_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29
abbrev cc2_sem10_0 : DmaSem sig := 30
abbrev cc2_sem10_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem8_0 : DmaSem sig := 43
abbrev cc3_sem9_0 : DmaSem sig := 44
abbrev cc3_sem9_1 : DmaSem sig := 45
abbrev cc3_sem10_0 : DmaSem sig := 46
abbrev cc3_sem10_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem4_0 : DmaSem sig := 55
abbrev cc4_sem5_0 : DmaSem sig := 56
abbrev cc4_sem6_0 : DmaSem sig := 57
abbrev cc4_sem7_0 : DmaSem sig := 58
abbrev cc4_sem8_0 : DmaSem sig := 59
abbrev cc4_sem9_0 : DmaSem sig := 60
abbrev cc4_sem9_1 : DmaSem sig := 61
abbrev cc4_sem10_0 : DmaSem sig := 62
abbrev cc4_sem10_1 : DmaSem sig := 63
abbrev cc5_sem0_0 : DmaSem sig := 64
abbrev cc5_sem0_1 : DmaSem sig := 65
abbrev cc5_sem1_0 : DmaSem sig := 66
abbrev cc5_sem1_1 : DmaSem sig := 67
abbrev cc5_sem2_0 : DmaSem sig := 68
abbrev cc5_sem2_1 : DmaSem sig := 69
abbrev cc5_sem3_0 : DmaSem sig := 70
abbrev cc5_sem4_0 : DmaSem sig := 71
abbrev cc5_sem5_0 : DmaSem sig := 72
abbrev cc5_sem6_0 : DmaSem sig := 73
abbrev cc5_sem7_0 : DmaSem sig := 74
abbrev cc5_sem8_0 : DmaSem sig := 75
abbrev cc5_sem9_0 : DmaSem sig := 76
abbrev cc5_sem9_1 : DmaSem sig := 77
abbrev cc5_sem10_0 : DmaSem sig := 78
abbrev cc5_sem10_1 : DmaSem sig := 79
abbrev cc6_sem0_0 : DmaSem sig := 80
abbrev cc6_sem0_1 : DmaSem sig := 81
abbrev cc6_sem1_0 : DmaSem sig := 82
abbrev cc6_sem2_0 : DmaSem sig := 83
abbrev cc6_sem3_0 : DmaSem sig := 84
abbrev cc6_sem4_0 : DmaSem sig := 85
abbrev cc6_sem5_0 : DmaSem sig := 86
abbrev cc6_sem6_0 : DmaSem sig := 87
abbrev cc6_sem7_0 : DmaSem sig := 88
abbrev cc6_sem7_1 : DmaSem sig := 89

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x291 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S291x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S768x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S384x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S768x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S384x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S1000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S768x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S384x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S1000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S1000x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S768x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S384x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S1000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 2 → Memref sig .tc .vmem S1000x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S32x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S2000x291_S2000x291_0_0 : ∀ a, (![0, 0] : Fin 2 → Nat) a + S2000x291.size a ≤ S2000x291.size a
  h_S2000x291 : 0 < S2000x291.numel
  inb_S291x64_S291x64_0_0 : ∀ a, (![0, 0] : Fin 2 → Nat) a + S291x64.size a ≤ S291x64.size a
  h_S291x64 : 0 < S291x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  concatenates_S20000x128_S20000x128_S20000x256_d1 : Shape.Concatenates [S20000x128, S20000x128] S20000x256 1
  concatenates_S100000x128_S100000x128_S100000x256_d1 : Shape.Concatenates [S100000x128, S100000x128] S100000x256 1
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x256_0 : S100000.BroadcastsInDim S100000x256 (![0] : Fin 1 → Fin S100000x256.rank)
  bcast_S_S100000x256 : S_.BroadcastsInDim S100000x256 (![] : Fin 0 → Fin S100000x256.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  concatenates_S1000x256_S1000x256_S1000x256_S1000x768_d1 : Shape.Concatenates [S1000x256, S1000x256, S1000x256] S1000x768 1
  inb_S768x64_S768x64_0_0 : ∀ a, (![0, 0] : Fin 2 → Nat) a + S768x64.size a ≤ S768x64.size a
  h_S768x64 : 0 < S768x64.numel
  broadcasts_S1x64_S1000x64 : S1x64.Broadcasts S1000x64
  broadcasts_S1x128_S1000x128 : S1x128.Broadcasts S1000x128
  concatenates_S1000x256_S1000x128_S1000x384_d1 : Shape.Concatenates [S1000x256, S1000x128] S1000x384 1
  inb_S384x128_S384x128_0_0 : ∀ a, (![0, 0] : Fin 2 → Nat) a + S384x128.size a ≤ S384x128.size a
  h_S384x128 : 0 < S384x128.numel
  inb_S1000x128_S1000x128_0_0 : ∀ a, (![0, 0] : Fin 2 → Nat) a + S1000x128.size a ≤ S1000x128.size a
  h_S1000x128 : 0 < S1000x128.numel
  bcast_S_S20000x128 : S_.BroadcastsInDim S20000x128 (![] : Fin 0 → Fin S20000x128.rank)
  shapeCasts_S32_S1x32 : S32.ShapeCasts S1x32
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S2000x128_S128x128_S2000x128_1_0_0_1_n_n_wf : DotDims.WF S2000x128 S128x128 S2000x128 [1] [0] [0] [1] [] []
  dot_S2000x291_S291x64_S2000x64_1_0_0_1_n_n_wf : DotDims.WF S2000x291 S291x64 S2000x64 [1] [0] [0] [1] [] []
  dot_S2000x64_S64x128_S2000x128_1_0_0_1_n_n_wf : DotDims.WF S2000x64 S64x128 S2000x128 [1] [0] [0] [1] [] []
  gather_S20000x256_S100000x1_S100000x256_1_0_n_n_0_1_1256_wf : GatherDims.WF S20000x256 S100000x1 S100000x256 [1] [0] [] [0] [] 1 ![1, 256]
  dot_S1000x768_S768x64_S1000x64_1_0_0_1_n_n_wf : DotDims.WF S1000x768 S768x64 S1000x64 [1] [0] [0] [1] [] []
  dot_S1000x64_S64x128_S1000x128_1_0_0_1_n_n_wf : DotDims.WF S1000x64 S64x128 S1000x128 [1] [0] [0] [1] [] []
  dot_S1000x384_S384x128_S1000x128_1_0_0_1_n_n_wf : DotDims.WF S1000x384 S384x128 S1000x128 [1] [0] [0] [1] [] []
  scatter_S20000x128_S100000x1_S100000x128_1_0_0_1_wf : ScatterDims.WF S20000x128 S100000x1 S100000x128 [1] [0] [0] 1
  dot_S5000x128_S128x64_S5000x64_1_0_0_1_n_n_wf : DotDims.WF S5000x128 S128x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S20000x128.size a
  hwx0_5 : ∀ i : grid0.Coords, EltTy.bits .f32 = 32 ∨ (Rect.block (s := S20000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x291.size a ≤ S100000x291.size a
  hwx1_0 : ∀ i : grid1.Coords, EltTy.bits .f32 = 32 ∨ (Rect.block (s := S100000x291) S2000x291.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S291x64.size a ≤ S291x64.size a
  hwx1_1 : ∀ i : grid1.Coords, EltTy.bits .f32 = 32 ∨ (Rect.block (s := S291x64) S291x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S100000x256.size a
  hwx2_0 : ∀ i : grid2.Coords, EltTy.bits .f32 = 32 ∨ (Rect.block (s := S100000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S100000x256.size a
  hwx2_1 : ∀ i : grid2.Coords, EltTy.bits .f32 = 32 ∨ (Rect.block (s := S100000x256) S1000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S100000x256.size a
  hwx2_2 : ∀ i : grid2.Coords, EltTy.bits .f32 = 32 ∨ (Rect.block (s := S100000x256) S1000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S768x64.size a ≤ S768x64.size a
  hwx2_3 : ∀ i : grid2.Coords, EltTy.bits .f32 = 32 ∨ (Rect.block (s := S768x64) S768x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .f32 = 32 ∨ (Rect.block (s := S64x128) S64x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S384x128.size a ≤ S384x128.size a
  hwx2_7 : ∀ i : grid2.Coords, EltTy.bits .f32 = 32 ∨ (Rect.block (s := S384x128) S384x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x128.size a ≤ S100000x128.size a
  hwx2_9 : ∀ i : grid2.Coords, EltTy.bits .f32 = 32 ∨ (Rect.block (s := S100000x128) S1000x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1000x128.size a ≤ S100000x128.size a
  hwx2_10 : ∀ i : grid2.Coords, EltTy.bits .f32 = 32 ∨ (Rect.block (s := S100000x128) S1000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S100000x256.size a
  hwx3_0 : ∀ i : grid3.Coords, EltTy.bits .f32 = 32 ∨ (Rect.block (s := S100000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x256.size a ≤ S100000x256.size a
  hwx3_1 : ∀ i : grid3.Coords, EltTy.bits .f32 = 32 ∨ (Rect.block (s := S100000x256) S1000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x256.size a ≤ S100000x256.size a
  hwx3_2 : ∀ i : grid3.Coords, EltTy.bits .f32 = 32 ∨ (Rect.block (s := S100000x256) S1000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S768x64.size a ≤ S768x64.size a
  hwx3_3 : ∀ i : grid3.Coords, EltTy.bits .f32 = 32 ∨ (Rect.block (s := S768x64) S768x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x128.size a ≤ S64x128.size a
  hwx3_5 : ∀ i : grid3.Coords, EltTy.bits .f32 = 32 ∨ (Rect.block (s := S64x128) S64x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S384x128.size a ≤ S384x128.size a
  hwx3_7 : ∀ i : grid3.Coords, EltTy.bits .f32 = 32 ∨ (Rect.block (s := S384x128) S384x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1000x128.size a ≤ S100000x128.size a
  hwx3_9 : ∀ i : grid3.Coords, EltTy.bits .f32 = 32 ∨ (Rect.block (s := S100000x128) S1000x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1000x128.size a ≤ S100000x128.size a
  hwx3_10 : ∀ i : grid3.Coords, EltTy.bits .f32 = 32 ∨ (Rect.block (s := S100000x128) S1000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S100000x256.size a
  hwx4_0 : ∀ i : grid4.Coords, EltTy.bits .f32 = 32 ∨ (Rect.block (s := S100000x256) S1000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x256.size a ≤ S100000x256.size a
  hwx4_1 : ∀ i : grid4.Coords, EltTy.bits .f32 = 32 ∨ (Rect.block (s := S100000x256) S1000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x256.size a ≤ S100000x256.size a
  hwx4_2 : ∀ i : grid4.Coords, EltTy.bits .f32 = 32 ∨ (Rect.block (s := S100000x256) S1000x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S768x64.size a ≤ S768x64.size a
  hwx4_3 : ∀ i : grid4.Coords, EltTy.bits .f32 = 32 ∨ (Rect.block (s := S768x64) S768x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x128.size a ≤ S64x128.size a
  hwx4_5 : ∀ i : grid4.Coords, EltTy.bits .f32 = 32 ∨ (Rect.block (s := S64x128) S64x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S384x128.size a ≤ S384x128.size a
  hwx4_7 : ∀ i : grid4.Coords, EltTy.bits .f32 = 32 ∨ (Rect.block (s := S384x128) S384x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1000x128.size a ≤ S100000x128.size a
  hwx4_9 : ∀ i : grid4.Coords, EltTy.bits .f32 = 32 ∨ (Rect.block (s := S100000x128) S1000x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S1000x128.size a ≤ S100000x128.size a
  hwx4_10 : ∀ i : grid4.Coords, EltTy.bits .f32 = 32 ∨ (Rect.block (s := S100000x128) S1000x128.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S100000x256.size a
  hwx5_0 : ∀ i : grid5.Coords, EltTy.bits .f32 = 32 ∨ (Rect.block (s := S100000x256) S1000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x256.size a ≤ S100000x256.size a
  hwx5_1 : ∀ i : grid5.Coords, EltTy.bits .f32 = 32 ∨ (Rect.block (s := S100000x256) S1000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x256.size a ≤ S100000x256.size a
  hwx5_2 : ∀ i : grid5.Coords, EltTy.bits .f32 = 32 ∨ (Rect.block (s := S100000x256) S1000x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S768x64.size a ≤ S768x64.size a
  hwx5_3 : ∀ i : grid5.Coords, EltTy.bits .f32 = 32 ∨ (Rect.block (s := S768x64) S768x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x128.size a ≤ S64x128.size a
  hwx5_5 : ∀ i : grid5.Coords, EltTy.bits .f32 = 32 ∨ (Rect.block (s := S64x128) S64x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S384x128.size a ≤ S384x128.size a
  hwx5_7 : ∀ i : grid5.Coords, EltTy.bits .f32 = 32 ∨ (Rect.block (s := S384x128) S384x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S1000x128.size a ≤ S100000x128.size a
  hwx5_9 : ∀ i : grid5.Coords, EltTy.bits .f32 = 32 ∨ (Rect.block (s := S100000x128) S1000x128.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S1000x128.size a ≤ S100000x128.size a
  hwx5_10 : ∀ i : grid5.Coords, EltTy.bits .f32 = 32 ∨ (Rect.block (s := S100000x128) S1000x128.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x32.size a ≤ S64x32.size a
  hwx6_3 : ∀ i : grid6.Coords, EltTy.bits .f32 = 32 ∨ (Rect.block (s := S64x32) S64x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S32x1.size a ≤ S32x1.size a
  hwx6_5 : ∀ i : grid6.Coords, EltTy.bits .f32 = 32 ∨ (Rect.block (s := S32x1) S32x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x1.size a ≤ S100000x1.size a
  hwx6_7 : ∀ i : grid6.Coords, EltTy.bits .f32 = 32 ∨ (Rect.block (s := S100000x1) S5000x1.size (cc6_transform_7 i) (hinb6_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x291_S291x64_S2000x64_1_0_0_1_n_n : DotDims S2000x291 S291x64 S2000x64 where
  lhsContracting := [1]
  rhsContracting := [0]
  lhsNonContracting := [0]
  rhsNonContracting := [1]
  lhsBatch := []
  rhsBatch := []
  wf := dot_S2000x291_S291x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S20000x256_S100000x1_S100000x256_1_0_n_n_0_1_1256 : GatherDims S20000x256 S100000x1 S100000x256 where
  offsetDims := [1]
  collapsedSliceDims := [0]
  operandBatchingDims := []
  startIndicesBatchingDims := []
  startIndexMap := [0]
  indexVectorDim := 1
  sliceSizes := ![1, 256]
  wf := gather_S20000x256_S100000x1_S100000x256_1_0_n_n_0_1_1256_wf
def dot_S1000x768_S768x64_S1000x64_1_0_0_1_n_n : DotDims S1000x768 S768x64 S1000x64 where
  lhsContracting := [1]
  rhsContracting := [0]
  lhsNonContracting := [0]
  rhsNonContracting := [1]
  lhsBatch := []
  rhsBatch := []
  wf := dot_S1000x768_S768x64_S1000x64_1_0_0_1_n_n_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x384_S384x128_S1000x128_1_0_0_1_n_n : DotDims S1000x384 S384x128 S1000x128 where
  lhsContracting := [1]
  rhsContracting := [0]
  lhsNonContracting := [0]
  rhsNonContracting := [1]
  lhsBatch := []
  rhsBatch := []
  wf := dot_S1000x384_S384x128_S1000x128_1_0_0_1_n_n_wf
def scatter_S20000x128_S100000x1_S100000x128_1_0_0_1 : ScatterDims S20000x128 S100000x1 S100000x128 where
  updateWindowDims := [1]
  insertedWindowDims := [0]
  scatterDimsToOperandDims := [0]
  indexVectorDim := 1
  wf := scatter_S20000x128_S100000x1_S100000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2000x291.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S291x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v12) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S768x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S384x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v16) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v17_0) S1000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v17_1) S1000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v23) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S1000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S768x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v25) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S64x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v26) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg15) S384x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v27) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v28_0) S1000x128.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v28_1) S1000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v34) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S1000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S1000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S768x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v36) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg13) S64x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v37) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg15) S384x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v38) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v39_0) S1000x128.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v39_1) S1000x128.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v45) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v44) S1000x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S768x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v47) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg13) S64x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v48) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg15) S384x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v49) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v50_0) S1000x128.size cc5_transform_9 reads5_9 true false 2 stage5_9 sem5_9
    hrank5 hreads5_9 hinb5_9 nbuf5_9 (Memref.isWhole_whole _) hwx5_9 hstage5_9

abbrev win5_10 : Pipeline.Window sig grid5 :=
  Pipeline.Window.ofSpec (Memref.whole main_v50_1) S1000x128.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v50_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg17) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v54) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg19) S64x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v55) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg21) S32x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v56) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v57) S5000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S20000x128 : Shape := ⟨2, ![20000, 128]⟩
abbrev S100000x291 : Shape := ⟨2, ![100000, 291]⟩
abbrev S2x100000 : Shape := ⟨2, ![2, 100000]⟩
abbrev S128x128 : Shape := ⟨2, ![128, 128]⟩
abbrev S128 : Shape := ⟨1, ![128]⟩
abbrev S291x64 : Shape := ⟨2, ![291, 64]⟩
abbrev S64 : Shape := ⟨1, ![64]⟩
abbrev S64x128 : Shape := ⟨2, ![64, 128]⟩
abbrev S768x64 : Shape := ⟨2, ![768, 64]⟩
abbrev S384x128 : Shape := ⟨2, ![384, 128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x100000 : Shape := ⟨2, ![1, 100000]⟩
abbrev S100000 : Shape := ⟨1, ![100000]⟩
abbrev S1x128 : Shape := ⟨2, ![1, 128]⟩
abbrev S_ : Shape := ⟨0, ![]⟩
abbrev S100000x64 : Shape := ⟨2, ![100000, 64]⟩
abbrev S1x64 : Shape := ⟨2, ![1, 64]⟩
abbrev S100000x128 : Shape := ⟨2, ![100000, 128]⟩
abbrev S20000x256 : Shape := ⟨2, ![20000, 256]⟩
abbrev S100000x256 : Shape := ⟨2, ![100000, 256]⟩
abbrev S100000x1 : Shape := ⟨2, ![100000, 1]⟩
abbrev S100000x768 : Shape := ⟨2, ![100000, 768]⟩
abbrev S100000x384 : Shape := ⟨2, ![100000, 384]⟩
abbrev S100000x32 : Shape := ⟨2, ![100000, 32]⟩
abbrev S1x32 : Shape := ⟨2, ![1, 32]⟩
abbrev S1x1 : Shape := ⟨2, ![1, 1]⟩

abbrev nBuf : Space → Nat
  | .hbm => 255
  | .vmem => 0
  | .smem => 0
  | _ => 0

abbrev hbmTy0_0 (i : Nat) : BufTy := match i % 128 with
  | 0 => ⟨S20000x128, .f32⟩
  | 1 => ⟨S100000x291, .f32⟩
  | 2 => ⟨S2x100000, .i32⟩
  | 3 => ⟨S128x128, .f32⟩
  | 4 => ⟨S128, .f32⟩
  | 5 => ⟨S128x128, .f32⟩
  | 6 => ⟨S128, .f32⟩
  | 7 => ⟨S291x64, .f32⟩
  | 8 => ⟨S64, .f32⟩
  | 9 => ⟨S64x128, .f32⟩
  | 10 => ⟨S128, .f32⟩
  | 11 => ⟨S768x64, .f32⟩
  | 12 => ⟨S64, .f32⟩
  | 13 => ⟨S64x128, .f32⟩
  | 14 => ⟨S128, .f32⟩
  | 15 => ⟨S384x128, .f32⟩
  | 16 => ⟨S128, .f32⟩
  | 17 => ⟨S128x64, .f32⟩
  | 18 => ⟨S64, .f32⟩
  | 19 => ⟨S64x32, .f32⟩
  | 20 => ⟨S32, .f32⟩
  | 21 => ⟨S32x1, .f32⟩
  | 22 => ⟨S1, .f32⟩
  | 23 => ⟨S1x100000, .i32⟩
  | 24 => ⟨S100000, .i32⟩
  | 25 => ⟨S1x100000, .i32⟩
  | 26 => ⟨S100000, .i32⟩
  | 27 => ⟨S20000x128, .f32⟩
  | 28 => ⟨S1x128, .f32⟩
  | 29 => ⟨S20000x128, .f32⟩
  | 30 => ⟨S20000x128, .f32⟩
  | 31 => ⟨S_, .f32⟩
  | 32 => ⟨S20000x128, .f32⟩
  | 33 => ⟨S20000x128, .f32⟩
  | 34 => ⟨S20000x128, .f32⟩
  | 35 => ⟨S1x128, .f32⟩
  | 36 => ⟨S20000x128, .f32⟩
  | 37 => ⟨S20000x128, .f32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S100000x128, .f32⟩
  | 46 => ⟨S1x128, .f32⟩
  | 47 => ⟨S100000x128, .f32⟩
  | 48 => ⟨S100000x128, .f32⟩
  | 49 => ⟨S20000x256, .f32⟩
  | 50 => ⟨S100000x256, .f32⟩
  | 51 => ⟨S_, .i32⟩
  | 52 => ⟨S100000, .i32⟩
  | 53 => ⟨S100000, .i1⟩
  | 54 => ⟨S_, .i32⟩
  | 55 => ⟨S100000, .i32⟩
  | 56 => ⟨S100000, .i32⟩
  | 57 => ⟨S100000, .i32⟩
  | 58 => ⟨S100000x1, .i32⟩
  | 59 => ⟨S100000x256, .f32⟩
  | 60 => ⟨S_, .i32⟩
  | 61 => ⟨S100000, .i32⟩
  | 62 => ⟨S100000, .i1⟩
  | 63 => ⟨S_, .i32⟩
  | 64 => ⟨S100000, .i32⟩
  | 65 => ⟨S100000, .i32⟩
  | 66 => ⟨S100000, .i32⟩
  | 67 => ⟨S100000x1, .i32⟩
  | 68 => ⟨S100000x256, .f32⟩
  | 69 => ⟨S100000x768, .f32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x384, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S_, .f32⟩
  | 93 => ⟨S20000x128, .f32⟩
  | 94 => ⟨S100000x1, .i32⟩
  | 95 => ⟨S20000x128, .f32⟩
  | 96 => ⟨S20000x256, .f32⟩
  | 97 => ⟨S100000x256, .f32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S100000x256, .f32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S100000x256, .f32⟩
  | 116 => ⟨S100000x768, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x128, .f32⟩
  | 125 => ⟨S1x128, .f32⟩
  | 126 => ⟨S100000x128, .f32⟩
  | 127 => ⟨S100000x128, .f32⟩
  | _ => ⟨S20000x128, .f32⟩

abbrev hbmTy0_1 (i : Nat) : BufTy := match i % 128 with
  | 0 => ⟨S_, .f32⟩
  | 1 => ⟨S100000x128, .f32⟩
  | 2 => ⟨S100000x128, .f32⟩
  | 3 => ⟨S100000x384, .f32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S_, .f32⟩
  | 12 => ⟨S20000x128, .f32⟩
  | 13 => ⟨S100000x1, .i32⟩
  | 14 => ⟨S20000x128, .f32⟩
  | 15 => ⟨S20000x256, .f32⟩
  | 16 => ⟨S100000x256, .f32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x256, .f32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000x256, .f32⟩
  | 35 => ⟨S100000x768, .f32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S100000x384, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .f32⟩
  | 59 => ⟨S20000x128, .f32⟩
  | 60 => ⟨S100000x1, .i32⟩
  | 61 => ⟨S20000x128, .f32⟩
  | 62 => ⟨S20000x256, .f32⟩
  | 63 => ⟨S100000x256, .f32⟩
  | 64 => ⟨S_, .i32⟩
  | 65 => ⟨S100000, .i32⟩
  | 66 => ⟨S100000, .i1⟩
  | 67 => ⟨S_, .i32⟩
  | 68 => ⟨S100000, .i32⟩
  | 69 => ⟨S100000, .i32⟩
  | 70 => ⟨S100000, .i32⟩
  | 71 => ⟨S100000x1, .i32⟩
  | 72 => ⟨S100000x256, .f32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S100000x1, .i32⟩
  | 81 => ⟨S100000x256, .f32⟩
  | 82 => ⟨S100000x768, .f32⟩
  | 83 => ⟨S100000x64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x384, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S_, .f32⟩
  | 106 => ⟨S20000x128, .f32⟩
  | 107 => ⟨S100000x1, .i32⟩
  | 108 => ⟨S20000x128, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x32, .f32⟩
  | 117 => ⟨S1x32, .f32⟩
  | 118 => ⟨S100000x32, .f32⟩
  | 119 => ⟨S100000x32, .f32⟩
  | 120 => ⟨S_, .f32⟩
  | 121 => ⟨S100000x32, .f32⟩
  | 122 => ⟨S100000x32, .f32⟩
  | 123 => ⟨S100000x1, .f32⟩
  | 124 => ⟨S1x1, .f32⟩
  | 125 => ⟨S100000x1, .f32⟩
  | 126 => ⟨S100000x1, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_call0_cst : Ref sig .tc := ⟨.hbm, 31, rfl⟩
abbrev main_call0_v0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call1_cst : Ref sig .tc := ⟨.hbm, 42, rfl⟩
abbrev main_call1_v0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c : Ref sig .tc := ⟨.hbm, 51, rfl⟩
abbrev main_v24 : Ref sig .tc := ⟨.hbm, 52, rfl⟩
abbrev main_v25 : Ref sig .tc := ⟨.hbm, 53, rfl⟩
abbrev main_c_0 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_1 : Ref sig .tc := ⟨.hbm, 60, rfl⟩
abbrev main_v31 : Ref sig .tc := ⟨.hbm, 61, rfl⟩
abbrev main_v32 : Ref sig .tc := ⟨.hbm, 62, rfl⟩
abbrev main_c_2 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call2_cst : Ref sig .tc := ⟨.hbm, 74, rfl⟩
abbrev main_call2_v0 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call3_cst : Ref sig .tc := ⟨.hbm, 81, rfl⟩
abbrev main_call3_v0 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_call4_cst : Ref sig .tc := ⟨.hbm, 89, rfl⟩
abbrev main_call4_v0 : Ref sig .tc := ⟨.hbm, 90, rfl⟩
abbrev main_v54 : Ref sig .tc := ⟨.hbm, 91, rfl⟩
abbrev main_cst : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_3 : Ref sig .tc := ⟨.hbm, 98, rfl⟩
abbrev main_v60 : Ref sig .tc := ⟨.hbm, 99, rfl⟩
abbrev main_v61 : Ref sig .tc := ⟨.hbm, 100, rfl⟩
abbrev main_c_4 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_c_5 : Ref sig .tc := ⟨.hbm, 107, rfl⟩
abbrev main_v67 : Ref sig .tc := ⟨.hbm, 108, rfl⟩
abbrev main_v68 : Ref sig .tc := ⟨.hbm, 109, rfl⟩
abbrev main_c_6 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_call5_cst : Ref sig .tc := ⟨.hbm, 121, rfl⟩
abbrev main_call5_v0 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_call6_cst : Ref sig .tc := ⟨.hbm, 128, rfl⟩
abbrev main_call6_v0 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_call7_cst : Ref sig .tc := ⟨.hbm, 136, rfl⟩
abbrev main_call7_v0 : Ref sig .tc := ⟨.hbm, 137, rfl⟩
abbrev main_v90 : Ref sig .tc := ⟨.hbm, 138, rfl⟩
abbrev main_cst_7 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_c_8 : Ref sig .tc := ⟨.hbm, 145, rfl⟩
abbrev main_v96 : Ref sig .tc := ⟨.hbm, 146, rfl⟩
abbrev main_v97 : Ref sig .tc := ⟨.hbm, 147, rfl⟩
abbrev main_c_9 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_c_10 : Ref sig .tc := ⟨.hbm, 154, rfl⟩
abbrev main_v103 : Ref sig .tc := ⟨.hbm, 155, rfl⟩
abbrev main_v104 : Ref sig .tc := ⟨.hbm, 156, rfl⟩
abbrev main_c_11 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_call8_cst : Ref sig .tc := ⟨.hbm, 168, rfl⟩
abbrev main_call8_v0 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_call9_cst : Ref sig .tc := ⟨.hbm, 175, rfl⟩
abbrev main_call9_v0 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_call10_cst : Ref sig .tc := ⟨.hbm, 183, rfl⟩
abbrev main_call10_v0 : Ref sig .tc := ⟨.hbm, 184, rfl⟩
abbrev main_v126 : Ref sig .tc := ⟨.hbm, 185, rfl⟩
abbrev main_cst_12 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_c_13 : Ref sig .tc := ⟨.hbm, 192, rfl⟩
abbrev main_v132 : Ref sig .tc := ⟨.hbm, 193, rfl⟩
abbrev main_v133 : Ref sig .tc := ⟨.hbm, 194, rfl⟩
abbrev main_c_14 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_c_15 : Ref sig .tc := ⟨.hbm, 201, rfl⟩
abbrev main_v139 : Ref sig .tc := ⟨.hbm, 202, rfl⟩
abbrev main_v140 : Ref sig .tc := ⟨.hbm, 203, rfl⟩
abbrev main_c_16 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_call11_cst : Ref sig .tc := ⟨.hbm, 215, rfl⟩
abbrev main_call11_v0 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_call12_cst : Ref sig .tc := ⟨.hbm, 222, rfl⟩
abbrev main_call12_v0 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_call13_cst : Ref sig .tc := ⟨.hbm, 230, rfl⟩
abbrev main_call13_v0 : Ref sig .tc := ⟨.hbm, 231, rfl⟩
abbrev main_v162 : Ref sig .tc := ⟨.hbm, 232, rfl⟩
abbrev main_cst_17 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_call14_cst : Ref sig .tc := ⟨.hbm, 241, rfl⟩
abbrev main_call14_v0 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_call15_cst : Ref sig .tc := ⟨.hbm, 248, rfl⟩
abbrev main_call15_v0 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩

abbrev nD : Nat := 1
abbrev τ : Topo := Topo.v7x

variable {F : FTy → Type} [FloatOps F]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x128_S100000x128_0_1 : S1x128.BroadcastsInDim S100000x128 (![0, 1] : Fin 2 → Fin S100000x128.rank)
  concatenates_S20000x128_S20000x128_S20000x256_d1 : Shape.Concatenates [S20000x128, S20000x128] S20000x256 1
  concatenates_S100000x128_S100000x128_S100000x256_d1 : Shape.Concatenates [S100000x128, S100000x128] S100000x256 1
  bcast_S_S100000 : S_.BroadcastsInDim S100000 (![] : Fin 0 → Fin S100000.rank)
  bcast_S100000_S100000x1_0 : S100000.BroadcastsInDim S100000x1 (![0] : Fin 1 → Fin S100000x1.rank)
  concatenates_S100000x256_S100000x256_S100000x256_S100000x768_d1 : Shape.Concatenates [S100000x256, S100000x256, S100000x256] S100000x768 1
  bcast_S_S100000x128 : S_.BroadcastsInDim S100000x128 (![] : Fin 0 → Fin S100000x128.rank)
  concatenates_S100000x256_S100000x128_S100000x384_d1 : Shape.Concatenates [S100000x256, S100000x128] S100000x384 1
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S20000x128_S128x128_S20000x128_1_0_0_1_n_n_wf : DotDims.WF S20000x128 S128x128 S20000x128 [1] [0] [0] [1] [] []
  dot_S100000x291_S291x64_S100000x64_1_0_0_1_n_n_wf : DotDims.WF S100000x291 S291x64 S100000x64 [1] [0] [0] [1] [] []
  dot_S100000x64_S64x128_S100000x128_1_0_0_1_n_n_wf : DotDims.WF S100000x64 S64x128 S100000x128 [1] [0] [0] [1] [] []
  gather_S20000x256_S100000x1_S100000x256_1_0_n_n_0_1_1256_wf : GatherDims.WF S20000x256 S100000x1 S100000x256 [1] [0] [] [0] [] 1 ![1, 256]
  dot_S100000x768_S768x64_S100000x64_1_0_0_1_n_n_wf : DotDims.WF S100000x768 S768x64 S100000x64 [1] [0] [0] [1] [] []
  dot_S100000x384_S384x128_S100000x128_1_0_0_1_n_n_wf : DotDims.WF S100000x384 S384x128 S100000x128 [1] [0] [0] [1] [] []
  scatter_S20000x128_S100000x1_S100000x128_1_0_0_1_wf : ScatterDims.WF S20000x128 S100000x1 S100000x128 [1] [0] [0] 1
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S100000x291_S291x64_S100000x64_1_0_0_1_n_n : DotDims S100000x291 S291x64 S100000x64 where
  lhsContracting := [1]
  rhsContracting := [0]
  lhsNonContracting := [0]
  rhsNonContracting := [1]
  lhsBatch := []
  rhsBatch := []
  wf := dot_S100000x291_S291x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S20000x256_S100000x1_S100000x256_1_0_n_n_0_1_1256 : GatherDims S20000x256 S100000x1 S100000x256 where
  offsetDims := [1]
  collapsedSliceDims := [0]
  operandBatchingDims := []
  startIndicesBatchingDims := []
  startIndexMap := [0]
  indexVectorDim := 1
  sliceSizes := ![1, 256]
  wf := gather_S20000x256_S100000x1_S100000x256_1_0_n_n_0_1_1256_wf
def dot_S100000x768_S768x64_S100000x64_1_0_0_1_n_n : DotDims S100000x768 S768x64 S100000x64 where
  lhsContracting := [1]
  rhsContracting := [0]
  lhsNonContracting := [0]
  rhsNonContracting := [1]
  lhsBatch := []
  rhsBatch := []
  wf := dot_S100000x768_S768x64_S100000x64_1_0_0_1_n_n_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def scatter_S20000x128_S100000x1_S100000x128_1_0_0_1 : ScatterDims S20000x128 S100000x1 S100000x128 where
  updateWindowDims := [1]
  insertedWindowDims := [0]
  scatterDimsToOperandDims := [0]
  indexVectorDim := 1
  wf := scatter_S20000x128_S100000x1_S100000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.LibKeepAll.lean ====
/-
  A buffer that no operation of a list writes keeps its contents across the list — for lists that also hold
  operations of any number of operands.
-/
import Idealize.ShloMosaic.Lib.StableHlo.Run

namespace Cert.LibKeepAll

open Idealize.ShloMosaic

/-- Closes `after ops X (devRef b) = X (devRef b)` for a literal list `ops` (named by the identifier given) none of
    whose operations writes `b`: each operation writes one literal reference, and it differs from `b`. -/
macro "kept_all" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide))))

end Cert.LibKeepAll
-- ==== Proof.RefArgs.lean ====
/-
  The reference's operations write no argument array: after them every argument is as launched.
-/
import proofs.«403211_j60627758350346_1_alg».proof.Proof.RefRun
import proofs.«403211_j60627758350346_1_alg».proof.Proof.LibKeepAll
import Idealize.ShloMosaic.PureOps.Ideal

noncomputable section

namespace Cert.ReferenceIdeal.RefArgs

open Cert.ReferenceIdeal Cert.ReferenceIdeal.RefRun Cert.LibKeepAll
open Idealize.ShloMosaic Idealize.ShloMosaic.TcCoe Idealize.SL.Sem Idealize.ShloMosaic.StableHlo

variable (m : (ℓ : Loc nD τ sig) → Buf (Elt Ideal) ℓ) (c : Dev nD)

set_option maxRecDepth 8192 in
theorem arg0_kept : after (ops (F := Ideal)) (launchContents m c) (Proc.devRef .tc main_arg0) = m ((c.tc : Thread nD τ).loc main_arg0) :=
  (show after (ops (F := Ideal)) (launchContents m c) (Proc.devRef .tc main_arg0) = launchContents m c (Proc.devRef .tc main_arg0) by kept_all ops).trans rfl

set_option maxRecDepth 8192 in
theorem arg1_kept : after (ops (F := Ideal)) (launchContents m c) (Proc.devRef .tc main_arg1) = m ((c.tc : Thread nD τ).loc main_arg1) :=
  (show after (ops (F := Ideal)) (launchContents m c) (Proc.devRef .tc main_arg1) = launchContents m c (Proc.devRef .tc main_arg1) by kept_all ops).trans rfl

set_option maxRecDepth 8192 in
theorem arg2_kept : after (ops (F := Ideal)) (launchContents m c) (Proc.devRef .tc main_arg2) = m ((c.tc : Thread nD τ).loc main_arg2) :=
  (show after (ops (F := Ideal)) (launchContents m c) (Proc.devRef .tc main_arg2) = launchContents m c (Proc.devRef .tc main_arg2) by kept_all ops).trans rfl

set_option maxRecDepth 8192 in
theorem arg3_kept : after (ops (F := Ideal)) (launchContents m c) (Proc.devRef .tc main_arg3) = m ((c.tc : Thread nD τ).loc main_arg3) :=
  (show after (ops (F := Ideal)) (launchContents m c) (Proc.devRef .tc main_arg3) = launchContents m c (Proc.devRef .tc main_arg3) by kept_all ops).trans rfl

set_option maxRecDepth 8192 in
theorem arg4_kept : after (ops (F := Ideal)) (launchContents m c) (Proc.devRef .tc main_arg4) = m ((c.tc : Thread nD τ).loc main_arg4) :=
  (show after (ops (F := Ideal)) (launchContents m c) (Proc.devRef .tc main_arg4) = launchContents m c (Proc.devRef .tc main_arg4) by kept_all ops).trans rfl

set_option maxRecDepth 8192 in
theorem arg5_kept : after (ops (F := Ideal)) (launchContents m c) (Proc.devRef .tc main_arg5) = m ((c.tc : Thread nD τ).loc main_arg5) :=
  (show after (ops (F := Ideal)) (launchContents m c) (Proc.devRef .tc main_arg5) = launchContents m c (Proc.devRef .tc main_arg5) by kept_all ops).trans rfl

set_option maxRecDepth 8192 in
theorem arg6_kept : after (ops (F := Ideal)) (launchContents m c) (Proc.devRef .tc main_arg6) = m ((c.tc : Thread nD τ).loc main_arg6) :=
  (show after (ops (F := Ideal)) (launchContents m c) (Proc.devRef .tc main_arg6) = launchContents m c (Proc.devRef .tc main_arg6) by kept_all ops).trans rfl

set_option maxRecDepth 8192 in
theorem arg7_kept : after (ops (F := Ideal)) (launchContents m c) (Proc.devRef .tc main_arg7) = m ((c.tc : Thread nD τ).loc main_arg7) :=
  (show after (ops (F := Ideal)) (launchContents m c) (Proc.devRef .tc main_arg7) = launchContents m c (Proc.devRef .tc main_arg7) by kept_all ops).trans rfl

set_option maxRecDepth 8192 in
theorem arg8_kept : after (ops (F := Ideal)) (launchContents m c) (Proc.devRef .tc main_arg8) = m ((c.tc : Thread nD τ).loc main_arg8) :=
  (show after (ops (F := Ideal)) (launchContents m c) (Proc.devRef .tc main_arg8) = launchContents m c (Proc.devRef .tc main_arg8) by kept_all ops).trans rfl

set_option maxRecDepth 8192 in
theorem arg9_kept : after (ops (F := Ideal)) (launchContents m c) (Proc.devRef .tc main_arg9) = m ((c.tc : Thread nD τ).loc main_arg9) :=
  (show after (ops (F := Ideal)) (launchContents m c) (Proc.devRef .tc main_arg9) = launchContents m c (Proc.devRef .tc main_arg9) by kept_all ops).trans rfl

set_option maxRecDepth 8192 in
theorem arg10_kept : after (ops (F := Ideal)) (launchContents m c) (Proc.devRef .tc main_arg10) = m ((c.tc : Thread nD τ).loc main_arg10) :=
  (show after (ops (F := Ideal)) (launchContents m c) (Proc.devRef .tc main_arg10) = launchContents m c (Proc.devRef .tc main_arg10) by kept_all ops).trans rfl

set_option maxRecDepth 8192 in
theorem arg11_kept : after (ops (F := Ideal)) (launchContents m c) (Proc.devRef .tc main_arg11) = m ((c.tc : Thread nD τ).loc main_arg11) :=
  (show after (ops (F := Ideal)) (launchContents m c) (Proc.devRef .tc main_arg11) = launchContents m c (Proc.devRef .tc main_arg11) by kept_all ops).trans rfl

set_option maxRecDepth 8192 in
theorem arg12_kept : after (ops (F := Ideal)) (launchContents m c) (Proc.devRef .tc main_arg12) = m ((c.tc : Thread nD τ).loc main_arg12) :=
  (show after (ops (F := Ideal)) (launchContents m c) (Proc.devRef .tc main_arg12) = launchContents m c (Proc.devRef .tc main_arg12) by kept_all ops).trans rfl

set_option maxRecDepth 8192 in
theorem arg13_kept : after (ops (F := Ideal)) (launchContents m c) (Proc.devRef .tc main_arg13) = m ((c.tc : Thread nD τ).loc main_arg13) :=
  (show after (ops (F := Ideal)) (launchContents m c) (Proc.devRef .tc main_arg13) = launchContents m c (Proc.devRef .tc main_arg13) by kept_all ops).trans rfl

set_option maxRecDepth 8192 in
theorem arg14_kept : after (ops (F := Ideal)) (launchContents m c) (Proc.devRef .tc main_arg14) = m ((c.tc : Thread nD τ).loc main_arg14) :=
  (show after (ops (F := Ideal)) (launchContents m c) (Proc.devRef .tc main_arg14) = launchContents m c (Proc.devRef .tc main_arg14) by kept_all ops).trans rfl

set_option maxRecDepth 8192 in
theorem arg15_kept : after (ops (F := Ideal)) (launchContents m c) (Proc.devRef .tc main_arg15) = m ((c.tc : Thread nD τ).loc main_arg15) :=
  (show after (ops (F := Ideal)) (launchContents m c) (Proc.devRef .tc main_arg15) = launchContents m c (Proc.devRef .tc main_arg15) by kept_all ops).trans rfl

set_option maxRecDepth 8192 in
theorem arg16_kept : after (ops (F := Ideal)) (launchContents m c) (Proc.devRef .tc main_arg16) = m ((c.tc : Thread nD τ).loc main_arg16) :=
  (show after (ops (F := Ideal)) (launchContents m c) (Proc.devRef .tc main_arg16) = launchContents m c (Proc.devRef .tc main_arg16) by kept_all ops).trans rfl

set_option maxRecDepth 8192 in
theorem arg17_kept : after (ops (F := Ideal)) (launchContents m c) (Proc.devRef .tc main_arg17) = m ((c.tc : Thread nD τ).loc main_arg17) :=
  (show after (ops (F := Ideal)) (launchContents m c) (Proc.devRef .tc main_arg17) = launchContents m c (Proc.devRef .tc main_arg17) by kept_all ops).trans rfl

set_option maxRecDepth 8192 in
theorem arg18_kept : after (ops (F := Ideal)) (launchContents m c) (Proc.devRef .tc main_arg18) = m ((c.tc : Thread nD τ).loc main_arg18) :=
  (show after (ops (F := Ideal)) (launchContents m c) (Proc.devRef .tc main_arg18) = launchContents m c (Proc.devRef .tc main_arg18) by kept_all ops).trans rfl

set_option maxRecDepth 8192 in
theorem arg19_kept : after (ops (F := Ideal)) (launchContents m c) (Proc.devRef .tc main_arg19) = m ((c.tc : Thread nD τ).loc main_arg19) :=
  (show after (ops (F := Ideal)) (launchContents m c) (Proc.devRef .tc main_arg19) = launchContents m c (Proc.devRef .tc main_arg19) by kept_all ops).trans rfl

set_option maxRecDepth 8192 in
theorem arg20_kept : after (ops (F := Ideal)) (launchContents m c) (Proc.devRef .tc main_arg20) = m ((c.tc : Thread nD τ).loc main_arg20) :=
  (show after (ops (F := Ideal)) (launchContents m c) (Proc.devRef .tc main_arg20) = launchContents m c (Proc.devRef .tc main_arg20) by kept_all ops).trans rfl

set_option maxRecDepth 8192 in
theorem arg21_kept : after (ops (F := Ideal)) (launchContents m c) (Proc.devRef .tc main_arg21) = m ((c.tc : Thread nD τ).loc main_arg21) :=
  (show after (ops (F := Ideal)) (launchContents m c) (Proc.devRef .tc main_arg21) = launchContents m c (Proc.devRef .tc main_arg21) by kept_all ops).trans rfl

set_option maxRecDepth 8192 in
theorem arg22_kept : after (ops (F := Ideal)) (launchContents m c) (Proc.devRef .tc main_arg22) = m ((c.tc : Thread nD τ).loc main_arg22) :=
  (show after (ops (F := Ideal)) (launchContents m c) (Proc.devRef .tc main_arg22) = launchContents m c (Proc.devRef .tc main_arg22) by kept_all ops).trans rfl

end Cert.ReferenceIdeal.RefArgs

end
-- ==== Proof.Spec.lean ====
/-
  The network both programs compute, written once over the extended reals, entry by entry: an affine layer (a row
  of the input times a column of the weights, summed over the shared axis, plus the bias row's entry), the rectifier
  max(·, 0), matrices set side by side along their columns, and the perceptrons of the network built from these —
  the two-layer embedding, the edge update (three matrices side by side through two rectified layers), the message
  (the target rows beside the new edge features through one rectified layer) and the three-layer classifier.
  Nothing here names a program: both the kernel's blocks and the reference's whole arrays are read against these.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `R` rows and `C` columns, as a function of its rank-2 index. -/
abbrev Mat (R C : Nat) : Type := (⟨2, ![R, C]⟩ : Shape).Idx → EReal

/-- Entry (r, c) of the affine layer: the sum over k of x(r, k) · w(k, c), plus entry c of the bias row. -/
def linAt {R K C : Nat} (x : Mat R K) (w : Mat K C) (b : Mat 1 C) (r : Fin R) (c : Fin C) : EReal :=
  (∑ k : Fin K, x (ix2 r k) * w (ix2 k c)) + b (ix2 (0 : Fin 1) c)

/-- The affine layer x · w + b as a matrix. -/
def lin {R K C : Nat} (x : Mat R K) (w : Mat K C) (b : Mat 1 C) : Mat R C :=
  fun i => linAt x w b (i 0) (i 1)

theorem lin_apply {R K C : Nat} (x : Mat R K) (w : Mat K C) (b : Mat 1 C) (r : Fin R) (c : Fin C) :
    lin x w b (ix2 r c) = linAt x w b r c := rfl

/-- The rectifier, entry by entry: max(v, 0). -/
def relu {R C : Nat} (v : Mat R C) : Mat R C := fun i => max (v i) 0

theorem relu_apply {R C : Nat} (v : Mat R C) (i : (⟨2, ![R, C]⟩ : Shape).Idx) : relu v i = max (v i) 0 := rfl

/-- Entry (r, k) of two matrices side by side: column k of the first while k < A, else column k − A of the second. -/
def cat2At {R A B N : Nat} (a : Mat R A) (b : Mat R B) (r : Fin R) (k : Fin N) : EReal :=
  if h : k.val < A then a (ix2 r ⟨k.val, h⟩)
  else if h' : k.val - A < B then b (ix2 r ⟨k.val - A, h'⟩) else 0

/-- Two matrices side by side along their columns (`N` is A + B at every use). -/
def cat2 {R A B : Nat} (N : Nat) (a : Mat R A) (b : Mat R B) : Mat R N :=
  fun i => cat2At a b (i 0) (i 1)

theorem cat2_apply {R A B N : Nat} (a : Mat R A) (b : Mat R B) (r : Fin R) (k : Fin N) :
    cat2 N a b (ix2 r k) = cat2At a b r k := rfl

/-- Entry (r, k) of three matrices side by side: the first while k < A, the second while k − A < B, else the third. -/
def cat3At {R A B C N : Nat} (a : Mat R A) (b : Mat R B) (c : Mat R C) (r : Fin R) (k : Fin N) : EReal :=
  if h : k.val < A then a (ix2 r ⟨k.val, h⟩)
  else if h' : k.val - A < B then b (ix2 r ⟨k.val - A, h'⟩)
  else if h'' : k.val - A - B < C then c (ix2 r ⟨k.val - A - B, h''⟩) else 0

/-- Three matrices side by side along their columns (`N` is A + B + C at every use). -/
def cat3 {R A B C : Nat} (N : Nat) (a : Mat R A) (b : Mat R B) (c : Mat R C) : Mat R N :=
  fun i => cat3At a b c (i 0) (i 1)

theorem cat3_apply {R A B C N : Nat} (a : Mat R A) (b : Mat R B) (c : Mat R C) (r : Fin R) (k : Fin N) :
    cat3 N a b c (ix2 r k) = cat3At a b c r k := rfl

/-- A bias vector as a one-row matrix: entry (0, c) is entry c of the vector. -/
def row {C : Nat} (b : (⟨1, ![C]⟩ : Shape).Idx → EReal) : Mat 1 C := fun i => b (ix1 (i 1))

theorem row_apply {C : Nat} (b : (⟨1, ![C]⟩ : Shape).Idx → EReal) (z : Fin 1) (c : Fin C) : row b (ix2 z c) = b (ix1 c) := rfl

/-- Row `p` of a two-row table of index words, as a vector of words. -/
def idxRow {E : Nat} (p : Fin 2) (e : IVec ⟨2, ![2, E]⟩ 32) : IVec ⟨1, ![E]⟩ 32 := fun i => e (ix2 p (i 0))

/-- The two-layer embedding: relu(x · w₀ + b₀) · w₁ + b₁. -/
def mlp2 {R K H C : Nat} (x : Mat R K) (w0 : Mat K H) (b0 : Mat 1 H) (w1 : Mat H C) (b1 : Mat 1 C) : Mat R C :=
  lin (relu (lin x w0 b0)) w1 b1

/-- The edge update: relu(relu([xi | xj | efc] · w₀ + b₀) · w₁ + b₁). -/
def edgeUpd {R A B C K H D : Nat} (xi : Mat R A) (xj : Mat R B) (efc : Mat R C) (w0 : Mat K H) (b0 : Mat 1 H)
    (w1 : Mat H D) (b1 : Mat 1 D) : Mat R D :=
  relu (lin (relu (lin (cat3 K xi xj efc) w0 b0)) w1 b1)

/-- The message: relu([xi | ef] · w + b). -/
def msgOf {R A D K C : Nat} (xi : Mat R A) (ef : Mat R D) (w : Mat K C) (b : Mat 1 C) : Mat R C :=
  relu (lin (cat2 K xi ef) w b)

/-- The classifier: relu(relu(ef · w₀ + b₀) · w₁ + b₁) · w₂ + b₂. -/
def classify {R K H G C : Nat} (ef : Mat R K) (w0 : Mat K H) (b0 : Mat 1 H) (w1 : Mat H G) (b1 : Mat 1 G)
    (w2 : Mat G C) (b2 : Mat 1 C) : Mat R C :=
  lin (relu (lin (relu (lin ef w0 b0)) w1 b1)) w2 b2

/-! ## The whole network

  The node and edge embeddings, then four rounds of message passing, then the classifier on the last edge features.
  One round: the node features beside their embedding, and the edge features beside theirs; the rows of the former
  gathered at each edge's target and source; the edge update and the message from those; the messages summed into
  their target nodes. How rows are gathered at index words (`G`) and how messages are summed into nodes at index
  words (`Sc`) are parameters: both programs use the same host operations for them. -/

/-- The node features and edge features carried from one round to the next. -/
abbrev St (N E D : Nat) : Type := Mat N D × Mat E D

/-- One round of message passing. `ig`, `jg` are the target and source index words the rows are gathered at, `is`
    the target index words the messages are summed at. -/
def step {N E D D2 K1 K2 H : Nat} (G : Mat N D2 → IVec ⟨2, ![E, 1]⟩ 32 → Mat E D2)
    (Sc : IVec ⟨2, ![E, 1]⟩ 32 → Mat E D → Mat N D)
    (nf0 : Mat N D) (ef0 : Mat E D) (ig jg is : IVec ⟨2, ![E, 1]⟩ 32)
    (mew0 : Mat K1 H) (meb0 : Mat 1 H) (mew1 : Mat H D) (meb1 : Mat 1 D)
    (mnw0 : Mat K2 D) (mnb0 : Mat 1 D) (s : St N E D) : St N E D :=
  let nfc : Mat N D2 := cat2 D2 nf0 s.1
  let efc : Mat E D2 := cat2 D2 ef0 s.2
  let xi := G nfc ig
  let xj := G nfc jg
  let ef' : Mat E D := edgeUpd xi xj efc mew0 meb0 mew1 meb1
  (Sc is (msgOf xi ef' mnw0 mnb0), ef')

end Cert.Spec

end
-- ==== Proof.SpecNet.lean ====
/-
  The whole network as one function of its inputs: the node and edge embeddings, four rounds of message passing,
  the classifier on the last edge features. How rows are gathered at index words (`G`), how messages are summed
  into nodes (`Sc`), and how a vector of index words is set as the column either of them reads (`nrm` for the
  gathers, which first wraps a negative word; `col` for the sums) are parameters: both programs use the same
  host operations for them.
-/
import proofs.«403211_j60627758350346_1_alg».proof.Proof.Spec

noncomputable section

namespace Cert.Spec

open Idealize.ShloMosaic Idealize.ShloMosaic.ValueIdx

/-- A vector of extended reals of length `C`. -/
abbrev Vc (C : Nat) : Type := (⟨1, ![C]⟩ : Shape).Idx → EReal

/-- The network's result from its twenty-three inputs. -/
def net {N E NIN EIN D D2 K1 K2 H H1 H2 HC1 HC2 : Nat}
    (G : Mat N D2 → IVec ⟨2, ![E, 1]⟩ 32 → Mat E D2) (Sc : IVec ⟨2, ![E, 1]⟩ 32 → Mat E D → Mat N D)
    (nrm col : IVec ⟨1, ![E]⟩ 32 → IVec ⟨2, ![E, 1]⟩ 32)
    (x : Mat N NIN) (ea : Mat E EIN) (ei : IVec ⟨2, ![2, E]⟩ 32)
    (new0 : Mat NIN H1) (neb0 : Vc H1) (new1 : Mat H1 D) (neb1 : Vc D)
    (eew0 : Mat EIN H2) (eeb0 : Vc H2) (eew1 : Mat H2 D) (eeb1 : Vc D)
    (mew0 : Mat K1 H) (meb0 : Vc H) (mew1 : Mat H D) (meb1 : Vc D)
    (mnw0 : Mat K2 D) (mnb0 : Vc D)
    (cw0 : Mat D HC1) (cb0 : Vc HC1) (cw1 : Mat HC1 HC2) (cb1 : Vc HC2) (cw2 : Mat HC2 1) (cb2 : Vc 1) : Mat E 1 :=
  let nf0 : Mat N D := mlp2 x new0 (row neb0) new1 (row neb1)
  let ef0 : Mat E D := mlp2 ea eew0 (row eeb0) eew1 (row eeb1)
  let i := idxRow 1 ei
  let j := idxRow 0 ei
  let round : St N E D → St N E D :=
    step G Sc nf0 ef0 (nrm i) (nrm j) (col i) mew0 (row meb0) mew1 (row meb1) mnw0 (row mnb0)
  classify (round (round (round (round (nf0, ef0))))).2 cw0 (row cb0) cw1 (row cb1) cw2 (row cb2)

end Cert.Spec

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibConcat.lean ====
/-
  Matrices set side by side along their columns, read at an entry: entry (r, k) of the concatenation is the entry
  of the piece whose column span holds k, at the column counted from that piece's first.
-/
import Idealize.ShloMosaic.PureOps.Ideal
import Idealize.ShloMosaic.Lib.ValueIdx
import Idealize.ShloMosaic.Lib.Pipeline.Value
import proofs.«403211_j60627758350346_1_alg».proof.Proof.Spec

noncomputable section

namespace Cert.LibConcat

open Idealize.ShloMosaic Idealize.ShloMosaic.ValueIdx

/-- Two matrices side by side, at entry (r, k). -/
theorem concat2_at {R A B N : Nat}
    (h : Shape.Concatenates [(⟨2, ![R, A]⟩ : Shape), (⟨2, ![R, B]⟩ : Shape)] (⟨2, ![R, N]⟩ : Shape) (1 : Fin 2))
    (a : Cert.Spec.Mat R A) (b : Cert.Spec.Mat R B) (r : Fin R) (k : Fin N) :
    concatenate (⟨2, ![R, N]⟩ : Shape) (1 : Fin 2) [⟨(⟨2, ![R, A]⟩ : Shape), a⟩, ⟨(⟨2, ![R, B]⟩ : Shape), b⟩] h (ix2 r k)
      = Cert.Spec.cat2At a b r k := by
  have hN : A + B = N := by
    have h3 := h.2.2
    simpa using h3
  unfold Cert.Spec.cat2At
  by_cases hk : k.val < A
  · rw [dif_pos hk]
    refine concatenate_pair_apply_left (1 : Fin 2) a b h (ix2 r k) rfl (ix2 r ⟨k.val, hk⟩) ?_
    intro q
    match q with
    | ⟨0, _⟩ => rfl
    | ⟨1, _⟩ => rfl
  · have hk' : k.val - A < B := by have := k.isLt; omega
    rw [dif_neg hk, dif_pos hk']
    refine concatenate_pair_apply_right (1 : Fin 2) a b h (ix2 r k) rfl rfl (ix2 r ⟨k.val - A, hk'⟩) ?_ ?_
    · intro q hq
      match q, hq with
      | ⟨0, _⟩, _ => rfl
      | ⟨1, _⟩, hq => exact absurd rfl hq
    · show (k.val - A) + A = k.val
      omega

/-- Three matrices side by side, at entry (r, k). -/
theorem concat3_at {R A B C N : Nat}
    (h : Shape.Concatenates [(⟨2, ![R, A]⟩ : Shape), (⟨2, ![R, B]⟩ : Shape), (⟨2, ![R, C]⟩ : Shape)] (⟨2, ![R, N]⟩ : Shape) (1 : Fin 2))
    (a : Cert.Spec.Mat R A) (b : Cert.Spec.Mat R B) (c : Cert.Spec.Mat R C) (r : Fin R) (k : Fin N) :
    concatenate (⟨2, ![R, N]⟩ : Shape) (1 : Fin 2)
        [⟨(⟨2, ![R, A]⟩ : Shape), a⟩, ⟨(⟨2, ![R, B]⟩ : Shape), b⟩, ⟨(⟨2, ![R, C]⟩ : Shape), c⟩] h (ix2 r k)
      = Cert.Spec.cat3At a b c r k := by
  have hN : A + (B + C) = N := by
    have h3 := h.2.2
    simpa using h3
  unfold Cert.Spec.cat3At
  by_cases hk : k.val < A
  · rw [dif_pos hk]
    refine concatenate_apply_piece (t := (⟨2, ![R, N]⟩ : Shape)) (1 : Fin 2)
        [⟨(⟨2, ![R, A]⟩ : Shape), a⟩, ⟨(⟨2, ![R, B]⟩ : Shape), b⟩, ⟨(⟨2, ![R, C]⟩ : Shape), c⟩]
        h (ix2 r k) 0 (by simp) (⟨2, ![R, A]⟩ : Shape) a rfl rfl 0 rfl
        (ix2 r ⟨k.val, hk⟩) ?_ ?_
    · intro q hq
      match q, hq with
      | ⟨0, _⟩, _ => rfl
      | ⟨1, _⟩, hq => exact absurd rfl hq
    · show 0 + k.val = k.val
      omega
  · rw [dif_neg hk]
    by_cases hk' : k.val - A < B
    · rw [dif_pos hk']
      refine concatenate_apply_piece (t := (⟨2, ![R, N]⟩ : Shape)) (1 : Fin 2)
        [⟨(⟨2, ![R, A]⟩ : Shape), a⟩, ⟨(⟨2, ![R, B]⟩ : Shape), b⟩, ⟨(⟨2, ![R, C]⟩ : Shape), c⟩]
        h (ix2 r k) 1 (by simp) (⟨2, ![R, B]⟩ : Shape) b rfl rfl A rfl
        (ix2 r ⟨k.val - A, hk'⟩) ?_ ?_
      · intro q hq
        match q, hq with
        | ⟨0, _⟩, _ => rfl
        | ⟨1, _⟩, hq => exact absurd rfl hq
      · show A + (k.val - A) = k.val
        omega
    · have hk'' : k.val - A - B < C := by have := k.isLt; omega
      rw [dif_neg hk', dif_pos hk'']
      refine concatenate_apply_piece (t := (⟨2, ![R, N]⟩ : Shape)) (1 : Fin 2)
        [⟨(⟨2, ![R, A]⟩ : Shape), a⟩, ⟨(⟨2, ![R, B]⟩ : Shape), b⟩, ⟨(⟨2, ![R, C]⟩ : Shape), c⟩]
        h (ix2 r k) 2 (by simp) (⟨2, ![R, C]⟩ : Shape) c rfl rfl (A + B) rfl
        (ix2 r ⟨k.val - A - B, hk''⟩) ?_ ?_
      · intro q hq
        match q, hq with
        | ⟨0, _⟩, _ => rfl
        | ⟨1, _⟩, hq => exact absurd rfl hq
      · show A + B + (k.val - A - B) = k.val
        omega

end Cert.LibConcat

end
-- ==== Proof.RefStages.lean ====
/-
  The reference program's whole-array operations are the network's pieces: a product plus a repeated bias vector is an
  affine layer, the maximum with the repeated zero word is the rectifier, matrices joined along their columns are
  matrices side by side, a sliced and flattened row of the index table is that row. From these, the perceptrons of
  the network and one whole round of message passing, each over variable operands, with the gathers, the sums into
  nodes and the index layouts exactly as the program spells them.
-/
import proofs.«403211_j60627758350346_1_alg».proof.Proof.Gen.ReferenceIdeal
import proofs.«403211_j60627758350346_1_alg».proof.Proof.Spec
import proofs.«403211_j60627758350346_1_alg».proof.Proof.SpecNet
import proofs.«403211_j60627758350346_1_alg».proof.Proof.LibDot
import proofs.«403211_j60627758350346_1_alg».proof.Proof.LibConcat
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefStages

open Cert.ReferenceIdeal Cert.ReferenceIdeal.Gen Idealize.ShloMosaic Idealize.ShloMosaic.ValueIdx
open Cert.Spec (Mat Vc)

/-! ## The gathers, the sums into nodes and the two index layouts, as the reference spells them -/

/-- Rows of a node table gathered at a column of index words (read signed, clamped into the table). -/
def gR (t : Mat 20000 256) (idx : IVec S100000x1 32) : Mat 100000 256 :=
  Host.gather gather_S20000x256_S100000x1_S100000x256_1_0_n_n_0_1_1256 t idx

/-- Edge rows summed into the zero node table at a column of index words. -/
def scR (idx : IVec S100000x1 32) (upd : Mat 100000 128) : Mat 20000 128 :=
  Host.scatterAdd (F := Ideal) scatter_S20000x128_S100000x1_S100000x128_1_0_0_1
    (broadcastInDim S20000x128 ![] bcast_S_S20000x128 (constant (F := Ideal) S_ .f32 0x00000000#32)) idx upd

/-- A vector of index words as a column, a negative word first wrapped by the number of nodes. -/
def nrmIdxR (i : IVec S100000 32) : IVec S100000x1 32 :=
  broadcastInDim S100000x1 ![0] bcast_S100000_S100000x1_0
    (select (cmpi .slt i (broadcastInDim S100000 ![] bcast_S_S100000 (constantI S_ 32 0#32)))
      (addi i (broadcastInDim S100000 ![] bcast_S_S100000 (constantI S_ 32 20000#32))) i)

/-- A vector of index words as a column. -/
def colIdxR (i : IVec S100000 32) : IVec S100000x1 32 :=
  broadcastInDim S100000x1 ![0] bcast_S100000_S100000x1_0 i

/-! ## One lemma per kind of operation, over variable operands -/

/-- A product plus a bias vector repeated down the rows is the affine layer. At entry (r, c) the product is the sum
    over the shared axis and the twice-broadcast bias is its entry c. -/
theorem affine_eq {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (h1 : (⟨1, ![C]⟩ : Shape).BroadcastsInDim ⟨2, ![1, C]⟩ ![1])
    (h2 : (⟨2, ![1, C]⟩ : Shape).BroadcastsInDim ⟨2, ![R, C]⟩ ![0, 1])
    (x : Mat R K) (w : Mat K C) (b : Vc C) :
    addf (F := Ideal) (φ := .f32) (Host.dotGeneral (F := Ideal) (φ₁ := .f32) (φ₂ := .f32) d none x w)
        (broadcastInDim ⟨2, ![R, C]⟩ ![0, 1] h2 (broadcastInDim ⟨2, ![1, C]⟩ ![1] h1 b))
      = Cert.Spec.lin x w (Cert.Spec.row b) := by
  funext i
  obtain ⟨r, c, rfl⟩ : ∃ (r : Fin R) (c : Fin C), i = ix2 r c := ⟨i 0, i 1, eq_ix2 i⟩
  rw [Cert.Spec.lin_apply, addf_apply]
  unfold Cert.Spec.linAt
  simp only [Host.dotGeneral]
  rw [Cert.LibDot.dotGeneral_at d hl hr hln hrn hlb hrb]
  congr 1
  rw [broadcastInDim_apply ![0, 1] h2 _ (ix2 r c) (ix2 (0 : Fin 1) c) (fun a => by
      match a with
      | ⟨0, _⟩ => show (0 : Nat) = if (1 : Nat) = 1 then 0 else r.val; rw [if_pos rfl]
      | ⟨1, _⟩ =>
        show c.val = if C = 1 then 0 else c.val
        split
        · have := c.isLt; omega
        · rfl),
    broadcastInDim_apply ![1] h1 b (ix2 (0 : Fin 1) c) (ix1 c) (fun a => by
      match a with
      | ⟨0, _⟩ =>
        show c.val = if C = 1 then 0 else c.val
        split
        · have := c.isLt; omega
        · rfl)]
  rfl

/-- The maximum with the zero word repeated over the matrix is the rectifier. -/
theorem relu_eq {R C : Nat} (h : (⟨0, ![]⟩ : Shape).BroadcastsInDim ⟨2, ![R, C]⟩ ![]) (x : Mat R C) :
    maximumf (F := Ideal) (φ := .f32) x
        (broadcastInDim ⟨2, ![R, C]⟩ ![] h (constant (F := Ideal) ⟨0, ![]⟩ .f32 0x00000000#32))
      = Cert.Spec.relu x := by
  funext i
  rw [maximumf_apply, Cert.Spec.relu_apply, broadcastInDim_apply ![] h _ i ix0 (fun a => a.elim0), constant_apply,
    Ideal.ofBits_zero_f32]

/-- Two matrices joined along their columns. -/
theorem concat2_eq {R A B N : Nat}
    (h : Shape.Concatenates [(⟨2, ![R, A]⟩ : Shape), (⟨2, ![R, B]⟩ : Shape)] (⟨2, ![R, N]⟩ : Shape) (1 : Fin 2))
    (a : Mat R A) (b : Mat R B) :
    concatenate (⟨2, ![R, N]⟩ : Shape) (1 : Fin 2) [⟨(⟨2, ![R, A]⟩ : Shape), a⟩, ⟨(⟨2, ![R, B]⟩ : Shape), b⟩] h
      = Cert.Spec.cat2 N a b := by
  funext i
  obtain ⟨r, k, rfl⟩ : ∃ (r : Fin R) (k : Fin N), i = ix2 r k := ⟨i 0, i 1, eq_ix2 i⟩
  rw [Cert.Spec.cat2_apply]
  exact Cert.LibConcat.concat2_at h a b r k

/-- Three matrices joined along their columns. -/
theorem concat3_eq {R A B C N : Nat}
    (h : Shape.Concatenates [(⟨2, ![R, A]⟩ : Shape), (⟨2, ![R, B]⟩ : Shape), (⟨2, ![R, C]⟩ : Shape)] (⟨2, ![R, N]⟩ : Shape) (1 : Fin 2))
    (a : Mat R A) (b : Mat R B) (c : Mat R C) :
    concatenate (⟨2, ![R, N]⟩ : Shape) (1 : Fin 2)
        [⟨(⟨2, ![R, A]⟩ : Shape), a⟩, ⟨(⟨2, ![R, B]⟩ : Shape), b⟩, ⟨(⟨2, ![R, C]⟩ : Shape), c⟩] h
      = Cert.Spec.cat3 N a b c := by
  funext i
  obtain ⟨r, k, rfl⟩ : ∃ (r : Fin R) (k : Fin N), i = ix2 r k := ⟨i 0, i 1, eq_ix2 i⟩
  rw [Cert.Spec.cat3_apply]
  exact Cert.LibConcat.concat3_at h a b c r k

/-- The first row of the two-row table of index words, sliced off and flattened. -/
theorem idxRow0_eq {E : Nat} (h : (⟨2, ![2, E]⟩ : Shape).Slices ![0, 0] ⟨2, ![1, E]⟩)
    (hc : (⟨2, ![1, E]⟩ : Shape).ShapeCasts ⟨1, ![E]⟩) (e : IVec ⟨2, ![2, E]⟩ 32) :
    shapeCast ⟨1, ![E]⟩ (extractStridedSlice ⟨2, ![1, E]⟩ ![0, 0] e h) hc = Cert.Spec.idxRow 0 e := by
  funext i
  obtain ⟨k, rfl⟩ : ∃ k : Fin E, i = ix1 k := ⟨i 0, eq_ix1 i⟩
  rw [shapeCast_1a_a_apply, slice2_axis0_apply 0 e h (0 : Fin 1) k (0 : Fin 2) rfl]
  rfl

/-- The second row of the table, sliced off and flattened. -/
theorem idxRow1_eq {E : Nat} (h : (⟨2, ![2, E]⟩ : Shape).Slices ![1, 0] ⟨2, ![1, E]⟩)
    (hc : (⟨2, ![1, E]⟩ : Shape).ShapeCasts ⟨1, ![E]⟩) (e : IVec ⟨2, ![2, E]⟩ 32) :
    shapeCast ⟨1, ![E]⟩ (extractStridedSlice ⟨2, ![1, E]⟩ ![1, 0] e h) hc = Cert.Spec.idxRow 1 e := by
  funext i
  obtain ⟨k, rfl⟩ : ∃ k : Fin E, i = ix1 k := ⟨i 0, eq_ix1 i⟩
  rw [shapeCast_1a_a_apply, slice2_axis0_apply 1 e h (0 : Fin 1) k (1 : Fin 2) rfl]
  rfl

/-! ## The perceptrons, over variable operands -/

/-- Two affine layers with the rectifier between: the embedding. -/
theorem mlp2_eq {R K H C : Nat}
    (d0 : DotDims ⟨2, ![R, K]⟩ ⟨2, ![K, H]⟩ ⟨2, ![R, H]⟩)
    (hl0 : d0.lhsContracting = [1]) (hr0 : d0.rhsContracting = [0]) (hln0 : d0.lhsNonContracting = [0])
    (hrn0 : d0.rhsNonContracting = [1]) (hlb0 : d0.lhsBatch = []) (hrb0 : d0.rhsBatch = [])
    (d1 : DotDims ⟨2, ![R, H]⟩ ⟨2, ![H, C]⟩ ⟨2, ![R, C]⟩)
    (hl1 : d1.lhsContracting = [1]) (hr1 : d1.rhsContracting = [0]) (hln1 : d1.lhsNonContracting = [0])
    (hrn1 : d1.rhsNonContracting = [1]) (hlb1 : d1.lhsBatch = []) (hrb1 : d1.rhsBatch = [])
    (p0 : (⟨1, ![H]⟩ : Shape).BroadcastsInDim ⟨2, ![1, H]⟩ ![1])
    (q0 : (⟨2, ![1, H]⟩ : Shape).BroadcastsInDim ⟨2, ![R, H]⟩ ![0, 1])
    (z0 : (⟨0, ![]⟩ : Shape).BroadcastsInDim ⟨2, ![R, H]⟩ ![])
    (p1 : (⟨1, ![C]⟩ : Shape).BroadcastsInDim ⟨2, ![1, C]⟩ ![1])
    (q1 : (⟨2, ![1, C]⟩ : Shape).BroadcastsInDim ⟨2, ![R, C]⟩ ![0, 1])
    (x : Mat R K) (w0 : Mat K H) (b0 : Vc H) (w1 : Mat H C) (b1 : Vc C) :
    addf (F := Ideal) (φ := .f32) (Host.dotGeneral (F := Ideal) (φ₁ := .f32) (φ₂ := .f32) d1 none
        (maximumf (F := Ideal) (φ := .f32)
          (addf (F := Ideal) (φ := .f32) (Host.dotGeneral (F := Ideal) (φ₁ := .f32) (φ₂ := .f32) d0 none x w0)
            (broadcastInDim ⟨2, ![R, H]⟩ ![0, 1] q0 (broadcastInDim ⟨2, ![1, H]⟩ ![1] p0 b0)))
          (broadcastInDim ⟨2, ![R, H]⟩ ![] z0 (constant (F := Ideal) ⟨0, ![]⟩ .f32 0x00000000#32))) w1)
        (broadcastInDim ⟨2, ![R, C]⟩ ![0, 1] q1 (broadcastInDim ⟨2, ![1, C]⟩ ![1] p1 b1))
      = Cert.Spec.mlp2 x w0 (Cert.Spec.row b0) w1 (Cert.Spec.row b1) := by
  rw [affine_eq d0 hl0 hr0 hln0 hrn0 hlb0 hrb0, relu_eq, affine_eq d1 hl1 hr1 hln1 hrn1 hlb1 hrb1]
  rfl

/-- Three affine layers with the rectifier between: the classifier. -/
theorem classify_eq {R K H G C : Nat}
    (d0 : DotDims ⟨2, ![R, K]⟩ ⟨2, ![K, H]⟩ ⟨2, ![R, H]⟩)
    (hl0 : d0.lhsContracting = [1]) (hr0 : d0.rhsContracting = [0]) (hln0 : d0.lhsNonContracting = [0])
    (hrn0 : d0.rhsNonContracting = [1]) (hlb0 : d0.lhsBatch = []) (hrb0 : d0.rhsBatch = [])
    (d1 : DotDims ⟨2, ![R, H]⟩ ⟨2, ![H, G]⟩ ⟨2, ![R, G]⟩)
    (hl1 : d1.lhsContracting = [1]) (hr1 : d1.rhsContracting = [0]) (hln1 : d1.lhsNonContracting = [0])
    (hrn1 : d1.rhsNonContracting = [1]) (hlb1 : d1.lhsBatch = []) (hrb1 : d1.rhsBatch = [])
    (d2 : DotDims ⟨2, ![R, G]⟩ ⟨2, ![G, C]⟩ ⟨2, ![R, C]⟩)
    (hl2 : d2.lhsContracting = [1]) (hr2 : d2.rhsContracting = [0]) (hln2 : d2.lhsNonContracting = [0])
    (hrn2 : d2.rhsNonContracting = [1]) (hlb2 : d2.lhsBatch = []) (hrb2 : d2.rhsBatch = [])
    (p0 : (⟨1, ![H]⟩ : Shape).BroadcastsInDim ⟨2, ![1, H]⟩ ![1])
    (q0 : (⟨2, ![1, H]⟩ : Shape).BroadcastsInDim ⟨2, ![R, H]⟩ ![0, 1])
    (z0 : (⟨0, ![]⟩ : Shape).BroadcastsInDim ⟨2, ![R, H]⟩ ![])
    (p1 : (⟨1, ![G]⟩ : Shape).BroadcastsInDim ⟨2, ![1, G]⟩ ![1])
    (q1 : (⟨2, ![1, G]⟩ : Shape).BroadcastsInDim ⟨2, ![R, G]⟩ ![0, 1])
    (z1 : (⟨0, ![]⟩ : Shape).BroadcastsInDim ⟨2, ![R, G]⟩ ![])
    (p2 : (⟨1, ![C]⟩ : Shape).BroadcastsInDim ⟨2, ![1, C]⟩ ![1])
    (q2 : (⟨2, ![1, C]⟩ : Shape).BroadcastsInDim ⟨2, ![R, C]⟩ ![0, 1])
    (ef : Mat R K) (w0 : Mat K H) (b0 : Vc H) (w1 : Mat H G) (b1 : Vc G) (w2 : Mat G C) (b2 : Vc C) :
    addf (F := Ideal) (φ := .f32) (Host.dotGeneral (F := Ideal) (φ₁ := .f32) (φ₂ := .f32) d2 none
        (maximumf (F := Ideal) (φ := .f32)
          (addf (F := Ideal) (φ := .f32) (Host.dotGeneral (F := Ideal) (φ₁ := .f32) (φ₂ := .f32) d1 none
              (maximumf (F := Ideal) (φ := .f32)
                (addf (F := Ideal) (φ := .f32) (Host.dotGeneral (F := Ideal) (φ₁ := .f32) (φ₂ := .f32) d0 none ef w0)
                  (broadcastInDim ⟨2, ![R, H]⟩ ![0, 1] q0 (broadcastInDim ⟨2, ![1, H]⟩ ![1] p0 b0)))
                (broadcastInDim ⟨2, ![R, H]⟩ ![] z0 (constant (F := Ideal) ⟨0, ![]⟩ .f32 0x00000000#32))) w1)
            (broadcastInDim ⟨2, ![R, G]⟩ ![0, 1] q1 (broadcastInDim ⟨2, ![1, G]⟩ ![1] p1 b1)))
          (broadcastInDim ⟨2, ![R, G]⟩ ![] z1 (constant (F := Ideal) ⟨0, ![]⟩ .f32 0x00000000#32))) w2)
        (broadcastInDim ⟨2, ![R, C]⟩ ![0, 1] q2 (broadcastInDim ⟨2, ![1, C]⟩ ![1] p2 b2))
      = Cert.Spec.classify ef w0 (Cert.Spec.row b0) w1 (Cert.Spec.row b1) w2 (Cert.Spec.row b2) := by
  rw [affine_eq d0 hl0 hr0 hln0 hrn0 hlb0 hrb0, relu_eq, affine_eq d1 hl1 hr1 hln1 hrn1 hlb1 hrb1, relu_eq,
    affine_eq d2 hl2 hr2 hln2 hrn2 hlb2 hrb2]
  rfl

/-! ## One round of message passing, over variable operands -/

/-- One round as the reference spells it — the two tables set beside their embeddings, the rows of the node table
    gathered at the targets and at the sources, two rectified affine layers on the three side by side, one rectified
    affine layer on the target rows beside the new edge features, the messages summed into the nodes — is the round
    of the network. Every intermediate array is a variable with the operation that makes it as a hypothesis. -/
theorem round_eq {nf0 nf nf' : Mat 20000 128} {ef0 ef ef' msg : Mat 100000 128} {i3 i1 : IVec S100000 32}
    {nfc : Mat 20000 256} {efc xi xj : Mat 100000 256}
    {mew0 : Mat 768 64} {meb0 : Vc 64} {mew1 : Mat 64 128} {meb1 : Vc 128} {mnw0 : Mat 384 128} {mnb0 : Vc 128}
    (hnfc : nfc = concatenate S20000x256 1 [⟨S20000x128, nf0⟩, ⟨S20000x128, nf⟩]
      concatenates_S20000x128_S20000x128_S20000x256_d1)
    (hefc : efc = concatenate S100000x256 1 [⟨S100000x128, ef0⟩, ⟨S100000x128, ef⟩]
      concatenates_S100000x128_S100000x128_S100000x256_d1)
    (hxi : xi = gR nfc (nrmIdxR i3)) (hxj : xj = gR nfc (nrmIdxR i1))
    (hef : ef' = maximumf (F := Ideal) (addf (F := Ideal)
        (Host.dotGeneral (F := Ideal) (φ₁ := .f32) (φ₂ := .f32) dot_S100000x64_S64x128_S100000x128_1_0_0_1_n_n none
          (maximumf (F := Ideal) (addf (F := Ideal)
              (Host.dotGeneral (F := Ideal) (φ₁ := .f32) (φ₂ := .f32) dot_S100000x768_S768x64_S100000x64_1_0_0_1_n_n none
                (concatenate S100000x768 1 [⟨S100000x256, xi⟩, ⟨S100000x256, xj⟩, ⟨S100000x256, efc⟩]
                  concatenates_S100000x256_S100000x256_S100000x256_S100000x768_d1) mew0)
              (broadcastInDim S100000x64 ![0, 1] bcast_S1x64_S100000x64_0_1 (broadcastInDim S1x64 ![1] bcast_S64_S1x64_1 meb0)))
            (broadcastInDim S100000x64 ![] bcast_S_S100000x64 (constant (F := Ideal) S_ .f32 0x00000000#32))) mew1)
        (broadcastInDim S100000x128 ![0, 1] bcast_S1x128_S100000x128_0_1 (broadcastInDim S1x128 ![1] bcast_S128_S1x128_1 meb1)))
      (broadcastInDim S100000x128 ![] bcast_S_S100000x128 (constant (F := Ideal) S_ .f32 0x00000000#32)))
    (hmsg : msg = maximumf (F := Ideal) (addf (F := Ideal)
        (Host.dotGeneral (F := Ideal) (φ₁ := .f32) (φ₂ := .f32) dot_S100000x384_S384x128_S100000x128_1_0_0_1_n_n none
          (concatenate S100000x384 1 [⟨S100000x256, xi⟩, ⟨S100000x128, ef'⟩] concatenates_S100000x256_S100000x128_S100000x384_d1) mnw0)
        (broadcastInDim S100000x128 ![0, 1] bcast_S1x128_S100000x128_0_1 (broadcastInDim S1x128 ![1] bcast_S128_S1x128_1 mnb0)))
      (broadcastInDim S100000x128 ![] bcast_S_S100000x128 (constant (F := Ideal) S_ .f32 0x00000000#32)))
    (hnf : nf' = scR (colIdxR i3) msg) :
    (nf', ef') = Spec.step gR scR nf0 ef0 (nrmIdxR i3) (nrmIdxR i1) (colIdxR i3) mew0 (Spec.row meb0) mew1 (Spec.row meb1)
      mnw0 (Spec.row mnb0) (nf, ef) := by
  subst hnf hmsg hef hxi hxj hefc hnfc
  rw [concat2_eq concatenates_S20000x128_S20000x128_S20000x256_d1,
    concat2_eq concatenates_S100000x128_S100000x128_S100000x256_d1,
    concat3_eq concatenates_S100000x256_S100000x256_S100000x256_S100000x768_d1,
    affine_eq dot_S100000x768_S768x64_S100000x64_1_0_0_1_n_n rfl rfl rfl rfl rfl rfl, relu_eq,
    affine_eq dot_S100000x64_S64x128_S100000x128_1_0_0_1_n_n rfl rfl rfl rfl rfl rfl, relu_eq,
    concat2_eq concatenates_S100000x256_S100000x128_S100000x384_d1,
    affine_eq dot_S100000x384_S384x128_S100000x128_1_0_0_1_n_n rfl rfl rfl rfl rfl rfl, relu_eq]
  rfl

end Cert.ReferenceIdeal.RefStages

end
-- ==== Proof.RefVals.lean ====
/-
  The reference's buffer contents after each chunk of its operations: the launch contents, then the contents after
  the embeddings, after each of the four rounds, and after the classifier — which are the contents after the whole
  program.
-/
import proofs.«403211_j60627758350346_1_alg».proof.Proof.RefRun
import Idealize.ShloMosaic.PureOps.Ideal
import Idealize.ShloMosaic.Lib.Pipeline.Frame

noncomputable section

namespace Cert.ReferenceIdeal.RefVals

open Cert.ReferenceIdeal Cert.ReferenceIdeal.RefRun Idealize.ShloMosaic Idealize.ShloMosaic.TcCoe Idealize.SL.Sem Idealize.ShloMosaic.StableHlo

variable (m : (ℓ : Loc nD τ sig) → Buf (Elt Ideal) ℓ) (c : Dev nD)

/-- The contents after the index rows and the two embeddings. -/
def RE : Valuation τ sig (Elt Ideal) := after opsE (launchContents m c)
/-- The contents after round 1. -/
def R1 : Valuation τ sig (Elt Ideal) := after opsR1 (RE m c)
/-- The contents after round 2. -/
def R2 : Valuation τ sig (Elt Ideal) := after opsR2 (R1 m c)
/-- The contents after round 3. -/
def R3 : Valuation τ sig (Elt Ideal) := after opsR3 (R2 m c)
/-- The contents after round 4. -/
def R4 : Valuation τ sig (Elt Ideal) := after opsR4 (R3 m c)
/-- The contents after the classifier. -/
def RC : Valuation τ sig (Elt Ideal) := after opsC (R4 m c)

theorem RE_eq : RE m c = after opsE (launchContents m c) := rfl
theorem R1_eq : R1 m c = after opsR1 (RE m c) := rfl
theorem R2_eq : R2 m c = after opsR2 (R1 m c) := rfl
theorem R3_eq : R3 m c = after opsR3 (R2 m c) := rfl
theorem R4_eq : R4 m c = after opsR4 (R3 m c) := rfl
theorem RC_eq : RC m c = after opsC (R4 m c) := rfl

/-- The contents after the whole program are the contents after the last chunk. -/
theorem after_ops_eq : after (ops (F := Ideal)) (launchContents m c) = RC m c := by
  rw [ops_split]
  simp only [StableHlo.after_append]
  rfl

end Cert.ReferenceIdeal.RefVals

end
-- ==== Proof.LibKeep.lean ====
/-
  A buffer that no operation of a host stretch writes keeps its contents across the stretch.
-/
import Idealize.ShloMosaic.Lib.StableHlo.Run

namespace Cert.LibKeep

open Idealize.ShloMosaic

/-- Closes `after ops X (devRef b) = X (devRef b)` for a literal list `ops` (named by the identifier given) none of
    whose operations writes `b`: each operation writes one literal reference, and it differs from `b`. -/
macro "kept_host" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

end Cert.LibKeep
-- ==== Proof.LibTypedRef.lean ====
/-
  Typed references to host buffers: contents moved to a reference's own buffer type and back are unchanged.
-/
import Idealize.ShloMosaic.Lib.StableHlo

noncomputable section

namespace Cert.LibTypedRef

open Idealize.ShloMosaic

/-- Contents at a value's type, moved to the typed reference's buffer type and back, are the contents: the two moves
    are transports along one equation and its inverse. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

end Cert.LibTypedRef

end
-- ==== Proof.RefEmbed.lean ====
/-
  The contents after the first stretch of the reference's operations: the two rows of index words, and the node
  and edge embeddings, each two affine layers with the rectifier between, of the launch contents of the arguments.
-/
import proofs.«403211_j60627758350346_1_alg».proof.Proof.RefStages
import proofs.«403211_j60627758350346_1_alg».proof.Proof.RefVals
import proofs.«403211_j60627758350346_1_alg».proof.Proof.LibKeep
import proofs.«403211_j60627758350346_1_alg».proof.Proof.LibTypedRef

noncomputable section

namespace Cert.ReferenceIdeal.RefEmbed

open Cert.ReferenceIdeal Cert.ReferenceIdeal.Gen Cert.ReferenceIdeal.RefRun Cert.ReferenceIdeal.RefVals Cert.ReferenceIdeal.RefStages
open Idealize.ShloMosaic Idealize.ShloMosaic.TcCoe Idealize.SL.Sem Idealize.ShloMosaic.StableHlo

variable (m : (ℓ : Loc nD τ sig) → Buf (Elt Ideal) ℓ) (c : Dev nD)

set_option maxHeartbeats 1000000 in
/-- The source index words: the first row of the table, sliced off and flattened. -/
theorem j_at_RE : RE m c (Proc.devRef .tc main_v1) = Cert.Spec.idxRow 0 (m ((c.tc : Thread nD τ).loc main_arg2)) := by
  rw [RE_eq]
  after_results_simp
  exact idxRow0_eq _ _ _

set_option maxHeartbeats 1000000 in
/-- The target index words: the second row of the table. -/
theorem i_at_RE : RE m c (Proc.devRef .tc main_v3) = Cert.Spec.idxRow 1 (m ((c.tc : Thread nD τ).loc main_arg2)) := by
  rw [RE_eq]
  after_results_simp
  exact idxRow1_eq _ _ _

set_option maxHeartbeats 1000000 in
/-- The node embedding. The rectifier's operands and result pass through their buffers' own types unchanged. -/
theorem nf0_at_RE : RE m c (Proc.devRef .tc main_v12)
    = Cert.Spec.mlp2 (m ((c.tc : Thread nD τ).loc main_arg0)) (m ((c.tc : Thread nD τ).loc main_arg3)) (Cert.Spec.row (m ((c.tc : Thread nD τ).loc main_arg4))) (m ((c.tc : Thread nD τ).loc main_arg5)) (Cert.Spec.row (m ((c.tc : Thread nD τ).loc main_arg6))) := by
  rw [RE_eq]
  after_results_simp
  exact mlp2_eq dot_S20000x128_S128x128_S20000x128_1_0_0_1_n_n rfl rfl rfl rfl rfl rfl
    dot_S20000x128_S128x128_S20000x128_1_0_0_1_n_n rfl rfl rfl rfl rfl rfl
    bcast_S128_S1x128_1 bcast_S1x128_S20000x128_0_1 bcast_S_S20000x128 bcast_S128_S1x128_1 bcast_S1x128_S20000x128_0_1
    (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))

set_option maxHeartbeats 1000000 in
/-- The edge embedding. -/
theorem ef0_at_RE : RE m c (Proc.devRef .tc main_v21)
    = Cert.Spec.mlp2 (m ((c.tc : Thread nD τ).loc main_arg1)) (m ((c.tc : Thread nD τ).loc main_arg7)) (Cert.Spec.row (m ((c.tc : Thread nD τ).loc main_arg8))) (m ((c.tc : Thread nD τ).loc main_arg9)) (Cert.Spec.row (m ((c.tc : Thread nD τ).loc main_arg10))) := by
  rw [RE_eq]
  after_results_simp
  exact mlp2_eq dot_S100000x291_S291x64_S100000x64_1_0_0_1_n_n rfl rfl rfl rfl rfl rfl
    dot_S100000x64_S64x128_S100000x128_1_0_0_1_n_n rfl rfl rfl rfl rfl rfl
    bcast_S64_S1x64_1 bcast_S1x64_S100000x64_0_1 bcast_S_S100000x64 bcast_S128_S1x128_1 bcast_S1x128_S100000x128_0_1
    (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10))

end Cert.ReferenceIdeal.RefEmbed

end
-- ==== Proof.RefClassify.lean ====
/-
  The contents after the last stretch of the reference's operations: the result is the classifier — three affine
  layers with the rectifier between — of the edge features the fourth round left and the last six arguments.
-/
import proofs.«403211_j60627758350346_1_alg».proof.Proof.RefStages
import proofs.«403211_j60627758350346_1_alg».proof.Proof.RefVals
import proofs.«403211_j60627758350346_1_alg».proof.Proof.LibKeep
import proofs.«403211_j60627758350346_1_alg».proof.Proof.LibTypedRef

noncomputable section

namespace Cert.ReferenceIdeal.RefClassify

open Cert.ReferenceIdeal Cert.ReferenceIdeal.Gen Cert.ReferenceIdeal.RefRun Cert.ReferenceIdeal.RefVals Cert.ReferenceIdeal.RefStages
open Idealize.ShloMosaic Idealize.ShloMosaic.TcCoe Idealize.SL.Sem Idealize.ShloMosaic.StableHlo
open Cert.Spec (Mat Vc)

variable (m : (ℓ : Loc nD τ sig) → Buf (Elt Ideal) ℓ) (c : Dev nD)

set_option maxHeartbeats 1000000 in
/-- The result buffer after the last stretch, from what the stretch finds in the edge features' buffer and in the
    classifier's six arguments. -/
theorem out_at_RC (EF : Mat 100000 128) (M17 : Mat 128 64) (B18 : Vc 64) (M19 : Mat 64 32) (B20 : Vc 32)
    (M21 : Mat 32 1) (B22 : Vc 1)
    (hef : R4 m c (Proc.devRef .tc main_v156) = EF)
    (h17 : R4 m c (Proc.devRef .tc main_arg17) = M17) (h18 : R4 m c (Proc.devRef .tc main_arg18) = B18)
    (h19 : R4 m c (Proc.devRef .tc main_arg19) = M19) (h20 : R4 m c (Proc.devRef .tc main_arg20) = B20)
    (h21 : R4 m c (Proc.devRef .tc main_arg21) = M21) (h22 : R4 m c (Proc.devRef .tc main_arg22) = B22) :
    RC m c (Proc.devRef .tc main_v179)
      = Cert.Spec.classify EF M17 (Cert.Spec.row B18) M19 (Cert.Spec.row B20) M21 (Cert.Spec.row B22) := by
  rw [RC_eq]
  after_results_simp
  rw [hef, h17, h18, h19, h20, h21, h22]
  exact classify_eq dot_S100000x128_S128x64_S100000x64_1_0_0_1_n_n rfl rfl rfl rfl rfl rfl
    dot_S100000x64_S64x32_S100000x32_1_0_0_1_n_n rfl rfl rfl rfl rfl rfl
    dot_S100000x32_S32x1_S100000x1_1_0_0_1_n_n rfl rfl rfl rfl rfl rfl
    bcast_S64_S1x64_1 bcast_S1x64_S100000x64_0_1 bcast_S_S100000x64
    bcast_S32_S1x32_1 bcast_S1x32_S100000x32_0_1 bcast_S_S100000x32
    bcast_S1_S1x1_1 bcast_S1x1_S100000x1_0_1
    EF M17 B18 M19 B20 M21 B22

end Cert.ReferenceIdeal.RefClassify

end
-- ==== Proof.RefRound1.lean ====
/-
  The first round of message passing in the reference, read off its 47 operations. Each of the round's seven arrays —
  the two embeddings set beside themselves, the node rows gathered at the targets and at the sources, the new edge
  features, the messages, the new node features — is the operation that makes it applied to the arrays before it;
  together they are the network's round started from the pair of embeddings.
-/
import proofs.«403211_j60627758350346_1_alg».proof.Proof.RefStages
import proofs.«403211_j60627758350346_1_alg».proof.Proof.RefVals
import proofs.«403211_j60627758350346_1_alg».proof.Proof.LibKeepAll
import proofs.«403211_j60627758350346_1_alg».proof.Proof.LibTypedRef
import Idealize.ShloMosaic.Lib.StableHlo.Run

noncomputable section

namespace Cert.ReferenceIdeal.RefRound1

open Cert.ReferenceIdeal Cert.ReferenceIdeal.Gen Cert.ReferenceIdeal.RefRun Cert.ReferenceIdeal.RefVals Cert.ReferenceIdeal.RefStages Cert.LibKeepAll
open Idealize.ShloMosaic Idealize.ShloMosaic.TcCoe Idealize.SL.Sem Idealize.ShloMosaic.StableHlo

variable (m : (ℓ : Loc nD τ sig) → Buf (Elt Ideal) ℓ) (c : Dev nD)

/-- An equation between a pair and a state, component by component (second, then first). -/
theorem components_of_pair {α β : Type} {a : α} {b : β} {s : α × β} (h : (a, b) = s) : b = s.2 ∧ a = s.1 := by
  subst h
  exact ⟨rfl, rfl⟩

/-! ## The round's seven arrays, read off its operations

  Over ANY contents `X` before the round's 47 operations: each of the seven arrays the round is made of, as the
  operations that make it, applied to the arrays made before it in the round and to the contents `X` of the buffers
  the round only reads (the two embeddings, the two rows of index words, the six weight and bias arrays). -/

section Reads

variable (X : Valuation τ sig (Elt Ideal))

/-- The node embedding set beside itself. -/
theorem read_nodes_beside : after (opsR1 (F := Ideal)) X (Proc.devRef .tc main_v22)
    = concatenate S20000x256 1 [⟨S20000x128, X (Proc.devRef .tc main_v12)⟩, ⟨S20000x128, X (Proc.devRef .tc main_v12)⟩]
        concatenates_S20000x128_S20000x128_S20000x256_d1 := by
  after_results_simp

/-- The edge embedding set beside itself. -/
theorem read_edges_beside : after (opsR1 (F := Ideal)) X (Proc.devRef .tc main_v23)
    = concatenate S100000x256 1 [⟨S100000x128, X (Proc.devRef .tc main_v21)⟩, ⟨S100000x128, X (Proc.devRef .tc main_v21)⟩]
        concatenates_S100000x128_S100000x128_S100000x256_d1 := by
  after_results_simp
  rfl

set_option maxHeartbeats 1000000 in
/-- The node rows gathered at the target index words (a negative word wrapped, the words set as a column). -/
theorem read_target_rows : after (opsR1 (F := Ideal)) X (Proc.devRef .tc main_v30)
    = gR (after (opsR1 (F := Ideal)) X (Proc.devRef .tc main_v22)) (nrmIdxR (X (Proc.devRef .tc main_v3))) := by
  after_results_simp
  rfl

set_option maxHeartbeats 1000000 in
/-- The node rows gathered at the source index words. -/
theorem read_source_rows : after (opsR1 (F := Ideal)) X (Proc.devRef .tc main_v37)
    = gR (after (opsR1 (F := Ideal)) X (Proc.devRef .tc main_v22)) (nrmIdxR (X (Proc.devRef .tc main_v1))) := by
  after_results_simp
  rfl

set_option maxHeartbeats 1000000 in
/-- The new edge features: two rectified affine layers on the target rows, the source rows and the edge features
    side by side. -/
theorem read_new_edges : after (opsR1 (F := Ideal)) X (Proc.devRef .tc main_v48)
    = maximumf (F := Ideal) (addf (F := Ideal)
        (Host.dotGeneral (F := Ideal) (φ₁ := .f32) (φ₂ := .f32) dot_S100000x64_S64x128_S100000x128_1_0_0_1_n_n none
          (maximumf (F := Ideal) (addf (F := Ideal)
              (Host.dotGeneral (F := Ideal) (φ₁ := .f32) (φ₂ := .f32) dot_S100000x768_S768x64_S100000x64_1_0_0_1_n_n none
                (concatenate S100000x768 1 [⟨S100000x256, after (opsR1 (F := Ideal)) X (Proc.devRef .tc main_v30)⟩, ⟨S100000x256, after (opsR1 (F := Ideal)) X (Proc.devRef .tc main_v37)⟩, ⟨S100000x256, after (opsR1 (F := Ideal)) X (Proc.devRef .tc main_v23)⟩]
                  concatenates_S100000x256_S100000x256_S100000x256_S100000x768_d1) (X (Proc.devRef .tc main_arg11)))
              (broadcastInDim S100000x64 ![0, 1] bcast_S1x64_S100000x64_0_1 (broadcastInDim S1x64 ![1] bcast_S64_S1x64_1 (X (Proc.devRef .tc main_arg12)))))
            (broadcastInDim S100000x64 ![] bcast_S_S100000x64 (constant (F := Ideal) S_ .f32 0x00000000#32))) (X (Proc.devRef .tc main_arg13)))
        (broadcastInDim S100000x128 ![0, 1] bcast_S1x128_S100000x128_0_1 (broadcastInDim S1x128 ![1] bcast_S128_S1x128_1 (X (Proc.devRef .tc main_arg14)))))
      (broadcastInDim S100000x128 ![] bcast_S_S100000x128 (constant (F := Ideal) S_ .f32 0x00000000#32)) := by
  after_results_simp
  simp only [Cert.LibTypedRef.ofBuf_toBuf]
  rfl

set_option maxHeartbeats 1000000 in
/-- The messages: one rectified affine layer on the target rows beside the new edge features. -/
theorem read_messages : after (opsR1 (F := Ideal)) X (Proc.devRef .tc main_v54)
    = maximumf (F := Ideal) (addf (F := Ideal)
        (Host.dotGeneral (F := Ideal) (φ₁ := .f32) (φ₂ := .f32) dot_S100000x384_S384x128_S100000x128_1_0_0_1_n_n none
          (concatenate S100000x384 1 [⟨S100000x256, after (opsR1 (F := Ideal)) X (Proc.devRef .tc main_v30)⟩, ⟨S100000x128, after (opsR1 (F := Ideal)) X (Proc.devRef .tc main_v48)⟩] concatenates_S100000x256_S100000x128_S100000x384_d1) (X (Proc.devRef .tc main_arg15)))
        (broadcastInDim S100000x128 ![0, 1] bcast_S1x128_S100000x128_0_1 (broadcastInDim S1x128 ![1] bcast_S128_S1x128_1 (X (Proc.devRef .tc main_arg16)))))
      (broadcastInDim S100000x128 ![] bcast_S_S100000x128 (constant (F := Ideal) S_ .f32 0x00000000#32)) := by
  after_results_simp
  simp only [Cert.LibTypedRef.ofBuf_toBuf]
  rfl

set_option maxHeartbeats 1000000 in
/-- The new node features: the messages summed into the zero table at the target index words set as a column. -/
theorem read_new_nodes : after (opsR1 (F := Ideal)) X (Proc.devRef .tc main_v57)
    = scR (colIdxR (X (Proc.devRef .tc main_v3))) (after (opsR1 (F := Ideal)) X (Proc.devRef .tc main_v54)) := by
  after_results_simp
  simp only [Cert.LibTypedRef.ofBuf_toBuf]
  rfl

/-- The round's two results, over any contents before it: the network's round, started from the pair of embeddings,
    at the gathers, the sums into nodes and the index layouts the reference spells. -/
theorem round_over : ((after (opsR1 (F := Ideal)) X (Proc.devRef .tc main_v57) : Cert.Spec.Mat 20000 128), (after (opsR1 (F := Ideal)) X (Proc.devRef .tc main_v48) : Cert.Spec.Mat 100000 128))
    = Cert.Spec.step gR scR (X (Proc.devRef .tc main_v12)) (X (Proc.devRef .tc main_v21)) (nrmIdxR (X (Proc.devRef .tc main_v3))) (nrmIdxR (X (Proc.devRef .tc main_v1)))
        (colIdxR (X (Proc.devRef .tc main_v3))) (X (Proc.devRef .tc main_arg11)) (Cert.Spec.row (X (Proc.devRef .tc main_arg12))) (X (Proc.devRef .tc main_arg13))
        (Cert.Spec.row (X (Proc.devRef .tc main_arg14))) (X (Proc.devRef .tc main_arg15)) (Cert.Spec.row (X (Proc.devRef .tc main_arg16)))
        (X (Proc.devRef .tc main_v12), X (Proc.devRef .tc main_v21)) :=
  round_eq (read_nodes_beside X) (read_edges_beside X) (read_target_rows X) (read_source_rows X) (read_new_edges X)
    (read_messages X) (read_new_nodes X)

end Reads

/-- Round 1 of message passing in the reference: what the round's operations leave, from what the operations
    before them left. -/
theorem round1 (NF0 : Cert.Spec.Mat 20000 128) (EF0 : Cert.Spec.Mat 100000 128) (I J : IVec S100000 32)
    (M11 : Cert.Spec.Mat 768 64) (B12 : Cert.Spec.Vc 64) (M13 : Cert.Spec.Mat 64 128) (B14 : Cert.Spec.Vc 128)
    (M15 : Cert.Spec.Mat 384 128) (B16 : Cert.Spec.Vc 128)
    (h12 : RE m c (Proc.devRef .tc main_v12) = NF0) (h21 : RE m c (Proc.devRef .tc main_v21) = EF0)
    (h3 : RE m c (Proc.devRef .tc main_v3) = I) (h1 : RE m c (Proc.devRef .tc main_v1) = J)
    (h11 : RE m c (Proc.devRef .tc main_arg11) = M11) (hb12 : RE m c (Proc.devRef .tc main_arg12) = B12)
    (h13 : RE m c (Proc.devRef .tc main_arg13) = M13) (h14 : RE m c (Proc.devRef .tc main_arg14) = B14)
    (h15 : RE m c (Proc.devRef .tc main_arg15) = M15) (h16 : RE m c (Proc.devRef .tc main_arg16) = B16) :
    R1 m c (Proc.devRef .tc main_v48)
        = (Cert.Spec.step gR scR NF0 EF0 (nrmIdxR I) (nrmIdxR J) (colIdxR I) M11 (Cert.Spec.row B12) M13 (Cert.Spec.row B14) M15 (Cert.Spec.row B16) (NF0, EF0)).2
      ∧ R1 m c (Proc.devRef .tc main_v57)
        = (Cert.Spec.step gR scR NF0 EF0 (nrmIdxR I) (nrmIdxR J) (colIdxR I) M11 (Cert.Spec.row B12) M13 (Cert.Spec.row B14) M15 (Cert.Spec.row B16) (NF0, EF0)).1 := by
  rw [R1_eq]
  have h := round_over (RE m c)
  rw [h12, h21, h3, h1, h11, hb12, h13, h14, h15, h16] at h
  exact components_of_pair h

end Cert.ReferenceIdeal.RefRound1

end
-- ==== Proof.RefRound2.lean ====
/-
  One round of message passing in the reference program, read as the network's round. The round's operations join
  the node embedding with the previous node features and the edge embedding with the previous edge features, gather
  the joined node rows at the target and at the source index words, pass the three side by side through two rectified
  affine layers (the new edge features), pass the target rows beside the new edge features through one rectified
  affine layer (the messages), and sum the messages into their target nodes (the new node features). Each of these
  arrays is read off the operations for any starting contents; together they are the two components of the network's
  round at the previous round's results.
-/
import proofs.«403211_j60627758350346_1_alg».proof.Proof.RefStages
import proofs.«403211_j60627758350346_1_alg».proof.Proof.RefVals
import proofs.«403211_j60627758350346_1_alg».proof.Proof.LibKeepAll
import proofs.«403211_j60627758350346_1_alg».proof.Proof.LibTypedRef
import Idealize.ShloMosaic.Lib.StableHlo.Run

noncomputable section

namespace Cert.ReferenceIdeal.RefRound2

open Cert.ReferenceIdeal Cert.ReferenceIdeal.Gen Cert.ReferenceIdeal.RefRun Cert.ReferenceIdeal.RefVals Cert.ReferenceIdeal.RefStages Cert.LibKeepAll
open Idealize.ShloMosaic Idealize.ShloMosaic.TcCoe Idealize.SL.Sem Idealize.ShloMosaic.StableHlo

/-! ## The round's arrays, read off its operations

  Each is stated for any contents `X` the round's operations start from: the array after the operations is the
  operation that makes it, of earlier arrays of the round or of `X`'s. -/

section Reads

variable (X : Valuation τ sig (Elt Ideal))

/-- The round's one joining of three arrays, read at its result: the three side by side. -/
theorem join3_result (F : Valuation τ sig (Elt Ideal))
    (f : ((k : Fin 3) → ((![main_v66, main_v73, main_v59] : Fin 3 → Ref sig .tc) k).ty.Contents (Elt Ideal)) → main_v74.ty.Contents (Elt Ideal))
    (hxs hy)
    (hf : f = fun u => concatenate S100000x768 1 [⟨S100000x256, u 0⟩, ⟨S100000x256, u 1⟩, ⟨S100000x256, u 2⟩]
      concatenates_S100000x256_S100000x256_S100000x256_S100000x768_d1) :
    (nary (τ := τ) ![main_v66, main_v73, main_v59] main_v74 f hxs hy).result F (no_index (Proc.devRef .tc main_v74))
      = Cert.Spec.cat3 768 (F (Proc.devRef .tc main_v66) : Cert.Spec.Mat 100000 256)
          (F (Proc.devRef .tc main_v73) : Cert.Spec.Mat 100000 256) (F (Proc.devRef .tc main_v59) : Cert.Spec.Mat 100000 256) := by
  subst hf
  exact (nary_result _ _ _ hxs hy F).trans (concat3_eq _ _ _ _)

set_option maxHeartbeats 1000000 in
/-- The joined node features: the node embedding beside the previous node features. -/
theorem nfc_read : (after opsR2 X (Proc.devRef .tc main_v58) : Cert.Spec.Mat 20000 256)
    = concatenate S20000x256 1 [⟨S20000x128, (X (Proc.devRef .tc main_v12) : Cert.Spec.Mat 20000 128)⟩, ⟨S20000x128, (X (Proc.devRef .tc main_v57) : Cert.Spec.Mat 20000 128)⟩]
        concatenates_S20000x128_S20000x128_S20000x256_d1 := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  exact (concat2_eq _ _ _).symm

set_option maxHeartbeats 1000000 in
/-- The joined edge features: the edge embedding beside the previous edge features. -/
theorem efc_read : (after opsR2 X (Proc.devRef .tc main_v59) : Cert.Spec.Mat 100000 256)
    = concatenate S100000x256 1 [⟨S100000x128, (X (Proc.devRef .tc main_v21) : Cert.Spec.Mat 100000 128)⟩, ⟨S100000x128, (X (Proc.devRef .tc main_v48) : Cert.Spec.Mat 100000 128)⟩]
        concatenates_S100000x128_S100000x128_S100000x256_d1 := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  exact (concat2_eq _ _ _).symm

set_option maxHeartbeats 1000000 in
/-- The target rows: the joined node features gathered at the wrapped target index words. -/
theorem xi_read : (after opsR2 X (Proc.devRef .tc main_v66) : Cert.Spec.Mat 100000 256) = gR (after opsR2 X (Proc.devRef .tc main_v58) : Cert.Spec.Mat 20000 256) (nrmIdxR (X (Proc.devRef .tc main_v3) : IVec S100000 32)) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

set_option maxHeartbeats 1000000 in
/-- The source rows: the joined node features gathered at the wrapped source index words. -/
theorem xj_read : (after opsR2 X (Proc.devRef .tc main_v73) : Cert.Spec.Mat 100000 256) = gR (after opsR2 X (Proc.devRef .tc main_v58) : Cert.Spec.Mat 20000 256) (nrmIdxR (X (Proc.devRef .tc main_v1) : IVec S100000 32)) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

set_option maxHeartbeats 1000000 in
/-- The new edge features: two rectified affine layers on the target rows, the source rows and the joined edge
    features side by side. -/
theorem ef_read : (after opsR2 X (Proc.devRef .tc main_v84) : Cert.Spec.Mat 100000 128)
    = maximumf (F := Ideal) (addf (F := Ideal)
        (Host.dotGeneral (F := Ideal) (φ₁ := .f32) (φ₂ := .f32) dot_S100000x64_S64x128_S100000x128_1_0_0_1_n_n none
          (maximumf (F := Ideal) (addf (F := Ideal)
              (Host.dotGeneral (F := Ideal) (φ₁ := .f32) (φ₂ := .f32) dot_S100000x768_S768x64_S100000x64_1_0_0_1_n_n none
                (concatenate S100000x768 1 [⟨S100000x256, (after opsR2 X (Proc.devRef .tc main_v66) : Cert.Spec.Mat 100000 256)⟩,
                    ⟨S100000x256, (after opsR2 X (Proc.devRef .tc main_v73) : Cert.Spec.Mat 100000 256)⟩,
                    ⟨S100000x256, (after opsR2 X (Proc.devRef .tc main_v59) : Cert.Spec.Mat 100000 256)⟩]
                  concatenates_S100000x256_S100000x256_S100000x256_S100000x768_d1) (X (Proc.devRef .tc main_arg11) : Cert.Spec.Mat 768 64))
              (broadcastInDim S100000x64 ![0, 1] bcast_S1x64_S100000x64_0_1
                (broadcastInDim S1x64 ![1] bcast_S64_S1x64_1 (X (Proc.devRef .tc main_arg12) : Cert.Spec.Vc 64))))
            (broadcastInDim S100000x64 ![] bcast_S_S100000x64 (constant (F := Ideal) S_ .f32 0x00000000#32))) (X (Proc.devRef .tc main_arg13) : Cert.Spec.Mat 64 128))
        (broadcastInDim S100000x128 ![0, 1] bcast_S1x128_S100000x128_0_1
          (broadcastInDim S1x128 ![1] bcast_S128_S1x128_1 (X (Proc.devRef .tc main_arg14) : Cert.Spec.Vc 128))))
      (broadcastInDim S100000x128 ![] bcast_S_S100000x128 (constant (F := Ideal) S_ .f32 0x00000000#32)) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

set_option maxHeartbeats 1000000 in
/-- The messages: one rectified affine layer on the target rows beside the new edge features. -/
theorem msg_read : (after opsR2 X (Proc.devRef .tc main_v90) : Cert.Spec.Mat 100000 128)
    = maximumf (F := Ideal) (addf (F := Ideal)
        (Host.dotGeneral (F := Ideal) (φ₁ := .f32) (φ₂ := .f32) dot_S100000x384_S384x128_S100000x128_1_0_0_1_n_n none
          (concatenate S100000x384 1 [⟨S100000x256, (after opsR2 X (Proc.devRef .tc main_v66) : Cert.Spec.Mat 100000 256)⟩,
              ⟨S100000x128, (after opsR2 X (Proc.devRef .tc main_v84) : Cert.Spec.Mat 100000 128)⟩]
            concatenates_S100000x256_S100000x128_S100000x384_d1) (X (Proc.devRef .tc main_arg15) : Cert.Spec.Mat 384 128))
        (broadcastInDim S100000x128 ![0, 1] bcast_S1x128_S100000x128_0_1
          (broadcastInDim S1x128 ![1] bcast_S128_S1x128_1 (X (Proc.devRef .tc main_arg16) : Cert.Spec.Vc 128))))
      (broadcastInDim S100000x128 ![] bcast_S_S100000x128 (constant (F := Ideal) S_ .f32 0x00000000#32)) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

set_option maxHeartbeats 1000000 in
/-- The new node features: the messages summed into the zero node table at the target index words. -/
theorem nf_read : (after opsR2 X (Proc.devRef .tc main_v93) : Cert.Spec.Mat 20000 128) = scR (colIdxR (X (Proc.devRef .tc main_v3) : IVec S100000 32)) (after opsR2 X (Proc.devRef .tc main_v90) : Cert.Spec.Mat 100000 128) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

/-- The two halves of an equation between a pair and a value of the product. -/
theorem pair_halves {α β : Type} {a : α} {b : β} {p : α × β} (h : (a, b) = p) : b = p.2 ∧ a = p.1 := by
  subst h
  exact ⟨rfl, rfl⟩

/-- The round's two results are the two components of the network's round of the contents the operations start
    from. -/
theorem round_read :
    (after opsR2 X (Proc.devRef .tc main_v84) : Cert.Spec.Mat 100000 128)
        = (Cert.Spec.step gR scR (X (Proc.devRef .tc main_v12) : Cert.Spec.Mat 20000 128) (X (Proc.devRef .tc main_v21) : Cert.Spec.Mat 100000 128) (nrmIdxR (X (Proc.devRef .tc main_v3) : IVec S100000 32))
          (nrmIdxR (X (Proc.devRef .tc main_v1) : IVec S100000 32)) (colIdxR (X (Proc.devRef .tc main_v3) : IVec S100000 32)) (X (Proc.devRef .tc main_arg11) : Cert.Spec.Mat 768 64)
          (Cert.Spec.row (X (Proc.devRef .tc main_arg12) : Cert.Spec.Vc 64)) (X (Proc.devRef .tc main_arg13) : Cert.Spec.Mat 64 128) (Cert.Spec.row (X (Proc.devRef .tc main_arg14) : Cert.Spec.Vc 128))
          (X (Proc.devRef .tc main_arg15) : Cert.Spec.Mat 384 128) (Cert.Spec.row (X (Proc.devRef .tc main_arg16) : Cert.Spec.Vc 128))
          ((X (Proc.devRef .tc main_v57) : Cert.Spec.Mat 20000 128), (X (Proc.devRef .tc main_v48) : Cert.Spec.Mat 100000 128))).2
      ∧ (after opsR2 X (Proc.devRef .tc main_v93) : Cert.Spec.Mat 20000 128)
        = (Cert.Spec.step gR scR (X (Proc.devRef .tc main_v12) : Cert.Spec.Mat 20000 128) (X (Proc.devRef .tc main_v21) : Cert.Spec.Mat 100000 128) (nrmIdxR (X (Proc.devRef .tc main_v3) : IVec S100000 32))
          (nrmIdxR (X (Proc.devRef .tc main_v1) : IVec S100000 32)) (colIdxR (X (Proc.devRef .tc main_v3) : IVec S100000 32)) (X (Proc.devRef .tc main_arg11) : Cert.Spec.Mat 768 64)
          (Cert.Spec.row (X (Proc.devRef .tc main_arg12) : Cert.Spec.Vc 64)) (X (Proc.devRef .tc main_arg13) : Cert.Spec.Mat 64 128) (Cert.Spec.row (X (Proc.devRef .tc main_arg14) : Cert.Spec.Vc 128))
          (X (Proc.devRef .tc main_arg15) : Cert.Spec.Mat 384 128) (Cert.Spec.row (X (Proc.devRef .tc main_arg16) : Cert.Spec.Vc 128))
          ((X (Proc.devRef .tc main_v57) : Cert.Spec.Mat 20000 128), (X (Proc.devRef .tc main_v48) : Cert.Spec.Mat 100000 128))).1 :=
  pair_halves (round_eq (nfc_read X) (efc_read X) (xi_read X) (xj_read X) (ef_read X) (msg_read X) (nf_read X))

end Reads

/-! ## The round -/

variable (m : (ℓ : Loc nD τ sig) → Buf (Elt Ideal) ℓ) (c : Dev nD)

/-- Round 2 of message passing in the reference: what the round's operations leave, from what the operations
    before them left. -/
theorem round2 (NF0 : Cert.Spec.Mat 20000 128) (EF0 : Cert.Spec.Mat 100000 128) (I J : IVec S100000 32) (S : Cert.Spec.St 20000 100000 128)
    (M11 : Cert.Spec.Mat 768 64) (B12 : Cert.Spec.Vc 64) (M13 : Cert.Spec.Mat 64 128) (B14 : Cert.Spec.Vc 128)
    (M15 : Cert.Spec.Mat 384 128) (B16 : Cert.Spec.Vc 128)
    (h12 : R1 m c (Proc.devRef .tc main_v12) = NF0) (h21 : R1 m c (Proc.devRef .tc main_v21) = EF0)
    (h3 : R1 m c (Proc.devRef .tc main_v3) = I) (h1 : R1 m c (Proc.devRef .tc main_v1) = J)
    (hef : R1 m c (Proc.devRef .tc main_v48) = S.2) (hnf : R1 m c (Proc.devRef .tc main_v57) = S.1)
    (h11 : R1 m c (Proc.devRef .tc main_arg11) = M11) (hb12 : R1 m c (Proc.devRef .tc main_arg12) = B12)
    (h13 : R1 m c (Proc.devRef .tc main_arg13) = M13) (h14 : R1 m c (Proc.devRef .tc main_arg14) = B14)
    (h15 : R1 m c (Proc.devRef .tc main_arg15) = M15) (h16 : R1 m c (Proc.devRef .tc main_arg16) = B16) :
    R2 m c (Proc.devRef .tc main_v84)
        = (Cert.Spec.step gR scR NF0 EF0 (nrmIdxR I) (nrmIdxR J) (colIdxR I) M11 (Cert.Spec.row B12) M13 (Cert.Spec.row B14) M15 (Cert.Spec.row B16) S).2
      ∧ R2 m c (Proc.devRef .tc main_v93)
        = (Cert.Spec.step gR scR NF0 EF0 (nrmIdxR I) (nrmIdxR J) (colIdxR I) M11 (Cert.Spec.row B12) M13 (Cert.Spec.row B14) M15 (Cert.Spec.row B16) S).1 := by
  have key := round_read (R1 m c)
  rw [h12, h21, h3, h1, h11, hb12, h13, h14, h15, h16, hnf, hef, Prod.mk.eta] at key
  rw [R2_eq]
  exact key

end Cert.ReferenceIdeal.RefRound2

end
-- ==== Proof.RefRound3.lean ====
/-
  One round of message passing in the reference program, read as the network's round. The round's operations join
  the node embedding with the previous node features and the edge embedding with the previous edge features, gather
  the joined node rows at the target and at the source index words, pass the three side by side through two rectified
  affine layers (the new edge features), pass the target rows beside the new edge features through one rectified
  affine layer (the messages), and sum the messages into their target nodes (the new node features). Each of these
  arrays is read off the operations for any starting contents; together they are the two components of the network's
  round at the previous round's results.
-/
import proofs.«403211_j60627758350346_1_alg».proof.Proof.RefStages
import proofs.«403211_j60627758350346_1_alg».proof.Proof.RefVals
import proofs.«403211_j60627758350346_1_alg».proof.Proof.LibKeepAll
import proofs.«403211_j60627758350346_1_alg».proof.Proof.LibTypedRef
import Idealize.ShloMosaic.Lib.StableHlo.Run

noncomputable section

namespace Cert.ReferenceIdeal.RefRound3

open Cert.ReferenceIdeal Cert.ReferenceIdeal.Gen Cert.ReferenceIdeal.RefRun Cert.ReferenceIdeal.RefVals Cert.ReferenceIdeal.RefStages Cert.LibKeepAll
open Idealize.ShloMosaic Idealize.ShloMosaic.TcCoe Idealize.SL.Sem Idealize.ShloMosaic.StableHlo

/-! ## The round's arrays, read off its operations

  Each is stated for any contents `X` the round's operations start from: the array after the operations is the
  operation that makes it, of earlier arrays of the round or of `X`'s. -/

section Reads

variable (X : Valuation τ sig (Elt Ideal))

/-- The round's one joining of three arrays, read at its result: the three side by side. -/
theorem join3_result (F : Valuation τ sig (Elt Ideal))
    (f : ((k : Fin 3) → ((![main_v102, main_v109, main_v95] : Fin 3 → Ref sig .tc) k).ty.Contents (Elt Ideal)) → main_v110.ty.Contents (Elt Ideal))
    (hxs hy)
    (hf : f = fun u => concatenate S100000x768 1 [⟨S100000x256, u 0⟩, ⟨S100000x256, u 1⟩, ⟨S100000x256, u 2⟩]
      concatenates_S100000x256_S100000x256_S100000x256_S100000x768_d1) :
    (nary (τ := τ) ![main_v102, main_v109, main_v95] main_v110 f hxs hy).result F (no_index (Proc.devRef .tc main_v110))
      = Cert.Spec.cat3 768 (F (Proc.devRef .tc main_v102) : Cert.Spec.Mat 100000 256)
          (F (Proc.devRef .tc main_v109) : Cert.Spec.Mat 100000 256) (F (Proc.devRef .tc main_v95) : Cert.Spec.Mat 100000 256) := by
  subst hf
  exact (nary_result _ _ _ hxs hy F).trans (concat3_eq _ _ _ _)

set_option maxHeartbeats 1000000 in
/-- The joined node features: the node embedding beside the previous node features. -/
theorem nfc_read : (after opsR3 X (Proc.devRef .tc main_v94) : Cert.Spec.Mat 20000 256)
    = concatenate S20000x256 1 [⟨S20000x128, (X (Proc.devRef .tc main_v12) : Cert.Spec.Mat 20000 128)⟩, ⟨S20000x128, (X (Proc.devRef .tc main_v93) : Cert.Spec.Mat 20000 128)⟩]
        concatenates_S20000x128_S20000x128_S20000x256_d1 := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  exact (concat2_eq _ _ _).symm

set_option maxHeartbeats 1000000 in
/-- The joined edge features: the edge embedding beside the previous edge features. -/
theorem efc_read : (after opsR3 X (Proc.devRef .tc main_v95) : Cert.Spec.Mat 100000 256)
    = concatenate S100000x256 1 [⟨S100000x128, (X (Proc.devRef .tc main_v21) : Cert.Spec.Mat 100000 128)⟩, ⟨S100000x128, (X (Proc.devRef .tc main_v84) : Cert.Spec.Mat 100000 128)⟩]
        concatenates_S100000x128_S100000x128_S100000x256_d1 := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  exact (concat2_eq _ _ _).symm

set_option maxHeartbeats 1000000 in
/-- The target rows: the joined node features gathered at the wrapped target index words. -/
theorem xi_read : (after opsR3 X (Proc.devRef .tc main_v102) : Cert.Spec.Mat 100000 256) = gR (after opsR3 X (Proc.devRef .tc main_v94) : Cert.Spec.Mat 20000 256) (nrmIdxR (X (Proc.devRef .tc main_v3) : IVec S100000 32)) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

set_option maxHeartbeats 1000000 in
/-- The source rows: the joined node features gathered at the wrapped source index words. -/
theorem xj_read : (after opsR3 X (Proc.devRef .tc main_v109) : Cert.Spec.Mat 100000 256) = gR (after opsR3 X (Proc.devRef .tc main_v94) : Cert.Spec.Mat 20000 256) (nrmIdxR (X (Proc.devRef .tc main_v1) : IVec S100000 32)) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

set_option maxHeartbeats 1000000 in
/-- The new edge features: two rectified affine layers on the target rows, the source rows and the joined edge
    features side by side. -/
theorem ef_read : (after opsR3 X (Proc.devRef .tc main_v120) : Cert.Spec.Mat 100000 128)
    = maximumf (F := Ideal) (addf (F := Ideal)
        (Host.dotGeneral (F := Ideal) (φ₁ := .f32) (φ₂ := .f32) dot_S100000x64_S64x128_S100000x128_1_0_0_1_n_n none
          (maximumf (F := Ideal) (addf (F := Ideal)
              (Host.dotGeneral (F := Ideal) (φ₁ := .f32) (φ₂ := .f32) dot_S100000x768_S768x64_S100000x64_1_0_0_1_n_n none
                (concatenate S100000x768 1 [⟨S100000x256, (after opsR3 X (Proc.devRef .tc main_v102) : Cert.Spec.Mat 100000 256)⟩,
                    ⟨S100000x256, (after opsR3 X (Proc.devRef .tc main_v109) : Cert.Spec.Mat 100000 256)⟩,
                    ⟨S100000x256, (after opsR3 X (Proc.devRef .tc main_v95) : Cert.Spec.Mat 100000 256)⟩]
                  concatenates_S100000x256_S100000x256_S100000x256_S100000x768_d1) (X (Proc.devRef .tc main_arg11) : Cert.Spec.Mat 768 64))
              (broadcastInDim S100000x64 ![0, 1] bcast_S1x64_S100000x64_0_1
                (broadcastInDim S1x64 ![1] bcast_S64_S1x64_1 (X (Proc.devRef .tc main_arg12) : Cert.Spec.Vc 64))))
            (broadcastInDim S100000x64 ![] bcast_S_S100000x64 (constant (F := Ideal) S_ .f32 0x00000000#32))) (X (Proc.devRef .tc main_arg13) : Cert.Spec.Mat 64 128))
        (broadcastInDim S100000x128 ![0, 1] bcast_S1x128_S100000x128_0_1
          (broadcastInDim S1x128 ![1] bcast_S128_S1x128_1 (X (Proc.devRef .tc main_arg14) : Cert.Spec.Vc 128))))
      (broadcastInDim S100000x128 ![] bcast_S_S100000x128 (constant (F := Ideal) S_ .f32 0x00000000#32)) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

set_option maxHeartbeats 1000000 in
/-- The messages: one rectified affine layer on the target rows beside the new edge features. -/
theorem msg_read : (after opsR3 X (Proc.devRef .tc main_v126) : Cert.Spec.Mat 100000 128)
    = maximumf (F := Ideal) (addf (F := Ideal)
        (Host.dotGeneral (F := Ideal) (φ₁ := .f32) (φ₂ := .f32) dot_S100000x384_S384x128_S100000x128_1_0_0_1_n_n none
          (concatenate S100000x384 1 [⟨S100000x256, (after opsR3 X (Proc.devRef .tc main_v102) : Cert.Spec.Mat 100000 256)⟩,
              ⟨S100000x128, (after opsR3 X (Proc.devRef .tc main_v120) : Cert.Spec.Mat 100000 128)⟩]
            concatenates_S100000x256_S100000x128_S100000x384_d1) (X (Proc.devRef .tc main_arg15) : Cert.Spec.Mat 384 128))
        (broadcastInDim S100000x128 ![0, 1] bcast_S1x128_S100000x128_0_1
          (broadcastInDim S1x128 ![1] bcast_S128_S1x128_1 (X (Proc.devRef .tc main_arg16) : Cert.Spec.Vc 128))))
      (broadcastInDim S100000x128 ![] bcast_S_S100000x128 (constant (F := Ideal) S_ .f32 0x00000000#32)) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

set_option maxHeartbeats 1000000 in
/-- The new node features: the messages summed into the zero node table at the target index words. -/
theorem nf_read : (after opsR3 X (Proc.devRef .tc main_v129) : Cert.Spec.Mat 20000 128) = scR (colIdxR (X (Proc.devRef .tc main_v3) : IVec S100000 32)) (after opsR3 X (Proc.devRef .tc main_v126) : Cert.Spec.Mat 100000 128) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

/-- The two halves of an equation between a pair and a value of the product. -/
theorem pair_halves {α β : Type} {a : α} {b : β} {p : α × β} (h : (a, b) = p) : b = p.2 ∧ a = p.1 := by
  subst h
  exact ⟨rfl, rfl⟩

/-- The round's two results are the two components of the network's round of the contents the operations start
    from. -/
theorem round_read :
    (after opsR3 X (Proc.devRef .tc main_v120) : Cert.Spec.Mat 100000 128)
        = (Cert.Spec.step gR scR (X (Proc.devRef .tc main_v12) : Cert.Spec.Mat 20000 128) (X (Proc.devRef .tc main_v21) : Cert.Spec.Mat 100000 128) (nrmIdxR (X (Proc.devRef .tc main_v3) : IVec S100000 32))
          (nrmIdxR (X (Proc.devRef .tc main_v1) : IVec S100000 32)) (colIdxR (X (Proc.devRef .tc main_v3) : IVec S100000 32)) (X (Proc.devRef .tc main_arg11) : Cert.Spec.Mat 768 64)
          (Cert.Spec.row (X (Proc.devRef .tc main_arg12) : Cert.Spec.Vc 64)) (X (Proc.devRef .tc main_arg13) : Cert.Spec.Mat 64 128) (Cert.Spec.row (X (Proc.devRef .tc main_arg14) : Cert.Spec.Vc 128))
          (X (Proc.devRef .tc main_arg15) : Cert.Spec.Mat 384 128) (Cert.Spec.row (X (Proc.devRef .tc main_arg16) : Cert.Spec.Vc 128))
          ((X (Proc.devRef .tc main_v93) : Cert.Spec.Mat 20000 128), (X (Proc.devRef .tc main_v84) : Cert.Spec.Mat 100000 128))).2
      ∧ (after opsR3 X (Proc.devRef .tc main_v129) : Cert.Spec.Mat 20000 128)
        = (Cert.Spec.step gR scR (X (Proc.devRef .tc main_v12) : Cert.Spec.Mat 20000 128) (X (Proc.devRef .tc main_v21) : Cert.Spec.Mat 100000 128) (nrmIdxR (X (Proc.devRef .tc main_v3) : IVec S100000 32))
          (nrmIdxR (X (Proc.devRef .tc main_v1) : IVec S100000 32)) (colIdxR (X (Proc.devRef .tc main_v3) : IVec S100000 32)) (X (Proc.devRef .tc main_arg11) : Cert.Spec.Mat 768 64)
          (Cert.Spec.row (X (Proc.devRef .tc main_arg12) : Cert.Spec.Vc 64)) (X (Proc.devRef .tc main_arg13) : Cert.Spec.Mat 64 128) (Cert.Spec.row (X (Proc.devRef .tc main_arg14) : Cert.Spec.Vc 128))
          (X (Proc.devRef .tc main_arg15) : Cert.Spec.Mat 384 128) (Cert.Spec.row (X (Proc.devRef .tc main_arg16) : Cert.Spec.Vc 128))
          ((X (Proc.devRef .tc main_v93) : Cert.Spec.Mat 20000 128), (X (Proc.devRef .tc main_v84) : Cert.Spec.Mat 100000 128))).1 :=
  pair_halves (round_eq (nfc_read X) (efc_read X) (xi_read X) (xj_read X) (ef_read X) (msg_read X) (nf_read X))

end Reads

/-! ## The round -/

variable (m : (ℓ : Loc nD τ sig) → Buf (Elt Ideal) ℓ) (c : Dev nD)

/-- Round 3 of message passing in the reference: what the round's operations leave, from what the operations
    before them left. -/
theorem round3 (NF0 : Cert.Spec.Mat 20000 128) (EF0 : Cert.Spec.Mat 100000 128) (I J : IVec S100000 32) (S : Cert.Spec.St 20000 100000 128)
    (M11 : Cert.Spec.Mat 768 64) (B12 : Cert.Spec.Vc 64) (M13 : Cert.Spec.Mat 64 128) (B14 : Cert.Spec.Vc 128)
    (M15 : Cert.Spec.Mat 384 128) (B16 : Cert.Spec.Vc 128)
    (h12 : R2 m c (Proc.devRef .tc main_v12) = NF0) (h21 : R2 m c (Proc.devRef .tc main_v21) = EF0)
    (h3 : R2 m c (Proc.devRef .tc main_v3) = I) (h1 : R2 m c (Proc.devRef .tc main_v1) = J)
    (hef : R2 m c (Proc.devRef .tc main_v84) = S.2) (hnf : R2 m c (Proc.devRef .tc main_v93) = S.1)
    (h11 : R2 m c (Proc.devRef .tc main_arg11) = M11) (hb12 : R2 m c (Proc.devRef .tc main_arg12) = B12)
    (h13 : R2 m c (Proc.devRef .tc main_arg13) = M13) (h14 : R2 m c (Proc.devRef .tc main_arg14) = B14)
    (h15 : R2 m c (Proc.devRef .tc main_arg15) = M15) (h16 : R2 m c (Proc.devRef .tc main_arg16) = B16) :
    R3 m c (Proc.devRef .tc main_v120)
        = (Cert.Spec.step gR scR NF0 EF0 (nrmIdxR I) (nrmIdxR J) (colIdxR I) M11 (Cert.Spec.row B12) M13 (Cert.Spec.row B14) M15 (Cert.Spec.row B16) S).2
      ∧ R3 m c (Proc.devRef .tc main_v129)
        = (Cert.Spec.step gR scR NF0 EF0 (nrmIdxR I) (nrmIdxR J) (colIdxR I) M11 (Cert.Spec.row B12) M13 (Cert.Spec.row B14) M15 (Cert.Spec.row B16) S).1 := by
  have key := round_read (R2 m c)
  rw [h12, h21, h3, h1, h11, hb12, h13, h14, h15, h16, hnf, hef, Prod.mk.eta] at key
  rw [R3_eq]
  exact key

end Cert.ReferenceIdeal.RefRound3

end
-- ==== Proof.RefRound4.lean ====
/-
  One round of message passing in the reference program, read as the network's round. The round's operations join
  the node embedding with the previous node features and the edge embedding with the previous edge features, gather
  the joined node rows at the target and at the source index words, pass the three side by side through two rectified
  affine layers (the new edge features), pass the target rows beside the new edge features through one rectified
  affine layer (the messages), and sum the messages into their target nodes (the new node features). Each of these
  arrays is read off the operations for any starting contents; together they are the two components of the network's
  round at the previous round's results.
-/
import proofs.«403211_j60627758350346_1_alg».proof.Proof.RefStages
import proofs.«403211_j60627758350346_1_alg».proof.Proof.RefVals
import proofs.«403211_j60627758350346_1_alg».proof.Proof.LibKeepAll
import proofs.«403211_j60627758350346_1_alg».proof.Proof.LibTypedRef
import Idealize.ShloMosaic.Lib.StableHlo.Run

noncomputable section

namespace Cert.ReferenceIdeal.RefRound4

open Cert.ReferenceIdeal Cert.ReferenceIdeal.Gen Cert.ReferenceIdeal.RefRun Cert.ReferenceIdeal.RefVals Cert.ReferenceIdeal.RefStages Cert.LibKeepAll
open Idealize.ShloMosaic Idealize.ShloMosaic.TcCoe Idealize.SL.Sem Idealize.ShloMosaic.StableHlo

/-! ## The round's arrays, read off its operations

  Each is stated for any contents `X` the round's operations start from: the array after the operations is the
  operation that makes it, of earlier arrays of the round or of `X`'s. -/

section Reads

variable (X : Valuation τ sig (Elt Ideal))

/-- The round's one joining of three arrays, read at its result: the three side by side. -/
theorem join3_result (F : Valuation τ sig (Elt Ideal))
    (f : ((k : Fin 3) → ((![main_v138, main_v145, main_v131] : Fin 3 → Ref sig .tc) k).ty.Contents (Elt Ideal)) → main_v146.ty.Contents (Elt Ideal))
    (hxs hy)
    (hf : f = fun u => concatenate S100000x768 1 [⟨S100000x256, u 0⟩, ⟨S100000x256, u 1⟩, ⟨S100000x256, u 2⟩]
      concatenates_S100000x256_S100000x256_S100000x256_S100000x768_d1) :
    (nary (τ := τ) ![main_v138, main_v145, main_v131] main_v146 f hxs hy).result F (no_index (Proc.devRef .tc main_v146))
      = Cert.Spec.cat3 768 (F (Proc.devRef .tc main_v138) : Cert.Spec.Mat 100000 256)
          (F (Proc.devRef .tc main_v145) : Cert.Spec.Mat 100000 256) (F (Proc.devRef .tc main_v131) : Cert.Spec.Mat 100000 256) := by
  subst hf
  exact (nary_result _ _ _ hxs hy F).trans (concat3_eq _ _ _ _)

set_option maxHeartbeats 1000000 in
/-- The joined node features: the node embedding beside the previous node features. -/
theorem nfc_read : (after opsR4 X (Proc.devRef .tc main_v130) : Cert.Spec.Mat 20000 256)
    = concatenate S20000x256 1 [⟨S20000x128, (X (Proc.devRef .tc main_v12) : Cert.Spec.Mat 20000 128)⟩, ⟨S20000x128, (X (Proc.devRef .tc main_v129) : Cert.Spec.Mat 20000 128)⟩]
        concatenates_S20000x128_S20000x128_S20000x256_d1 := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  exact (concat2_eq _ _ _).symm

set_option maxHeartbeats 1000000 in
/-- The joined edge features: the edge embedding beside the previous edge features. -/
theorem efc_read : (after opsR4 X (Proc.devRef .tc main_v131) : Cert.Spec.Mat 100000 256)
    = concatenate S100000x256 1 [⟨S100000x128, (X (Proc.devRef .tc main_v21) : Cert.Spec.Mat 100000 128)⟩, ⟨S100000x128, (X (Proc.devRef .tc main_v120) : Cert.Spec.Mat 100000 128)⟩]
        concatenates_S100000x128_S100000x128_S100000x256_d1 := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  exact (concat2_eq _ _ _).symm

set_option maxHeartbeats 1000000 in
/-- The target rows: the joined node features gathered at the wrapped target index words. -/
theorem xi_read : (after opsR4 X (Proc.devRef .tc main_v138) : Cert.Spec.Mat 100000 256) = gR (after opsR4 X (Proc.devRef .tc main_v130) : Cert.Spec.Mat 20000 256) (nrmIdxR (X (Proc.devRef .tc main_v3) : IVec S100000 32)) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

set_option maxHeartbeats 1000000 in
/-- The source rows: the joined node features gathered at the wrapped source index words. -/
theorem xj_read : (after opsR4 X (Proc.devRef .tc main_v145) : Cert.Spec.Mat 100000 256) = gR (after opsR4 X (Proc.devRef .tc main_v130) : Cert.Spec.Mat 20000 256) (nrmIdxR (X (Proc.devRef .tc main_v1) : IVec S100000 32)) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

set_option maxHeartbeats 1000000 in
/-- The new edge features: two rectified affine layers on the target rows, the source rows and the joined edge
    features side by side. -/
theorem ef_read : (after opsR4 X (Proc.devRef .tc main_v156) : Cert.Spec.Mat 100000 128)
    = maximumf (F := Ideal) (addf (F := Ideal)
        (Host.dotGeneral (F := Ideal) (φ₁ := .f32) (φ₂ := .f32) dot_S100000x64_S64x128_S100000x128_1_0_0_1_n_n none
          (maximumf (F := Ideal) (addf (F := Ideal)
              (Host.dotGeneral (F := Ideal) (φ₁ := .f32) (φ₂ := .f32) dot_S100000x768_S768x64_S100000x64_1_0_0_1_n_n none
                (concatenate S100000x768 1 [⟨S100000x256, (after opsR4 X (Proc.devRef .tc main_v138) : Cert.Spec.Mat 100000 256)⟩,
                    ⟨S100000x256, (after opsR4 X (Proc.devRef .tc main_v145) : Cert.Spec.Mat 100000 256)⟩,
                    ⟨S100000x256, (after opsR4 X (Proc.devRef .tc main_v131) : Cert.Spec.Mat 100000 256)⟩]
                  concatenates_S100000x256_S100000x256_S100000x256_S100000x768_d1) (X (Proc.devRef .tc main_arg11) : Cert.Spec.Mat 768 64))
              (broadcastInDim S100000x64 ![0, 1] bcast_S1x64_S100000x64_0_1
                (broadcastInDim S1x64 ![1] bcast_S64_S1x64_1 (X (Proc.devRef .tc main_arg12) : Cert.Spec.Vc 64))))
            (broadcastInDim S100000x64 ![] bcast_S_S100000x64 (constant (F := Ideal) S_ .f32 0x00000000#32))) (X (Proc.devRef .tc main_arg13) : Cert.Spec.Mat 64 128))
        (broadcastInDim S100000x128 ![0, 1] bcast_S1x128_S100000x128_0_1
          (broadcastInDim S1x128 ![1] bcast_S128_S1x128_1 (X (Proc.devRef .tc main_arg14) : Cert.Spec.Vc 128))))
      (broadcastInDim S100000x128 ![] bcast_S_S100000x128 (constant (F := Ideal) S_ .f32 0x00000000#32)) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

set_option maxHeartbeats 1000000 in
/-- The messages: one rectified affine layer on the target rows beside the new edge features. -/
theorem msg_read : (after opsR4 X (Proc.devRef .tc main_v162) : Cert.Spec.Mat 100000 128)
    = maximumf (F := Ideal) (addf (F := Ideal)
        (Host.dotGeneral (F := Ideal) (φ₁ := .f32) (φ₂ := .f32) dot_S100000x384_S384x128_S100000x128_1_0_0_1_n_n none
          (concatenate S100000x384 1 [⟨S100000x256, (after opsR4 X (Proc.devRef .tc main_v138) : Cert.Spec.Mat 100000 256)⟩,
              ⟨S100000x128, (after opsR4 X (Proc.devRef .tc main_v156) : Cert.Spec.Mat 100000 128)⟩]
            concatenates_S100000x256_S100000x128_S100000x384_d1) (X (Proc.devRef .tc main_arg15) : Cert.Spec.Mat 384 128))
        (broadcastInDim S100000x128 ![0, 1] bcast_S1x128_S100000x128_0_1
          (broadcastInDim S1x128 ![1] bcast_S128_S1x128_1 (X (Proc.devRef .tc main_arg16) : Cert.Spec.Vc 128))))
      (broadcastInDim S100000x128 ![] bcast_S_S100000x128 (constant (F := Ideal) S_ .f32 0x00000000#32)) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

set_option maxHeartbeats 1000000 in
/-- The new node features: the messages summed into the zero node table at the target index words. -/
theorem nf_read : (after opsR4 X (Proc.devRef .tc main_v165) : Cert.Spec.Mat 20000 128) = scR (colIdxR (X (Proc.devRef .tc main_v3) : IVec S100000 32)) (after opsR4 X (Proc.devRef .tc main_v162) : Cert.Spec.Mat 100000 128) := by
  simp (disch := first | decide | rfl) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne', join3_result, concat2_eq, concat3_eq,
    Cert.LibTypedRef.ofBuf_toBuf]
  rfl

/-- The two halves of an equation between a pair and a value of the product. -/
theorem pair_halves {α β : Type} {a : α} {b : β} {p : α × β} (h : (a, b) = p) : b = p.2 ∧ a = p.1 := by
  subst h
  exact ⟨rfl, rfl⟩

/-- The round's two results are the two components of the network's round of the contents the operations start
    from. -/
theorem round_read :
    (after opsR4 X (Proc.devRef .tc main_v156) : Cert.Spec.Mat 100000 128)
        = (Cert.Spec.step gR scR (X (Proc.devRef .tc main_v12) : Cert.Spec.Mat 20000 128) (X (Proc.devRef .tc main_v21) : Cert.Spec.Mat 100000 128) (nrmIdxR (X (Proc.devRef .tc main_v3) : IVec S100000 32))
          (nrmIdxR (X (Proc.devRef .tc main_v1) : IVec S100000 32)) (colIdxR (X (Proc.devRef .tc main_v3) : IVec S100000 32)) (X (Proc.devRef .tc main_arg11) : Cert.Spec.Mat 768 64)
          (Cert.Spec.row (X (Proc.devRef .tc main_arg12) : Cert.Spec.Vc 64)) (X (Proc.devRef .tc main_arg13) : Cert.Spec.Mat 64 128) (Cert.Spec.row (X (Proc.devRef .tc main_arg14) : Cert.Spec.Vc 128))
          (X (Proc.devRef .tc main_arg15) : Cert.Spec.Mat 384 128) (Cert.Spec.row (X (Proc.devRef .tc main_arg16) : Cert.Spec.Vc 128))
          ((X (Proc.devRef .tc main_v129) : Cert.Spec.Mat 20000 128), (X (Proc.devRef .tc main_v120) : Cert.Spec.Mat 100000 128))).2
      ∧ (after opsR4 X (Proc.devRef .tc main_v165) : Cert.Spec.Mat 20000 128)
        = (Cert.Spec.step gR scR (X (Proc.devRef .tc main_v12) : Cert.Spec.Mat 20000 128) (X (Proc.devRef .tc main_v21) : Cert.Spec.Mat 100000 128) (nrmIdxR (X (Proc.devRef .tc main_v3) : IVec S100000 32))
          (nrmIdxR (X (Proc.devRef .tc main_v1) : IVec S100000 32)) (colIdxR (X (Proc.devRef .tc main_v3) : IVec S100000 32)) (X (Proc.devRef .tc main_arg11) : Cert.Spec.Mat 768 64)
          (Cert.Spec.row (X (Proc.devRef .tc main_arg12) : Cert.Spec.Vc 64)) (X (Proc.devRef .tc main_arg13) : Cert.Spec.Mat 64 128) (Cert.Spec.row (X (Proc.devRef .tc main_arg14) : Cert.Spec.Vc 128))
          (X (Proc.devRef .tc main_arg15) : Cert.Spec.Mat 384 128) (Cert.Spec.row (X (Proc.devRef .tc main_arg16) : Cert.Spec.Vc 128))
          ((X (Proc.devRef .tc main_v129) : Cert.Spec.Mat 20000 128), (X (Proc.devRef .tc main_v120) : Cert.Spec.Mat 100000 128))).1 :=
  pair_halves (round_eq (nfc_read X) (efc_read X) (xi_read X) (xj_read X) (ef_read X) (msg_read X) (nf_read X))

end Reads

/-! ## The round -/

variable (m : (ℓ : Loc nD τ sig) → Buf (Elt Ideal) ℓ) (c : Dev nD)

/-- Round 4 of message passing in the reference: what the round's operations leave, from what the operations
    before them left. -/
theorem round4 (NF0 : Cert.Spec.Mat 20000 128) (EF0 : Cert.Spec.Mat 100000 128) (I J : IVec S100000 32) (S : Cert.Spec.St 20000 100000 128)
    (M11 : Cert.Spec.Mat 768 64) (B12 : Cert.Spec.Vc 64) (M13 : Cert.Spec.Mat 64 128) (B14 : Cert.Spec.Vc 128)
    (M15 : Cert.Spec.Mat 384 128) (B16 : Cert.Spec.Vc 128)
    (h12 : R3 m c (Proc.devRef .tc main_v12) = NF0) (h21 : R3 m c (Proc.devRef .tc main_v21) = EF0)
    (h3 : R3 m c (Proc.devRef .tc main_v3) = I) (h1 : R3 m c (Proc.devRef .tc main_v1) = J)
    (hef : R3 m c (Proc.devRef .tc main_v120) = S.2) (hnf : R3 m c (Proc.devRef .tc main_v129) = S.1)
    (h11 : R3 m c (Proc.devRef .tc main_arg11) = M11) (hb12 : R3 m c (Proc.devRef .tc main_arg12) = B12)
    (h13 : R3 m c (Proc.devRef .tc main_arg13) = M13) (h14 : R3 m c (Proc.devRef .tc main_arg14) = B14)
    (h15 : R3 m c (Proc.devRef .tc main_arg15) = M15) (h16 : R3 m c (Proc.devRef .tc main_arg16) = B16) :
    R4 m c (Proc.devRef .tc main_v156)
        = (Cert.Spec.step gR scR NF0 EF0 (nrmIdxR I) (nrmIdxR J) (colIdxR I) M11 (Cert.Spec.row B12) M13 (Cert.Spec.row B14) M15 (Cert.Spec.row B16) S).2
      ∧ R4 m c (Proc.devRef .tc main_v165)
        = (Cert.Spec.step gR scR NF0 EF0 (nrmIdxR I) (nrmIdxR J) (colIdxR I) M11 (Cert.Spec.row B12) M13 (Cert.Spec.row B14) M15 (Cert.Spec.row B16) S).1 := by
  have key := round_read (R3 m c)
  rw [h12, h21, h3, h1, h11, hb12, h13, h14, h15, h16, hnf, hef, Prod.mk.eta] at key
  rw [R4_eq]
  exact key

end Cert.ReferenceIdeal.RefRound4

end
-- ==== Proof.RefCarryE.lean ====
/-
  Buffers the reference's chunk E does not write keep their contents across it.
-/
import proofs.«403211_j60627758350346_1_alg».proof.Proof.RefVals
import proofs.«403211_j60627758350346_1_alg».proof.Proof.LibKeepAll

noncomputable section

namespace Cert.ReferenceIdeal.RefCarry

open Cert.ReferenceIdeal Cert.ReferenceIdeal.RefRun Cert.ReferenceIdeal.RefVals Cert.LibKeepAll
open Idealize.ShloMosaic Idealize.ShloMosaic.TcCoe Idealize.SL.Sem Idealize.ShloMosaic.StableHlo

variable (m : (ℓ : Loc nD τ sig) → Buf (Elt Ideal) ℓ) (c : Dev nD)

theorem carryE_arg11 : RE m c (Proc.devRef .tc main_arg11) = m ((c.tc : Thread nD τ).loc main_arg11) :=
  (show after opsE (launchContents m c) (Proc.devRef .tc main_arg11) = launchContents m c (Proc.devRef .tc main_arg11) by kept_all opsE).trans rfl

theorem carryE_arg12 : RE m c (Proc.devRef .tc main_arg12) = m ((c.tc : Thread nD τ).loc main_arg12) :=
  (show after opsE (launchContents m c) (Proc.devRef .tc main_arg12) = launchContents m c (Proc.devRef .tc main_arg12) by kept_all opsE).trans rfl

theorem carryE_arg13 : RE m c (Proc.devRef .tc main_arg13) = m ((c.tc : Thread nD τ).loc main_arg13) :=
  (show after opsE (launchContents m c) (Proc.devRef .tc main_arg13) = launchContents m c (Proc.devRef .tc main_arg13) by kept_all opsE).trans rfl

theorem carryE_arg14 : RE m c (Proc.devRef .tc main_arg14) = m ((c.tc : Thread nD τ).loc main_arg14) :=
  (show after opsE (launchContents m c) (Proc.devRef .tc main_arg14) = launchContents m c (Proc.devRef .tc main_arg14) by kept_all opsE).trans rfl

theorem carryE_arg15 : RE m c (Proc.devRef .tc main_arg15) = m ((c.tc : Thread nD τ).loc main_arg15) :=
  (show after opsE (launchContents m c) (Proc.devRef .tc main_arg15) = launchContents m c (Proc.devRef .tc main_arg15) by kept_all opsE).trans rfl

theorem carryE_arg16 : RE m c (Proc.devRef .tc main_arg16) = m ((c.tc : Thread nD τ).loc main_arg16) :=
  (show after opsE (launchContents m c) (Proc.devRef .tc main_arg16) = launchContents m c (Proc.devRef .tc main_arg16) by kept_all opsE).trans rfl

theorem carryE_arg17 : RE m c (Proc.devRef .tc main_arg17) = m ((c.tc : Thread nD τ).loc main_arg17) :=
  (show after opsE (launchContents m c) (Proc.devRef .tc main_arg17) = launchContents m c (Proc.devRef .tc main_arg17) by kept_all opsE).trans rfl

theorem carryE_arg18 : RE m c (Proc.devRef .tc main_arg18) = m ((c.tc : Thread nD τ).loc main_arg18) :=
  (show after opsE (launchContents m c) (Proc.devRef .tc main_arg18) = launchContents m c (Proc.devRef .tc main_arg18) by kept_all opsE).trans rfl

theorem carryE_arg19 : RE m c (Proc.devRef .tc main_arg19) = m ((c.tc : Thread nD τ).loc main_arg19) :=
  (show after opsE (launchContents m c) (Proc.devRef .tc main_arg19) = launchContents m c (Proc.devRef .tc main_arg19) by kept_all opsE).trans rfl

theorem carryE_arg20 : RE m c (Proc.devRef .tc main_arg20) = m ((c.tc : Thread nD τ).loc main_arg20) :=
  (show after opsE (launchContents m c) (Proc.devRef .tc main_arg20) = launchContents m c (Proc.devRef .tc main_arg20) by kept_all opsE).trans rfl

theorem carryE_arg21 : RE m c (Proc.devRef .tc main_arg21) = m ((c.tc : Thread nD τ).loc main_arg21) :=
  (show after opsE (launchContents m c) (Proc.devRef .tc main_arg21) = launchContents m c (Proc.devRef .tc main_arg21) by kept_all opsE).trans rfl

theorem carryE_arg22 : RE m c (Proc.devRef .tc main_arg22) = m ((c.tc : Thread nD τ).loc main_arg22) :=
  (show after opsE (launchContents m c) (Proc.devRef .tc main_arg22) = launchContents m c (Proc.devRef .tc main_arg22) by kept_all opsE).trans rfl

end Cert.ReferenceIdeal.RefCarry

end
-- ==== Proof.RefCarry1.lean ====
/-
  Buffers the reference's chunk 1 does not write keep their contents across it.
-/
import proofs.«403211_j60627758350346_1_alg».proof.Proof.RefVals
import proofs.«403211_j60627758350346_1_alg».proof.Proof.LibKeepAll

noncomputable section

namespace Cert.ReferenceIdeal.RefCarry

open Cert.ReferenceIdeal Cert.ReferenceIdeal.RefRun Cert.ReferenceIdeal.RefVals Cert.LibKeepAll
open Idealize.ShloMosaic Idealize.ShloMosaic.TcCoe Idealize.SL.Sem Idealize.ShloMosaic.StableHlo

variable (m : (ℓ : Loc nD τ sig) → Buf (Elt Ideal) ℓ) (c : Dev nD)

theorem carry1_v12 : R1 m c (Proc.devRef .tc main_v12) = RE m c (Proc.devRef .tc main_v12) :=
  show after opsR1 (RE m c) (Proc.devRef .tc main_v12) = RE m c (Proc.devRef .tc main_v12) by kept_all opsR1

theorem carry1_v21 : R1 m c (Proc.devRef .tc main_v21) = RE m c (Proc.devRef .tc main_v21) :=
  show after opsR1 (RE m c) (Proc.devRef .tc main_v21) = RE m c (Proc.devRef .tc main_v21) by kept_all opsR1

theorem carry1_v3 : R1 m c (Proc.devRef .tc main_v3) = RE m c (Proc.devRef .tc main_v3) :=
  show after opsR1 (RE m c) (Proc.devRef .tc main_v3) = RE m c (Proc.devRef .tc main_v3) by kept_all opsR1

theorem carry1_v1 : R1 m c (Proc.devRef .tc main_v1) = RE m c (Proc.devRef .tc main_v1) :=
  show after opsR1 (RE m c) (Proc.devRef .tc main_v1) = RE m c (Proc.devRef .tc main_v1) by kept_all opsR1

theorem carry1_arg11 : R1 m c (Proc.devRef .tc main_arg11) = RE m c (Proc.devRef .tc main_arg11) :=
  show after opsR1 (RE m c) (Proc.devRef .tc main_arg11) = RE m c (Proc.devRef .tc main_arg11) by kept_all opsR1

theorem carry1_arg12 : R1 m c (Proc.devRef .tc main_arg12) = RE m c (Proc.devRef .tc main_arg12) :=
  show after opsR1 (RE m c) (Proc.devRef .tc main_arg12) = RE m c (Proc.devRef .tc main_arg12) by kept_all opsR1

theorem carry1_arg13 : R1 m c (Proc.devRef .tc main_arg13) = RE m c (Proc.devRef .tc main_arg13) :=
  show after opsR1 (RE m c) (Proc.devRef .tc main_arg13) = RE m c (Proc.devRef .tc main_arg13) by kept_all opsR1

theorem carry1_arg14 : R1 m c (Proc.devRef .tc main_arg14) = RE m c (Proc.devRef .tc main_arg14) :=
  show after opsR1 (RE m c) (Proc.devRef .tc main_arg14) = RE m c (Proc.devRef .tc main_arg14) by kept_all opsR1

theorem carry1_arg15 : R1 m c (Proc.devRef .tc main_arg15) = RE m c (Proc.devRef .tc main_arg15) :=
  show after opsR1 (RE m c) (Proc.devRef .tc main_arg15) = RE m c (Proc.devRef .tc main_arg15) by kept_all opsR1

theorem carry1_arg16 : R1 m c (Proc.devRef .tc main_arg16) = RE m c (Proc.devRef .tc main_arg16) :=
  show after opsR1 (RE m c) (Proc.devRef .tc main_arg16) = RE m c (Proc.devRef .tc main_arg16) by kept_all opsR1

theorem carry1_arg17 : R1 m c (Proc.devRef .tc main_arg17) = RE m c (Proc.devRef .tc main_arg17) :=
  show after opsR1 (RE m c) (Proc.devRef .tc main_arg17) = RE m c (Proc.devRef .tc main_arg17) by kept_all opsR1

theorem carry1_arg18 : R1 m c (Proc.devRef .tc main_arg18) = RE m c (Proc.devRef .tc main_arg18) :=
  show after opsR1 (RE m c) (Proc.devRef .tc main_arg18) = RE m c (Proc.devRef .tc main_arg18) by kept_all opsR1

theorem carry1_arg19 : R1 m c (Proc.devRef .tc main_arg19) = RE m c (Proc.devRef .tc main_arg19) :=
  show after opsR1 (RE m c) (Proc.devRef .tc main_arg19) = RE m c (Proc.devRef .tc main_arg19) by kept_all opsR1

theorem carry1_arg20 : R1 m c (Proc.devRef .tc main_arg20) = RE m c (Proc.devRef .tc main_arg20) :=
  show after opsR1 (RE m c) (Proc.devRef .tc main_arg20) = RE m c (Proc.devRef .tc main_arg20) by kept_all opsR1

theorem carry1_arg21 : R1 m c (Proc.devRef .tc main_arg21) = RE m c (Proc.devRef .tc main_arg21) :=
  show after opsR1 (RE m c) (Proc.devRef .tc main_arg21) = RE m c (Proc.devRef .tc main_arg21) by kept_all opsR1

theorem carry1_arg22 : R1 m c (Proc.devRef .tc main_arg22) = RE m c (Proc.devRef .tc main_arg22) :=
  show after opsR1 (RE m c) (Proc.devRef .tc main_arg22) = RE m c (Proc.devRef .tc main_arg22) by kept_all opsR1

end Cert.ReferenceIdeal.RefCarry

end
-- ==== Proof.RefCarry2.lean ====
/-
  Buffers the reference's chunk 2 does not write keep their contents across it.
-/
import proofs.«403211_j60627758350346_1_alg».proof.Proof.RefVals
import proofs.«403211_j60627758350346_1_alg».proof.Proof.LibKeepAll

noncomputable section

namespace Cert.ReferenceIdeal.RefCarry

open Cert.ReferenceIdeal Cert.ReferenceIdeal.RefRun Cert.ReferenceIdeal.RefVals Cert.LibKeepAll
open Idealize.ShloMosaic Idealize.ShloMosaic.TcCoe Idealize.SL.Sem Idealize.ShloMosaic.StableHlo

variable (m : (ℓ : Loc nD τ sig) → Buf (Elt Ideal) ℓ) (c : Dev nD)

theorem carry2_v12 : R2 m c (Proc.devRef .tc main_v12) = R1 m c (Proc.devRef .tc main_v12) :=
  show after opsR2 (R1 m c) (Proc.devRef .tc main_v12) = R1 m c (Proc.devRef .tc main_v12) by kept_all opsR2

theorem carry2_v21 : R2 m c (Proc.devRef .tc main_v21) = R1 m c (Proc.devRef .tc main_v21) :=
  show after opsR2 (R1 m c) (Proc.devRef .tc main_v21) = R1 m c (Proc.devRef .tc main_v21) by kept_all opsR2

theorem carry2_v3 : R2 m c (Proc.devRef .tc main_v3) = R1 m c (Proc.devRef .tc main_v3) :=
  show after opsR2 (R1 m c) (Proc.devRef .tc main_v3) = R1 m c (Proc.devRef .tc main_v3) by kept_all opsR2

theorem carry2_v1 : R2 m c (Proc.devRef .tc main_v1) = R1 m c (Proc.devRef .tc main_v1) :=
  show after opsR2 (R1 m c) (Proc.devRef .tc main_v1) = R1 m c (Proc.devRef .tc main_v1) by kept_all opsR2

theorem carry2_arg11 : R2 m c (Proc.devRef .tc main_arg11) = R1 m c (Proc.devRef .tc main_arg11) :=
  show after opsR2 (R1 m c) (Proc.devRef .tc main_arg11) = R1 m c (Proc.devRef .tc main_arg11) by kept_all opsR2

theorem carry2_arg12 : R2 m c (Proc.devRef .tc main_arg12) = R1 m c (Proc.devRef .tc main_arg12) :=
  show after opsR2 (R1 m c) (Proc.devRef .tc main_arg12) = R1 m c (Proc.devRef .tc main_arg12) by kept_all opsR2

theorem carry2_arg13 : R2 m c (Proc.devRef .tc main_arg13) = R1 m c (Proc.devRef .tc main_arg13) :=
  show after opsR2 (R1 m c) (Proc.devRef .tc main_arg13) = R1 m c (Proc.devRef .tc main_arg13) by kept_all opsR2

theorem carry2_arg14 : R2 m c (Proc.devRef .tc main_arg14) = R1 m c (Proc.devRef .tc main_arg14) :=
  show after opsR2 (R1 m c) (Proc.devRef .tc main_arg14) = R1 m c (Proc.devRef .tc main_arg14) by kept_all opsR2

theorem carry2_arg15 : R2 m c (Proc.devRef .tc main_arg15) = R1 m c (Proc.devRef .tc main_arg15) :=
  show after opsR2 (R1 m c) (Proc.devRef .tc main_arg15) = R1 m c (Proc.devRef .tc main_arg15) by kept_all opsR2

theorem carry2_arg16 : R2 m c (Proc.devRef .tc main_arg16) = R1 m c (Proc.devRef .tc main_arg16) :=
  show after opsR2 (R1 m c) (Proc.devRef .tc main_arg16) = R1 m c (Proc.devRef .tc main_arg16) by kept_all opsR2

theorem carry2_arg17 : R2 m c (Proc.devRef .tc main_arg17) = R1 m c (Proc.devRef .tc main_arg17) :=
  show after opsR2 (R1 m c) (Proc.devRef .tc main_arg17) = R1 m c (Proc.devRef .tc main_arg17) by kept_all opsR2

theorem carry2_arg18 : R2 m c (Proc.devRef .tc main_arg18) = R1 m c (Proc.devRef .tc main_arg18) :=
  show after opsR2 (R1 m c) (Proc.devRef .tc main_arg18) = R1 m c (Proc.devRef .tc main_arg18) by kept_all opsR2

theorem carry2_arg19 : R2 m c (Proc.devRef .tc main_arg19) = R1 m c (Proc.devRef .tc main_arg19) :=
  show after opsR2 (R1 m c) (Proc.devRef .tc main_arg19) = R1 m c (Proc.devRef .tc main_arg19) by kept_all opsR2

theorem carry2_arg20 : R2 m c (Proc.devRef .tc main_arg20) = R1 m c (Proc.devRef .tc main_arg20) :=
  show after opsR2 (R1 m c) (Proc.devRef .tc main_arg20) = R1 m c (Proc.devRef .tc main_arg20) by kept_all opsR2

theorem carry2_arg21 : R2 m c (Proc.devRef .tc main_arg21) = R1 m c (Proc.devRef .tc main_arg21) :=
  show after opsR2 (R1 m c) (Proc.devRef .tc main_arg21) = R1 m c (Proc.devRef .tc main_arg21) by kept_all opsR2

theorem carry2_arg22 : R2 m c (Proc.devRef .tc main_arg22) = R1 m c (Proc.devRef .tc main_arg22) :=
  show after opsR2 (R1 m c) (Proc.devRef .tc main_arg22) = R1 m c (Proc.devRef .tc main_arg22) by kept_all opsR2

end Cert.ReferenceIdeal.RefCarry

end
-- ==== Proof.RefCarry3.lean ====
/-
  Buffers the reference's chunk 3 does not write keep their contents across it.
-/
import proofs.«403211_j60627758350346_1_alg».proof.Proof.RefVals
import proofs.«403211_j60627758350346_1_alg».proof.Proof.LibKeepAll

noncomputable section

namespace Cert.ReferenceIdeal.RefCarry

open Cert.ReferenceIdeal Cert.ReferenceIdeal.RefRun Cert.ReferenceIdeal.RefVals Cert.LibKeepAll
open Idealize.ShloMosaic Idealize.ShloMosaic.TcCoe Idealize.SL.Sem Idealize.ShloMosaic.StableHlo

variable (m : (ℓ : Loc nD τ sig) → Buf (Elt Ideal) ℓ) (c : Dev nD)

theorem carry3_v12 : R3 m c (Proc.devRef .tc main_v12) = R2 m c (Proc.devRef .tc main_v12) :=
  show after opsR3 (R2 m c) (Proc.devRef .tc main_v12) = R2 m c (Proc.devRef .tc main_v12) by kept_all opsR3

theorem carry3_v21 : R3 m c (Proc.devRef .tc main_v21) = R2 m c (Proc.devRef .tc main_v21) :=
  show after opsR3 (R2 m c) (Proc.devRef .tc main_v21) = R2 m c (Proc.devRef .tc main_v21) by kept_all opsR3

theorem carry3_v3 : R3 m c (Proc.devRef .tc main_v3) = R2 m c (Proc.devRef .tc main_v3) :=
  show after opsR3 (R2 m c) (Proc.devRef .tc main_v3) = R2 m c (Proc.devRef .tc main_v3) by kept_all opsR3

theorem carry3_v1 : R3 m c (Proc.devRef .tc main_v1) = R2 m c (Proc.devRef .tc main_v1) :=
  show after opsR3 (R2 m c) (Proc.devRef .tc main_v1) = R2 m c (Proc.devRef .tc main_v1) by kept_all opsR3

theorem carry3_arg11 : R3 m c (Proc.devRef .tc main_arg11) = R2 m c (Proc.devRef .tc main_arg11) :=
  show after opsR3 (R2 m c) (Proc.devRef .tc main_arg11) = R2 m c (Proc.devRef .tc main_arg11) by kept_all opsR3

theorem carry3_arg12 : R3 m c (Proc.devRef .tc main_arg12) = R2 m c (Proc.devRef .tc main_arg12) :=
  show after opsR3 (R2 m c) (Proc.devRef .tc main_arg12) = R2 m c (Proc.devRef .tc main_arg12) by kept_all opsR3

theorem carry3_arg13 : R3 m c (Proc.devRef .tc main_arg13) = R2 m c (Proc.devRef .tc main_arg13) :=
  show after opsR3 (R2 m c) (Proc.devRef .tc main_arg13) = R2 m c (Proc.devRef .tc main_arg13) by kept_all opsR3

theorem carry3_arg14 : R3 m c (Proc.devRef .tc main_arg14) = R2 m c (Proc.devRef .tc main_arg14) :=
  show after opsR3 (R2 m c) (Proc.devRef .tc main_arg14) = R2 m c (Proc.devRef .tc main_arg14) by kept_all opsR3

theorem carry3_arg15 : R3 m c (Proc.devRef .tc main_arg15) = R2 m c (Proc.devRef .tc main_arg15) :=
  show after opsR3 (R2 m c) (Proc.devRef .tc main_arg15) = R2 m c (Proc.devRef .tc main_arg15) by kept_all opsR3

theorem carry3_arg16 : R3 m c (Proc.devRef .tc main_arg16) = R2 m c (Proc.devRef .tc main_arg16) :=
  show after opsR3 (R2 m c) (Proc.devRef .tc main_arg16) = R2 m c (Proc.devRef .tc main_arg16) by kept_all opsR3

theorem carry3_arg17 : R3 m c (Proc.devRef .tc main_arg17) = R2 m c (Proc.devRef .tc main_arg17) :=
  show after opsR3 (R2 m c) (Proc.devRef .tc main_arg17) = R2 m c (Proc.devRef .tc main_arg17) by kept_all opsR3

theorem carry3_arg18 : R3 m c (Proc.devRef .tc main_arg18) = R2 m c (Proc.devRef .tc main_arg18) :=
  show after opsR3 (R2 m c) (Proc.devRef .tc main_arg18) = R2 m c (Proc.devRef .tc main_arg18) by kept_all opsR3

theorem carry3_arg19 : R3 m c (Proc.devRef .tc main_arg19) = R2 m c (Proc.devRef .tc main_arg19) :=
  show after opsR3 (R2 m c) (Proc.devRef .tc main_arg19) = R2 m c (Proc.devRef .tc main_arg19) by kept_all opsR3

theorem carry3_arg20 : R3 m c (Proc.devRef .tc main_arg20) = R2 m c (Proc.devRef .tc main_arg20) :=
  show after opsR3 (R2 m c) (Proc.devRef .tc main_arg20) = R2 m c (Proc.devRef .tc main_arg20) by kept_all opsR3

theorem carry3_arg21 : R3 m c (Proc.devRef .tc main_arg21) = R2 m c (Proc.devRef .tc main_arg21) :=
  show after opsR3 (R2 m c) (Proc.devRef .tc main_arg21) = R2 m c (Proc.devRef .tc main_arg21) by kept_all opsR3

theorem carry3_arg22 : R3 m c (Proc.devRef .tc main_arg22) = R2 m c (Proc.devRef .tc main_arg22) :=
  show after opsR3 (R2 m c) (Proc.devRef .tc main_arg22) = R2 m c (Proc.devRef .tc main_arg22) by kept_all opsR3

end Cert.ReferenceIdeal.RefCarry

end
-- ==== Proof.RefCarry4.lean ====
/-
  Buffers the reference's chunk 4 does not write keep their contents across it.
-/
import proofs.«403211_j60627758350346_1_alg».proof.Proof.RefVals
import proofs.«403211_j60627758350346_1_alg».proof.Proof.LibKeepAll

noncomputable section

namespace Cert.ReferenceIdeal.RefCarry

open Cert.ReferenceIdeal Cert.ReferenceIdeal.RefRun Cert.ReferenceIdeal.RefVals Cert.LibKeepAll
open Idealize.ShloMosaic Idealize.ShloMosaic.TcCoe Idealize.SL.Sem Idealize.ShloMosaic.StableHlo

variable (m : (ℓ : Loc nD τ sig) → Buf (Elt Ideal) ℓ) (c : Dev nD)

theorem carry4_arg17 : R4 m c (Proc.devRef .tc main_arg17) = R3 m c (Proc.devRef .tc main_arg17) :=
  show after opsR4 (R3 m c) (Proc.devRef .tc main_arg17) = R3 m c (Proc.devRef .tc main_arg17) by kept_all opsR4

theorem carry4_arg18 : R4 m c (Proc.devRef .tc main_arg18) = R3 m c (Proc.devRef .tc main_arg18) :=
  show after opsR4 (R3 m c) (Proc.devRef .tc main_arg18) = R3 m c (Proc.devRef .tc main_arg18) by kept_all opsR4

theorem carry4_arg19 : R4 m c (Proc.devRef .tc main_arg19) = R3 m c (Proc.devRef .tc main_arg19) :=
  show after opsR4 (R3 m c) (Proc.devRef .tc main_arg19) = R3 m c (Proc.devRef .tc main_arg19) by kept_all opsR4

theorem carry4_arg20 : R4 m c (Proc.devRef .tc main_arg20) = R3 m c (Proc.devRef .tc main_arg20) :=
  show after opsR4 (R3 m c) (Proc.devRef .tc main_arg20) = R3 m c (Proc.devRef .tc main_arg20) by kept_all opsR4

theorem carry4_arg21 : R4 m c (Proc.devRef .tc main_arg21) = R3 m c (Proc.devRef .tc main_arg21) :=
  show after opsR4 (R3 m c) (Proc.devRef .tc main_arg21) = R3 m c (Proc.devRef .tc main_arg21) by kept_all opsR4

theorem carry4_arg22 : R4 m c (Proc.devRef .tc main_arg22) = R3 m c (Proc.devRef .tc main_arg22) :=
  show after opsR4 (R3 m c) (Proc.devRef .tc main_arg22) = R3 m c (Proc.devRef .tc main_arg22) by kept_all opsR4

end Cert.ReferenceIdeal.RefCarry

end
-- ==== Proof.RefAssemble.lean ====
/-
  The reference's result array as the network of the launch's arguments: the contents after each chunk of its
  operations are followed from the launch — the two embeddings, the four rounds, the classifier on the last edge
  features — and every argument array is as launched at the end.
-/
import proofs.«403211_j60627758350346_1_alg».proof.Proof.SpecNet
import proofs.«403211_j60627758350346_1_alg».proof.Proof.RefStages
import proofs.«403211_j60627758350346_1_alg».proof.Proof.RefVals
import proofs.«403211_j60627758350346_1_alg».proof.Proof.RefEmbed
import proofs.«403211_j60627758350346_1_alg».proof.Proof.RefClassify
import proofs.«403211_j60627758350346_1_alg».proof.Proof.RefRound1
import proofs.«403211_j60627758350346_1_alg».proof.Proof.RefRound2
import proofs.«403211_j60627758350346_1_alg».proof.Proof.RefRound3
import proofs.«403211_j60627758350346_1_alg».proof.Proof.RefRound4
import proofs.«403211_j60627758350346_1_alg».proof.Proof.RefCarryE
import proofs.«403211_j60627758350346_1_alg».proof.Proof.RefCarry1
import proofs.«403211_j60627758350346_1_alg».proof.Proof.RefCarry2
import proofs.«403211_j60627758350346_1_alg».proof.Proof.RefCarry3
import proofs.«403211_j60627758350346_1_alg».proof.Proof.RefCarry4

noncomputable section

namespace Cert.ReferenceIdeal.RefAssemble

open Cert.ReferenceIdeal Cert.ReferenceIdeal.RefRun Cert.ReferenceIdeal.RefVals Cert.ReferenceIdeal.RefStages Cert.ReferenceIdeal.RefCarry
open Idealize.ShloMosaic Idealize.ShloMosaic.TcCoe Idealize.SL.Sem Idealize.ShloMosaic.StableHlo

variable (m : (ℓ : Loc nD τ sig) → Buf (Elt Ideal) ℓ) (c : Dev nD)

/-- The node embedding of the launch's arguments. -/
abbrev nf0 : Cert.Spec.Mat 20000 128 :=
  Cert.Spec.mlp2 (m ((c.tc : Thread nD τ).loc main_arg0)) (m ((c.tc : Thread nD τ).loc main_arg3)) (Cert.Spec.row (m ((c.tc : Thread nD τ).loc main_arg4))) (m ((c.tc : Thread nD τ).loc main_arg5)) (Cert.Spec.row (m ((c.tc : Thread nD τ).loc main_arg6)))
/-- The edge embedding of the launch's arguments. -/
abbrev ef0 : Cert.Spec.Mat 100000 128 :=
  Cert.Spec.mlp2 (m ((c.tc : Thread nD τ).loc main_arg1)) (m ((c.tc : Thread nD τ).loc main_arg7)) (Cert.Spec.row (m ((c.tc : Thread nD τ).loc main_arg8))) (m ((c.tc : Thread nD τ).loc main_arg9)) (Cert.Spec.row (m ((c.tc : Thread nD τ).loc main_arg10)))
/-- The target and the source index words of the launch's edge table. -/
abbrev iw : IVec S100000 32 := Cert.Spec.idxRow 1 (m ((c.tc : Thread nD τ).loc main_arg2))
abbrev jw : IVec S100000 32 := Cert.Spec.idxRow 0 (m ((c.tc : Thread nD τ).loc main_arg2))
/-- One round of message passing over the launch's arguments. -/
abbrev round (s : Cert.Spec.St 20000 100000 128) : Cert.Spec.St 20000 100000 128 :=
  Cert.Spec.step gR scR (nf0 m c) (ef0 m c) (nrmIdxR (iw m c)) (nrmIdxR (jw m c)) (colIdxR (iw m c))
    (m ((c.tc : Thread nD τ).loc main_arg11)) (Cert.Spec.row (m ((c.tc : Thread nD τ).loc main_arg12))) (m ((c.tc : Thread nD τ).loc main_arg13)) (Cert.Spec.row (m ((c.tc : Thread nD τ).loc main_arg14))) (m ((c.tc : Thread nD τ).loc main_arg15)) (Cert.Spec.row (m ((c.tc : Thread nD τ).loc main_arg16))) s

/-- The result array after the reference's operations is the network of the launch's arguments. -/
theorem ref_value :
    after (ops (F := Ideal)) (launchContents m c) (Proc.devRef .tc main_v179)
      = Cert.Spec.net gR scR nrmIdxR colIdxR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  rw [after_ops_eq]
  have eE_v12 : RE m c (Proc.devRef .tc main_v12) = nf0 m c := Cert.ReferenceIdeal.RefEmbed.nf0_at_RE m c
  have eE_v21 : RE m c (Proc.devRef .tc main_v21) = ef0 m c := Cert.ReferenceIdeal.RefEmbed.ef0_at_RE m c
  have eE_v3 : RE m c (Proc.devRef .tc main_v3) = iw m c := Cert.ReferenceIdeal.RefEmbed.i_at_RE m c
  have eE_v1 : RE m c (Proc.devRef .tc main_v1) = jw m c := Cert.ReferenceIdeal.RefEmbed.j_at_RE m c
  have eE_a11 : RE m c (Proc.devRef .tc main_arg11) = (m ((c.tc : Thread nD τ).loc main_arg11)) := carryE_arg11 m c
  have eE_a12 : RE m c (Proc.devRef .tc main_arg12) = (m ((c.tc : Thread nD τ).loc main_arg12)) := carryE_arg12 m c
  have eE_a13 : RE m c (Proc.devRef .tc main_arg13) = (m ((c.tc : Thread nD τ).loc main_arg13)) := carryE_arg13 m c
  have eE_a14 : RE m c (Proc.devRef .tc main_arg14) = (m ((c.tc : Thread nD τ).loc main_arg14)) := carryE_arg14 m c
  have eE_a15 : RE m c (Proc.devRef .tc main_arg15) = (m ((c.tc : Thread nD τ).loc main_arg15)) := carryE_arg15 m c
  have eE_a16 : RE m c (Proc.devRef .tc main_arg16) = (m ((c.tc : Thread nD τ).loc main_arg16)) := carryE_arg16 m c
  have eE_a17 : RE m c (Proc.devRef .tc main_arg17) = (m ((c.tc : Thread nD τ).loc main_arg17)) := carryE_arg17 m c
  have eE_a18 : RE m c (Proc.devRef .tc main_arg18) = (m ((c.tc : Thread nD τ).loc main_arg18)) := carryE_arg18 m c
  have eE_a19 : RE m c (Proc.devRef .tc main_arg19) = (m ((c.tc : Thread nD τ).loc main_arg19)) := carryE_arg19 m c
  have eE_a20 : RE m c (Proc.devRef .tc main_arg20) = (m ((c.tc : Thread nD τ).loc main_arg20)) := carryE_arg20 m c
  have eE_a21 : RE m c (Proc.devRef .tc main_arg21) = (m ((c.tc : Thread nD τ).loc main_arg21)) := carryE_arg21 m c
  have eE_a22 : RE m c (Proc.devRef .tc main_arg22) = (m ((c.tc : Thread nD τ).loc main_arg22)) := carryE_arg22 m c
  -- round 1
  obtain ⟨r1e, r1n⟩ := Cert.ReferenceIdeal.RefRound1.round1 m c (nf0 m c) (ef0 m c) (iw m c) (jw m c) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    eE_v12 eE_v21 eE_v3 eE_v1 eE_a11 eE_a12 eE_a13 eE_a14 eE_a15 eE_a16
  have e1_v12 : R1 m c (Proc.devRef .tc main_v12) = nf0 m c := (carry1_v12 m c).trans eE_v12
  have e1_v21 : R1 m c (Proc.devRef .tc main_v21) = ef0 m c := (carry1_v21 m c).trans eE_v21
  have e1_v3 : R1 m c (Proc.devRef .tc main_v3) = iw m c := (carry1_v3 m c).trans eE_v3
  have e1_v1 : R1 m c (Proc.devRef .tc main_v1) = jw m c := (carry1_v1 m c).trans eE_v1
  have e1_a11 : R1 m c (Proc.devRef .tc main_arg11) = (m ((c.tc : Thread nD τ).loc main_arg11)) := (carry1_arg11 m c).trans eE_a11
  have e1_a12 : R1 m c (Proc.devRef .tc main_arg12) = (m ((c.tc : Thread nD τ).loc main_arg12)) := (carry1_arg12 m c).trans eE_a12
  have e1_a13 : R1 m c (Proc.devRef .tc main_arg13) = (m ((c.tc : Thread nD τ).loc main_arg13)) := (carry1_arg13 m c).trans eE_a13
  have e1_a14 : R1 m c (Proc.devRef .tc main_arg14) = (m ((c.tc : Thread nD τ).loc main_arg14)) := (carry1_arg14 m c).trans eE_a14
  have e1_a15 : R1 m c (Proc.devRef .tc main_arg15) = (m ((c.tc : Thread nD τ).loc main_arg15)) := (carry1_arg15 m c).trans eE_a15
  have e1_a16 : R1 m c (Proc.devRef .tc main_arg16) = (m ((c.tc : Thread nD τ).loc main_arg16)) := (carry1_arg16 m c).trans eE_a16
  have e1_a17 : R1 m c (Proc.devRef .tc main_arg17) = (m ((c.tc : Thread nD τ).loc main_arg17)) := (carry1_arg17 m c).trans eE_a17
  have e1_a18 : R1 m c (Proc.devRef .tc main_arg18) = (m ((c.tc : Thread nD τ).loc main_arg18)) := (carry1_arg18 m c).trans eE_a18
  have e1_a19 : R1 m c (Proc.devRef .tc main_arg19) = (m ((c.tc : Thread nD τ).loc main_arg19)) := (carry1_arg19 m c).trans eE_a19
  have e1_a20 : R1 m c (Proc.devRef .tc main_arg20) = (m ((c.tc : Thread nD τ).loc main_arg20)) := (carry1_arg20 m c).trans eE_a20
  have e1_a21 : R1 m c (Proc.devRef .tc main_arg21) = (m ((c.tc : Thread nD τ).loc main_arg21)) := (carry1_arg21 m c).trans eE_a21
  have e1_a22 : R1 m c (Proc.devRef .tc main_arg22) = (m ((c.tc : Thread nD τ).loc main_arg22)) := (carry1_arg22 m c).trans eE_a22
  -- round 2
  obtain ⟨r2e, r2n⟩ := Cert.ReferenceIdeal.RefRound2.round2 m c (nf0 m c) (ef0 m c) (iw m c) (jw m c) (round m c ((nf0 m c, ef0 m c))) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    e1_v12 e1_v21 e1_v3 e1_v1 r1e r1n e1_a11 e1_a12 e1_a13 e1_a14 e1_a15 e1_a16
  have e2_v12 : R2 m c (Proc.devRef .tc main_v12) = nf0 m c := (carry2_v12 m c).trans e1_v12
  have e2_v21 : R2 m c (Proc.devRef .tc main_v21) = ef0 m c := (carry2_v21 m c).trans e1_v21
  have e2_v3 : R2 m c (Proc.devRef .tc main_v3) = iw m c := (carry2_v3 m c).trans e1_v3
  have e2_v1 : R2 m c (Proc.devRef .tc main_v1) = jw m c := (carry2_v1 m c).trans e1_v1
  have e2_a11 : R2 m c (Proc.devRef .tc main_arg11) = (m ((c.tc : Thread nD τ).loc main_arg11)) := (carry2_arg11 m c).trans e1_a11
  have e2_a12 : R2 m c (Proc.devRef .tc main_arg12) = (m ((c.tc : Thread nD τ).loc main_arg12)) := (carry2_arg12 m c).trans e1_a12
  have e2_a13 : R2 m c (Proc.devRef .tc main_arg13) = (m ((c.tc : Thread nD τ).loc main_arg13)) := (carry2_arg13 m c).trans e1_a13
  have e2_a14 : R2 m c (Proc.devRef .tc main_arg14) = (m ((c.tc : Thread nD τ).loc main_arg14)) := (carry2_arg14 m c).trans e1_a14
  have e2_a15 : R2 m c (Proc.devRef .tc main_arg15) = (m ((c.tc : Thread nD τ).loc main_arg15)) := (carry2_arg15 m c).trans e1_a15
  have e2_a16 : R2 m c (Proc.devRef .tc main_arg16) = (m ((c.tc : Thread nD τ).loc main_arg16)) := (carry2_arg16 m c).trans e1_a16
  have e2_a17 : R2 m c (Proc.devRef .tc main_arg17) = (m ((c.tc : Thread nD τ).loc main_arg17)) := (carry2_arg17 m c).trans e1_a17
  have e2_a18 : R2 m c (Proc.devRef .tc main_arg18) = (m ((c.tc : Thread nD τ).loc main_arg18)) := (carry2_arg18 m c).trans e1_a18
  have e2_a19 : R2 m c (Proc.devRef .tc main_arg19) = (m ((c.tc : Thread nD τ).loc main_arg19)) := (carry2_arg19 m c).trans e1_a19
  have e2_a20 : R2 m c (Proc.devRef .tc main_arg20) = (m ((c.tc : Thread nD τ).loc main_arg20)) := (carry2_arg20 m c).trans e1_a20
  have e2_a21 : R2 m c (Proc.devRef .tc main_arg21) = (m ((c.tc : Thread nD τ).loc main_arg21)) := (carry2_arg21 m c).trans e1_a21
  have e2_a22 : R2 m c (Proc.devRef .tc main_arg22) = (m ((c.tc : Thread nD τ).loc main_arg22)) := (carry2_arg22 m c).trans e1_a22
  -- round 3
  obtain ⟨r3e, r3n⟩ := Cert.ReferenceIdeal.RefRound3.round3 m c (nf0 m c) (ef0 m c) (iw m c) (jw m c) (round m c (round m c ((nf0 m c, ef0 m c)))) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    e2_v12 e2_v21 e2_v3 e2_v1 r2e r2n e2_a11 e2_a12 e2_a13 e2_a14 e2_a15 e2_a16
  have e3_v12 : R3 m c (Proc.devRef .tc main_v12) = nf0 m c := (carry3_v12 m c).trans e2_v12
  have e3_v21 : R3 m c (Proc.devRef .tc main_v21) = ef0 m c := (carry3_v21 m c).trans e2_v21
  have e3_v3 : R3 m c (Proc.devRef .tc main_v3) = iw m c := (carry3_v3 m c).trans e2_v3
  have e3_v1 : R3 m c (Proc.devRef .tc main_v1) = jw m c := (carry3_v1 m c).trans e2_v1
  have e3_a11 : R3 m c (Proc.devRef .tc main_arg11) = (m ((c.tc : Thread nD τ).loc main_arg11)) := (carry3_arg11 m c).trans e2_a11
  have e3_a12 : R3 m c (Proc.devRef .tc main_arg12) = (m ((c.tc : Thread nD τ).loc main_arg12)) := (carry3_arg12 m c).trans e2_a12
  have e3_a13 : R3 m c (Proc.devRef .tc main_arg13) = (m ((c.tc : Thread nD τ).loc main_arg13)) := (carry3_arg13 m c).trans e2_a13
  have e3_a14 : R3 m c (Proc.devRef .tc main_arg14) = (m ((c.tc : Thread nD τ).loc main_arg14)) := (carry3_arg14 m c).trans e2_a14
  have e3_a15 : R3 m c (Proc.devRef .tc main_arg15) = (m ((c.tc : Thread nD τ).loc main_arg15)) := (carry3_arg15 m c).trans e2_a15
  have e3_a16 : R3 m c (Proc.devRef .tc main_arg16) = (m ((c.tc : Thread nD τ).loc main_arg16)) := (carry3_arg16 m c).trans e2_a16
  have e3_a17 : R3 m c (Proc.devRef .tc main_arg17) = (m ((c.tc : Thread nD τ).loc main_arg17)) := (carry3_arg17 m c).trans e2_a17
  have e3_a18 : R3 m c (Proc.devRef .tc main_arg18) = (m ((c.tc : Thread nD τ).loc main_arg18)) := (carry3_arg18 m c).trans e2_a18
  have e3_a19 : R3 m c (Proc.devRef .tc main_arg19) = (m ((c.tc : Thread nD τ).loc main_arg19)) := (carry3_arg19 m c).trans e2_a19
  have e3_a20 : R3 m c (Proc.devRef .tc main_arg20) = (m ((c.tc : Thread nD τ).loc main_arg20)) := (carry3_arg20 m c).trans e2_a20
  have e3_a21 : R3 m c (Proc.devRef .tc main_arg21) = (m ((c.tc : Thread nD τ).loc main_arg21)) := (carry3_arg21 m c).trans e2_a21
  have e3_a22 : R3 m c (Proc.devRef .tc main_arg22) = (m ((c.tc : Thread nD τ).loc main_arg22)) := (carry3_arg22 m c).trans e2_a22
  -- round 4
  obtain ⟨r4e, r4n⟩ := Cert.ReferenceIdeal.RefRound4.round4 m c (nf0 m c) (ef0 m c) (iw m c) (jw m c) (round m c (round m c (round m c ((nf0 m c, ef0 m c))))) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    e3_v12 e3_v21 e3_v3 e3_v1 r3e r3n e3_a11 e3_a12 e3_a13 e3_a14 e3_a15 e3_a16
  have e4_a17 : R4 m c (Proc.devRef .tc main_arg17) = (m ((c.tc : Thread nD τ).loc main_arg17)) := (carry4_arg17 m c).trans e3_a17
  have e4_a18 : R4 m c (Proc.devRef .tc main_arg18) = (m ((c.tc : Thread nD τ).loc main_arg18)) := (carry4_arg18 m c).trans e3_a18
  have e4_a19 : R4 m c (Proc.devRef .tc main_arg19) = (m ((c.tc : Thread nD τ).loc main_arg19)) := (carry4_arg19 m c).trans e3_a19
  have e4_a20 : R4 m c (Proc.devRef .tc main_arg20) = (m ((c.tc : Thread nD τ).loc main_arg20)) := (carry4_arg20 m c).trans e3_a20
  have e4_a21 : R4 m c (Proc.devRef .tc main_arg21) = (m ((c.tc : Thread nD τ).loc main_arg21)) := (carry4_arg21 m c).trans e3_a21
  have e4_a22 : R4 m c (Proc.devRef .tc main_arg22) = (m ((c.tc : Thread nD τ).loc main_arg22)) := (carry4_arg22 m c).trans e3_a22
  -- the classifier on the last edge features
  refine (Cert.ReferenceIdeal.RefClassify.out_at_RC m c _ (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) r4e e4_a17 e4_a18 e4_a19 e4_a20 e4_a21 e4_a22).trans ?_
  rfl

end Cert.ReferenceIdeal.RefAssemble

end
-- ==== Proof.KNames.lean ====
/-
  The kernel program's row gather, under one name.
-/
import proofs.«403211_j60627758350346_1_alg».proof.KernelIdeal
import proofs.«403211_j60627758350346_1_alg».proof.Proof.Spec

noncomputable section

namespace Cert.KernelIdeal.Names

open Idealize.ShloMosaic Cert.KernelIdeal

/-- Rows of a 20000-row table gathered at 100000 index words (the host's gather: a word is read signed and clamped
    into the table). -/
def gK [Cert.KernelIdeal.Facts] (t : Cert.Spec.Mat 20000 256) (idx : IVec S100000x1 32) : Cert.Spec.Mat 100000 256 :=
  Host.gather gather_S20000x256_S100000x1_S100000x256_1_0_n_n_0_1_1256 t idx

end Cert.KernelIdeal.Names

end
-- ==== Proof.KGlue.lean ====
/-
  What the host operations between the launches write, read against the network's own functions. Each stretch of
  host operations turns buffer contents W into new contents; here each buffer a stretch writes is named as a function
  of W: a bias vector recast as a one-row matrix is `Spec.row`, a row of the index table cut out and recast as a
  vector is `Spec.idxRow`, two matrices joined along their columns are `Spec.cat2`, and the messages summed into
  their target rows (`scK`, at the target index words set as a column, `colIdx`) stay the host's own scatter-add.
-/
import proofs.«403211_j60627758350346_1_alg».proof.Proof.Gen.KernelIdeal.Launch
import proofs.«403211_j60627758350346_1_alg».proof.Proof.Spec
import proofs.«403211_j60627758350346_1_alg».proof.Proof.LibConcat
import Idealize.ShloMosaic.Lib.StableHlo.Run
import Idealize.ShloMosaic.Lib.ValueIdx
import Idealize.ShloMosaic.Lib.ValueLayout
import Idealize.ShloMosaic.PureOps.Ideal

noncomputable section

namespace Cert.KernelIdeal.Glue

open Idealize.ShloMosaic Idealize.ShloMosaic.TcCoe Idealize.SL.Sem Idealize.ShloMosaic.StableHlo
open Cert.KernelIdeal Cert.KernelIdeal.Gen
open Idealize.ShloMosaic.ValueIdx

/-! ## The operations between the launches, read at an entry -/

/-- Messages summed into their target rows: the host's scatter-add into a zero table. -/
def scK (idx : IVec S100000x1 32) (upd : Cert.Spec.Mat 100000 128) : Cert.Spec.Mat 20000 128 :=
  Host.scatterAdd scatter_S20000x128_S100000x1_S100000x128_1_0_0_1
    (broadcastInDim S20000x128 ![] bcast_S_S20000x128 (constant (F := Ideal) S_ .f32 0x00000000#32)) idx upd

/-- Index words set as a column. -/
def colIdx (i : IVec S100000 32) : IVec S100000x1 32 := broadcastInDim S100000x1 ![0] bcast_S100000_S100000x1_0 i

/-- A vector of C entries recast as a matrix of one row is that row: entry (u, c) is entry c of the vector. -/
theorem row_cast {C : Nat} (x : (⟨1, ![C]⟩ : Shape).Idx → EReal) (h : (⟨1, ![C]⟩ : Shape).ShapeCasts ⟨2, ![1, C]⟩) :
    shapeCast ⟨2, ![1, C]⟩ x h = Cert.Spec.row x := by
  funext i
  obtain ⟨u, c, rfl⟩ : ∃ u c, i = ix2 u c := ⟨i 0, i 1, eq_ix2 i⟩
  rw [shapeCast_a_1a_apply, Cert.Spec.row_apply]

/-- Row p of a two-row table of words, cut out as a one-row matrix (the cut starts at row o = p) and recast as a
    vector: entry c is the table's entry (p, c). -/
theorem idxRow_cast {E : Nat} (o : Nat) (p : Fin 2) (hp : p.val = o) (e : IVec ⟨2, ![2, E]⟩ 32)
    (hs : (⟨2, ![2, E]⟩ : Shape).Slices ![o, 0] ⟨2, ![1, E]⟩) (hc : (⟨2, ![1, E]⟩ : Shape).ShapeCasts ⟨1, ![E]⟩) :
    shapeCast ⟨1, ![E]⟩ (extractStridedSlice ⟨2, ![1, E]⟩ ![o, 0] e hs) hc = Cert.Spec.idxRow p e := by
  funext i
  obtain ⟨c, rfl⟩ : ∃ c, i = ix1 c := ⟨i 0, eq_ix1 i⟩
  rw [shapeCast_1a_a_apply, slice2_axis0_apply o e hs (0 : Fin 1) c p (by rw [hp]; rfl)]
  rfl

/-- Two matrices joined along their columns are the two side by side. -/
theorem cat2_concat {R A B N : Nat}
    (h : Shape.Concatenates [(⟨2, ![R, A]⟩ : Shape), (⟨2, ![R, B]⟩ : Shape)] (⟨2, ![R, N]⟩ : Shape) (1 : Fin 2))
    (a : Cert.Spec.Mat R A) (b : Cert.Spec.Mat R B) :
    concatenate (⟨2, ![R, N]⟩ : Shape) (1 : Fin 2) [⟨(⟨2, ![R, A]⟩ : Shape), a⟩, ⟨(⟨2, ![R, B]⟩ : Shape), b⟩] h
      = Cert.Spec.cat2 N a b := by
  funext i
  obtain ⟨r, k, rfl⟩ : ∃ r k, i = ix2 r k := ⟨i 0, i 1, eq_ix2 i⟩
  exact Cert.LibConcat.concat2_at h a b r k

variable (W : Valuation τ sig (Elt Ideal))

/-! ## Before the first launch: the two index rows and two bias rows -/

theorem glue0_v4 : StableHlo.after hostOps0 W (Proc.devRef .tc main_v4) = Cert.Spec.row (W (Proc.devRef .tc main_arg4)) := by
  after_results
  exact row_cast _ _

theorem glue0_v5 : StableHlo.after hostOps0 W (Proc.devRef .tc main_v5) = Cert.Spec.row (W (Proc.devRef .tc main_arg6)) := by
  after_results
  exact row_cast _ _

theorem glue0_v3 : StableHlo.after hostOps0 W (Proc.devRef .tc main_v3) = Cert.Spec.idxRow 1 (W (Proc.devRef .tc main_arg2)) := by
  after_results
  exact idxRow_cast 1 1 rfl _ _ _

theorem glue0_v1 : StableHlo.after hostOps0 W (Proc.devRef .tc main_v1) = Cert.Spec.idxRow 0 (W (Proc.devRef .tc main_arg2)) := by
  after_results
  exact idxRow_cast 0 0 rfl _ _ _

/-! ## Before the second launch -/

theorem glue1_v7 : StableHlo.after hostOps1 W (Proc.devRef .tc main_v7) = Cert.Spec.row (W (Proc.devRef .tc main_arg8)) := by
  after_results
  exact row_cast _ _

theorem glue1_v8 : StableHlo.after hostOps1 W (Proc.devRef .tc main_v8) = Cert.Spec.row (W (Proc.devRef .tc main_arg10)) := by
  after_results
  exact row_cast _ _

/-! ## The first round: the embeddings beside themselves -/

theorem glue2_v10 : StableHlo.after hostOps2 W (Proc.devRef .tc main_v10)
    = Cert.Spec.cat2 256 (W (Proc.devRef .tc main_v6)) (W (Proc.devRef .tc main_v6)) := by
  after_results
  exact cat2_concat _ _ _

theorem glue2_v11 : StableHlo.after hostOps2 W (Proc.devRef .tc main_v11)
    = Cert.Spec.cat2 256 (W (Proc.devRef .tc main_v9)) (W (Proc.devRef .tc main_v9)) := by
  after_results
  exact cat2_concat _ _ _

theorem glue2_v14 : StableHlo.after hostOps2_3 W (Proc.devRef .tc main_v14) = Cert.Spec.row (W (Proc.devRef .tc main_arg12)) := by
  after_results
  exact row_cast _ _

theorem glue2_v15 : StableHlo.after hostOps2_3 W (Proc.devRef .tc main_v15) = Cert.Spec.row (W (Proc.devRef .tc main_arg14)) := by
  after_results
  exact row_cast _ _

theorem glue2_v16 : StableHlo.after hostOps2_3 W (Proc.devRef .tc main_v16) = Cert.Spec.row (W (Proc.devRef .tc main_arg16)) := by
  after_results
  exact row_cast _ _

/-! ## The second round -/

theorem glue3_v21 : StableHlo.after hostOps3 W (Proc.devRef .tc main_v21)
    = Cert.Spec.cat2 256 (W (Proc.devRef .tc main_v6)) (scK (colIdx (W (Proc.devRef .tc main_v3))) (W (Proc.devRef .tc main_v17_1))) := by
  after_results
  exact cat2_concat _ _ _

theorem glue3_v22 : StableHlo.after hostOps3 W (Proc.devRef .tc main_v22)
    = Cert.Spec.cat2 256 (W (Proc.devRef .tc main_v9)) (W (Proc.devRef .tc main_v17_0)) := by
  after_results
  exact cat2_concat _ _ _

theorem glue3_v25 : StableHlo.after hostOps3_3 W (Proc.devRef .tc main_v25) = Cert.Spec.row (W (Proc.devRef .tc main_arg12)) := by
  after_results
  exact row_cast _ _

theorem glue3_v26 : StableHlo.after hostOps3_3 W (Proc.devRef .tc main_v26) = Cert.Spec.row (W (Proc.devRef .tc main_arg14)) := by
  after_results
  exact row_cast _ _

theorem glue3_v27 : StableHlo.after hostOps3_3 W (Proc.devRef .tc main_v27) = Cert.Spec.row (W (Proc.devRef .tc main_arg16)) := by
  after_results
  exact row_cast _ _

/-! ## The third round -/

theorem glue4_v32 : StableHlo.after hostOps4 W (Proc.devRef .tc main_v32)
    = Cert.Spec.cat2 256 (W (Proc.devRef .tc main_v6)) (scK (colIdx (W (Proc.devRef .tc main_v3))) (W (Proc.devRef .tc main_v28_1))) := by
  after_results
  exact cat2_concat _ _ _

theorem glue4_v33 : StableHlo.after hostOps4 W (Proc.devRef .tc main_v33)
    = Cert.Spec.cat2 256 (W (Proc.devRef .tc main_v9)) (W (Proc.devRef .tc main_v28_0)) := by
  after_results
  exact cat2_concat _ _ _

theorem glue4_v36 : StableHlo.after hostOps4_3 W (Proc.devRef .tc main_v36) = Cert.Spec.row (W (Proc.devRef .tc main_arg12)) := by
  after_results
  exact row_cast _ _

theorem glue4_v37 : StableHlo.after hostOps4_3 W (Proc.devRef .tc main_v37) = Cert.Spec.row (W (Proc.devRef .tc main_arg14)) := by
  after_results
  exact row_cast _ _

theorem glue4_v38 : StableHlo.after hostOps4_3 W (Proc.devRef .tc main_v38) = Cert.Spec.row (W (Proc.devRef .tc main_arg16)) := by
  after_results
  exact row_cast _ _

/-! ## The fourth round -/

theorem glue5_v43 : StableHlo.after hostOps5 W (Proc.devRef .tc main_v43)
    = Cert.Spec.cat2 256 (W (Proc.devRef .tc main_v6)) (scK (colIdx (W (Proc.devRef .tc main_v3))) (W (Proc.devRef .tc main_v39_1))) := by
  after_results
  exact cat2_concat _ _ _

theorem glue5_v44 : StableHlo.after hostOps5 W (Proc.devRef .tc main_v44)
    = Cert.Spec.cat2 256 (W (Proc.devRef .tc main_v9)) (W (Proc.devRef .tc main_v39_0)) := by
  after_results
  exact cat2_concat _ _ _

theorem glue5_v47 : StableHlo.after hostOps5_3 W (Proc.devRef .tc main_v47) = Cert.Spec.row (W (Proc.devRef .tc main_arg12)) := by
  after_results
  exact row_cast _ _

theorem glue5_v48 : StableHlo.after hostOps5_3 W (Proc.devRef .tc main_v48) = Cert.Spec.row (W (Proc.devRef .tc main_arg14)) := by
  after_results
  exact row_cast _ _

theorem glue5_v49 : StableHlo.after hostOps5_3 W (Proc.devRef .tc main_v49) = Cert.Spec.row (W (Proc.devRef .tc main_arg16)) := by
  after_results
  exact row_cast _ _

/-! ## Before the classifier: its three bias rows -/

theorem glue6_v54 : StableHlo.after hostOps6 W (Proc.devRef .tc main_v54) = Cert.Spec.row (W (Proc.devRef .tc main_arg18)) := by
  after_results
  exact row_cast _ _

theorem glue6_v55 : StableHlo.after hostOps6 W (Proc.devRef .tc main_v55) = Cert.Spec.row (W (Proc.devRef .tc main_arg20)) := by
  after_results
  exact row_cast _ _

theorem glue6_v56 : StableHlo.after hostOps6 W (Proc.devRef .tc main_v56) = Cert.Spec.row (W (Proc.devRef .tc main_arg22)) := by
  after_results
  exact row_cast _ _

/-- The last round's messages summed into their target rows. -/
theorem glue6_v53 : StableHlo.after hostOps6 W (Proc.devRef .tc main_v53)
    = scK (colIdx (W (Proc.devRef .tc main_v3))) (W (Proc.devRef .tc main_v50_1)) := by
  after_results
  rfl

end Cert.KernelIdeal.Glue

end
-- ==== Proof.PreRange.lean ====
/-
  The precondition's last two conjuncts, read back. The printed precondition `fn` is a left-nested conjunction
  (`and` of `i1` scalars) whose last two members are `jnp.all(edge_index >= 0)` and `jnp.all(edge_index < 20000)`,
  each a reduction by `and` over the whole [2, 100000] table of a SIGNED 32-bit comparison against a broadcast
  constant. When the conjunction is 1, each of the two reductions is 1, so each comparison is 1 at every index, and a
  word w with 0 ≤ w and w < 20000 as signed readings has unsigned reading below 20000 (`index_range`).

  Three facts about such a word follow: a negative-index wrap (`select (w < 0) (w + 20000) w`) leaves it alone, and
  the two signed bounds checks 0 ≤ w and w ≤ 19999 both answer 1.
-/
import proofs.«403211_j60627758350346_1_alg».proof.Pre_finite_inputs
import Idealize.ShloMosaic.Lib.ReduceAll
import Idealize.ShloMosaic.Lib.StableHlo.Predicate
import Idealize.ShloMosaic.Lib.ValueIdx
import Idealize.ShloMosaic.PureOps.Ideal

namespace Cert.PreRange

open Idealize.ShloMosaic Cert.Pre_finite_inputs

/-! ## Words -/

/-- The signed reading of a word whose unsigned reading is below 2³¹ is that unsigned reading. -/
theorem toInt_small (i : BitVec 32) (h : i.toNat < 20000) : i.toInt = (i.toNat : Int) := by
  rw [BitVec.toInt_eq_toNat_cond, if_pos (by omega)]

/-- A word in [0, 20000) as a signed number is below 20000 as an unsigned one. -/
theorem toNat_lt_of_signed (w : BitVec 32) (h0 : IntOp.cmpi .sge w 0#32 = 1#1) (h1 : IntOp.cmpi .slt w 20000#32 = 1#1) :
    w.toNat < 20000 := by
  have g0 : (0#32 : BitVec 32).toInt ≤ w.toInt := IntOp.cmpi_sge.1 h0
  have g1 : w.toInt < (20000#32 : BitVec 32).toInt := IntOp.cmpi_slt.1 h1
  have e0 : (0#32 : BitVec 32).toInt = 0 := by decide
  have e1 : (20000#32 : BitVec 32).toInt = 20000 := by decide
  rw [e0] at g0
  rw [e1] at g1
  rw [BitVec.toInt_eq_toNat_cond] at g0 g1
  have hw := w.isLt
  split at g0 <;> omega

/-- A non-negative index is not wrapped: the test `i < 0` answers 0, so the select keeps `i`. -/
theorem norm_word (i : BitVec 32) (h : i.toNat < 20000) :
    Scalar.select (IntOp.cmpi .slt i 0#32) (IntOp.addi i 20000#32) i = i := by
  have hc : ¬ IntOp.cmpi .slt i 0#32 = 1#1 := fun hc => by
    have g : i.toInt < (0#32 : BitVec 32).toInt := IntOp.cmpi_slt.1 hc
    have e0 : (0#32 : BitVec 32).toInt = 0 := by decide
    rw [e0, toInt_small i h] at g
    omega
  unfold Scalar.select
  exact if_neg hc

/-- The lower bounds check of an index below 20000 answers 1. -/
theorem ge_word (i : BitVec 32) (h : i.toNat < 20000) : IntOp.cmpi .sge i 0#32 = 1#1 := by
  refine IntOp.cmpi_sge.2 ?_
  have e0 : (0#32 : BitVec 32).toInt = 0 := by decide
  rw [e0, toInt_small i h]
  omega

/-- The upper bounds check (against the last row, 19999) of an index below 20000 answers 1. -/
theorem le_word (i : BitVec 32) (h : i.toNat < 20000) : IntOp.cmpi .sle i 19999#32 = 1#1 := by
  refine IntOp.cmpi_sle.2 ?_
  have e1 : (19999#32 : BitVec 32).toInt = 19999 := by decide
  rw [e1, toInt_small i h]
  omega

/-! ## The two conjuncts on the index table -/

/-- The scalar shape has one index. -/
instance : Subsingleton S_.Idx := ⟨fun a b => funext fun d => d.elim0⟩

/-- The last stretch of the conjunction: whatever the conjunction so far (`v98`) and the pending comparison (`v101`)
    are, the result being 1 makes both reductions over the index table 1, hence both comparisons 1 at (p, e). -/
theorem tail_range [Facts] {F : FTy → Type} [FloatOps F] (a2 : IVec S2x100000 32) (a22 : FVec F S1 .f32)
    (v98 : IVec S_ 1) (v101 : IVec S32x1 1) (c39 : IVec S_ 1)
    (h : fn_part6 (F := F) a2 a22 v98 v101 c39 = fun _ => 1#1) (p : Fin 2) (e : Fin 100000) :
    (a2 (ValueIdx.ix2 p e)).toNat < 20000 := by
  have h0 := congrFun h ValueIdx.ix0
  dsimp only [fn_part6] at h0
  -- the conjunction is ((((_ ∧ _) ∧ _) ∧ all (idx ≥ 0)) ∧ all (idx < 20000)), pointwise on the one scalar index
  obtain ⟨h1, hlt⟩ := IntOp.andi_eq_one.1 h0
  obtain ⟨-, hge⟩ := IntOp.andi_eq_one.1 h1
  have kge := Host.reduce_andi_all _ _ _ _ _ hge (ValueIdx.ix2 p e)
  have klt := Host.reduce_andi_all _ _ _ _ _ hlt (ValueIdx.ix2 p e)
  -- a comparison of arrays is pointwise, and the broadcast of a scalar constant reads as the constant
  have wge : IntOp.cmpi .sge (a2 (ValueIdx.ix2 p e)) 0#32 = 1#1 := kge
  have wlt : IntOp.cmpi .slt (a2 (ValueIdx.ix2 p e)) 20000#32 = 1#1 := klt
  exact toNat_lt_of_signed _ wge wlt

/-- Every index word of the edge table, read unsigned, is below 20000. -/
theorem index_range [Facts]
    (a0 : FVec Ideal S20000x128 .f32) (a1 : FVec Ideal S100000x291 .f32) (a2 : IVec S2x100000 32)
    (a3 : FVec Ideal S128x128 .f32) (a4 : FVec Ideal S128 .f32) (a5 : FVec Ideal S128x128 .f32) (a6 : FVec Ideal S128 .f32)
    (a7 : FVec Ideal S291x64 .f32) (a8 : FVec Ideal S64 .f32) (a9 : FVec Ideal S64x128 .f32) (a10 : FVec Ideal S128 .f32)
    (a11 : FVec Ideal S768x64 .f32) (a12 : FVec Ideal S64 .f32) (a13 : FVec Ideal S64x128 .f32) (a14 : FVec Ideal S128 .f32)
    (a15 : FVec Ideal S384x128 .f32) (a16 : FVec Ideal S128 .f32) (a17 : FVec Ideal S128x64 .f32) (a18 : FVec Ideal S64 .f32)
    (a19 : FVec Ideal S64x32 .f32) (a20 : FVec Ideal S32 .f32) (a21 : FVec Ideal S32x1 .f32) (a22 : FVec Ideal S1 .f32)
    (h : fn (F := Ideal) a0 a1 a2 a3 a4 a5 a6 a7 a8 a9 a10 a11 a12 a13 a14 a15 a16 a17 a18 a19 a20 a21 a22 = fun _ => 1#1)
    (p : Fin 2) (e : Fin 100000) :
    (a2 (ValueIdx.ix2 p e)).toNat < 20000 := by
  -- the printed function is one chain of lets cut into six parts; opening the first five leaves the last part's call
  unfold fn fn_part1 fn_part2 fn_part3 fn_part4 fn_part5 at h
  exact tail_range a2 a22 _ _ _ h p e

end Cert.PreRange
-- ==== Proof.KTake.lean ====
/-
  Rows gathered at index words that are in range. A row gather in "fill" mode wraps a negative index word by the
  table's height, gathers (the gather clamps into the table), and overwrites the rows whose wrapped index is outside
  [0, height) by a not-a-number. When every index word, read unsigned, is below the height 20000, no row is
  overwritten: the range mask is 1 at every entry and the result is the plain gather at the wrapped index column.
  The first part is about the pure operations alone, over any index vector; the second part reads each of the eight
  stretches of host operations that print such a gather, over any contents of the buffers.
-/
import proofs.«403211_j60627758350346_1_alg».proof.Proof.Gen.KernelIdeal.Launch
import proofs.«403211_j60627758350346_1_alg».proof.Proof.PreRange
import proofs.«403211_j60627758350346_1_alg».proof.Proof.LibTypedRef
import Idealize.ShloMosaic.Lib.StableHlo.Run
import Idealize.ShloMosaic.Lib.StableHlo.Predicate
import Idealize.ShloMosaic.Lib.ValueIdx
import Idealize.ShloMosaic.Lib.ReduceAll
import Idealize.ShloMosaic.PureOps.Ideal

-- reading a buffer's type off the program's table of references recurses past the default depth
set_option maxRecDepth 16384

noncomputable section

namespace Cert.KernelIdeal.Take

open Idealize.ShloMosaic Idealize.ShloMosaic.TcCoe Idealize.SL.Sem Idealize.ShloMosaic.StableHlo
open Cert.KernelIdeal Cert.KernelIdeal.Gen

/-! ## The pure operations -/

/-- A left fold by `and` from 1 over one-bit words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduction by `and` from 1 of an array of one-bit words that are all 1 is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (h1 : init (Shape.Idx.first hu) = 1#1) (j : t.Idx) :
    Host.reduce IntOp.andi x init h hu j = 1#1 := by
  rw [Host.reduce_eq_foldl, h1]
  exact foldl_andi_ones x hx _

/-- A broadcast of an array whose every entry is `v` has every entry `v`. -/
theorem broadcastInDim_eq_of_forall {α : Type} {s t : Shape} (dims : Fin s.rank → Fin t.rank) (h : s.BroadcastsInDim t dims)
    (x : s.Idx → α) (v : α) (hx : ∀ q, x q = v) (j : t.Idx) : broadcastInDim t dims h x j = v := hx _

/-- The gather's index array: a negative word wrapped by the table's height, the words set as a column. -/
def nrmIdx (i : IVec S100000 32) : IVec S100000x1 32 :=
  broadcastInDim S100000x1 ![0] bcast_S100000_S100000x1_0
    (select (cmpi .slt i (broadcastInDim S100000 ![] bcast_S_S100000 (constantI S_ 32 0#32)))
      (addi i (broadcastInDim S100000 ![] bcast_S_S100000 (constantI S_ 32 20000#32))) i)

/-- The range mask: 1 where the wrapped index is at least 0 and at most the last row 19999, along every column. -/
def inRange (i : IVec S100000 32) : IVec S100000x256 1 :=
  broadcastInDim S100000x256 ![0] bcast_S100000_S100000x256_0
    (Host.reduce IntOp.andi
      (andi
        (cmpi .sge (nrmIdx i) (broadcastInDim S100000x1 ![] bcast_S_S100000x1 (constantI S_ 32 0#32)))
        (cmpi .sle (nrmIdx i)
          (broadcastInDim S100000x1 ![0, 1] bcast_S1x1_S100000x1_0_1
            (broadcastInDim S1x1 ![1] bcast_S1_S1x1_1 (constantI S1 32 19999#32)))))
      (constantI S_ 1 1#1) reducesTo_S100000x1_S100000_d1 h_S_)

/-- Every entry of the index column is one of the index words, unwrapped: a word below 20000 is not negative. -/
theorem nrmIdx_lt (i : IVec S100000 32) (hI : ∀ e : S100000.Idx, (i e).toNat < 20000) (p : S100000x1.Idx) :
    (nrmIdx i p).toNat < 20000 := by
  have key : ∀ q : S100000.Idx,
      (select (cmpi .slt i (broadcastInDim S100000 ![] bcast_S_S100000 (constantI S_ 32 0#32)))
        (addi i (broadcastInDim S100000 ![] bcast_S_S100000 (constantI S_ 32 20000#32))) i) q = i q :=
    fun q => Cert.PreRange.norm_word (i q) (hI q)
  have hq : ∃ q : S100000.Idx, nrmIdx i p = i q := ⟨_, key _⟩
  obtain ⟨q, hq⟩ := hq
  rw [hq]
  exact hI q

/-- With every index word below 20000 the range mask is 1 at every entry. -/
theorem inRange_apply (i : IVec S100000 32) (hI : ∀ e : S100000.Idx, (i e).toNat < 20000) (y : S100000x256.Idx) :
    inRange i y = 1#1 := by
  unfold inRange
  refine broadcastInDim_eq_of_forall _ _ _ _ (fun q => reduce_andi_ones _ _ _ _ (fun p => ?_) rfl q) y
  show IntOp.andi (IntOp.cmpi .sge (nrmIdx i p) 0#32) (IntOp.cmpi .sle (nrmIdx i p) 19999#32) = 1#1
  rw [Cert.PreRange.ge_word _ (nrmIdx_lt i hI p), Cert.PreRange.le_word _ (nrmIdx_lt i hI p)]
  decide

/-- With every index word below 20000, the gather whose out-of-range rows are overwritten by a not-a-number is the
    gather. -/
theorem take_pure (x : FVec Ideal S20000x256 .f32) (i : IVec S100000 32) (hI : ∀ e : S100000.Idx, (i e).toNat < 20000) :
    select (inRange i) (Host.gather gather_S20000x256_S100000x1_S100000x256_1_0_n_n_0_1_1256 x (nrmIdx i))
        (broadcastInDim S100000x256 ![] bcast_S_S100000x256 (constant (F := Ideal) S_ .f32 0x7FC00000#32))
      = Host.gather gather_S20000x256_S100000x1_S100000x256_1_0_n_n_0_1_1256 x (nrmIdx i) := by
  funext y
  show Scalar.select (inRange i y) _ _ = _
  rw [inRange_apply i hI y]
  exact ValueIdx.select_one _ _

/-! ## The eight stretches -/

set_option maxHeartbeats 1000000 in
/-- Gather 0: its stretch of host operations leaves, in the result's buffer, the table's rows gathered at the wrapped
    index column. -/
theorem take_call0 (W : Valuation τ sig (Elt Ideal)) (hI : ∀ e : S100000.Idx, ((W (Proc.devRef .tc main_v3) : IVec S100000 32) e).toNat < 20000) :
    StableHlo.after hostOps2_1 W (Proc.devRef .tc main_v12)
      = Host.gather gather_S20000x256_S100000x1_S100000x256_1_0_n_n_0_1_1256 (W (Proc.devRef .tc main_v10)) (nrmIdx (W (Proc.devRef .tc main_v3))) := by
  after_results_simp
  simp only [Cert.LibTypedRef.ofBuf_toBuf]
  -- contents read at, or written at, a buffer's own type are the contents
  have ei : ∀ h1 h2 h3, (TRef.of (T := ⟨S100000, .i32⟩) main_v3 h1 h2 h3).ofBuf (W (Proc.devRef .tc main_v3))
      = (W (Proc.devRef .tc main_v3) : IVec S100000 32) := fun _ _ _ => rfl
  have ex : ∀ h1 h2 h3, (TRef.of (T := ⟨S20000x256, .f32⟩) main_v10 h1 h2 h3).ofBuf (W (Proc.devRef .tc main_v10))
      = (W (Proc.devRef .tc main_v10) : FVec Ideal S20000x256 .f32) := fun _ _ _ => rfl
  have ey : ∀ h1 h2 h3 (v : FVec Ideal S100000x256 .f32),
      ((TRef.of (T := ⟨S100000x256, .f32⟩) main_v12 h1 h2 h3).toBuf (Val := Elt Ideal) v : FVec Ideal S100000x256 .f32) = v :=
    fun _ _ _ _ => rfl
  simp only [ei, ex, ey]
  have h := take_pure (W (Proc.devRef .tc main_v10)) (W (Proc.devRef .tc main_v3)) hI
  unfold nrmIdx
  unfold inRange nrmIdx at h
  exact h

set_option maxHeartbeats 1000000 in
/-- Gather 1: its stretch of host operations leaves, in the result's buffer, the table's rows gathered at the wrapped
    index column. -/
theorem take_call1 (W : Valuation τ sig (Elt Ideal)) (hI : ∀ e : S100000.Idx, ((W (Proc.devRef .tc main_v1) : IVec S100000 32) e).toNat < 20000) :
    StableHlo.after hostOps2_2 W (Proc.devRef .tc main_v13)
      = Host.gather gather_S20000x256_S100000x1_S100000x256_1_0_n_n_0_1_1256 (W (Proc.devRef .tc main_v10)) (nrmIdx (W (Proc.devRef .tc main_v1))) := by
  after_results_simp
  simp only [Cert.LibTypedRef.ofBuf_toBuf]
  -- contents read at, or written at, a buffer's own type are the contents
  have ei : ∀ h1 h2 h3, (TRef.of (T := ⟨S100000, .i32⟩) main_v1 h1 h2 h3).ofBuf (W (Proc.devRef .tc main_v1))
      = (W (Proc.devRef .tc main_v1) : IVec S100000 32) := fun _ _ _ => rfl
  have ex : ∀ h1 h2 h3, (TRef.of (T := ⟨S20000x256, .f32⟩) main_v10 h1 h2 h3).ofBuf (W (Proc.devRef .tc main_v10))
      = (W (Proc.devRef .tc main_v10) : FVec Ideal S20000x256 .f32) := fun _ _ _ => rfl
  have ey : ∀ h1 h2 h3 (v : FVec Ideal S100000x256 .f32),
      ((TRef.of (T := ⟨S100000x256, .f32⟩) main_v13 h1 h2 h3).toBuf (Val := Elt Ideal) v : FVec Ideal S100000x256 .f32) = v :=
    fun _ _ _ _ => rfl
  simp only [ei, ex, ey]
  have h := take_pure (W (Proc.devRef .tc main_v10)) (W (Proc.devRef .tc main_v1)) hI
  unfold nrmIdx
  unfold inRange nrmIdx at h
  exact h

set_option maxHeartbeats 1000000 in
/-- Gather 2: its stretch of host operations leaves, in the result's buffer, the table's rows gathered at the wrapped
    index column. -/
theorem take_call2 (W : Valuation τ sig (Elt Ideal)) (hI : ∀ e : S100000.Idx, ((W (Proc.devRef .tc main_v3) : IVec S100000 32) e).toNat < 20000) :
    StableHlo.after hostOps3_1 W (Proc.devRef .tc main_v23)
      = Host.gather gather_S20000x256_S100000x1_S100000x256_1_0_n_n_0_1_1256 (W (Proc.devRef .tc main_v21)) (nrmIdx (W (Proc.devRef .tc main_v3))) := by
  after_results_simp
  simp only [Cert.LibTypedRef.ofBuf_toBuf]
  -- contents read at, or written at, a buffer's own type are the contents
  have ei : ∀ h1 h2 h3, (TRef.of (T := ⟨S100000, .i32⟩) main_v3 h1 h2 h3).ofBuf (W (Proc.devRef .tc main_v3))
      = (W (Proc.devRef .tc main_v3) : IVec S100000 32) := fun _ _ _ => rfl
  have ex : ∀ h1 h2 h3, (TRef.of (T := ⟨S20000x256, .f32⟩) main_v21 h1 h2 h3).ofBuf (W (Proc.devRef .tc main_v21))
      = (W (Proc.devRef .tc main_v21) : FVec Ideal S20000x256 .f32) := fun _ _ _ => rfl
  have ey : ∀ h1 h2 h3 (v : FVec Ideal S100000x256 .f32),
      ((TRef.of (T := ⟨S100000x256, .f32⟩) main_v23 h1 h2 h3).toBuf (Val := Elt Ideal) v : FVec Ideal S100000x256 .f32) = v :=
    fun _ _ _ _ => rfl
  simp only [ei, ex, ey]
  have h := take_pure (W (Proc.devRef .tc main_v21)) (W (Proc.devRef .tc main_v3)) hI
  unfold nrmIdx
  unfold inRange nrmIdx at h
  exact h

set_option maxHeartbeats 1000000 in
/-- Gather 3: its stretch of host operations leaves, in the result's buffer, the table's rows gathered at the wrapped
    index column. -/
theorem take_call3 (W : Valuation τ sig (Elt Ideal)) (hI : ∀ e : S100000.Idx, ((W (Proc.devRef .tc main_v1) : IVec S100000 32) e).toNat < 20000) :
    StableHlo.after hostOps3_2 W (Proc.devRef .tc main_v24)
      = Host.gather gather_S20000x256_S100000x1_S100000x256_1_0_n_n_0_1_1256 (W (Proc.devRef .tc main_v21)) (nrmIdx (W (Proc.devRef .tc main_v1))) := by
  after_results_simp
  simp only [Cert.LibTypedRef.ofBuf_toBuf]
  -- contents read at, or written at, a buffer's own type are the contents
  have ei : ∀ h1 h2 h3, (TRef.of (T := ⟨S100000, .i32⟩) main_v1 h1 h2 h3).ofBuf (W (Proc.devRef .tc main_v1))
      = (W (Proc.devRef .tc main_v1) : IVec S100000 32) := fun _ _ _ => rfl
  have ex : ∀ h1 h2 h3, (TRef.of (T := ⟨S20000x256, .f32⟩) main_v21 h1 h2 h3).ofBuf (W (Proc.devRef .tc main_v21))
      = (W (Proc.devRef .tc main_v21) : FVec Ideal S20000x256 .f32) := fun _ _ _ => rfl
  have ey : ∀ h1 h2 h3 (v : FVec Ideal S100000x256 .f32),
      ((TRef.of (T := ⟨S100000x256, .f32⟩) main_v24 h1 h2 h3).toBuf (Val := Elt Ideal) v : FVec Ideal S100000x256 .f32) = v :=
    fun _ _ _ _ => rfl
  simp only [ei, ex, ey]
  have h := take_pure (W (Proc.devRef .tc main_v21)) (W (Proc.devRef .tc main_v1)) hI
  unfold nrmIdx
  unfold inRange nrmIdx at h
  exact h

set_option maxHeartbeats 1000000 in
/-- Gather 4: its stretch of host operations leaves, in the result's buffer, the table's rows gathered at the wrapped
    index column. -/
theorem take_call4 (W : Valuation τ sig (Elt Ideal)) (hI : ∀ e : S100000.Idx, ((W (Proc.devRef .tc main_v3) : IVec S100000 32) e).toNat < 20000) :
    StableHlo.after hostOps4_1 W (Proc.devRef .tc main_v34)
      = Host.gather gather_S20000x256_S100000x1_S100000x256_1_0_n_n_0_1_1256 (W (Proc.devRef .tc main_v32)) (nrmIdx (W (Proc.devRef .tc main_v3))) := by
  after_results_simp
  simp only [Cert.LibTypedRef.ofBuf_toBuf]
  -- contents read at, or written at, a buffer's own type are the contents
  have ei : ∀ h1 h2 h3, (TRef.of (T := ⟨S100000, .i32⟩) main_v3 h1 h2 h3).ofBuf (W (Proc.devRef .tc main_v3))
      = (W (Proc.devRef .tc main_v3) : IVec S100000 32) := fun _ _ _ => rfl
  have ex : ∀ h1 h2 h3, (TRef.of (T := ⟨S20000x256, .f32⟩) main_v32 h1 h2 h3).ofBuf (W (Proc.devRef .tc main_v32))
      = (W (Proc.devRef .tc main_v32) : FVec Ideal S20000x256 .f32) := fun _ _ _ => rfl
  have ey : ∀ h1 h2 h3 (v : FVec Ideal S100000x256 .f32),
      ((TRef.of (T := ⟨S100000x256, .f32⟩) main_v34 h1 h2 h3).toBuf (Val := Elt Ideal) v : FVec Ideal S100000x256 .f32) = v :=
    fun _ _ _ _ => rfl
  simp only [ei, ex, ey]
  have h := take_pure (W (Proc.devRef .tc main_v32)) (W (Proc.devRef .tc main_v3)) hI
  unfold nrmIdx
  unfold inRange nrmIdx at h
  exact h

set_option maxHeartbeats 1000000 in
/-- Gather 5: its stretch of host operations leaves, in the result's buffer, the table's rows gathered at the wrapped
    index column. -/
theorem take_call5 (W : Valuation τ sig (Elt Ideal)) (hI : ∀ e : S100000.Idx, ((W (Proc.devRef .tc main_v1) : IVec S100000 32) e).toNat < 20000) :
    StableHlo.after hostOps4_2 W (Proc.devRef .tc main_v35)
      = Host.gather gather_S20000x256_S100000x1_S100000x256_1_0_n_n_0_1_1256 (W (Proc.devRef .tc main_v32)) (nrmIdx (W (Proc.devRef .tc main_v1))) := by
  after_results_simp
  simp only [Cert.LibTypedRef.ofBuf_toBuf]
  -- contents read at, or written at, a buffer's own type are the contents
  have ei : ∀ h1 h2 h3, (TRef.of (T := ⟨S100000, .i32⟩) main_v1 h1 h2 h3).ofBuf (W (Proc.devRef .tc main_v1))
      = (W (Proc.devRef .tc main_v1) : IVec S100000 32) := fun _ _ _ => rfl
  have ex : ∀ h1 h2 h3, (TRef.of (T := ⟨S20000x256, .f32⟩) main_v32 h1 h2 h3).ofBuf (W (Proc.devRef .tc main_v32))
      = (W (Proc.devRef .tc main_v32) : FVec Ideal S20000x256 .f32) := fun _ _ _ => rfl
  have ey : ∀ h1 h2 h3 (v : FVec Ideal S100000x256 .f32),
      ((TRef.of (T := ⟨S100000x256, .f32⟩) main_v35 h1 h2 h3).toBuf (Val := Elt Ideal) v : FVec Ideal S100000x256 .f32) = v :=
    fun _ _ _ _ => rfl
  simp only [ei, ex, ey]
  have h := take_pure (W (Proc.devRef .tc main_v32)) (W (Proc.devRef .tc main_v1)) hI
  unfold nrmIdx
  unfold inRange nrmIdx at h
  exact h

set_option maxHeartbeats 1000000 in
/-- Gather 6: its stretch of host operations leaves, in the result's buffer, the table's rows gathered at the wrapped
    index column. -/
theorem take_call6 (W : Valuation τ sig (Elt Ideal)) (hI : ∀ e : S100000.Idx, ((W (Proc.devRef .tc main_v3) : IVec S100000 32) e).toNat < 20000) :
    StableHlo.after hostOps5_1 W (Proc.devRef .tc main_v45)
      = Host.gather gather_S20000x256_S100000x1_S100000x256_1_0_n_n_0_1_1256 (W (Proc.devRef .tc main_v43)) (nrmIdx (W (Proc.devRef .tc main_v3))) := by
  after_results_simp
  simp only [Cert.LibTypedRef.ofBuf_toBuf]
  -- contents read at, or written at, a buffer's own type are the contents
  have ei : ∀ h1 h2 h3, (TRef.of (T := ⟨S100000, .i32⟩) main_v3 h1 h2 h3).ofBuf (W (Proc.devRef .tc main_v3))
      = (W (Proc.devRef .tc main_v3) : IVec S100000 32) := fun _ _ _ => rfl
  have ex : ∀ h1 h2 h3, (TRef.of (T := ⟨S20000x256, .f32⟩) main_v43 h1 h2 h3).ofBuf (W (Proc.devRef .tc main_v43))
      = (W (Proc.devRef .tc main_v43) : FVec Ideal S20000x256 .f32) := fun _ _ _ => rfl
  have ey : ∀ h1 h2 h3 (v : FVec Ideal S100000x256 .f32),
      ((TRef.of (T := ⟨S100000x256, .f32⟩) main_v45 h1 h2 h3).toBuf (Val := Elt Ideal) v : FVec Ideal S100000x256 .f32) = v :=
    fun _ _ _ _ => rfl
  simp only [ei, ex, ey]
  have h := take_pure (W (Proc.devRef .tc main_v43)) (W (Proc.devRef .tc main_v3)) hI
  unfold nrmIdx
  unfold inRange nrmIdx at h
  exact h

set_option maxHeartbeats 1000000 in
/-- Gather 7: its stretch of host operations leaves, in the result's buffer, the table's rows gathered at the wrapped
    index column. -/
theorem take_call7 (W : Valuation τ sig (Elt Ideal)) (hI : ∀ e : S100000.Idx, ((W (Proc.devRef .tc main_v1) : IVec S100000 32) e).toNat < 20000) :
    StableHlo.after hostOps5_2 W (Proc.devRef .tc main_v46)
      = Host.gather gather_S20000x256_S100000x1_S100000x256_1_0_n_n_0_1_1256 (W (Proc.devRef .tc main_v43)) (nrmIdx (W (Proc.devRef .tc main_v1))) := by
  after_results_simp
  simp only [Cert.LibTypedRef.ofBuf_toBuf]
  -- contents read at, or written at, a buffer's own type are the contents
  have ei : ∀ h1 h2 h3, (TRef.of (T := ⟨S100000, .i32⟩) main_v1 h1 h2 h3).ofBuf (W (Proc.devRef .tc main_v1))
      = (W (Proc.devRef .tc main_v1) : IVec S100000 32) := fun _ _ _ => rfl
  have ex : ∀ h1 h2 h3, (TRef.of (T := ⟨S20000x256, .f32⟩) main_v43 h1 h2 h3).ofBuf (W (Proc.devRef .tc main_v43))
      = (W (Proc.devRef .tc main_v43) : FVec Ideal S20000x256 .f32) := fun _ _ _ => rfl
  have ey : ∀ h1 h2 h3 (v : FVec Ideal S100000x256 .f32),
      ((TRef.of (T := ⟨S100000x256, .f32⟩) main_v46 h1 h2 h3).toBuf (Val := Elt Ideal) v : FVec Ideal S100000x256 .f32) = v :=
    fun _ _ _ _ => rfl
  simp only [ei, ex, ey]
  have h := take_pure (W (Proc.devRef .tc main_v43)) (W (Proc.devRef .tc main_v1)) hI
  unfold nrmIdx
  unfold inRange nrmIdx at h
  exact h

end Cert.KernelIdeal.Take

end
-- ==== Proof.KRegion0.lean ====
/-
  The node embedding (the first two-layer perceptron of the network), over the extended reals. The region runs ten
  grid points; point t reads rows 2000·t … 2000·t + 1999 of the node features together with the whole weight and bias
  arrays, and stores relu(x · w₀ + b₀) · w₁ + b₁ of that block of rows. Here: the stored payload entry by entry; the
  embedding's entry depends on its input only along the entry's row; each window's block as a part of its array; what
  a point writes back is its block of the embedding of the WHOLE feature array; the ten blocks cover the output
  array, which therefore ends holding that embedding.
-/
import proofs.«403211_j60627758350346_1_alg».proof.Proof.Gen.KernelIdeal.Frame
import proofs.«403211_j60627758350346_1_alg».proof.Proof.Spec
import proofs.«403211_j60627758350346_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Region0

open Idealize.ShloMosaic Idealize.ShloMosaic.TcCoe Idealize.SL.Sem
open Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-! ## The body's payload, entry by entry -/

/-- A layer's bias: the one-row bias block, spread over the 2000 rows of a block, reads its entry in column q at
    every row. -/
theorem bias_at (b : FVec Ideal S1x128 .f32) (p : Fin 2000) (q : Fin 128) :
    broadcastTo S2000x128 (shapeCast S1x128 b shapeCasts_S1x128_S1x128) broadcasts_S1x128_S2000x128 (ix2 p q)
      = b (ix2 (0 : Fin 1) q) := by
  rw [shapeCast_self]
  exact broadcastTo_1b_ab_apply b broadcasts_S1x128_S2000x128 p q

/-- A layer at an entry: the product into the zero accumulator (narrowing the operands changes nothing over the
    extended reals) plus the spread bias is the affine layer's entry. -/
theorem layer_at (x : FVec Ideal S2000x128 .f32) (w : FVec Ideal S128x128 .f32) (b : FVec Ideal S1x128 .f32)
    (p : Fin 2000) (q : Fin 128) :
    addf (matmul (F := Ideal) dot_S2000x128_S128x128_S2000x128_1_0_0_1_n_n none (truncf .bf16 x bitsLt_bf16_f32)
        (truncf .bf16 w bitsLt_bf16_f32) (constant (F := Ideal) S2000x128 .f32 0x00000000#32))
      (broadcastTo S2000x128 (shapeCast S1x128 b shapeCasts_S1x128_S1x128) broadcasts_S1x128_S2000x128) (ix2 p q)
      = Cert.Spec.linAt x w b p q := by
  rw [addf_apply, bias_at]
  unfold Cert.Spec.linAt
  refine congrArg (· + b (ix2 (0 : Fin 1) q)) ?_
  exact Cert.LibDot.matmul_zero_at dot_S2000x128_S128x128_S2000x128_1_0_0_1_n_n rfl rfl rfl rfl rfl rfl none
    (truncf .bf16 x bitsLt_bf16_f32) (truncf .bf16 w bitsLt_bf16_f32) p q

/-- The hidden activations: the first layer, taken against the zero scalar by max, is the rectified affine layer. -/
theorem hidden_is_relu (x : FVec Ideal S2000x128 .f32) (w : FVec Ideal S128x128 .f32) (b : FVec Ideal S1x128 .f32) :
    maximumf (addf (matmul (F := Ideal) dot_S2000x128_S128x128_S2000x128_1_0_0_1_n_n none (truncf .bf16 x bitsLt_bf16_f32)
          (truncf .bf16 w bitsLt_bf16_f32) (constant (F := Ideal) S2000x128 .f32 0x00000000#32))
        (broadcastTo S2000x128 (shapeCast S1x128 b shapeCasts_S1x128_S1x128) broadcasts_S1x128_S2000x128))
      (broadcast S2000x128 (Scalar.ofBits (F := Ideal) .f32 0x00000000#32))
      = Cert.Spec.relu (Cert.Spec.lin x w b) := by
  funext i
  obtain ⟨p, q, rfl⟩ : ∃ (p : Fin 2000) (q : Fin 128), i = ix2 p q := ⟨i 0, i 1, eq_ix2 i⟩
  rw [maximumf_apply, broadcast_apply, layer_at, Cert.Spec.relu_apply, Cert.Spec.lin_apply]
  exact congrArg (max (Cert.Spec.linAt x w b p q)) Ideal.ofBits_zero_f32

/-- The payload the body stores, at an entry of the block: the two-layer embedding of the five loaded blocks. -/
theorem payload_is_mlp (x0 : Vec Ideal S2000x128 .f32) (x1 : Vec Ideal S128x128 .f32) (x2 : Vec Ideal S1x128 .f32)
    (x3 : Vec Ideal S128x128 .f32) (x4 : Vec Ideal S1x128 .f32) (p : Fin 2000) (q : Fin 128) :
    k0_pay1 (F := Ideal) x0 x1 x2 x3 x4 (ix2 p q) = Cert.Spec.mlp2 x0 x1 x2 x3 x4 (ix2 p q) := by
  unfold k0_pay1
  rw [hidden_is_relu]
  exact layer_at _ x3 x4 p q

/-! ## The embedding is row-local -/

/-- An entry of the two-layer embedding reads its input only along the entry's row: two inputs that agree on
    that row (whatever the row is called in each) give the same entry. -/
theorem mlp2_row {R R' K H C : Nat} (x : Cert.Spec.Mat R K) (x' : Cert.Spec.Mat R' K) (w0 : Cert.Spec.Mat K H)
    (b0 : Cert.Spec.Mat 1 H) (w1 : Cert.Spec.Mat H C) (b1 : Cert.Spec.Mat 1 C) (r : Fin R) (r' : Fin R')
    (h : ∀ k : Fin K, x (ix2 r k) = x' (ix2 r' k)) (q : Fin C) :
    Cert.Spec.mlp2 x w0 b0 w1 b1 (ix2 r q) = Cert.Spec.mlp2 x' w0 b0 w1 b1 (ix2 r' q) := by
  show Cert.Spec.linAt (Cert.Spec.relu (Cert.Spec.lin x w0 b0)) w1 b1 r q
    = Cert.Spec.linAt (Cert.Spec.relu (Cert.Spec.lin x' w0 b0)) w1 b1 r' q
  unfold Cert.Spec.linAt
  refine congrArg (· + b1 (ix2 (0 : Fin 1) q)) (Finset.sum_congr rfl fun j _ => ?_)
  refine congrArg (· * w1 (ix2 j q)) ?_
  show max (Cert.Spec.linAt x w0 b0 r j) 0 = max (Cert.Spec.linAt x' w0 b0 r' j) 0
  unfold Cert.Spec.linAt
  refine congrArg (fun v => max (v + b0 (ix2 (0 : Fin 1) j)) 0) (Finset.sum_congr rfl fun k _ => ?_)
  rw [h k]

/-! ## The windows' blocks as parts of their arrays -/

theorem zero_offsets : (![0, 0] : Fin 2 → Nat) = fun _ => 0 := funext fun a => by fin_cases a <;> rfl

/-- The printed index maps over the ten grid points: the node-feature window and the output window sit at block
    row t, every weight and bias window at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem points : cfg0.N = 10 := N_0

/-- Row y of the block of point t is row 2000·t + y of the array. -/
theorem row_lt (t : Fin cfg0.N) (y : Fin 2000) : t.val * 2000 + y.val < 20000 := by
  have ht : t.val < 10 := lt_of_lt_of_eq t.isLt points
  have hy := y.isLt
  omega

/-- The node-feature window's block at point t, entry (y, k): the array's entry (2000·t + y, k). -/
theorem feature_block_at (c : Dev nD) (t : Fin cfg0.N) (y : Fin 2000) (k : Fin 128) :
    iblk0 (F := Ideal) V c 0 t (ix2 y k) = V c main_arg0 (ix2 ⟨t.val * 2000 + y.val, row_lt t y⟩ k) := by
  obtain ⟨e0, e1, -⟩ := block_indices t
  show V c main_arg0 (((cfg0.win 0).blk t).view.emb (ix2 y k)) = _
  refine congrArg (V c main_arg0) (funext fun a => Fin.ext ?_)
  match a with
  | ⟨0, _⟩ => show win0_0.index t (0 : Fin 2) * 2000 + 1 * y.val = t.val * 2000 + y.val; rw [e0]; omega
  | ⟨1, _⟩ => show win0_0.index t (1 : Fin 2) * 128 + 1 * k.val = k.val; rw [e1]; omega

/-- The first layer's weight window holds its whole array at every point. -/
theorem weight0_block (c : Dev nD) (t : Fin cfg0.N) : iblk0 (F := Ideal) V c 1 t = V c main_arg3 := by
  obtain ⟨-, -, e0, e1, -⟩ := block_indices t
  funext y
  show V c main_arg3 (((cfg0.win 1).blk t).view.emb y) = V c main_arg3 y
  refine congrArg (V c main_arg3) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The first layer's bias window holds its whole row at every point. -/
theorem bias0_block (c : Dev nD) (t : Fin cfg0.N) : iblk0 (F := Ideal) V c 2 t = V c main_v4 := by
  obtain ⟨-, -, -, -, e0, e1, -⟩ := block_indices t
  funext y
  show V c main_v4 (((cfg0.win 2).blk t).view.emb y) = V c main_v4 y
  refine congrArg (V c main_v4) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The second layer's weight window holds its whole array at every point. -/
theorem weight1_block (c : Dev nD) (t : Fin cfg0.N) : iblk0 (F := Ideal) V c 3 t = V c main_arg5 := by
  obtain ⟨-, -, -, -, -, -, e0, e1, -⟩ := block_indices t
  funext y
  show V c main_arg5 (((cfg0.win 3).blk t).view.emb y) = V c main_arg5 y
  refine congrArg (V c main_arg5) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The second layer's bias window holds its whole row at every point. -/
theorem bias1_block (c : Dev nD) (t : Fin cfg0.N) : iblk0 (F := Ideal) V c 4 t = V c main_v5 := by
  obtain ⟨-, -, -, -, -, -, -, -, e0, e1, -⟩ := block_indices t
  funext y
  show V c main_v5 (((cfg0.win 4).blk t).view.emb y) = V c main_v5 y
  refine congrArg (V c main_v5) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-! ## What a point writes back, and the array after the ten points -/

/-- The embedding of the whole node-feature array by the region's weights and biases. -/
abbrev embedded (c : Dev nD) : Cert.Spec.Mat 20000 128 :=
  Cert.Spec.mlp2 (V c main_arg0) (V c main_arg3) (V c main_v4) (V c main_arg5) (V c main_v5)

/-- Over blocks that are what the windows hold at point t, the payload's entry (y, q) is the embedding's entry
    (2000·t + y, q): the payload is the embedding of the block, and the embedding is row-local. -/
theorem payload_of_blocks (a0 : Cert.Spec.Mat 20000 128) (a1 : Cert.Spec.Mat 128 128) (a2 : Cert.Spec.Mat 1 128)
    (a3 : Cert.Spec.Mat 128 128) (a4 : Cert.Spec.Mat 1 128) (x0 : Vec Ideal S2000x128 .f32) (n : Fin 20000)
    (y : Fin 2000) (h0 : ∀ k : Fin 128, x0 (ix2 y k) = a0 (ix2 n k)) (q : Fin 128) :
    k0_pay1 (F := Ideal) x0 a1 a2 a3 a4 (ix2 y q) = Cert.Spec.mlp2 a0 a1 a2 a3 a4 (ix2 n q) :=
  (payload_is_mlp x0 a1 a2 a3 a4 y q).trans (mlp2_row x0 a0 a1 a2 a3 a4 y n h0 q)

/-- What point t writes back is block t of the embedded array. -/
theorem flushed_is_block (c : Dev nD) (t : Fin cfg0.N) :
    (dat0 (F := Ideal) V c).flushed 5 t = ((cfg0.win 5).blk t).view.read (Elt Ideal) (embedded V c) := by
  show (cfg0.win 5).cut (grid0.coords t) ((dat0 (F := Ideal) V c).after 5 t) = _
  rw [after0_5]
  unfold out0_5
  rw [View.canon_unit_zero zero_offsets]
  simp only [View.ld_unit_zero (S := S2000x128) zero_offsets, View.ld_unit_zero (S := S128x128) zero_offsets,
    View.ld_unit_zero (S := S1x128) zero_offsets]
  rw [weight0_block, bias0_block, weight1_block, bias1_block]
  obtain ⟨-, -, -, -, -, -, -, -, -, -, e0, e1⟩ := block_indices t
  funext j
  obtain ⟨y, q, rfl⟩ : ∃ (y : Fin 2000) (q : Fin 128), j = ix2 y q := ⟨j 0, j 1, eq_ix2 j⟩
  have hemb : ((cfg0.win 5).blk t).view.emb (ix2 y q) = ix2 ⟨t.val * 2000 + y.val, row_lt t y⟩ q := by
    funext a; apply Fin.ext
    match a with
    | ⟨0, _⟩ => show win0_5.index t (0 : Fin 2) * 2000 + 1 * y.val = t.val * 2000 + y.val; rw [e0]; omega
    | ⟨1, _⟩ => show win0_5.index t (1 : Fin 2) * 128 + 1 * q.val = q.val; rw [e1]; omega
  show k0_pay1 (F := Ideal) (iblk0 V c 0 t) (V c main_arg3) (V c main_v4) (V c main_arg5) (V c main_v5) (ix2 y q)
    = embedded V c (((cfg0.win 5).blk t).view.emb (ix2 y q))
  rw [hemb]
  exact payload_of_blocks (V c main_arg0) (V c main_arg3) (V c main_v4) (V c main_arg5) (V c main_v5) (iblk0 V c 0 t)
    ⟨t.val * 2000 + y.val, row_lt t y⟩ y (fun k => feature_block_at V c t y k) q

/-- An index of the output array is in point t's block iff each coordinate is in the block's range on its axis. -/
theorem mem_block (t : Fin cfg0.N) (i : S20000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v6).slice (win0_5.rect t)).set ↔ _
  rw [View.set_slice_whole, Rect.mem_set_unit]
  exact Iff.rfl

/-- Every row of the output array lies in the block of the point its row number divided by 2000 names. -/
theorem rows_covered (i : S20000x128.Idx) :
    ∃ t : Fin cfg0.N, (cfg0.win 5).flush t = true ∧ i ∈ ((cfg0.win 5).blk t).view.set := by
  have hi0 : (i 0).val < 20000 := (i 0).isLt
  have hi1 : (i 1).val < 128 := (i 1).isLt
  let t : Fin cfg0.N := ⟨(i 0).val / 2000, by rw [points]; omega⟩
  obtain ⟨-, -, -, -, -, -, -, -, -, -, e0, e1⟩ := block_indices t
  have ht : t.val = (i 0).val / 2000 := rfl
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 128 ≤ (i 1).val ∧ (i 1).val < win0_5.index t (1 : Fin 2) * 128 + 128
    rw [e1]; omega

/-- The output array after the region's ten points: the two-layer embedding of the node features. -/
theorem arr5 (c : Dev nD) : (dat0 (F := Ideal) V c).arrAt 5 cfg0.N
    = Cert.Spec.mlp2 (V c main_arg0) (V c main_arg3) (V c main_v4) (V c main_arg5) (V c main_v5) :=
  (dat0 (F := Ideal) V c).arrAt_eq_of_cover 5 (embedded V c) (fun t _ => flushed_is_block V c t) rows_covered

end Cert.KernelIdeal.Region0

end
-- ==== Proof.KRegion1.lean ====
/-
  The edge embedding (the second two-layer perceptron of the network), over the extended reals. The region runs fifty
  grid points; point t reads rows 2000·t … 2000·t + 1999 of the 291 edge attributes together with the whole weight and
  bias arrays, and stores relu(x · w₀ + b₀) · w₁ + b₁ of that block of rows (64 hidden columns, 128 output columns).
  Here: the stored payload entry by entry; the embedding's entry depends on its input only along the entry's row; each
  window's block as a part of its array; what a point writes back is its block of the embedding of the WHOLE attribute
  array; the fifty blocks cover the output array, which therefore ends holding that embedding.
-/
import proofs.«403211_j60627758350346_1_alg».proof.Proof.Gen.KernelIdeal.Frame
import proofs.«403211_j60627758350346_1_alg».proof.Proof.Spec
import proofs.«403211_j60627758350346_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Region1

open Idealize.ShloMosaic Idealize.ShloMosaic.TcCoe Idealize.SL.Sem
open Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-! ## The body's payload, entry by entry -/

/-- The first layer's bias: the one-row bias block of 64 columns, spread over the 2000 rows of a block, reads its
    entry in column q at every row. -/
theorem bias0_at (b : FVec Ideal S1x64 .f32) (p : Fin 2000) (q : Fin 64) :
    broadcastTo S2000x64 (shapeCast S1x64 b shapeCasts_S1x64_S1x64) broadcasts_S1x64_S2000x64 (ix2 p q)
      = b (ix2 (0 : Fin 1) q) := by
  rw [shapeCast_self]
  exact broadcastTo_1b_ab_apply b broadcasts_S1x64_S2000x64 p q

/-- The second layer's bias, of 128 columns, likewise. -/
theorem bias1_at (b : FVec Ideal S1x128 .f32) (p : Fin 2000) (q : Fin 128) :
    broadcastTo S2000x128 (shapeCast S1x128 b shapeCasts_S1x128_S1x128) broadcasts_S1x128_S2000x128 (ix2 p q)
      = b (ix2 (0 : Fin 1) q) := by
  rw [shapeCast_self]
  exact broadcastTo_1b_ab_apply b broadcasts_S1x128_S2000x128 p q

/-- The first layer at an entry: the product of the 291 edge attributes with the weights into the zero accumulator
    (narrowing the operands changes nothing over the extended reals) plus the spread bias is the affine layer's entry. -/
theorem layer0_at (x : FVec Ideal S2000x291 .f32) (w : FVec Ideal S291x64 .f32) (b : FVec Ideal S1x64 .f32)
    (p : Fin 2000) (q : Fin 64) :
    addf (matmul (F := Ideal) dot_S2000x291_S291x64_S2000x64_1_0_0_1_n_n none (truncf .bf16 x bitsLt_bf16_f32)
        (truncf .bf16 w bitsLt_bf16_f32) (constant (F := Ideal) S2000x64 .f32 0x00000000#32))
      (broadcastTo S2000x64 (shapeCast S1x64 b shapeCasts_S1x64_S1x64) broadcasts_S1x64_S2000x64) (ix2 p q)
      = Cert.Spec.linAt x w b p q := by
  rw [addf_apply, bias0_at]
  unfold Cert.Spec.linAt
  refine congrArg (· + b (ix2 (0 : Fin 1) q)) ?_
  exact Cert.LibDot.matmul_zero_at dot_S2000x291_S291x64_S2000x64_1_0_0_1_n_n rfl rfl rfl rfl rfl rfl none
    (truncf .bf16 x bitsLt_bf16_f32) (truncf .bf16 w bitsLt_bf16_f32) p q

/-- The second layer at an entry, over the 64 hidden columns. -/
theorem layer1_at (x : FVec Ideal S2000x64 .f32) (w : FVec Ideal S64x128 .f32) (b : FVec Ideal S1x128 .f32)
    (p : Fin 2000) (q : Fin 128) :
    addf (matmul (F := Ideal) dot_S2000x64_S64x128_S2000x128_1_0_0_1_n_n none (truncf .bf16 x bitsLt_bf16_f32)
        (truncf .bf16 w bitsLt_bf16_f32) (constant (F := Ideal) S2000x128 .f32 0x00000000#32))
      (broadcastTo S2000x128 (shapeCast S1x128 b shapeCasts_S1x128_S1x128) broadcasts_S1x128_S2000x128) (ix2 p q)
      = Cert.Spec.linAt x w b p q := by
  rw [addf_apply, bias1_at]
  unfold Cert.Spec.linAt
  refine congrArg (· + b (ix2 (0 : Fin 1) q)) ?_
  exact Cert.LibDot.matmul_zero_at dot_S2000x64_S64x128_S2000x128_1_0_0_1_n_n rfl rfl rfl rfl rfl rfl none
    (truncf .bf16 x bitsLt_bf16_f32) (truncf .bf16 w bitsLt_bf16_f32) p q

/-- The hidden activations: the first layer, taken against the zero scalar by max, is the rectified affine layer. -/
theorem hidden_is_relu (x : FVec Ideal S2000x291 .f32) (w : FVec Ideal S291x64 .f32) (b : FVec Ideal S1x64 .f32) :
    maximumf (addf (matmul (F := Ideal) dot_S2000x291_S291x64_S2000x64_1_0_0_1_n_n none (truncf .bf16 x bitsLt_bf16_f32)
          (truncf .bf16 w bitsLt_bf16_f32) (constant (F := Ideal) S2000x64 .f32 0x00000000#32))
        (broadcastTo S2000x64 (shapeCast S1x64 b shapeCasts_S1x64_S1x64) broadcasts_S1x64_S2000x64))
      (broadcast S2000x64 (Scalar.ofBits (F := Ideal) .f32 0x00000000#32))
      = Cert.Spec.relu (Cert.Spec.lin x w b) := by
  funext i
  obtain ⟨p, q, rfl⟩ : ∃ (p : Fin 2000) (q : Fin 64), i = ix2 p q := ⟨i 0, i 1, eq_ix2 i⟩
  rw [maximumf_apply, broadcast_apply, layer0_at, Cert.Spec.relu_apply, Cert.Spec.lin_apply]
  exact congrArg (max (Cert.Spec.linAt x w b p q)) Ideal.ofBits_zero_f32

/-- The payload the body stores, at an entry of the block: the two-layer embedding of the five loaded blocks. -/
theorem payload_is_mlp (x0 : Vec Ideal S2000x291 .f32) (x1 : Vec Ideal S291x64 .f32) (x2 : Vec Ideal S1x64 .f32)
    (x3 : Vec Ideal S64x128 .f32) (x4 : Vec Ideal S1x128 .f32) (p : Fin 2000) (q : Fin 128) :
    k1_pay1 (F := Ideal) x0 x1 x2 x3 x4 (ix2 p q) = Cert.Spec.mlp2 x0 x1 x2 x3 x4 (ix2 p q) := by
  unfold k1_pay1
  rw [hidden_is_relu]
  exact layer1_at _ x3 x4 p q

/-! ## The embedding is row-local -/

/-- An entry of the two-layer embedding reads its input only along the entry's row: two inputs that agree on
    that row (whatever the row is called in each) give the same entry. -/
theorem mlp2_row {R R' K H C : Nat} (x : Cert.Spec.Mat R K) (x' : Cert.Spec.Mat R' K) (w0 : Cert.Spec.Mat K H)
    (b0 : Cert.Spec.Mat 1 H) (w1 : Cert.Spec.Mat H C) (b1 : Cert.Spec.Mat 1 C) (r : Fin R) (r' : Fin R')
    (h : ∀ k : Fin K, x (ix2 r k) = x' (ix2 r' k)) (q : Fin C) :
    Cert.Spec.mlp2 x w0 b0 w1 b1 (ix2 r q) = Cert.Spec.mlp2 x' w0 b0 w1 b1 (ix2 r' q) := by
  show Cert.Spec.linAt (Cert.Spec.relu (Cert.Spec.lin x w0 b0)) w1 b1 r q
    = Cert.Spec.linAt (Cert.Spec.relu (Cert.Spec.lin x' w0 b0)) w1 b1 r' q
  unfold Cert.Spec.linAt
  refine congrArg (· + b1 (ix2 (0 : Fin 1) q)) (Finset.sum_congr rfl fun j _ => ?_)
  refine congrArg (· * w1 (ix2 j q)) ?_
  show max (Cert.Spec.linAt x w0 b0 r j) 0 = max (Cert.Spec.linAt x' w0 b0 r' j) 0
  unfold Cert.Spec.linAt
  refine congrArg (fun v => max (v + b0 (ix2 (0 : Fin 1) j)) 0) (Finset.sum_congr rfl fun k _ => ?_)
  rw [h k]

/-! ## The windows' blocks as parts of their arrays -/

theorem zero_offsets : (![0, 0] : Fin 2 → Nat) = fun _ => 0 := funext fun a => by fin_cases a <;> rfl

/-- The printed index maps over the fifty grid points: the edge-attribute window and the output window sit at block
    row t, every weight and bias window at block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem points : cfg1.N = 50 := N_1

/-- Row y of the block of point t is row 2000·t + y of the array. -/
theorem row_lt (t : Fin cfg1.N) (y : Fin 2000) : t.val * 2000 + y.val < 100000 := by
  have ht : t.val < 50 := lt_of_lt_of_eq t.isLt points
  have hy := y.isLt
  omega

/-- The edge-attribute window's block at point t, entry (y, k): the array's entry (2000·t + y, k). -/
theorem feature_block_at (c : Dev nD) (t : Fin cfg1.N) (y : Fin 2000) (k : Fin 291) :
    iblk1 (F := Ideal) V c 0 t (ix2 y k) = V c main_arg1 (ix2 ⟨t.val * 2000 + y.val, row_lt t y⟩ k) := by
  obtain ⟨e0, e1, -⟩ := block_indices t
  show V c main_arg1 (((cfg1.win 0).blk t).view.emb (ix2 y k)) = _
  refine congrArg (V c main_arg1) (funext fun a => Fin.ext ?_)
  match a with
  | ⟨0, _⟩ => show win1_0.index t (0 : Fin 2) * 2000 + 1 * y.val = t.val * 2000 + y.val; rw [e0]; omega
  | ⟨1, _⟩ => show win1_0.index t (1 : Fin 2) * 291 + 1 * k.val = k.val; rw [e1]; omega

/-- The first layer's weight window holds its whole array at every point. -/
theorem weight0_block (c : Dev nD) (t : Fin cfg1.N) : iblk1 (F := Ideal) V c 1 t = V c main_arg7 := by
  obtain ⟨-, -, e0, e1, -⟩ := block_indices t
  funext y
  show V c main_arg7 (((cfg1.win 1).blk t).view.emb y) = V c main_arg7 y
  refine congrArg (V c main_arg7) (funext fun a => Fin.ext ?_)
  match a with
  | ⟨0, _⟩ => show win1_1.index t (0 : Fin 2) * 291 + 1 * (y 0).val = (y 0).val; rw [e0]; omega
  | ⟨1, _⟩ => show win1_1.index t (1 : Fin 2) * 64 + 1 * (y 1).val = (y 1).val; rw [e1]; omega

/-- The first layer's bias window holds its whole row at every point. -/
theorem bias0_block (c : Dev nD) (t : Fin cfg1.N) : iblk1 (F := Ideal) V c 2 t = V c main_v7 := by
  obtain ⟨-, -, -, -, e0, e1, -⟩ := block_indices t
  funext y
  show V c main_v7 (((cfg1.win 2).blk t).view.emb y) = V c main_v7 y
  refine congrArg (V c main_v7) (funext fun a => Fin.ext ?_)
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- The second layer's weight window holds its whole array at every point. -/
theorem weight1_block (c : Dev nD) (t : Fin cfg1.N) : iblk1 (F := Ideal) V c 3 t = V c main_arg9 := by
  obtain ⟨-, -, -, -, -, -, e0, e1, -⟩ := block_indices t
  funext y
  show V c main_arg9 (((cfg1.win 3).blk t).view.emb y) = V c main_arg9 y
  refine congrArg (V c main_arg9) (funext fun a => Fin.ext ?_)
  match a with
  | ⟨0, _⟩ => show win1_3.index t (0 : Fin 2) * 64 + 1 * (y 0).val = (y 0).val; rw [e0]; omega
  | ⟨1, _⟩ => show win1_3.index t (1 : Fin 2) * 128 + 1 * (y 1).val = (y 1).val; rw [e1]; omega

/-- The second layer's bias window holds its whole row at every point. -/
theorem bias1_block (c : Dev nD) (t : Fin cfg1.N) : iblk1 (F := Ideal) V c 4 t = V c main_v8 := by
  obtain ⟨-, -, -, -, -, -, -, -, e0, e1, -⟩ := block_indices t
  funext y
  show V c main_v8 (((cfg1.win 4).blk t).view.emb y) = V c main_v8 y
  refine congrArg (V c main_v8) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-! ## What a point writes back, and the array after the fifty points -/

/-- The embedding of the whole edge-attribute array by the region's weights and biases. -/
abbrev embedded (c : Dev nD) : Cert.Spec.Mat 100000 128 :=
  Cert.Spec.mlp2 (V c main_arg1) (V c main_arg7) (V c main_v7) (V c main_arg9) (V c main_v8)

/-- Over blocks that are what the windows hold at point t, the payload's entry (y, q) is the embedding's entry
    (2000·t + y, q): the payload is the embedding of the block, and the embedding is row-local. -/
theorem payload_of_blocks (a0 : Cert.Spec.Mat 100000 291) (a1 : Cert.Spec.Mat 291 64) (a2 : Cert.Spec.Mat 1 64)
    (a3 : Cert.Spec.Mat 64 128) (a4 : Cert.Spec.Mat 1 128) (x0 : Vec Ideal S2000x291 .f32) (n : Fin 100000)
    (y : Fin 2000) (h0 : ∀ k : Fin 291, x0 (ix2 y k) = a0 (ix2 n k)) (q : Fin 128) :
    k1_pay1 (F := Ideal) x0 a1 a2 a3 a4 (ix2 y q) = Cert.Spec.mlp2 a0 a1 a2 a3 a4 (ix2 n q) :=
  (payload_is_mlp x0 a1 a2 a3 a4 y q).trans (mlp2_row x0 a0 a1 a2 a3 a4 y n h0 q)

/-- What point t writes back is block t of the embedded array. -/
theorem flushed_is_block (c : Dev nD) (t : Fin cfg1.N) :
    (dat1 (F := Ideal) V c).flushed 5 t = ((cfg1.win 5).blk t).view.read (Elt Ideal) (embedded V c) := by
  show (cfg1.win 5).cut (grid1.coords t) ((dat1 (F := Ideal) V c).after 5 t) = _
  rw [after1_5]
  unfold out1_5
  rw [View.canon_unit_zero zero_offsets]
  simp only [View.ld_unit_zero (S := S2000x291) zero_offsets, View.ld_unit_zero (S := S291x64) zero_offsets,
    View.ld_unit_zero (S := S1x64) zero_offsets, View.ld_unit_zero (S := S64x128) zero_offsets,
    View.ld_unit_zero (S := S1x128) zero_offsets]
  rw [weight0_block, bias0_block, weight1_block, bias1_block]
  obtain ⟨-, -, -, -, -, -, -, -, -, -, e0, e1⟩ := block_indices t
  funext j
  obtain ⟨y, q, rfl⟩ : ∃ (y : Fin 2000) (q : Fin 128), j = ix2 y q := ⟨j 0, j 1, eq_ix2 j⟩
  have hemb : ((cfg1.win 5).blk t).view.emb (ix2 y q) = ix2 ⟨t.val * 2000 + y.val, row_lt t y⟩ q := by
    funext a; apply Fin.ext
    match a with
    | ⟨0, _⟩ => show win1_5.index t (0 : Fin 2) * 2000 + 1 * y.val = t.val * 2000 + y.val; rw [e0]; omega
    | ⟨1, _⟩ => show win1_5.index t (1 : Fin 2) * 128 + 1 * q.val = q.val; rw [e1]; omega
  show k1_pay1 (F := Ideal) (iblk1 V c 0 t) (V c main_arg7) (V c main_v7) (V c main_arg9) (V c main_v8) (ix2 y q)
    = embedded V c (((cfg1.win 5).blk t).view.emb (ix2 y q))
  rw [hemb]
  exact payload_of_blocks (V c main_arg1) (V c main_arg7) (V c main_v7) (V c main_arg9) (V c main_v8) (iblk1 V c 0 t)
    ⟨t.val * 2000 + y.val, row_lt t y⟩ y (fun k => feature_block_at V c t y k) q

/-- An index of the output array is in point t's block iff each coordinate is in the block's range on its axis. -/
theorem mem_block (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v9).slice (win1_5.rect t)).set ↔ _
  rw [View.set_slice_whole, Rect.mem_set_unit]
  exact Iff.rfl

/-- Every row of the output array lies in the block of the point its row number divided by 2000 names. -/
theorem rows_covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 2000, by rw [points]; omega⟩
  obtain ⟨-, -, -, -, -, -, -, -, -, -, e0, e1⟩ := block_indices t
  have ht : t.val = (i 0).val / 2000 := rfl
  refine ⟨t, flush1_5 t, ?_⟩
  rw [mem_block]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

/-- The output array after the region's fifty points: the two-layer embedding of the edge attributes. -/
theorem arr5 (c : Dev nD) : (dat1 (F := Ideal) V c).arrAt 5 cfg1.N
    = Cert.Spec.mlp2 (V c main_arg1) (V c main_arg7) (V c main_v7) (V c main_arg9) (V c main_v8) :=
  (dat1 (F := Ideal) V c).arrAt_eq_of_cover 5 (embedded V c) (fun t _ => flushed_is_block V c t) rows_covered

end Cert.KernelIdeal.Region1

end
-- ==== Proof.KHead.lean ====
/-
  The head of the run: what the tables hold after the two embedding regions. Region 0 leaves the node embedding of
  the node features, region 1 the edge embedding of the edge features, each a two-layer perceptron of arrays that
  reach it as launched (the bias vectors set as one-row matrices by the host stretch before it); the target and source
  index words are the two rows of the edge table as launched, cut out by the first host stretch and touched by no region.
-/
import proofs.«403211_j60627758350346_1_alg».proof.Proof.Gen.KernelIdeal.Frame
import proofs.«403211_j60627758350346_1_alg».proof.Proof.Spec
import proofs.«403211_j60627758350346_1_alg».proof.Proof.KNames
import proofs.«403211_j60627758350346_1_alg».proof.Proof.KGlue
import proofs.«403211_j60627758350346_1_alg».proof.Proof.KTake
import proofs.«403211_j60627758350346_1_alg».proof.Proof.LibKeep
import proofs.«403211_j60627758350346_1_alg».proof.Proof.KRegion0
import proofs.«403211_j60627758350346_1_alg».proof.Proof.KRegion1
import Idealize.ShloMosaic.Lib.StableHlo.Run

noncomputable section

namespace Cert.KernelIdeal.Head

open Idealize.ShloMosaic Idealize.ShloMosaic.TcCoe Idealize.SL.Sem Idealize.ShloMosaic.StableHlo
open Cert.KernelIdeal Cert.KernelIdeal.Gen Cert.KernelIdeal.Names Cert.KernelIdeal.Glue Cert.KernelIdeal.Take Cert.LibKeep

variable (m : (ℓ : Loc nD τ sig) → Buf (Elt Ideal) ℓ) (ρ : Dev nD → PrngReg) (c : Dev nD)

/-- The node embedding, in the table region 0 leaves. -/
theorem nf0_at_W2 : W2 m ρ c (Proc.devRef .tc main_v6)
    = Cert.Spec.mlp2 (m ((c : Thread nD τ).loc main_arg0)) (m ((c : Thread nD τ).loc main_arg3)) (Cert.Spec.row (m ((c : Thread nD τ).loc main_arg4))) (m ((c : Thread nD τ).loc main_arg5)) (Cert.Spec.row (m ((c : Thread nD τ).loc main_arg6))) := by
  -- the three weight arrays reach the region as launched; the two bias rows are the bias vectors as launched, set as rows
  have k0 : V1 m ρ c main_arg0 = m ((c : Thread nD τ).loc main_arg0) := by kept_host hostOps0
  have k3 : V1 m ρ c main_arg3 = m ((c : Thread nD τ).loc main_arg3) := by kept_host hostOps0
  have k5 : V1 m ρ c main_arg5 = m ((c : Thread nD τ).loc main_arg5) := by kept_host hostOps0
  have g4 : V1 m ρ c main_v4 = Cert.Spec.row (m ((c : Thread nD τ).loc main_arg4)) := glue0_v4 (W0 m ρ c)
  have g5 : V1 m ρ c main_v5 = Cert.Spec.row (m ((c : Thread nD τ).loc main_arg6)) := glue0_v5 (W0 m ρ c)
  -- the table holds what the region leaves in its result array: the embedding of the arrays it found
  refine (W2_arr m ρ c 5).trans ((Cert.KernelIdeal.Region0.arr5 (V1 m ρ) c).trans ?_)
  rw [k0, k3, k5, g4, g5]

/-- The target index words, read off the edge table's second row. -/
theorem i_at_W2 : W2 m ρ c (Proc.devRef .tc main_v3) = Cert.Spec.idxRow 1 (m ((c : Thread nD τ).loc main_arg2)) :=
  -- region 0 has no window on them; the stretch before it cuts them out of the edge table as launched
  (W2_of_ne m ρ c main_v3 (by decide)).trans (glue0_v3 (W0 m ρ c))

/-- The source index words, read off the edge table's first row. -/
theorem j_at_W2 : W2 m ρ c (Proc.devRef .tc main_v1) = Cert.Spec.idxRow 0 (m ((c : Thread nD τ).loc main_arg2)) :=
  (W2_of_ne m ρ c main_v1 (by decide)).trans (glue0_v1 (W0 m ρ c))

/-- The edge embedding, in the table region 1 leaves, given that the arguments it reads are still as launched. -/
theorem ef0_at_W4 (h1 : W2 m ρ c (Proc.devRef .tc main_arg1) = (m ((c : Thread nD τ).loc main_arg1))) (h7 : W2 m ρ c (Proc.devRef .tc main_arg7) = (m ((c : Thread nD τ).loc main_arg7)))
    (h8 : W2 m ρ c (Proc.devRef .tc main_arg8) = (m ((c : Thread nD τ).loc main_arg8))) (h9 : W2 m ρ c (Proc.devRef .tc main_arg9) = (m ((c : Thread nD τ).loc main_arg9)))
    (h10 : W2 m ρ c (Proc.devRef .tc main_arg10) = (m ((c : Thread nD τ).loc main_arg10))) :
    W4 m ρ c (Proc.devRef .tc main_v9)
      = Cert.Spec.mlp2 (m ((c : Thread nD τ).loc main_arg1)) (m ((c : Thread nD τ).loc main_arg7)) (Cert.Spec.row (m ((c : Thread nD τ).loc main_arg8))) (m ((c : Thread nD τ).loc main_arg9)) (Cert.Spec.row (m ((c : Thread nD τ).loc main_arg10))) := by
  -- the stretch before the region writes none of the three arrays it reads whole, and sets the two bias vectors as rows
  have k1 : V3 m ρ c main_arg1 = m ((c : Thread nD τ).loc main_arg1) :=
    (by kept_host hostOps1 : V3 m ρ c main_arg1 = W2 m ρ c (Proc.devRef .tc main_arg1)).trans h1
  have k7 : V3 m ρ c main_arg7 = m ((c : Thread nD τ).loc main_arg7) :=
    (by kept_host hostOps1 : V3 m ρ c main_arg7 = W2 m ρ c (Proc.devRef .tc main_arg7)).trans h7
  have k9 : V3 m ρ c main_arg9 = m ((c : Thread nD τ).loc main_arg9) :=
    (by kept_host hostOps1 : V3 m ρ c main_arg9 = W2 m ρ c (Proc.devRef .tc main_arg9)).trans h9
  have g7 : V3 m ρ c main_v7 = Cert.Spec.row (m ((c : Thread nD τ).loc main_arg8)) :=
    (glue1_v7 (W2 m ρ c)).trans (by rw [h8])
  have g8 : V3 m ρ c main_v8 = Cert.Spec.row (m ((c : Thread nD τ).loc main_arg10)) :=
    (glue1_v8 (W2 m ρ c)).trans (by rw [h10])
  refine (W4_arr m ρ c 5).trans ((Cert.KernelIdeal.Region1.arr5 (V3 m ρ) c).trans ?_)
  rw [k1, k7, k9, g7, g8]

end Cert.KernelIdeal.Head

end
-- ==== Proof.KRegion6.lean ====
/-
  Region 6, the classifier, read as mathematics: after the region's run its result array holds, row by row, the
  three-layer classifier  relu(relu(ef · w₀ + b₀) · w₁ + b₁) · w₂ + b₂  of the last edge features ef and the
  layers' weights and bias rows as the region finds them.

  The grid has 20 points; point t works on rows 5000·t … 5000·t + 4999. At a point the body reads a block of 5000
  feature rows and the six weight and bias arrays whole, and stores one column of 5000 entries. Entry p of that
  column is a function of row p of the feature block alone (each layer's entry (p, ·) is a sum over the shared axis
  of row p of its input against a column of the weights), and row p of the block is row 5000·t + p of the feature
  array; so what point t writes back is rows 5000·t … 5000·t + 4999 of the classifier of the whole arrays. The 20
  blocks cover the 100000 rows (row r lies in the block of point r / 5000) and every point writes its block back,
  so the array ends holding the classifier at every row.
-/
import proofs.«403211_j60627758350346_1_alg».proof.Proof.Gen.KernelIdeal.Frame
import proofs.«403211_j60627758350346_1_alg».proof.Proof.Spec
import proofs.«403211_j60627758350346_1_alg».proof.Proof.LibDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region6

open Idealize.ShloMosaic Idealize.ShloMosaic.TcCoe Idealize.SL.Sem
open Idealize.ShloMosaic.ValueIdx
open Cert.KernelIdeal Cert.KernelIdeal.Gen

/-! ## The body's stored value at an entry -/

/-- One affine layer as the kernel computes it, read at an entry: the product into the zero accumulator plus the
    bias row broadcast down the rows is the sum over the shared axis plus the bias row's entry. -/
theorem affine_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (b : FVec Ideal ⟨2, ![1, C]⟩ .f32)
    (hc : (⟨2, ![1, C]⟩ : Shape).ShapeCasts ⟨2, ![1, C]⟩) (hb : (⟨2, ![1, C]⟩ : Shape).Broadcasts ⟨2, ![R, C]⟩)
    (r : Fin R) (c : Fin C) :
    addf (matmul d none x w (constant (F := Ideal) ⟨2, ![R, C]⟩ .f32 0x00000000#32))
        (broadcastTo ⟨2, ![R, C]⟩ (shapeCast ⟨2, ![1, C]⟩ b hc) hb) (ix2 r c)
      = Cert.Spec.linAt x w b r c := by
  unfold Cert.Spec.linAt
  refine congrArg₂ (· + ·) (Cert.LibDot.matmul_zero_at d hl hr hln hrn hlb hrb none x w r c) ?_
  rw [shapeCast_self]
  exact broadcastTo_1b_ab_apply b hb r c

/-- A rectified affine layer as the kernel computes it, read at an entry. -/
theorem relu_affine_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (b : FVec Ideal ⟨2, ![1, C]⟩ .f32)
    (hc : (⟨2, ![1, C]⟩ : Shape).ShapeCasts ⟨2, ![1, C]⟩) (hb : (⟨2, ![1, C]⟩ : Shape).Broadcasts ⟨2, ![R, C]⟩)
    (r : Fin R) (c : Fin C) :
    maximumf (addf (matmul d none x w (constant (F := Ideal) ⟨2, ![R, C]⟩ .f32 0x00000000#32))
        (broadcastTo ⟨2, ![R, C]⟩ (shapeCast ⟨2, ![1, C]⟩ b hc) hb))
        (broadcast ⟨2, ![R, C]⟩ (Scalar.ofBits (F := Ideal) .f32 0x00000000#32)) (ix2 r c)
      = max (Cert.Spec.linAt x w b r c) 0 :=
  congrArg₂ max (affine_at d hl hr hln hrn hlb hrb x w b hc hb r c) Ideal.ofBits_zero_f32

/-- The kernel's stored value at row p (and the one column): the classifier of the seven blocks there. The row's
    entry depends on row p of the feature block only; the weights and bias rows are read whole. -/
theorem payload_is_classifier (x0 : Vec Ideal S5000x128 .f32) (x1 : Vec Ideal S128x64 .f32) (x2 : Vec Ideal S1x64 .f32)
    (x3 : Vec Ideal S64x32 .f32) (x4 : Vec Ideal S1x32 .f32) (x5 : Vec Ideal S32x1 .f32) (x6 : Vec Ideal S1x1 .f32)
    (p : Fin 5000) (q : Fin 1) :
    k6_pay1 x0 x1 x2 x3 x4 x5 x6 (ix2 p q) = Cert.Spec.classify x0 x1 x2 x3 x4 x5 x6 (ix2 p q) := by
  unfold k6_pay1
  refine (affine_at dot_S5000x32_S32x1_S5000x1_1_0_0_1_n_n rfl rfl rfl rfl rfl rfl _ _ x6 _ _ p q).trans ?_
  show Cert.Spec.linAt _ _ x6 p q = Cert.Spec.linAt _ x5 x6 p q
  unfold Cert.Spec.linAt
  refine congrArg (· + x6 (ix2 (0 : Fin 1) q)) (Finset.sum_congr rfl fun k _ => congrArg (· * x5 (ix2 k q)) ?_)
  refine (relu_affine_at dot_S5000x64_S64x32_S5000x32_1_0_0_1_n_n rfl rfl rfl rfl rfl rfl _ _ x4 _ _ p k).trans ?_
  show max (Cert.Spec.linAt _ _ x4 p k) 0 = max (Cert.Spec.linAt _ x3 x4 p k) 0
  unfold Cert.Spec.linAt
  refine congrArg (fun z => max (z + x4 (ix2 (0 : Fin 1) k)) 0) (Finset.sum_congr rfl fun j _ => congrArg (· * x3 (ix2 j k)) ?_)
  refine (relu_affine_at dot_S5000x128_S128x64_S5000x64_1_0_0_1_n_n rfl rfl rfl rfl rfl rfl _ _ x2 _ _ p j).trans ?_
  rw [shapeCast_self]
  rfl

/-! ## Rows

  An affine layer's entry (r, c) reads row r of its input and nothing else of it; so does the classifier's. -/

/-- Entry (r, c) of an affine layer is the same for two inputs that agree on the rows r and r'. -/
theorem linAt_of_row {R R' K C : Nat} (x : Cert.Spec.Mat R K) (x' : Cert.Spec.Mat R' K) (w : Cert.Spec.Mat K C)
    (b : Cert.Spec.Mat 1 C) (r : Fin R) (r' : Fin R') (h : ∀ k : Fin K, x (ix2 r k) = x' (ix2 r' k)) (c : Fin C) :
    Cert.Spec.linAt x w b r c = Cert.Spec.linAt x' w b r' c := by
  unfold Cert.Spec.linAt
  exact congrArg (· + b (ix2 (0 : Fin 1) c)) (Finset.sum_congr rfl fun k _ => congrArg (· * w (ix2 k c)) (h k))

/-- Row r of the classifier's result is the same for two feature matrices that agree on the rows r and r'. -/
theorem classify_of_row {R R' K H G C : Nat} (ef : Cert.Spec.Mat R K) (ef' : Cert.Spec.Mat R' K) (w0 : Cert.Spec.Mat K H)
    (b0 : Cert.Spec.Mat 1 H) (w1 : Cert.Spec.Mat H G) (b1 : Cert.Spec.Mat 1 G) (w2 : Cert.Spec.Mat G C) (b2 : Cert.Spec.Mat 1 C)
    (r : Fin R) (r' : Fin R') (h : ∀ k : Fin K, ef (ix2 r k) = ef' (ix2 r' k)) (c : Fin C) :
    Cert.Spec.classify ef w0 b0 w1 b1 w2 b2 (ix2 r c) = Cert.Spec.classify ef' w0 b0 w1 b1 w2 b2 (ix2 r' c) :=
  linAt_of_row _ _ w2 b2 r r' (fun k => congrArg (max · 0) (linAt_of_row _ _ w1 b1 r r'
    (fun j => congrArg (max · 0) (linAt_of_row ef ef' w0 b0 r r' h j)) k)) c

/-- The kernel's stored value at row p of a block whose feature rows are rows of a taller feature matrix: the
    classifier of that matrix at the row p stands for. -/
theorem payload_row_of_array {N : Nat} (A0 : Cert.Spec.Mat N 128) (x0 : Vec Ideal S5000x128 .f32) (x1 : Vec Ideal S128x64 .f32)
    (x2 : Vec Ideal S1x64 .f32) (x3 : Vec Ideal S64x32 .f32) (x4 : Vec Ideal S1x32 .f32) (x5 : Vec Ideal S32x1 .f32)
    (x6 : Vec Ideal S1x1 .f32) (p : Fin 5000) (r : Fin N) (hrow : ∀ k : Fin 128, x0 (ix2 p k) = A0 (ix2 r k)) (q : Fin 1) :
    k6_pay1 x0 x1 x2 x3 x4 x5 x6 (ix2 p q) = Cert.Spec.classify A0 x1 x2 x3 x4 x5 x6 (ix2 r q) :=
  (payload_is_classifier x0 x1 x2 x3 x4 x5 x6 p q).trans (classify_of_row x0 A0 x1 x2 x3 x4 x5 x6 p r hrow q)

/-! ## From blocks to the array -/

section Array

variable (V : (c : Dev nD) → (b : Ref sig .tc) → Buf (Elt Ideal) ((c : Thread nD τ).loc b))

theorem origin_is_zero : (![0, 0] : Fin 2 → Nat) = fun _ => 0 := funext fun a => by fin_cases a <;> rfl

/-- The windows' block indices over the grid: the feature window and the result window move down the rows with the
    point, one block of 5000 rows a point; the weight and bias windows stay at block (0, 0). -/
theorem block_indices : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- The feature window's block at point t holds rows 5000·t … 5000·t + 4999 of the feature array. -/
theorem feature_block_at (c : Dev nD) (t : Fin cfg6.N) (y : S5000x128.Idx) (i : S100000x128.Idx)
    (h0 : (i 0).val = t.val * 5000 + (y 0).val) (h1 : (i 1).val = (y 1).val) :
    (iblk6 V c 0 t : Vec Ideal S5000x128 .f32) y = (V c main_v50_0 : S100000x128.Idx → EReal) i := by
  obtain ⟨e0, e1, -⟩ := block_indices t
  show V c main_v50_0 (((cfg6.win 0).blk t).view.emb y) = V c main_v50_0 i
  refine congrArg _ (funext fun a => Fin.ext ?_)
  match a with
  | ⟨0, _⟩ => show win6_0.index t (0 : Fin 2) * 5000 + 1 * (y 0).val = (i 0).val; omega
  | ⟨1, _⟩ => show win6_0.index t (1 : Fin 2) * 128 + 1 * (y 1).val = (i 1).val; omega

/-- The first layer's weight window holds the whole weight matrix at every point. -/
theorem weights0_block (c : Dev nD) (t : Fin cfg6.N) : (iblk6 V c 1 t : Vec Ideal S128x64 .f32) = V c main_arg17 := by
  obtain ⟨-, -, e0, e1, -⟩ := block_indices t
  funext y
  show V c main_arg17 (((cfg6.win 1).blk t).view.emb y) = V c main_arg17 y
  refine congrArg _ (funext fun a => Fin.ext ?_)
  match a with
  | ⟨0, _⟩ => show win6_1.index t (0 : Fin 2) * 128 + 1 * (y 0).val = (y 0).val; omega
  | ⟨1, _⟩ => show win6_1.index t (1 : Fin 2) * 64 + 1 * (y 1).val = (y 1).val; omega

/-- The first layer's bias window holds the whole bias row at every point. -/
theorem bias0_block (c : Dev nD) (t : Fin cfg6.N) : (iblk6 V c 2 t : Vec Ideal S1x64 .f32) = V c main_v54 := by
  obtain ⟨-, -, -, -, e0, e1, -⟩ := block_indices t
  funext y
  show V c main_v54 (((cfg6.win 2).blk t).view.emb y) = V c main_v54 y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- The second layer's weight window holds the whole weight matrix at every point. -/
theorem weights1_block (c : Dev nD) (t : Fin cfg6.N) : (iblk6 V c 3 t : Vec Ideal S64x32 .f32) = V c main_arg19 := by
  obtain ⟨-, -, -, -, -, -, e0, e1, -⟩ := block_indices t
  funext y
  show V c main_arg19 (((cfg6.win 3).blk t).view.emb y) = V c main_arg19 y
  refine congrArg _ (funext fun a => Fin.ext ?_)
  match a with
  | ⟨0, _⟩ => show win6_3.index t (0 : Fin 2) * 64 + 1 * (y 0).val = (y 0).val; omega
  | ⟨1, _⟩ => show win6_3.index t (1 : Fin 2) * 32 + 1 * (y 1).val = (y 1).val; omega

/-- The second layer's bias window holds the whole bias row at every point. -/
theorem bias1_block (c : Dev nD) (t : Fin cfg6.N) : (iblk6 V c 4 t : Vec Ideal S1x32 .f32) = V c main_v55 := by
  obtain ⟨-, -, -, -, -, -, -, -, e0, e1, -⟩ := block_indices t
  funext y
  show V c main_v55 (((cfg6.win 4).blk t).view.emb y) = V c main_v55 y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 32 + 1 * (y 1).val = (y 1).val; omega

/-- The third layer's weight window holds the whole weight column at every point. -/
theorem weights2_block (c : Dev nD) (t : Fin cfg6.N) : (iblk6 V c 5 t : Vec Ideal S32x1 .f32) = V c main_arg21 := by
  obtain ⟨-, -, -, -, -, -, -, -, -, -, e0, e1, -⟩ := block_indices t
  funext y
  show V c main_arg21 (((cfg6.win 5).blk t).view.emb y) = V c main_arg21 y
  refine congrArg _ (funext fun a => Fin.ext ?_)
  match a with
  | ⟨0, _⟩ => show win6_5.index t (0 : Fin 2) * 32 + 1 * (y 0).val = (y 0).val; omega
  | ⟨1, _⟩ => show win6_5.index t (1 : Fin 2) * 1 + 1 * (y 1).val = (y 1).val; omega

/-- The third layer's bias window holds the one bias entry at every point. -/
theorem bias2_block (c : Dev nD) (t : Fin cfg6.N) : (iblk6 V c 6 t : Vec Ideal S1x1 .f32) = V c main_v56 := by
  obtain ⟨-, -, -, -, -, -, -, -, -, -, -, -, e0, e1, -⟩ := block_indices t
  funext y
  show V c main_v56 (((cfg6.win 6).blk t).view.emb y) = V c main_v56 y
  refine congrArg _ (funext fun a => Fin.ext ?_)
  match a with
  | ⟨0, _⟩ => show win6_6.index t (0 : Fin 2) * 1 + 1 * (y 0).val = (y 0).val; omega
  | ⟨1, _⟩ => show win6_6.index t (1 : Fin 2) * 1 + 1 * (y 1).val = (y 1).val; omega

/-- WHAT POINT t WRITES BACK: rows 5000·t … 5000·t + 4999 of the classifier of the arrays the region finds. Row p of
    the point's result is the classifier of the point's feature block at row p, which is row 5000·t + p of the
    feature array; the weights and biases are the whole arrays. -/
theorem flushed_is_classifier_block (c : Dev nD) (t : Fin cfg6.N) :
    (dat6 (F := Ideal) V c).flushed 7 t = ((cfg6.win 7).blk t).view.read (Elt Ideal)
      (Cert.Spec.classify (V c main_v50_0) (V c main_arg17) (V c main_v54) (V c main_arg19) (V c main_v55)
        (V c main_arg21) (V c main_v56)) := by
  show (cfg6.win 7).cut (grid6.coords t) ((dat6 V c).after 7 t) = _
  rw [after6_7]
  unfold out6_7
  rw [View.canon_unit_zero origin_is_zero]
  simp only [View.ld_unit_zero (S := S5000x128) origin_is_zero, View.ld_unit_zero (S := S128x64) origin_is_zero,
    View.ld_unit_zero (S := S1x64) origin_is_zero, View.ld_unit_zero (S := S64x32) origin_is_zero,
    View.ld_unit_zero (S := S1x32) origin_is_zero, View.ld_unit_zero (S := S32x1) origin_is_zero,
    View.ld_unit_zero (S := S1x1) origin_is_zero]
  rw [weights0_block, bias0_block, weights1_block, bias1_block, weights2_block, bias2_block]
  obtain ⟨-, -, -, -, -, -, -, -, -, -, -, -, -, -, e0, e1⟩ := block_indices t
  have hN : cfg6.N = 20 := N_6
  have ht : t.val < 20 := hN ▸ t.isLt
  refine funext fun (j : S5000x1.Idx) => ?_
  obtain ⟨p, q, rfl⟩ : ∃ (p : Fin 5000) (q : Fin 1), j = ix2 p q := ⟨j 0, j 1, eq_ix2 j⟩
  have hr : t.val * 5000 + p.val < 100000 := by have := p.isLt; omega
  have hi : ((cfg6.win 7).blk t).view.emb (ix2 p q) = ix2 (⟨t.val * 5000 + p.val, hr⟩ : Fin 100000) q := by
    refine funext fun a => Fin.ext ?_
    match a with
    | ⟨0, _⟩ => show win6_7.index t (0 : Fin 2) * 5000 + 1 * p.val = t.val * 5000 + p.val; omega
    | ⟨1, _⟩ => show win6_7.index t (1 : Fin 2) * 1 + 1 * q.val = q.val; omega
  show k6_pay1 (iblk6 V c 0 t) (V c main_arg17) (V c main_v54) (V c main_arg19) (V c main_v55) (V c main_arg21) (V c main_v56) (ix2 p q)
    = Cert.Spec.classify (V c main_v50_0) (V c main_arg17) (V c main_v54) (V c main_arg19) (V c main_v55) (V c main_arg21)
        (V c main_v56) (((cfg6.win 7).blk t).view.emb (ix2 p q))
  rw [hi]
  exact payload_row_of_array (V c main_v50_0) (iblk6 V c 0 t) _ _ _ _ _ _ p _
    (fun k => feature_block_at V c t (ix2 p k) (ix2 (⟨t.val * 5000 + p.val, hr⟩ : Fin 100000) k) rfl rfl) q

/-- An index of the result array is in point t's block iff each coordinate is in the block's range on its axis. -/
theorem mem_result_block (t : Fin cfg6.N) (i : S100000x1.Idx) :
    i ∈ ((cfg6.win 7).blk t).view.set ↔ ∀ a : Fin 2, win6_7.index t a * S5000x1.size a ≤ (i a).val
      ∧ (i a).val < win6_7.index t a * S5000x1.size a + S5000x1.size a := by
  show i ∈ ((View.whole main_v57).slice (win6_7.rect t)).set ↔ _
  rw [View.set_slice_whole, Rect.mem_set_unit]
  exact Iff.rfl

/-- Every row of the result array lies in the block of the point row / 5000, and every point writes its block back. -/
theorem rows_covered (i : S100000x1.Idx) :
    ∃ t : Fin cfg6.N, (cfg6.win 7).flush t = true ∧ i ∈ ((cfg6.win 7).blk t).view.set := by
  have hN : cfg6.N = 20 := N_6
  have h0 : (i 0).val < 100000 := (i 0).isLt
  have h1 : (i 1).val < 1 := (i 1).isLt
  have ht : (i 0).val / 5000 < cfg6.N := by rw [hN]; omega
  obtain ⟨-, -, -, -, -, -, -, -, -, -, -, -, -, -, e0, e1⟩ := block_indices ⟨(i 0).val / 5000, ht⟩
  refine ⟨⟨(i 0).val / 5000, ht⟩, flush6_7 _, ?_⟩
  rw [mem_result_block]
  intro a
  match a with
  | ⟨0, _⟩ =>
    show win6_7.index ⟨(i 0).val / 5000, ht⟩ (0 : Fin 2) * 5000 ≤ (i 0).val
      ∧ (i 0).val < win6_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win6_7.index ⟨(i 0).val / 5000, ht⟩ (1 : Fin 2) * 1 ≤ (i 1).val
      ∧ (i 1).val < win6_7.index ⟨(i 0).val / 5000, ht⟩ (1 : Fin 2) * 1 + 1
    rw [e1]; omega

/-- THE RESULT ARRAY after the region's run: the classifier of the last edge features and the three layers' weights
    and biases as the region finds them, every row. -/
theorem arr7 (c : Dev nD) : (dat6 (F := Ideal) V c).arrAt 7 cfg6.N
      = Cert.Spec.classify (V c main_v50_0) (V c main_arg17) (V c main_v54) (V c main_arg19) (V c main_v55) (V c main_arg21) (V c main_v56) :=
  (dat6 V c).arrAt_eq_of_cover 7 _ (fun t _ => flushed_is_classifier_block V c t) rows_covered

end Array

end Cert.KernelIdeal.Region6

end
-- ==== Proof.KTail.lean ====
/-
  The tail of the run: what the result table holds after the classifier's region. Region 6 leaves the three-layer
  classifier of the arrays it finds: the last edge features and the three weight arrays as the region before left
  them (the host stretch between writes none of them), and the three bias vectors set as one-row matrices by that stretch.
-/
import proofs.«403211_j60627758350346_1_alg».proof.Proof.Gen.KernelIdeal.Frame
import proofs.«403211_j60627758350346_1_alg».proof.Proof.Spec
import proofs.«403211_j60627758350346_1_alg».proof.Proof.KNames
import proofs.«403211_j60627758350346_1_alg».proof.Proof.KGlue
import proofs.«403211_j60627758350346_1_alg».proof.Proof.KTake
import proofs.«403211_j60627758350346_1_alg».proof.Proof.LibKeep
import proofs.«403211_j60627758350346_1_alg».proof.Proof.SpecNet
import proofs.«403211_j60627758350346_1_alg».proof.Proof.KRegion6
import Idealize.ShloMosaic.Lib.StableHlo.Run

noncomputable section

namespace Cert.KernelIdeal.Tail

open Idealize.ShloMosaic Idealize.ShloMosaic.TcCoe Idealize.SL.Sem Idealize.ShloMosaic.StableHlo
open Cert.KernelIdeal Cert.KernelIdeal.Gen Cert.KernelIdeal.Names Cert.KernelIdeal.Glue Cert.KernelIdeal.Take Cert.LibKeep

variable (m : (ℓ : Loc nD τ sig) → Buf (Elt Ideal) ℓ) (ρ : Dev nD → PrngReg) (c : Dev nD)

/-- The classifier's result, in the table region 6 leaves, from the last edge features and the classifier's weights
    as region 5 left them. -/
theorem out_at_W26 (EF : Cert.Spec.Mat 100000 128) (M17 : Cert.Spec.Mat 128 64) (B18 : Cert.Spec.Vc 64) (M19 : Cert.Spec.Mat 64 32)
    (B20 : Cert.Spec.Vc 32) (M21 : Cert.Spec.Mat 32 1) (B22 : Cert.Spec.Vc 1)
    (hef : W24 m ρ c (Proc.devRef .tc main_v50_0) = EF)
    (h17 : W24 m ρ c (Proc.devRef .tc main_arg17) = M17) (h18 : W24 m ρ c (Proc.devRef .tc main_arg18) = B18)
    (h19 : W24 m ρ c (Proc.devRef .tc main_arg19) = M19) (h20 : W24 m ρ c (Proc.devRef .tc main_arg20) = B20)
    (h21 : W24 m ρ c (Proc.devRef .tc main_arg21) = M21) (h22 : W24 m ρ c (Proc.devRef .tc main_arg22) = B22) :
    W26 m ρ c (Proc.devRef .tc main_v57)
      = Cert.Spec.classify EF M17 (Cert.Spec.row B18) M19 (Cert.Spec.row B20) M21 (Cert.Spec.row B22) := by
  -- the stretch before the region writes none of the four arrays it reads whole, and sets the three bias vectors as rows
  have kef : V25 m ρ c main_v50_0 = EF :=
    (by kept_host hostOps6 : V25 m ρ c main_v50_0 = W24 m ρ c (Proc.devRef .tc main_v50_0)).trans hef
  have k17 : V25 m ρ c main_arg17 = M17 :=
    (by kept_host hostOps6 : V25 m ρ c main_arg17 = W24 m ρ c (Proc.devRef .tc main_arg17)).trans h17
  have k19 : V25 m ρ c main_arg19 = M19 :=
    (by kept_host hostOps6 : V25 m ρ c main_arg19 = W24 m ρ c (Proc.devRef .tc main_arg19)).trans h19
  have k21 : V25 m ρ c main_arg21 = M21 :=
    (by kept_host hostOps6 : V25 m ρ c main_arg21 = W24 m ρ c (Proc.devRef .tc main_arg21)).trans h21
  have g54 : V25 m ρ c main_v54 = Cert.Spec.row B18 := (glue6_v54 (W24 m ρ c)).trans (by rw [h18])
  have g55 : V25 m ρ c main_v55 = Cert.Spec.row B20 := (glue6_v55 (W24 m ρ c)).trans (by rw [h20])
  have g56 : V25 m ρ c main_v56 = Cert.Spec.row B22 := (glue6_v56 (W24 m ρ c)).trans (by rw [h22])
  -- the table holds what the region leaves in its result array: the classifier of the arrays it found
  refine (W26_arr m ρ c 7).trans ((Cert.KernelIdeal.Region6.arr7 (V25 m ρ) c).trans ?_)
  rw [kef, k17, k19, k21, g54, g55, g56]

end Cert.KernelIdeal.Tail

end
-- ==== Proof.KRegion2.lean ====
/-
  One message-passing step, read as mathematics. The step's grid has 100 points; at point t it holds rows
  1000 t … 1000 t + 999 of the three feature arrays and the whole of the weight and bias arrays, and writes back rows
  1000 t … 1000 t + 999 of the new edge features and of the messages. Entry by entry, what it stores is the edge update
  relu(relu([xi | xj | efc] · w₀ + b₀) · w₁ + b₁) and the message relu([xi | ef'] · w + b) of the rows it holds; a row of
  either reads only the same row of the feature arrays, so block t of the result is block t of the same function of the
  whole arrays, and the 100 blocks fill the two result arrays.
-/
import proofs.«403211_j60627758350346_1_alg».proof.Proof.Gen.KernelIdeal.Frame
import proofs.«403211_j60627758350346_1_alg».proof.Proof.Spec
import proofs.«403211_j60627758350346_1_alg».proof.Proof.LibDot
import proofs.«403211_j60627758350346_1_alg».proof.Proof.LibConcat
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Region2

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b))

/-! ## A row of the network reads the same row of its inputs -/

/-- The affine layer at row `r` reads row `r` of its input only. -/
theorem linAt_row {R R' K C : Nat} {x : Cert.Spec.Mat R K} {x' : Cert.Spec.Mat R' K} (w : Cert.Spec.Mat K C)
    (b : Cert.Spec.Mat 1 C) {r : Fin R} {r' : Fin R'} (h : ∀ k : Fin K, x (ix2 r k) = x' (ix2 r' k)) (c : Fin C) :
    Cert.Spec.linAt x w b r c = Cert.Spec.linAt x' w b r' c := by
  unfold Cert.Spec.linAt
  rw [Finset.sum_congr rfl fun k _ => by rw [h k]]

/-- Three matrices side by side, at row `r`, read row `r` of each. -/
theorem cat3At_row {R R' A B C N : Nat} {a : Cert.Spec.Mat R A} {a' : Cert.Spec.Mat R' A} {b : Cert.Spec.Mat R B}
    {b' : Cert.Spec.Mat R' B} {c : Cert.Spec.Mat R C} {c' : Cert.Spec.Mat R' C} {r : Fin R} {r' : Fin R'}
    (ha : ∀ k : Fin A, a (ix2 r k) = a' (ix2 r' k)) (hb : ∀ k : Fin B, b (ix2 r k) = b' (ix2 r' k))
    (hc : ∀ k : Fin C, c (ix2 r k) = c' (ix2 r' k)) (k : Fin N) :
    Cert.Spec.cat3At a b c r k = Cert.Spec.cat3At a' b' c' r' k := by
  unfold Cert.Spec.cat3At
  split_ifs
  · exact ha _
  · exact hb _
  · exact hc _
  · rfl

/-- Two matrices side by side, at row `r`, read row `r` of each. -/
theorem cat2At_row {R R' A B N : Nat} {a : Cert.Spec.Mat R A} {a' : Cert.Spec.Mat R' A} {b : Cert.Spec.Mat R B}
    {b' : Cert.Spec.Mat R' B} {r : Fin R} {r' : Fin R'}
    (ha : ∀ k : Fin A, a (ix2 r k) = a' (ix2 r' k)) (hb : ∀ k : Fin B, b (ix2 r k) = b' (ix2 r' k)) (k : Fin N) :
    Cert.Spec.cat2At a b r k = Cert.Spec.cat2At a' b' r' k := by
  unfold Cert.Spec.cat2At
  split_ifs
  · exact ha _
  · exact hb _
  · rfl

/-- The edge update at row `r` reads row `r` of the three feature matrices. -/
theorem edgeUpd_row {R R' A B C K H D : Nat} {xi : Cert.Spec.Mat R A} {xi' : Cert.Spec.Mat R' A} {xj : Cert.Spec.Mat R B}
    {xj' : Cert.Spec.Mat R' B} {efc : Cert.Spec.Mat R C} {efc' : Cert.Spec.Mat R' C} (w0 : Cert.Spec.Mat K H)
    (b0 : Cert.Spec.Mat 1 H) (w1 : Cert.Spec.Mat H D) (b1 : Cert.Spec.Mat 1 D) {r : Fin R} {r' : Fin R'}
    (hi : ∀ k : Fin A, xi (ix2 r k) = xi' (ix2 r' k)) (hj : ∀ k : Fin B, xj (ix2 r k) = xj' (ix2 r' k))
    (he : ∀ k : Fin C, efc (ix2 r k) = efc' (ix2 r' k)) (c : Fin D) :
    Cert.Spec.edgeUpd xi xj efc w0 b0 w1 b1 (ix2 r c) = Cert.Spec.edgeUpd xi' xj' efc' w0 b0 w1 b1 (ix2 r' c) := by
  show max (Cert.Spec.linAt (Cert.Spec.relu (Cert.Spec.lin (Cert.Spec.cat3 K xi xj efc) w0 b0)) w1 b1 r c) 0
    = max (Cert.Spec.linAt (Cert.Spec.relu (Cert.Spec.lin (Cert.Spec.cat3 K xi' xj' efc') w0 b0)) w1 b1 r' c) 0
  refine congrArg (fun v => max v 0) (linAt_row w1 b1 (fun k => ?_) c)
  show max (Cert.Spec.linAt (Cert.Spec.cat3 K xi xj efc) w0 b0 r k) 0
    = max (Cert.Spec.linAt (Cert.Spec.cat3 K xi' xj' efc') w0 b0 r' k) 0
  exact congrArg (fun v => max v 0) (linAt_row w0 b0 (fun j => cat3At_row hi hj he j) k)

/-- The message at row `r` reads row `r` of the target rows and of the edge features. -/
theorem msgOf_row {R R' A D K C : Nat} {xi : Cert.Spec.Mat R A} {xi' : Cert.Spec.Mat R' A} {ef : Cert.Spec.Mat R D}
    {ef' : Cert.Spec.Mat R' D} (w : Cert.Spec.Mat K C) (b : Cert.Spec.Mat 1 C) {r : Fin R} {r' : Fin R'}
    (hi : ∀ k : Fin A, xi (ix2 r k) = xi' (ix2 r' k)) (he : ∀ k : Fin D, ef (ix2 r k) = ef' (ix2 r' k)) (c : Fin C) :
    Cert.Spec.msgOf xi ef w b (ix2 r c) = Cert.Spec.msgOf xi' ef' w b (ix2 r' c) := by
  show max (Cert.Spec.linAt (Cert.Spec.cat2 K xi ef) w b r c) 0 = max (Cert.Spec.linAt (Cert.Spec.cat2 K xi' ef') w b r' c) 0
  exact congrArg (fun v => max v 0) (linAt_row w b (fun j => cat2At_row hi he j) c)

/-! ## The kernel's layers at an entry -/

/-- One layer as the kernel computes it — operands narrowed (no change over the extended reals), the product into the
    zero accumulator, the bias row broadcast down the rows and added — is the affine layer, entry by entry. -/
theorem layer_at {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ .f32) (w : FVec Ideal ⟨2, ![K, C]⟩ .f32) (b : FVec Ideal ⟨2, ![1, C]⟩ .f32)
    (hx : FTy.bits .bf16 < FTy.bits .f32) (hs : (⟨2, ![1, C]⟩ : Shape).ShapeCasts ⟨2, ![1, C]⟩)
    (hb : (⟨2, ![1, C]⟩ : Shape).Broadcasts ⟨2, ![R, C]⟩) (r : Fin R) (c : Fin C) :
    addf (matmul d none (truncf .bf16 x hx) (truncf .bf16 w hx) (constant ⟨2, ![R, C]⟩ .f32 0x00000000#32))
        (broadcastTo ⟨2, ![R, C]⟩ (shapeCast ⟨2, ![1, C]⟩ b hs) hb) (ix2 r c) = Cert.Spec.linAt x w b r c := by
  rw [addf_apply, shapeCast_self, broadcastTo_1b_ab_apply]
  exact congrArg (· + b (ix2 (0 : Fin 1) c)) (Cert.LibDot.matmul_zero_at d hl hr hln hrn hlb hrb none _ _ r c)

/-- The rectifier as the kernel computes it: the larger of the entry and the zero word, which is 0. -/
theorem rectify_at {s : Shape} (v : FVec Ideal s .f32) (i : s.Idx) :
    maximumf v (broadcast s (Scalar.ofBits (F := Ideal) .f32 0x00000000#32)) i = max (v i) 0 := by
  rw [maximumf_apply, broadcast_apply]
  exact congrArg (max (v i)) Ideal.ofBits_zero_f32

/-! ## The kernel's two stored values at an entry -/

/-- The new edge features the kernel stores, entry by entry: the edge update of the three feature blocks. -/
theorem edge_payload_at (x0 x1 x2 : Vec Ideal S1000x256 .f32) (x3 : Vec Ideal S768x64 .f32) (x4 : Vec Ideal S1x64 .f32)
    (x5 : Vec Ideal S64x128 .f32) (x6 : Vec Ideal S1x128 .f32) (p : Fin 1000) (q : Fin 128) :
    k2_pay3 x0 x1 x2 x3 x4 x5 x6 (ix2 p q) = Cert.Spec.edgeUpd x0 x1 x2 x3 x4 x5 x6 (ix2 p q) := by
  unfold k2_pay3 k2_pay2
  dsimp only
  rw [rectify_at]
  refine congrArg (fun v => max v 0) ?_
  refine (layer_at dot_S1000x64_S64x128_S1000x128_1_0_0_1_n_n rfl rfl rfl rfl rfl rfl _ x5 x6 _ _ _ p q).trans ?_
  show Cert.Spec.linAt _ x5 x6 p q
    = Cert.Spec.linAt (Cert.Spec.relu (Cert.Spec.lin (Cert.Spec.cat3 768 x0 x1 x2) x3 x4)) x5 x6 p q
  refine linAt_row x5 x6 (fun k => ?_) q
  rw [rectify_at]
  refine congrArg (fun v => max v 0) ?_
  refine (layer_at dot_S1000x768_S768x64_S1000x64_1_0_0_1_n_n rfl rfl rfl rfl rfl rfl _ x3 x4 _ _ _ p k).trans ?_
  show Cert.Spec.linAt _ x3 x4 p k = Cert.Spec.linAt (Cert.Spec.cat3 768 x0 x1 x2) x3 x4 p k
  refine linAt_row x3 x4 (fun j => ?_) k
  rw [shapeCast_self, shapeCast_self, shapeCast_self]
  exact Cert.LibConcat.concat3_at _ x0 x1 x2 p j

/-- The messages the kernel stores, entry by entry: the message of the target block and the new edge features. -/
theorem msg_payload_at (x0 x1 x2 : Vec Ideal S1000x256 .f32) (x3 : Vec Ideal S768x64 .f32) (x4 : Vec Ideal S1x64 .f32)
    (x5 : Vec Ideal S64x128 .f32) (x6 : Vec Ideal S1x128 .f32) (x7 : Vec Ideal S384x128 .f32) (x8 : Vec Ideal S1x128 .f32)
    (p : Fin 1000) (q : Fin 128) :
    k2_pay1 (k2_pay4 x0 x1 x2 x3 x4 x5 x6 x7 x8) (ix2 p q)
      = Cert.Spec.msgOf x0 (Cert.Spec.edgeUpd x0 x1 x2 x3 x4 x5 x6 : Cert.Spec.Mat 1000 128) x7 x8 (ix2 p q) := by
  unfold k2_pay1 k2_pay4 k2_pay2
  dsimp only
  rw [rectify_at]
  refine congrArg (fun v => max v 0) ?_
  refine (layer_at dot_S1000x384_S384x128_S1000x128_1_0_0_1_n_n rfl rfl rfl rfl rfl rfl _ x7 x8 _ _ _ p q).trans ?_
  show Cert.Spec.linAt _ x7 x8 p q
    = Cert.Spec.linAt (Cert.Spec.cat2 384 x0 (Cert.Spec.edgeUpd x0 x1 x2 x3 x4 x5 x6 : Cert.Spec.Mat 1000 128)) x7 x8 p q
  refine linAt_row x7 x8 (fun j => ?_) q
  rw [shapeCast_self]
  refine (Cert.LibConcat.concat2_at _ x0 (k2_pay3 x0 x1 x2 x3 x4 x5 x6) p j).trans ?_
  exact cat2At_row (fun _ => rfl) (fun k => edge_payload_at x0 x1 x2 x3 x4 x5 x6 p k) j

/-! ## Where each window's block sits -/

theorem offsets_zero : (![0, 0] : Fin 2 → Nat) = fun _ => 0 := funext fun a => by fin_cases a <;> rfl

/-- The index maps over the grid: at point `t` the three feature windows and the two output windows
    are at block (t, 0), the weight and bias windows at block (0, 0). -/
theorem index_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0)
    ∧ (win2_10.index t (0 : Fin 2) = t.val ∧ win2_10.index t (1 : Fin 2) = 0) :=
  (by decide +kernel : ∀ t : Fin grid2.N, _)

/-- The grid has 100 points, so row `y` of the block at point `t` is a row of the array. -/
theorem row_lt (t : Fin cfg2.N) (y : Fin 1000) : t.val * 1000 + y.val < 100000 := by
  have h : t.val < 100 := lt_of_lt_of_eq t.isLt N_2
  have := y.isLt
  omega

/-- Window 0's block at point `t`, entry (y, k), is its array's entry (1000 t + y, k). -/
theorem xi_block_at (c : Dev nD) (t : Fin cfg2.N) (y : Fin 1000) (k : Fin 256) :
    (iblk2 V c 0 t : Vec Ideal S1000x256 .f32) (ix2 y k) = V c main_v12 (ix2 ⟨t.val * 1000 + y.val, row_lt t y⟩ k) := by
  obtain ⟨⟨e0, e1⟩, -⟩ := index_facts t
  show V c main_v12 (((cfg2.win 0).blk t).view.emb (ix2 y k)) = _
  refine congrArg (V c main_v12) (funext fun a => Fin.ext ?_)
  match a with
  | ⟨0, _⟩ => show win2_0.index t (0 : Fin 2) * 1000 + 1 * y.val = t.val * 1000 + y.val; rw [e0]; omega
  | ⟨1, _⟩ => show win2_0.index t (1 : Fin 2) * 256 + 1 * k.val = k.val; rw [e1]; omega

/-- Window 1's block at point `t`, entry (y, k), is its array's entry (1000 t + y, k). -/
theorem xj_block_at (c : Dev nD) (t : Fin cfg2.N) (y : Fin 1000) (k : Fin 256) :
    (iblk2 V c 1 t : Vec Ideal S1000x256 .f32) (ix2 y k) = V c main_v13 (ix2 ⟨t.val * 1000 + y.val, row_lt t y⟩ k) := by
  obtain ⟨-, ⟨e0, e1⟩, -⟩ := index_facts t
  show V c main_v13 (((cfg2.win 1).blk t).view.emb (ix2 y k)) = _
  refine congrArg (V c main_v13) (funext fun a => Fin.ext ?_)
  match a with
  | ⟨0, _⟩ => show win2_1.index t (0 : Fin 2) * 1000 + 1 * y.val = t.val * 1000 + y.val; rw [e0]; omega
  | ⟨1, _⟩ => show win2_1.index t (1 : Fin 2) * 256 + 1 * k.val = k.val; rw [e1]; omega

/-- Window 2's block at point `t`, entry (y, k), is its array's entry (1000 t + y, k). -/
theorem efc_block_at (c : Dev nD) (t : Fin cfg2.N) (y : Fin 1000) (k : Fin 256) :
    (iblk2 V c 2 t : Vec Ideal S1000x256 .f32) (ix2 y k) = V c main_v11 (ix2 ⟨t.val * 1000 + y.val, row_lt t y⟩ k) := by
  obtain ⟨-, -, ⟨e0, e1⟩, -⟩ := index_facts t
  show V c main_v11 (((cfg2.win 2).blk t).view.emb (ix2 y k)) = _
  refine congrArg (V c main_v11) (funext fun a => Fin.ext ?_)
  match a with
  | ⟨0, _⟩ => show win2_2.index t (0 : Fin 2) * 1000 + 1 * y.val = t.val * 1000 + y.val; rw [e0]; omega
  | ⟨1, _⟩ => show win2_2.index t (1 : Fin 2) * 256 + 1 * k.val = k.val; rw [e1]; omega

/-- Window 3's block at every point is its whole array. -/
theorem w0_block_whole (c : Dev nD) (t : Fin cfg2.N) : (iblk2 V c 3 t : Vec Ideal S768x64 .f32) = V c main_arg11 := by
  obtain ⟨-, -, -, ⟨e0, e1⟩, -⟩ := index_facts t
  funext y
  show V c main_arg11 (((cfg2.win 3).blk t).view.emb y) = V c main_arg11 y
  refine congrArg (V c main_arg11) (funext fun a => Fin.ext ?_)
  match a with
  | ⟨0, _⟩ => show win2_3.index t (0 : Fin 2) * 768 + 1 * (y 0).val = (y 0).val; rw [e0]; omega
  | ⟨1, _⟩ => show win2_3.index t (1 : Fin 2) * 64 + 1 * (y 1).val = (y 1).val; rw [e1]; omega

/-- Window 4's block at every point is its whole array. -/
theorem b0_block_whole (c : Dev nD) (t : Fin cfg2.N) : (iblk2 V c 4 t : Vec Ideal S1x64 .f32) = V c main_v14 := by
  obtain ⟨-, -, -, -, ⟨e0, e1⟩, -⟩ := index_facts t
  funext y
  show V c main_v14 (((cfg2.win 4).blk t).view.emb y) = V c main_v14 y
  refine congrArg (V c main_v14) (funext fun a => Fin.ext ?_)
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-- Window 5's block at every point is its whole array. -/
theorem w1_block_whole (c : Dev nD) (t : Fin cfg2.N) : (iblk2 V c 5 t : Vec Ideal S64x128 .f32) = V c main_arg13 := by
  obtain ⟨-, -, -, -, -, ⟨e0, e1⟩, -⟩ := index_facts t
  funext y
  show V c main_arg13 (((cfg2.win 5).blk t).view.emb y) = V c main_arg13 y
  refine congrArg (V c main_arg13) (funext fun a => Fin.ext ?_)
  match a with
  | ⟨0, _⟩ => show win2_5.index t (0 : Fin 2) * 64 + 1 * (y 0).val = (y 0).val; rw [e0]; omega
  | ⟨1, _⟩ => show win2_5.index t (1 : Fin 2) * 128 + 1 * (y 1).val = (y 1).val; rw [e1]; omega

/-- Window 6's block at every point is its whole array. -/
theorem b1_block_whole (c : Dev nD) (t : Fin cfg2.N) : (iblk2 V c 6 t : Vec Ideal S1x128 .f32) = V c main_v15 := by
  obtain ⟨-, -, -, -, -, -, ⟨e0, e1⟩, -⟩ := index_facts t
  funext y
  show V c main_v15 (((cfg2.win 6).blk t).view.emb y) = V c main_v15 y
  refine congrArg (V c main_v15) (funext fun a => Fin.ext ?_)
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

/-- Window 7's block at every point is its whole array. -/
theorem wm_block_whole (c : Dev nD) (t : Fin cfg2.N) : (iblk2 V c 7 t : Vec Ideal S384x128 .f32) = V c main_arg15 := by
  obtain ⟨-, -, -, -, -, -, -, ⟨e0, e1⟩, -⟩ := index_facts t
  funext y
  show V c main_arg15 (((cfg2.win 7).blk t).view.emb y) = V c main_arg15 y
  refine congrArg (V c main_arg15) (funext fun a => Fin.ext ?_)
  match a with
  | ⟨0, _⟩ => show win2_7.index t (0 : Fin 2) * 384 + 1 * (y 0).val = (y 0).val; rw [e0]; omega
  | ⟨1, _⟩ => show win2_7.index t (1 : Fin 2) * 128 + 1 * (y 1).val = (y 1).val; rw [e1]; omega

/-- Window 8's block at every point is its whole array. -/
theorem bm_block_whole (c : Dev nD) (t : Fin cfg2.N) : (iblk2 V c 8 t : Vec Ideal S1x128 .f32) = V c main_v16 := by
  obtain ⟨-, -, -, -, -, -, -, -, ⟨e0, e1⟩, -⟩ := index_facts t
  funext y
  show V c main_v16 (((cfg2.win 8).blk t).view.emb y) = V c main_v16 y
  refine congrArg (V c main_v16) (funext fun a => Fin.ext ?_)
  match a with
  | ⟨0, _⟩ => show win2_8.index t (0 : Fin 2) * 1 + 1 * (y 0).val = (y 0).val; rw [e0]; omega
  | ⟨1, _⟩ => show win2_8.index t (1 : Fin 2) * 128 + 1 * (y 1).val = (y 1).val; rw [e1]; omega

/-! ## What each point writes back -/

/-- An entry of an output block at point `t` sits in the array at row 1000 t + p, same column (window 9). -/
theorem edge_entry_row (t : Fin cfg2.N) (p : Fin 1000) (q : Fin 128) :
    ((cfg2.win 9).blk t).view.emb (ix2 p q) = ix2 ⟨t.val * 1000 + p.val, row_lt t p⟩ q := by
  obtain ⟨-, -, -, -, -, -, -, -, -, ⟨e0, e1⟩, -⟩ := index_facts t
  refine funext fun a => Fin.ext ?_
  match a with
  | ⟨0, _⟩ => show win2_9.index t (0 : Fin 2) * 1000 + 1 * p.val = t.val * 1000 + p.val; rw [e0]; omega
  | ⟨1, _⟩ => show win2_9.index t (1 : Fin 2) * 128 + 1 * q.val = q.val; rw [e1]; omega

/-- The same for window 10. -/
theorem msg_entry_row (t : Fin cfg2.N) (p : Fin 1000) (q : Fin 128) :
    ((cfg2.win 10).blk t).view.emb (ix2 p q) = ix2 ⟨t.val * 1000 + p.val, row_lt t p⟩ q := by
  obtain ⟨-, -, -, -, -, -, -, -, -, -, e0, e1⟩ := index_facts t
  refine funext fun a => Fin.ext ?_
  match a with
  | ⟨0, _⟩ => show win2_10.index t (0 : Fin 2) * 1000 + 1 * p.val = t.val * 1000 + p.val; rw [e0]; omega
  | ⟨1, _⟩ => show win2_10.index t (1 : Fin 2) * 128 + 1 * q.val = q.val; rw [e1]; omega

/-- Point `t` writes back, to the new edge features, block `t` of the edge update of the whole arrays. -/
theorem edge_flushed (c : Dev nD) (t : Fin cfg2.N) :
    (dat2 (F := Ideal) V c).flushed 9 t = ((cfg2.win 9).blk t).view.read (Elt Ideal) (Cert.Spec.edgeUpd (V c main_v12) (V c main_v13) (V c main_v11) (V c main_arg11) (V c main_v14) (V c main_arg13) (V c main_v15)) := by
  show (cfg2.win 9).cut (grid2.coords t) ((dat2 V c).after 9 t) = _
  rw [after2_9]
  unfold out2_9
  rw [View.canon_unit_zero offsets_zero]
  simp only [View.ld_unit_zero (S := S1000x256) offsets_zero, View.ld_unit_zero (S := S768x64) offsets_zero,
    View.ld_unit_zero (S := S1x64) offsets_zero, View.ld_unit_zero (S := S64x128) offsets_zero,
    View.ld_unit_zero (S := S1x128) offsets_zero]
  funext j
  obtain ⟨p, q, rfl⟩ : ∃ (p : Fin 1000) (q : Fin 128), j = ix2 p q := ⟨j 0, j 1, eq_ix2 j⟩
  show k2_pay3 (iblk2 V c 0 t) (iblk2 V c 1 t) (iblk2 V c 2 t) (iblk2 V c 3 t) (iblk2 V c 4 t) (iblk2 V c 5 t) (iblk2 V c 6 t) (ix2 p q)
    = (Cert.Spec.edgeUpd (V c main_v12) (V c main_v13) (V c main_v11) (V c main_arg11) (V c main_v14) (V c main_arg13) (V c main_v15)) (((cfg2.win 9).blk t).view.emb (ix2 p q))
  rw [edge_entry_row t p q, edge_payload_at, w0_block_whole V c t, b0_block_whole V c t, w1_block_whole V c t, b1_block_whole V c t]
  exact edgeUpd_row _ _ _ _ (fun k => xi_block_at V c t p k) (fun k => xj_block_at V c t p k) (fun k => efc_block_at V c t p k) q

/-- Point `t` writes back, to the messages, block `t` of the message of the whole arrays. -/
theorem msg_flushed (c : Dev nD) (t : Fin cfg2.N) :
    (dat2 (F := Ideal) V c).flushed 10 t = ((cfg2.win 10).blk t).view.read (Elt Ideal)
      (Cert.Spec.msgOf (V c main_v12) (Cert.Spec.edgeUpd (V c main_v12) (V c main_v13) (V c main_v11) (V c main_arg11) (V c main_v14) (V c main_arg13) (V c main_v15) : Cert.Spec.Mat 100000 128) (V c main_arg15) (V c main_v16)) := by
  show (cfg2.win 10).cut (grid2.coords t) ((dat2 V c).after 10 t) = _
  rw [after2_10]
  unfold out2_10
  rw [View.canon_unit_zero offsets_zero]
  simp only [View.ld_unit_zero (S := S1000x256) offsets_zero, View.ld_unit_zero (S := S768x64) offsets_zero,
    View.ld_unit_zero (S := S1x64) offsets_zero, View.ld_unit_zero (S := S64x128) offsets_zero,
    View.ld_unit_zero (S := S1x128) offsets_zero, View.ld_unit_zero (S := S384x128) offsets_zero]
  funext j
  obtain ⟨p, q, rfl⟩ : ∃ (p : Fin 1000) (q : Fin 128), j = ix2 p q := ⟨j 0, j 1, eq_ix2 j⟩
  show k2_pay1 (k2_pay4 (iblk2 V c 0 t) (iblk2 V c 1 t) (iblk2 V c 2 t) (iblk2 V c 3 t) (iblk2 V c 4 t) (iblk2 V c 5 t)
      (iblk2 V c 6 t) (iblk2 V c 7 t) (iblk2 V c 8 t)) (ix2 p q)
    = (Cert.Spec.msgOf (V c main_v12) (Cert.Spec.edgeUpd (V c main_v12) (V c main_v13) (V c main_v11) (V c main_arg11) (V c main_v14) (V c main_arg13) (V c main_v15) : Cert.Spec.Mat 100000 128) (V c main_arg15) (V c main_v16)) (((cfg2.win 10).blk t).view.emb (ix2 p q))
  rw [msg_entry_row t p q, msg_payload_at, w0_block_whole V c t, b0_block_whole V c t, w1_block_whole V c t, b1_block_whole V c t,
    wm_block_whole V c t, bm_block_whole V c t]
  exact msgOf_row _ _ (fun k => xi_block_at V c t p k)
    (fun k => edgeUpd_row _ _ _ _ (fun k => xi_block_at V c t p k) (fun k => xj_block_at V c t p k)
      (fun k => efc_block_at V c t p k) k) q

/-! ## The blocks fill the arrays -/

/-- Row `r` is row `r % 1000` of the block of point `r / 1000`. -/
theorem row_split (r : Fin 100000) : ∃ (t : Fin cfg2.N) (p : Fin 1000), r = ⟨t.val * 1000 + p.val, row_lt t p⟩ := by
  have hr := r.isLt
  exact ⟨⟨r.val / 1000, lt_of_lt_of_eq (show r.val / 1000 < 100 by omega) N_2.symm⟩, ⟨r.val % 1000, Nat.mod_lt _ (by omega)⟩,
    Fin.ext (show r.val = r.val / 1000 * 1000 + r.val % 1000 by omega)⟩

/-- Every entry of the new edge features is in some point's block, and every point writes its block back. -/
theorem edge_covered (i : S100000x128.Idx) :
    ∃ t : Fin cfg2.N, (cfg2.win 9).flush t = true ∧ i ∈ ((cfg2.win 9).blk t).view.set := by
  obtain ⟨r, q, rfl⟩ : ∃ (r : Fin 100000) (q : Fin 128), i = ix2 r q := ⟨i 0, i 1, eq_ix2 i⟩
  obtain ⟨t, p, rfl⟩ := row_split r
  refine ⟨t, flush2_9 t, ?_⟩
  rw [← edge_entry_row t p q]
  exact ((cfg2.win 9).blk t).view.emb_mem_set _

/-- Every entry of the messages is in some point's block, and every point writes its block back. -/
theorem msg_covered (i : S100000x128.Idx) :
    ∃ t : Fin cfg2.N, (cfg2.win 10).flush t = true ∧ i ∈ ((cfg2.win 10).blk t).view.set := by
  obtain ⟨r, q, rfl⟩ : ∃ (r : Fin 100000) (q : Fin 128), i = ix2 r q := ⟨i 0, i 1, eq_ix2 i⟩
  obtain ⟨t, p, rfl⟩ := row_split r
  refine ⟨t, flush2_10 t, ?_⟩
  rw [← msg_entry_row t p q]
  exact ((cfg2.win 10).blk t).view.emb_mem_set _

/-! ## The two arrays after the step -/

/-- The new edge features after the step: the edge update of the arrays the step was entered with. -/
theorem arr9 (c : Dev nD) : (dat2 (F := Ideal) V c).arrAt 9 cfg2.N
      = Cert.Spec.edgeUpd (V c main_v12) (V c main_v13) (V c main_v11) (V c main_arg11) (V c main_v14) (V c main_arg13) (V c main_v15) :=
  (dat2 (F := Ideal) V c).arrAt_eq_of_cover 9 _ (fun t _ => edge_flushed V c t) edge_covered

/-- The messages after the step: the message of the target rows and the new edge features. -/
theorem arr10 (c : Dev nD) : (dat2 (F := Ideal) V c).arrAt 10 cfg2.N
      = Cert.Spec.msgOf (V c main_v12) (Cert.Spec.edgeUpd (V c main_v12) (V c main_v13) (V c main_v11) (V c main_arg11) (V c main_v14) (V c main_arg13) (V c main_v15) : Cert.Spec.Mat 100000 128) (V c main_arg15) (V c main_v16) :=
  (dat2 (F := Ideal) V c).arrAt_eq_of_cover 10 _ (fun t _ => msg_flushed V c t) msg_covered

end Cert.KernelIdeal.Region2

end
-- ==== Proof.KStep1.lean ====
/-
  The first round of message passing, along the run: from what region 1 left in the buffers to what the step's region
  leaves. Each buffer the step reads is traced back through the four host stretches before it (a buffer a stretch does
  not write keeps its contents; the ones a stretch writes are the concatenations, the gathers and the bias rows), the
  step's two result arrays are the edge update and the message of those buffers, and together they are the two
  components of the network's round started from the pair of embeddings.
-/
import proofs.«403211_j60627758350346_1_alg».proof.Proof.Gen.KernelIdeal.Frame
import proofs.«403211_j60627758350346_1_alg».proof.Proof.Spec
import proofs.«403211_j60627758350346_1_alg».proof.Proof.SpecNet
import proofs.«403211_j60627758350346_1_alg».proof.Proof.KNames
import proofs.«403211_j60627758350346_1_alg».proof.Proof.KGlue
import proofs.«403211_j60627758350346_1_alg».proof.Proof.KTake
import proofs.«403211_j60627758350346_1_alg».proof.Proof.LibKeep
import proofs.«403211_j60627758350346_1_alg».proof.Proof.KRegion2
import Idealize.ShloMosaic.Lib.StableHlo.Run

noncomputable section

namespace Cert.KernelIdeal.Step1

open Idealize.ShloMosaic Idealize.ShloMosaic.TcCoe Idealize.SL.Sem Idealize.ShloMosaic.StableHlo
open Cert.KernelIdeal Cert.KernelIdeal.Gen Cert.KernelIdeal.Names Cert.KernelIdeal.Glue Cert.KernelIdeal.Take Cert.LibKeep

variable (m : (ℓ : Loc nD τ sig) → Buf (Elt Ideal) ℓ) (ρ : Dev nD → PrngReg) (c : Dev nD)

/-! ## The buffers the step reads, at its entry, from what region 1 left

  Between region 1's exit and the step's entry run four host stretches: the first sets the node embedding beside
  itself and the edge embedding beside itself; the second gathers the former's rows at the target index words, the
  third at the source index words; the fourth sets the three bias vectors as one-row matrices. Every buffer is
  written once, so each keeps its contents across the stretches that do not write it. -/

/-- `main_arg11` is written by none of the four host stretches before the step: at the step's entry it is as region 1 left it. -/
theorem kept_main_arg11 : W8 m ρ c (Proc.devRef .tc main_arg11) = W4 m ρ c (Proc.devRef .tc main_arg11) :=
  (by kept_host hostOps2_3 : W8 m ρ c (Proc.devRef .tc main_arg11) = W7 m ρ c (Proc.devRef .tc main_arg11)).trans
    ((by kept_host hostOps2_2 : W7 m ρ c (Proc.devRef .tc main_arg11) = W6 m ρ c (Proc.devRef .tc main_arg11)).trans
      ((by kept_host hostOps2_1 : W6 m ρ c (Proc.devRef .tc main_arg11) = W5 m ρ c (Proc.devRef .tc main_arg11)).trans
        (by kept_host hostOps2 : W5 m ρ c (Proc.devRef .tc main_arg11) = W4 m ρ c (Proc.devRef .tc main_arg11))))

/-- `main_arg13` is written by none of the four host stretches before the step: at the step's entry it is as region 1 left it. -/
theorem kept_main_arg13 : W8 m ρ c (Proc.devRef .tc main_arg13) = W4 m ρ c (Proc.devRef .tc main_arg13) :=
  (by kept_host hostOps2_3 : W8 m ρ c (Proc.devRef .tc main_arg13) = W7 m ρ c (Proc.devRef .tc main_arg13)).trans
    ((by kept_host hostOps2_2 : W7 m ρ c (Proc.devRef .tc main_arg13) = W6 m ρ c (Proc.devRef .tc main_arg13)).trans
      ((by kept_host hostOps2_1 : W6 m ρ c (Proc.devRef .tc main_arg13) = W5 m ρ c (Proc.devRef .tc main_arg13)).trans
        (by kept_host hostOps2 : W5 m ρ c (Proc.devRef .tc main_arg13) = W4 m ρ c (Proc.devRef .tc main_arg13))))

/-- `main_arg15` is written by none of the four host stretches before the step: at the step's entry it is as region 1 left it. -/
theorem kept_main_arg15 : W8 m ρ c (Proc.devRef .tc main_arg15) = W4 m ρ c (Proc.devRef .tc main_arg15) :=
  (by kept_host hostOps2_3 : W8 m ρ c (Proc.devRef .tc main_arg15) = W7 m ρ c (Proc.devRef .tc main_arg15)).trans
    ((by kept_host hostOps2_2 : W7 m ρ c (Proc.devRef .tc main_arg15) = W6 m ρ c (Proc.devRef .tc main_arg15)).trans
      ((by kept_host hostOps2_1 : W6 m ρ c (Proc.devRef .tc main_arg15) = W5 m ρ c (Proc.devRef .tc main_arg15)).trans
        (by kept_host hostOps2 : W5 m ρ c (Proc.devRef .tc main_arg15) = W4 m ρ c (Proc.devRef .tc main_arg15))))

/-- `main_v14` at the step's entry: the bias vector `main_arg12`, as region 1 left it, set as a one-row matrix. -/
theorem entry_main_v14 : W8 m ρ c (Proc.devRef .tc main_v14) = Cert.Spec.row (W4 m ρ c (Proc.devRef .tc main_arg12)) :=
  (glue2_v14 (W7 m ρ c)).trans (congrArg Cert.Spec.row
    ((by kept_host hostOps2_2 : W7 m ρ c (Proc.devRef .tc main_arg12) = W6 m ρ c (Proc.devRef .tc main_arg12)).trans
      ((by kept_host hostOps2_1 : W6 m ρ c (Proc.devRef .tc main_arg12) = W5 m ρ c (Proc.devRef .tc main_arg12)).trans
        (by kept_host hostOps2 : W5 m ρ c (Proc.devRef .tc main_arg12) = W4 m ρ c (Proc.devRef .tc main_arg12)))))

/-- `main_v15` at the step's entry: the bias vector `main_arg14`, as region 1 left it, set as a one-row matrix. -/
theorem entry_main_v15 : W8 m ρ c (Proc.devRef .tc main_v15) = Cert.Spec.row (W4 m ρ c (Proc.devRef .tc main_arg14)) :=
  (glue2_v15 (W7 m ρ c)).trans (congrArg Cert.Spec.row
    ((by kept_host hostOps2_2 : W7 m ρ c (Proc.devRef .tc main_arg14) = W6 m ρ c (Proc.devRef .tc main_arg14)).trans
      ((by kept_host hostOps2_1 : W6 m ρ c (Proc.devRef .tc main_arg14) = W5 m ρ c (Proc.devRef .tc main_arg14)).trans
        (by kept_host hostOps2 : W5 m ρ c (Proc.devRef .tc main_arg14) = W4 m ρ c (Proc.devRef .tc main_arg14)))))

/-- `main_v16` at the step's entry: the bias vector `main_arg16`, as region 1 left it, set as a one-row matrix. -/
theorem entry_main_v16 : W8 m ρ c (Proc.devRef .tc main_v16) = Cert.Spec.row (W4 m ρ c (Proc.devRef .tc main_arg16)) :=
  (glue2_v16 (W7 m ρ c)).trans (congrArg Cert.Spec.row
    ((by kept_host hostOps2_2 : W7 m ρ c (Proc.devRef .tc main_arg16) = W6 m ρ c (Proc.devRef .tc main_arg16)).trans
      ((by kept_host hostOps2_1 : W6 m ρ c (Proc.devRef .tc main_arg16) = W5 m ρ c (Proc.devRef .tc main_arg16)).trans
        (by kept_host hostOps2 : W5 m ρ c (Proc.devRef .tc main_arg16) = W4 m ρ c (Proc.devRef .tc main_arg16)))))

/-- The edge embedding beside itself, written by the first stretch, is untouched by the other three. -/
theorem entry_main_v11 : W8 m ρ c (Proc.devRef .tc main_v11)
    = Cert.Spec.cat2 256 (W4 m ρ c (Proc.devRef .tc main_v9)) (W4 m ρ c (Proc.devRef .tc main_v9)) :=
  (by kept_host hostOps2_3 : W8 m ρ c (Proc.devRef .tc main_v11) = W7 m ρ c (Proc.devRef .tc main_v11)).trans
    ((by kept_host hostOps2_2 : W7 m ρ c (Proc.devRef .tc main_v11) = W6 m ρ c (Proc.devRef .tc main_v11)).trans
      ((by kept_host hostOps2_1 : W6 m ρ c (Proc.devRef .tc main_v11) = W5 m ρ c (Proc.devRef .tc main_v11)).trans
        (glue2_v11 (W4 m ρ c))))

/-- The node embedding beside itself after the first stretch, -/
theorem nodes_beside_W5 : W5 m ρ c (Proc.devRef .tc main_v10)
    = Cert.Spec.cat2 256 (W4 m ρ c (Proc.devRef .tc main_v6)) (W4 m ρ c (Proc.devRef .tc main_v6)) :=
  glue2_v10 (W4 m ρ c)

/-- and after the second, which does not write it. -/
theorem nodes_beside_W6 : W6 m ρ c (Proc.devRef .tc main_v10)
    = Cert.Spec.cat2 256 (W4 m ρ c (Proc.devRef .tc main_v6)) (W4 m ρ c (Proc.devRef .tc main_v6)) :=
  (by kept_host hostOps2_1 : W6 m ρ c (Proc.devRef .tc main_v10) = W5 m ρ c (Proc.devRef .tc main_v10)).trans
    (nodes_beside_W5 m ρ c)

/-- The target index words when the second stretch gathers at them: as region 1 left them. -/
theorem targets_W5 : W5 m ρ c (Proc.devRef .tc main_v3) = W4 m ρ c (Proc.devRef .tc main_v3) := by
  kept_host hostOps2

/-- The source index words when the third stretch gathers at them: as region 1 left them. -/
theorem sources_W6 : W6 m ρ c (Proc.devRef .tc main_v1) = W4 m ρ c (Proc.devRef .tc main_v1) :=
  (by kept_host hostOps2_1 : W6 m ρ c (Proc.devRef .tc main_v1) = W5 m ρ c (Proc.devRef .tc main_v1)).trans
    (by kept_host hostOps2 : W5 m ρ c (Proc.devRef .tc main_v1) = W4 m ρ c (Proc.devRef .tc main_v1))

/-- The rows gathered at the targets, at the step's entry: in-range index words make the take the plain gather. -/
theorem entry_main_v12 (I : IVec S100000 32) (h3 : W4 m ρ c (Proc.devRef .tc main_v3) = I)
    (hI : ∀ e : S100000.Idx, (I e).toNat < 20000) :
    W8 m ρ c (Proc.devRef .tc main_v12)
      = gK (Cert.Spec.cat2 256 (W4 m ρ c (Proc.devRef .tc main_v6)) (W4 m ρ c (Proc.devRef .tc main_v6))) (nrmIdx I) := by
  have e3 : W5 m ρ c (Proc.devRef .tc main_v3) = I := (targets_W5 m ρ c).trans h3
  have t := take_call0 (W5 m ρ c) (by rw [e3]; exact hI)
  rw [nodes_beside_W5, e3] at t
  exact (by kept_host hostOps2_3 : W8 m ρ c (Proc.devRef .tc main_v12) = W7 m ρ c (Proc.devRef .tc main_v12)).trans
    ((by kept_host hostOps2_2 : W7 m ρ c (Proc.devRef .tc main_v12) = W6 m ρ c (Proc.devRef .tc main_v12)).trans t)

/-- The rows gathered at the sources, at the step's entry. -/
theorem entry_main_v13 (J : IVec S100000 32) (h1 : W4 m ρ c (Proc.devRef .tc main_v1) = J)
    (hJ : ∀ e : S100000.Idx, (J e).toNat < 20000) :
    W8 m ρ c (Proc.devRef .tc main_v13)
      = gK (Cert.Spec.cat2 256 (W4 m ρ c (Proc.devRef .tc main_v6)) (W4 m ρ c (Proc.devRef .tc main_v6))) (nrmIdx J) := by
  have e1 : W6 m ρ c (Proc.devRef .tc main_v1) = J := (sources_W6 m ρ c).trans h1
  have t := take_call1 (W6 m ρ c) (by rw [e1]; exact hJ)
  rw [nodes_beside_W6, e1] at t
  exact (by kept_host hostOps2_3 : W8 m ρ c (Proc.devRef .tc main_v13) = W7 m ρ c (Proc.devRef .tc main_v13)).trans t

/-! ## The step's two results, from what it read -/

/-- The new edge features at the step's exit: the edge update of the buffers at its entry. -/
theorem exit_edges : W9 m ρ c (Proc.devRef .tc main_v17_0)
    = Cert.Spec.edgeUpd (W8 m ρ c (Proc.devRef .tc main_v12)) (W8 m ρ c (Proc.devRef .tc main_v13))
        (W8 m ρ c (Proc.devRef .tc main_v11)) (W8 m ρ c (Proc.devRef .tc main_arg11)) (W8 m ρ c (Proc.devRef .tc main_v14))
        (W8 m ρ c (Proc.devRef .tc main_arg13)) (W8 m ρ c (Proc.devRef .tc main_v15)) :=
  (W9_arr m ρ c 9).trans (Cert.KernelIdeal.Region2.arr9 (V8 m ρ) c)

/-- The messages at the step's exit: the message of the gathered target rows and the new edge features. -/
theorem exit_messages : W9 m ρ c (Proc.devRef .tc main_v17_1)
    = Cert.Spec.msgOf (W8 m ρ c (Proc.devRef .tc main_v12))
        (Cert.Spec.edgeUpd (W8 m ρ c (Proc.devRef .tc main_v12)) (W8 m ρ c (Proc.devRef .tc main_v13))
          (W8 m ρ c (Proc.devRef .tc main_v11)) (W8 m ρ c (Proc.devRef .tc main_arg11)) (W8 m ρ c (Proc.devRef .tc main_v14))
          (W8 m ρ c (Proc.devRef .tc main_arg13)) (W8 m ρ c (Proc.devRef .tc main_v15)) : Cert.Spec.Mat 100000 128)
        (W8 m ρ c (Proc.devRef .tc main_arg15)) (W8 m ρ c (Proc.devRef .tc main_v16)) :=
  (W9_arr m ρ c 10).trans (Cert.KernelIdeal.Region2.arr10 (V8 m ρ) c)

/-- Round 1 of message passing, from the contents the previous region left to the contents this round's region
    leaves: the new edge features are the round's second component, and the messages summed into their target
    nodes its first. -/
theorem round1 (NF0 : Cert.Spec.Mat 20000 128) (EF0 : Cert.Spec.Mat 100000 128) (I J : IVec S100000 32)
    (M11 : Cert.Spec.Mat 768 64) (B12 : Cert.Spec.Vc 64) (M13 : Cert.Spec.Mat 64 128) (B14 : Cert.Spec.Vc 128)
    (M15 : Cert.Spec.Mat 384 128) (B16 : Cert.Spec.Vc 128)
    (h6 : W4 m ρ c (Proc.devRef .tc main_v6) = NF0) (h9 : W4 m ρ c (Proc.devRef .tc main_v9) = EF0)
    (h3 : W4 m ρ c (Proc.devRef .tc main_v3) = I) (h1 : W4 m ρ c (Proc.devRef .tc main_v1) = J)
    (h11 : W4 m ρ c (Proc.devRef .tc main_arg11) = M11) (h12 : W4 m ρ c (Proc.devRef .tc main_arg12) = B12)
    (h13 : W4 m ρ c (Proc.devRef .tc main_arg13) = M13) (h14 : W4 m ρ c (Proc.devRef .tc main_arg14) = B14)
    (h15 : W4 m ρ c (Proc.devRef .tc main_arg15) = M15) (h16 : W4 m ρ c (Proc.devRef .tc main_arg16) = B16)
    (hI : ∀ e : S100000.Idx, (I e).toNat < 20000) (hJ : ∀ e : S100000.Idx, (J e).toNat < 20000) :
    W9 m ρ c (Proc.devRef .tc main_v17_0)
        = (Cert.Spec.step gK scK NF0 EF0 (nrmIdx I) (nrmIdx J) (colIdx I) M11 (Cert.Spec.row B12) M13 (Cert.Spec.row B14) M15 (Cert.Spec.row B16) (NF0, EF0)).2
      ∧ scK (colIdx I) (W9 m ρ c (Proc.devRef .tc main_v17_1))
        = (Cert.Spec.step gK scK NF0 EF0 (nrmIdx I) (nrmIdx J) (colIdx I) M11 (Cert.Spec.row B12) M13 (Cert.Spec.row B14) M15 (Cert.Spec.row B16) (NF0, EF0)).1 := by
  have eE := exit_edges m ρ c
  have eM := exit_messages m ρ c
  rw [entry_main_v12 m ρ c I h3 hI, entry_main_v13 m ρ c J h1 hJ, entry_main_v11, kept_main_arg11, entry_main_v14,
    kept_main_arg13, entry_main_v15, h6, h9, h11, h12, h13, h14] at eE
  rw [entry_main_v12 m ρ c I h3 hI, entry_main_v13 m ρ c J h1 hJ, entry_main_v11, kept_main_arg11, entry_main_v14,
    kept_main_arg13, entry_main_v15, kept_main_arg15, entry_main_v16, h6, h9, h11, h12, h13, h14, h15, h16] at eM
  exact ⟨eE, congrArg (scK (colIdx I)) eM⟩

end Cert.KernelIdeal.Step1

end
-- ==== Proof.KRegion3.lean ====
/-
  One message-passing step, read as mathematics. The step's grid has 100 points; at point t it holds rows
  1000 t … 1000 t + 999 of the three feature arrays and the whole of the weight and bias arrays, and writes back rows
  1000 t … 1000 t + 999 of the new edge features and of the messages. Entry by entry, what it stores is the edge update
  relu(relu([xi | xj | efc] · w₀ + b₀) · w₁ + b₁) and the message relu([xi | ef'] · w + b) of the rows it holds; a row of
  either reads only the same row of the feature arrays, so block t of the result is block t of the same function of the
  whole arrays, and the 100 blocks fill the two result arrays.
-/
import proofs.«403211_j60627758350346_1_alg».proof.Proof.Gen.KernelIdeal.Frame
import proofs.«403211_j60627758350346_1_alg».proof.Proof.Spec
import proofs.«403211_j60627758350346_1_alg».proof.Proof.LibDot
import proofs.«403211_j60627758350346_1_alg».proof.Proof.LibConcat
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Region3

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b))

/-! ## A row of the network reads the same row of its inputs -/

/-- The affine layer at row `r` reads row `r` of its input only. -/
theorem linAt_row {R R' K C : Nat} {x : Cert.Spec.Mat R K} {x' : Cert.Spec.Mat R' K} (w : Cert.Spec.Mat K C)
    (b : Cert.Spec.Mat 1 C) {r : Fin R} {r' : Fin R'} (h : ∀ k : Fin K, x (ix2 r k) = x' (ix2 r' k)) (c : Fin C) :
    Cert.Spec.linAt x w b r c = Cert.Spec.linAt x' w b r' c := by
  unfold Cert.Spec.linAt
  rw [Finset.sum_congr rfl fun k _ => by rw [h k]]

/-- Three matrices side by side, at row `r`, read row `r` of each. -/
theorem cat3At_row {R R' A B C N : Nat} {a : Cert.Spec.Mat R A} {a' : Cert.Spec.Mat R' A} {b : Cert.Spec.Mat R B}
    {b' : Cert.Spec.Mat R' B} {c : Cert.Spec.Mat R C} {c' : Cert.Spec.Mat R' C} {r : Fin R} {r' : Fin R'}
    (ha : ∀ k : Fin A, a (ix2 r k) = a' (ix2 r' k)) (hb : ∀ k : Fin B, b (ix2 r k) = b' (ix2 r' k))
    (hc : ∀ k : Fin C, c (ix2 r k) = c' (ix2 r' k)) (k : Fin N) :
    Cert.Spec.cat3At a b c r k = Cert.Spec.cat3At a' b' c' r' k := by
  unfold Cert.Spec.cat3At
  split_ifs
  · exact ha _
  · exact hb _
  · exact hc _
  · rfl

/-- Two matrices side by side, at row `r`, read row `r` of each. -/
theorem cat2At_row {R R' A B N : Nat} {a : Cert.Spec.Mat R A} {a' : Cert.Spec.Mat R' A} {b : Cert.Spec.Mat R B}
    {b' : Cert.Spec.Mat R' B} {r : Fin R} {r' : Fin R'}
    (ha : ∀ k : Fin A, a (ix2 r k) = a' (ix2 r' k)) (hb : ∀ k : Fin B, b (ix2 r k) = b' (ix2 r' k)) (k : Fin N) :
    Cert.Spec.cat2At a b r k = Cert.Spec.cat2At a' b' r' k := by
  unfold Cert.Spec.cat2At
  split_ifs
  · exact ha _
  · exact hb _
  · rfl

/-- The edge update at row `r` reads row `r` of the three feature matrices. -/
theorem edgeUpd_row {R R' A B C K H D : Nat} {xi : Cert.Spec.Mat R A} {xi' : Cert.Spec.Mat R' A} {xj : Cert.Spec.Mat R B}
    {xj' : Cert.Spec.Mat R' B} {efc : Cert.Spec.Mat R C} {efc' : Cert.Spec.Mat R' C} (w0 : Cert.Spec.Mat K H)
    (b0 : Cert.Spec.Mat 1 H) (w1 : Cert.Spec.Mat H D) (b1 : Cert.Spec.Mat 1 D) {r : Fin R} {r' : Fin R'}
    (hi : ∀ k : Fin A, xi (ix2 r k) = xi' (ix2 r' k)) (hj : ∀ k : Fin B, xj (ix2 r k) = xj' (ix2 r' k))
    (he : ∀ k : Fin C, efc (ix2 r k) = efc' (ix2 r' k)) (c : Fin D) :
    Cert.Spec.edgeUpd xi xj efc w0 b0 w1 b1 (ix2 r c) = Cert.Spec.edgeUpd xi' xj' efc' w0 b0 w1 b1 (ix2 r' c) := by
  show max (Cert.Spec.linAt (Cert.Spec.relu (Cert.Spec.lin (Cert.Spec.cat3 K xi xj efc) w0 b0)) w1 b1 r c) 0
    = max (Cert.Spec.linAt (Cert.Spec.relu (Cert.Spec.lin (Cert.Spec.cat3 K xi' xj' efc') w0 b0)) w1 b1 r' c) 0
  refine congrArg (fun v => max v 0) (linAt_row w1 b1 (fun k => ?_) c)
  show max (Cert.Spec.linAt (Cert.Spec.cat3 K xi xj efc) w0 b0 r k) 0
    = max (Cert.Spec.linAt (Cert.Spec.cat3 K xi' xj' efc') w0 b0 r' k) 0
  exact congrArg (fun v => max v 0) (linAt_row w0 b0 (fun j => cat3At_row hi hj he j) k)

/-- The message at row `r` reads row `r` of the target rows and of the edge features. -/
theorem msgOf_row {R R' A D K C : Nat} {xi : Cert.Spec.Mat R A} {xi' : Cert.Spec.Mat R' A} {ef : Cert.Spec.Mat R D}
    {ef' : Cert.Spec.Mat R' D} (w : Cert.Spec.Mat K C) (b : Cert.Spec.Mat 1 C) {r : Fin R} {r' : Fin R'}
    (hi : ∀ k : Fin A, xi (ix2 r k) = xi' (ix2 r' k)) (he : ∀ k : Fin D, ef (ix2 r k) = ef' (ix2 r' k)) (c : Fin C) :
    Cert.Spec.msgOf xi ef w b (ix2 r c) = Cert.Spec.msgOf xi' ef' w b (ix2 r' c) := by
  show max (Cert.Spec.linAt (Cert.Spec.cat2 K xi ef) w b r c) 0 = max (Cert.Spec.linAt (Cert.Spec.cat2 K xi' ef') w b r' c) 0
  exact congrArg (fun v => max v 0) (linAt_row w b (fun j => cat2At_row hi he j) c)

/-! ## The kernel's layers at an entry -/

/-- One layer as the kernel computes it — operands narrowed (no change over the extended reals), the product into the
    zero accumulator, the bias row broadcast down the rows and added — is the affine layer, entry by entry. -/
theorem layer_at {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ .f32) (w : FVec Ideal ⟨2, ![K, C]⟩ .f32) (b : FVec Ideal ⟨2, ![1, C]⟩ .f32)
    (hx : FTy.bits .bf16 < FTy.bits .f32) (hs : (⟨2, ![1, C]⟩ : Shape).ShapeCasts ⟨2, ![1, C]⟩)
    (hb : (⟨2, ![1, C]⟩ : Shape).Broadcasts ⟨2, ![R, C]⟩) (r : Fin R) (c : Fin C) :
    addf (matmul d none (truncf .bf16 x hx) (truncf .bf16 w hx) (constant ⟨2, ![R, C]⟩ .f32 0x00000000#32))
        (broadcastTo ⟨2, ![R, C]⟩ (shapeCast ⟨2, ![1, C]⟩ b hs) hb) (ix2 r c) = Cert.Spec.linAt x w b r c := by
  rw [addf_apply, shapeCast_self, broadcastTo_1b_ab_apply]
  exact congrArg (· + b (ix2 (0 : Fin 1) c)) (Cert.LibDot.matmul_zero_at d hl hr hln hrn hlb hrb none _ _ r c)

/-- The rectifier as the kernel computes it: the larger of the entry and the zero word, which is 0. -/
theorem rectify_at {s : Shape} (v : FVec Ideal s .f32) (i : s.Idx) :
    maximumf v (broadcast s (Scalar.ofBits (F := Ideal) .f32 0x00000000#32)) i = max (v i) 0 := by
  rw [maximumf_apply, broadcast_apply]
  exact congrArg (max (v i)) Ideal.ofBits_zero_f32

/-! ## The kernel's two stored values at an entry -/

/-- The new edge features the kernel stores, entry by entry: the edge update of the three feature blocks. -/
theorem edge_payload_at (x0 x1 x2 : Vec Ideal S1000x256 .f32) (x3 : Vec Ideal S768x64 .f32) (x4 : Vec Ideal S1x64 .f32)
    (x5 : Vec Ideal S64x128 .f32) (x6 : Vec Ideal S1x128 .f32) (p : Fin 1000) (q : Fin 128) :
    k3_pay3 x0 x1 x2 x3 x4 x5 x6 (ix2 p q) = Cert.Spec.edgeUpd x0 x1 x2 x3 x4 x5 x6 (ix2 p q) := by
  unfold k3_pay3 k3_pay2
  dsimp only
  rw [rectify_at]
  refine congrArg (fun v => max v 0) ?_
  refine (layer_at dot_S1000x64_S64x128_S1000x128_1_0_0_1_n_n rfl rfl rfl rfl rfl rfl _ x5 x6 _ _ _ p q).trans ?_
  show Cert.Spec.linAt _ x5 x6 p q
    = Cert.Spec.linAt (Cert.Spec.relu (Cert.Spec.lin (Cert.Spec.cat3 768 x0 x1 x2) x3 x4)) x5 x6 p q
  refine linAt_row x5 x6 (fun k => ?_) q
  rw [rectify_at]
  refine congrArg (fun v => max v 0) ?_
  refine (layer_at dot_S1000x768_S768x64_S1000x64_1_0_0_1_n_n rfl rfl rfl rfl rfl rfl _ x3 x4 _ _ _ p k).trans ?_
  show Cert.Spec.linAt _ x3 x4 p k = Cert.Spec.linAt (Cert.Spec.cat3 768 x0 x1 x2) x3 x4 p k
  refine linAt_row x3 x4 (fun j => ?_) k
  rw [shapeCast_self, shapeCast_self, shapeCast_self]
  exact Cert.LibConcat.concat3_at _ x0 x1 x2 p j

/-- The messages the kernel stores, entry by entry: the message of the target block and the new edge features. -/
theorem msg_payload_at (x0 x1 x2 : Vec Ideal S1000x256 .f32) (x3 : Vec Ideal S768x64 .f32) (x4 : Vec Ideal S1x64 .f32)
    (x5 : Vec Ideal S64x128 .f32) (x6 : Vec Ideal S1x128 .f32) (x7 : Vec Ideal S384x128 .f32) (x8 : Vec Ideal S1x128 .f32)
    (p : Fin 1000) (q : Fin 128) :
    k3_pay1 (k3_pay4 x0 x1 x2 x3 x4 x5 x6 x7 x8) (ix2 p q)
      = Cert.Spec.msgOf x0 (Cert.Spec.edgeUpd x0 x1 x2 x3 x4 x5 x6 : Cert.Spec.Mat 1000 128) x7 x8 (ix2 p q) := by
  unfold k3_pay1 k3_pay4 k3_pay2
  dsimp only
  rw [rectify_at]
  refine congrArg (fun v => max v 0) ?_
  refine (layer_at dot_S1000x384_S384x128_S1000x128_1_0_0_1_n_n rfl rfl rfl rfl rfl rfl _ x7 x8 _ _ _ p q).trans ?_
  show Cert.Spec.linAt _ x7 x8 p q
    = Cert.Spec.linAt (Cert.Spec.cat2 384 x0 (Cert.Spec.edgeUpd x0 x1 x2 x3 x4 x5 x6 : Cert.Spec.Mat 1000 128)) x7 x8 p q
  refine linAt_row x7 x8 (fun j => ?_) q
  rw [shapeCast_self]
  refine (Cert.LibConcat.concat2_at _ x0 (k3_pay3 x0 x1 x2 x3 x4 x5 x6) p j).trans ?_
  exact cat2At_row (fun _ => rfl) (fun k => edge_payload_at x0 x1 x2 x3 x4 x5 x6 p k) j

/-! ## Where each window's block sits -/

theorem offsets_zero : (![0, 0] : Fin 2 → Nat) = fun _ => 0 := funext fun a => by fin_cases a <;> rfl

/-- The index maps over the grid: at point `t` the three feature windows and the two output windows
    are at block (t, 0), the weight and bias windows at block (0, 0). -/
theorem index_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = t.val ∧ win3_9.index t (1 : Fin 2) = 0)
    ∧ (win3_10.index t (0 : Fin 2) = t.val ∧ win3_10.index t (1 : Fin 2) = 0) :=
  (by decide +kernel : ∀ t : Fin grid3.N, _)

/-- The grid has 100 points, so row `y` of the block at point `t` is a row of the array. -/
theorem row_lt (t : Fin cfg3.N) (y : Fin 1000) : t.val * 1000 + y.val < 100000 := by
  have h : t.val < 100 := lt_of_lt_of_eq t.isLt N_3
  have := y.isLt
  omega

/-- Window 0's block at point `t`, entry (y, k), is its array's entry (1000 t + y, k). -/
theorem xi_block_at (c : Dev nD) (t : Fin cfg3.N) (y : Fin 1000) (k : Fin 256) :
    (iblk3 V c 0 t : Vec Ideal S1000x256 .f32) (ix2 y k) = V c main_v23 (ix2 ⟨t.val * 1000 + y.val, row_lt t y⟩ k) := by
  obtain ⟨⟨e0, e1⟩, -⟩ := index_facts t
  show V c main_v23 (((cfg3.win 0).blk t).view.emb (ix2 y k)) = _
  refine congrArg (V c main_v23) (funext fun a => Fin.ext ?_)
  match a with
  | ⟨0, _⟩ => show win3_0.index t (0 : Fin 2) * 1000 + 1 * y.val = t.val * 1000 + y.val; rw [e0]; omega
  | ⟨1, _⟩ => show win3_0.index t (1 : Fin 2) * 256 + 1 * k.val = k.val; rw [e1]; omega

/-- Window 1's block at point `t`, entry (y, k), is its array's entry (1000 t + y, k). -/
theorem xj_block_at (c : Dev nD) (t : Fin cfg3.N) (y : Fin 1000) (k : Fin 256) :
    (iblk3 V c 1 t : Vec Ideal S1000x256 .f32) (ix2 y k) = V c main_v24 (ix2 ⟨t.val * 1000 + y.val, row_lt t y⟩ k) := by
  obtain ⟨-, ⟨e0, e1⟩, -⟩ := index_facts t
  show V c main_v24 (((cfg3.win 1).blk t).view.emb (ix2 y k)) = _
  refine congrArg (V c main_v24) (funext fun a => Fin.ext ?_)
  match a with
  | ⟨0, _⟩ => show win3_1.index t (0 : Fin 2) * 1000 + 1 * y.val = t.val * 1000 + y.val; rw [e0]; omega
  | ⟨1, _⟩ => show win3_1.index t (1 : Fin 2) * 256 + 1 * k.val = k.val; rw [e1]; omega

/-- Window 2's block at point `t`, entry (y, k), is its array's entry (1000 t + y, k). -/
theorem efc_block_at (c : Dev nD) (t : Fin cfg3.N) (y : Fin 1000) (k : Fin 256) :
    (iblk3 V c 2 t : Vec Ideal S1000x256 .f32) (ix2 y k) = V c main_v22 (ix2 ⟨t.val * 1000 + y.val, row_lt t y⟩ k) := by
  obtain ⟨-, -, ⟨e0, e1⟩, -⟩ := index_facts t
  show V c main_v22 (((cfg3.win 2).blk t).view.emb (ix2 y k)) = _
  refine congrArg (V c main_v22) (funext fun a => Fin.ext ?_)
  match a with
  | ⟨0, _⟩ => show win3_2.index t (0 : Fin 2) * 1000 + 1 * y.val = t.val * 1000 + y.val; rw [e0]; omega
  | ⟨1, _⟩ => show win3_2.index t (1 : Fin 2) * 256 + 1 * k.val = k.val; rw [e1]; omega

/-- Window 3's block at every point is its whole array. -/
theorem w0_block_whole (c : Dev nD) (t : Fin cfg3.N) : (iblk3 V c 3 t : Vec Ideal S768x64 .f32) = V c main_arg11 := by
  obtain ⟨-, -, -, ⟨e0, e1⟩, -⟩ := index_facts t
  funext y
  show V c main_arg11 (((cfg3.win 3).blk t).view.emb y) = V c main_arg11 y
  refine congrArg (V c main_arg11) (funext fun a => Fin.ext ?_)
  match a with
  | ⟨0, _⟩ => show win3_3.index t (0 : Fin 2) * 768 + 1 * (y 0).val = (y 0).val; rw [e0]; omega
  | ⟨1, _⟩ => show win3_3.index t (1 : Fin 2) * 64 + 1 * (y 1).val = (y 1).val; rw [e1]; omega

/-- Window 4's block at every point is its whole array. -/
theorem b0_block_whole (c : Dev nD) (t : Fin cfg3.N) : (iblk3 V c 4 t : Vec Ideal S1x64 .f32) = V c main_v25 := by
  obtain ⟨-, -, -, -, ⟨e0, e1⟩, -⟩ := index_facts t
  funext y
  show V c main_v25 (((cfg3.win 4).blk t).view.emb y) = V c main_v25 y
  refine congrArg (V c main_v25) (funext fun a => Fin.ext ?_)
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega

/-- Window 5's block at every point is its whole array. -/
theorem w1_block_whole (c : Dev nD) (t : Fin cfg3.N) : (iblk3 V c 5 t : Vec Ideal S64x128 .f32) = V c main_arg13 := by
  obtain ⟨-, -, -, -, -, ⟨e0, e1⟩, -⟩ := index_facts t
  funext y
  show V c main_arg13 (((cfg3.win 5).blk t).view.emb y) = V c main_arg13 y
  refine congrArg (V c main_arg13) (funext fun a => Fin.ext ?_)
  match a with
  | ⟨0, _⟩ => show win3_5.index t (0 : Fin 2) * 64 + 1 * (y 0).val = (y 0).val; rw [e0]; omega
  | ⟨1, _⟩ => show win3_5.index t (1 : Fin 2) * 128 + 1 * (y 1).val = (y 1).val; rw [e1]; omega

/-- Window 6's block at every point is its whole array. -/
theorem b1_block_whole (c : Dev nD) (t : Fin cfg3.N) : (iblk3 V c 6 t : Vec Ideal S1x128 .f32) = V c main_v26 := by
  obtain ⟨-, -, -, -, -, -, ⟨e0, e1⟩, -⟩ := index_facts t
  funext y
  show V c main_v26 (((cfg3.win 6).blk t).view.emb y) = V c main_v26 y
  refine congrArg (V c main_v26) (funext fun a => Fin.ext ?_)
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega

/-- Window 7's block at every point is its whole array. -/
theorem wm_block_whole (c : Dev nD) (t : Fin cfg3.N) : (iblk3 V c 7 t : Vec Ideal S384x128 .f32) = V c main_arg15 := by
  obtain ⟨-, -, -, -, -, -, -, ⟨e0, e1⟩, -⟩ := index_facts t
  funext y
  show V c main_arg15 (((cfg3.win 7).blk t).view.emb y) = V c main_arg15 y
  refine congrArg (V c main_arg15) (funext fun a => Fin.ext ?_)
  match a with
  | ⟨0, _⟩ => show win3_7.index t (0 : Fin 2) * 384 + 1 * (y 0).val = (y 0).val; rw [e0]; omega
  | ⟨1, _⟩ => show win3_7.index t (1 : Fin 2) * 128 + 1 * (y 1).val = (y 1).val; rw [e1]; omega

/-- Window 8's block at every point is its whole array. -/
theorem bm_block_whole (c : Dev nD) (t : Fin cfg3.N) : (iblk3 V c 8 t : Vec Ideal S1x128 .f32) = V c main_v27 := by
  obtain ⟨-, -, -, -, -, -, -, -, ⟨e0, e1⟩, -⟩ := index_facts t
  funext y
  show V c main_v27 (((cfg3.win 8).blk t).view.emb y) = V c main_v27 y
  refine congrArg (V c main_v27) (funext fun a => Fin.ext ?_)
  match a with
  | ⟨0, _⟩ => show win3_8.index t (0 : Fin 2) * 1 + 1 * (y 0).val = (y 0).val; rw [e0]; omega
  | ⟨1, _⟩ => show win3_8.index t (1 : Fin 2) * 128 + 1 * (y 1).val = (y 1).val; rw [e1]; omega

/-! ## What each point writes back -/

/-- An entry of an output block at point `t` sits in the array at row 1000 t + p, same column (window 9). -/
theorem edge_entry_row (t : Fin cfg3.N) (p : Fin 1000) (q : Fin 128) :
    ((cfg3.win 9).blk t).view.emb (ix2 p q) = ix2 ⟨t.val * 1000 + p.val, row_lt t p⟩ q := by
  obtain ⟨-, -, -, -, -, -, -, -, -, ⟨e0, e1⟩, -⟩ := index_facts t
  refine funext fun a => Fin.ext ?_
  match a with
  | ⟨0, _⟩ => show win3_9.index t (0 : Fin 2) * 1000 + 1 * p.val = t.val * 1000 + p.val; rw [e0]; omega
  | ⟨1, _⟩ => show win3_9.index t (1 : Fin 2) * 128 + 1 * q.val = q.val; rw [e1]; omega

/-- The same for window 10. -/
theorem msg_entry_row (t : Fin cfg3.N) (p : Fin 1000) (q : Fin 128) :
    ((cfg3.win 10).blk t).view.emb (ix2 p q) = ix2 ⟨t.val * 1000 + p.val, row_lt t p⟩ q := by
  obtain ⟨-, -, -, -, -, -, -, -, -, -, e0, e1⟩ := index_facts t
  refine funext fun a => Fin.ext ?_
  match a with
  | ⟨0, _⟩ => show win3_10.index t (0 : Fin 2) * 1000 + 1 * p.val = t.val * 1000 + p.val; rw [e0]; omega
  | ⟨1, _⟩ => show win3_10.index t (1 : Fin 2) * 128 + 1 * q.val = q.val; rw [e1]; omega

/-- Point `t` writes back, to the new edge features, block `t` of the edge update of the whole arrays. -/
theorem edge_flushed (c : Dev nD) (t : Fin cfg3.N) :
    (dat3 (F := Ideal) V c).flushed 9 t = ((cfg3.win 9).blk t).view.read (Elt Ideal) (Cert.Spec.edgeUpd (V c main_v23) (V c main_v24) (V c main_v22) (V c main_arg11) (V c main_v25) (V c main_arg13) (V c main_v26)) := by
  show (cfg3.win 9).cut (grid3.coords t) ((dat3 V c).after 9 t) = _
  rw [after3_9]
  unfold out3_9
  rw [View.canon_unit_zero offsets_zero]
  simp only [View.ld_unit_zero (S := S1000x256) offsets_zero, View.ld_unit_zero (S := S768x64) offsets_zero,
    View.ld_unit_zero (S := S1x64) offsets_zero, View.ld_unit_zero (S := S64x128) offsets_zero,
    View.ld_unit_zero (S := S1x128) offsets_zero]
  funext j
  obtain ⟨p, q, rfl⟩ : ∃ (p : Fin 1000) (q : Fin 128), j = ix2 p q := ⟨j 0, j 1, eq_ix2 j⟩
  show k3_pay3 (iblk3 V c 0 t) (iblk3 V c 1 t) (iblk3 V c 2 t) (iblk3 V c 3 t) (iblk3 V c 4 t) (iblk3 V c 5 t) (iblk3 V c 6 t) (ix2 p q)
    = (Cert.Spec.edgeUpd (V c main_v23) (V c main_v24) (V c main_v22) (V c main_arg11) (V c main_v25) (V c main_arg13) (V c main_v26)) (((cfg3.win 9).blk t).view.emb (ix2 p q))
  rw [edge_entry_row t p q, edge_payload_at, w0_block_whole V c t, b0_block_whole V c t, w1_block_whole V c t, b1_block_whole V c t]
  exact edgeUpd_row _ _ _ _ (fun k => xi_block_at V c t p k) (fun k => xj_block_at V c t p k) (fun k => efc_block_at V c t p k) q

/-- Point `t` writes back, to the messages, block `t` of the message of the whole arrays. -/
theorem msg_flushed (c : Dev nD) (t : Fin cfg3.N) :
    (dat3 (F := Ideal) V c).flushed 10 t = ((cfg3.win 10).blk t).view.read (Elt Ideal)
      (Cert.Spec.msgOf (V c main_v23) (Cert.Spec.edgeUpd (V c main_v23) (V c main_v24) (V c main_v22) (V c main_arg11) (V c main_v25) (V c main_arg13) (V c main_v26) : Cert.Spec.Mat 100000 128) (V c main_arg15) (V c main_v27)) := by
  show (cfg3.win 10).cut (grid3.coords t) ((dat3 V c).after 10 t) = _
  rw [after3_10]
  unfold out3_10
  rw [View.canon_unit_zero offsets_zero]
  simp only [View.ld_unit_zero (S := S1000x256) offsets_zero, View.ld_unit_zero (S := S768x64) offsets_zero,
    View.ld_unit_zero (S := S1x64) offsets_zero, View.ld_unit_zero (S := S64x128) offsets_zero,
    View.ld_unit_zero (S := S1x128) offsets_zero, View.ld_unit_zero (S := S384x128) offsets_zero]
  funext j
  obtain ⟨p, q, rfl⟩ : ∃ (p : Fin 1000) (q : Fin 128), j = ix2 p q := ⟨j 0, j 1, eq_ix2 j⟩
  show k3_pay1 (k3_pay4 (iblk3 V c 0 t) (iblk3 V c 1 t) (iblk3 V c 2 t) (iblk3 V c 3 t) (iblk3 V c 4 t) (iblk3 V c 5 t)
      (iblk3 V c 6 t) (iblk3 V c 7 t) (iblk3 V c 8 t)) (ix2 p q)
    = (Cert.Spec.msgOf (V c main_v23) (Cert.Spec.edgeUpd (V c main_v23) (V c main_v24) (V c main_v22) (V c main_arg11) (V c main_v25) (V c main_arg13) (V c main_v26) : Cert.Spec.Mat 100000 128) (V c main_arg15) (V c main_v27)) (((cfg3.win 10).blk t).view.emb (ix2 p q))
  rw [msg_entry_row t p q, msg_payload_at, w0_block_whole V c t, b0_block_whole V c t, w1_block_whole V c t, b1_block_whole V c t,
    wm_block_whole V c t, bm_block_whole V c t]
  exact msgOf_row _ _ (fun k => xi_block_at V c t p k)
    (fun k => edgeUpd_row _ _ _ _ (fun k => xi_block_at V c t p k) (fun k => xj_block_at V c t p k)
      (fun k => efc_block_at V c t p k) k) q

/-! ## The blocks fill the arrays -/

/-- Row `r` is row `r % 1000` of the block of point `r / 1000`. -/
theorem row_split (r : Fin 100000) : ∃ (t : Fin cfg3.N) (p : Fin 1000), r = ⟨t.val * 1000 + p.val, row_lt t p⟩ := by
  have hr := r.isLt
  exact ⟨⟨r.val / 1000, lt_of_lt_of_eq (show r.val / 1000 < 100 by omega) N_3.symm⟩, ⟨r.val % 1000, Nat.mod_lt _ (by omega)⟩,
    Fin.ext (show r.val = r.val / 1000 * 1000 + r.val % 1000 by omega)⟩

/-- Every entry of the new edge features is in some point's block, and every point writes its block back. -/
theorem edge_covered (i : S100000x128.Idx) :
    ∃ t : Fin cfg3.N, (cfg3.win 9).flush t = true ∧ i ∈ ((cfg3.win 9).blk t).view.set := by
  obtain ⟨r, q, rfl⟩ : ∃ (r : Fin 100000) (q : Fin 128), i = ix2 r q := ⟨i 0, i 1, eq_ix2 i⟩
  obtain ⟨t, p, rfl⟩ := row_split r
  refine ⟨t, flush3_9 t, ?_⟩
  rw [← edge_entry_row t p q]
  exact ((cfg3.win 9).blk t).view.emb_mem_set _

/-- Every entry of the messages is in some point's block, and every point writes its block back. -/
theorem msg_covered (i : S100000x128.Idx) :
    ∃ t : Fin cfg3.N, (cfg3.win 10).flush t = true ∧ i ∈ ((cfg3.win 10).blk t).view.set := by
  obtain ⟨r, q, rfl⟩ : ∃ (r : Fin 100000) (q : Fin 128), i = ix2 r q := ⟨i 0, i 1, eq_ix2 i⟩
  obtain ⟨t, p, rfl⟩ := row_split r
  refine ⟨t, flush3_10 t, ?_⟩
  rw [← msg_entry_row t p q]
  exact ((cfg3.win 10).blk t).view.emb_mem_set _

/-! ## The two arrays after the step -/

/-- The new edge features after the step: the edge update of the arrays the step was entered with. -/
theorem arr9 (c : Dev nD) : (dat3 (F := Ideal) V c).arrAt 9 cfg3.N
      = Cert.Spec.edgeUpd (V c main_v23) (V c main_v24) (V c main_v22) (V c main_arg11) (V c main_v25) (V c main_arg13) (V c main_v26) :=
  (dat3 (F := Ideal) V c).arrAt_eq_of_cover 9 _ (fun t _ => edge_flushed V c t) edge_covered

/-- The messages after the step: the message of the target rows and the new edge features. -/
theorem arr10 (c : Dev nD) : (dat3 (F := Ideal) V c).arrAt 10 cfg3.N
      = Cert.Spec.msgOf (V c main_v23) (Cert.Spec.edgeUpd (V c main_v23) (V c main_v24) (V c main_v22) (V c main_arg11) (V c main_v25) (V c main_arg13) (V c main_v26) : Cert.Spec.Mat 100000 128) (V c main_arg15) (V c main_v27) :=
  (dat3 (F := Ideal) V c).arrAt_eq_of_cover 10 _ (fun t _ => msg_flushed V c t) msg_covered

end Cert.KernelIdeal.Region3

end
-- ==== Proof.KStep2.lean ====
/-
  One round of message passing through the run: from what the previous step's launch left to what this round's
  launch leaves. Between the two launches the host joins the node embedding with the messages summed into their
  target nodes and the edge embedding with the previous edge features, gathers the joined node rows at the target and
  source index words, and recasts the three bias vectors as rows; the launch then leaves the edge update and the
  message of those. Every other buffer is written once and carried unchanged, so the round's two results are the two
  components of the network's step at the carried state.
-/
import proofs.«403211_j60627758350346_1_alg».proof.Proof.Gen.KernelIdeal.Frame
import proofs.«403211_j60627758350346_1_alg».proof.Proof.Spec
import proofs.«403211_j60627758350346_1_alg».proof.Proof.SpecNet
import proofs.«403211_j60627758350346_1_alg».proof.Proof.KNames
import proofs.«403211_j60627758350346_1_alg».proof.Proof.KGlue
import proofs.«403211_j60627758350346_1_alg».proof.Proof.KTake
import proofs.«403211_j60627758350346_1_alg».proof.Proof.LibKeep
import proofs.«403211_j60627758350346_1_alg».proof.Proof.KRegion3
import Idealize.ShloMosaic.Lib.StableHlo.Run

noncomputable section

namespace Cert.KernelIdeal.Step2

open Idealize.ShloMosaic Idealize.ShloMosaic.TcCoe Idealize.SL.Sem Idealize.ShloMosaic.StableHlo
open Cert.KernelIdeal Cert.KernelIdeal.Gen Cert.KernelIdeal.Names Cert.KernelIdeal.Glue Cert.KernelIdeal.Take Cert.LibKeep

variable (m : (ℓ : Loc nD τ sig) → Buf (Elt Ideal) ℓ) (ρ : Dev nD → PrngReg) (c : Dev nD)

/-! ## What the step's launch reads, in terms of what the previous launch left

  Between the two launches the host joins the node embedding with the messages summed into their targets and the
  edge embedding with the previous edge features, gathers the joined node rows at the two index vectors, and recasts
  the three bias vectors as rows; every other buffer is carried unchanged. -/

/-- The first layer's weights are carried unchanged to the launch. -/
theorem w0_carried : W13 m ρ c (Proc.devRef .tc main_arg11) = W9 m ρ c (Proc.devRef .tc main_arg11) :=
  (by kept_host hostOps3_3 : W13 m ρ c (Proc.devRef .tc main_arg11) = W12 m ρ c (Proc.devRef .tc main_arg11)).trans
  ((by kept_host hostOps3_2 : W12 m ρ c (Proc.devRef .tc main_arg11) = W11 m ρ c (Proc.devRef .tc main_arg11)).trans
  ((by kept_host hostOps3_1 : W11 m ρ c (Proc.devRef .tc main_arg11) = W10 m ρ c (Proc.devRef .tc main_arg11)).trans
  (by kept_host hostOps3 : W10 m ρ c (Proc.devRef .tc main_arg11) = W9 m ρ c (Proc.devRef .tc main_arg11))))

/-- The second layer's weights are carried unchanged to the launch. -/
theorem w1_carried : W13 m ρ c (Proc.devRef .tc main_arg13) = W9 m ρ c (Proc.devRef .tc main_arg13) :=
  (by kept_host hostOps3_3 : W13 m ρ c (Proc.devRef .tc main_arg13) = W12 m ρ c (Proc.devRef .tc main_arg13)).trans
  ((by kept_host hostOps3_2 : W12 m ρ c (Proc.devRef .tc main_arg13) = W11 m ρ c (Proc.devRef .tc main_arg13)).trans
  ((by kept_host hostOps3_1 : W11 m ρ c (Proc.devRef .tc main_arg13) = W10 m ρ c (Proc.devRef .tc main_arg13)).trans
  (by kept_host hostOps3 : W10 m ρ c (Proc.devRef .tc main_arg13) = W9 m ρ c (Proc.devRef .tc main_arg13))))

/-- The message layer's weights are carried unchanged to the launch. -/
theorem wm_carried : W13 m ρ c (Proc.devRef .tc main_arg15) = W9 m ρ c (Proc.devRef .tc main_arg15) :=
  (by kept_host hostOps3_3 : W13 m ρ c (Proc.devRef .tc main_arg15) = W12 m ρ c (Proc.devRef .tc main_arg15)).trans
  ((by kept_host hostOps3_2 : W12 m ρ c (Proc.devRef .tc main_arg15) = W11 m ρ c (Proc.devRef .tc main_arg15)).trans
  ((by kept_host hostOps3_1 : W11 m ρ c (Proc.devRef .tc main_arg15) = W10 m ρ c (Proc.devRef .tc main_arg15)).trans
  (by kept_host hostOps3 : W10 m ρ c (Proc.devRef .tc main_arg15) = W9 m ρ c (Proc.devRef .tc main_arg15))))

/-- The first layer's bias, as the launch reads it: the bias vector as a row. -/
theorem b0_written : W13 m ρ c (Proc.devRef .tc main_v25) = Cert.Spec.row (W9 m ρ c (Proc.devRef .tc main_arg12)) :=
  (glue3_v25 (W12 m ρ c)).trans (congrArg (Cert.Spec.row (C := 64))
    ((by kept_host hostOps3_2 : W12 m ρ c (Proc.devRef .tc main_arg12) = W11 m ρ c (Proc.devRef .tc main_arg12)).trans
    ((by kept_host hostOps3_1 : W11 m ρ c (Proc.devRef .tc main_arg12) = W10 m ρ c (Proc.devRef .tc main_arg12)).trans
    (by kept_host hostOps3 : W10 m ρ c (Proc.devRef .tc main_arg12) = W9 m ρ c (Proc.devRef .tc main_arg12)))))

/-- The second layer's bias, as the launch reads it: the bias vector as a row. -/
theorem b1_written : W13 m ρ c (Proc.devRef .tc main_v26) = Cert.Spec.row (W9 m ρ c (Proc.devRef .tc main_arg14)) :=
  (glue3_v26 (W12 m ρ c)).trans (congrArg (Cert.Spec.row (C := 128))
    ((by kept_host hostOps3_2 : W12 m ρ c (Proc.devRef .tc main_arg14) = W11 m ρ c (Proc.devRef .tc main_arg14)).trans
    ((by kept_host hostOps3_1 : W11 m ρ c (Proc.devRef .tc main_arg14) = W10 m ρ c (Proc.devRef .tc main_arg14)).trans
    (by kept_host hostOps3 : W10 m ρ c (Proc.devRef .tc main_arg14) = W9 m ρ c (Proc.devRef .tc main_arg14)))))

/-- The message layer's bias, as the launch reads it: the bias vector as a row. -/
theorem bm_written : W13 m ρ c (Proc.devRef .tc main_v27) = Cert.Spec.row (W9 m ρ c (Proc.devRef .tc main_arg16)) :=
  (glue3_v27 (W12 m ρ c)).trans (congrArg (Cert.Spec.row (C := 128))
    ((by kept_host hostOps3_2 : W12 m ρ c (Proc.devRef .tc main_arg16) = W11 m ρ c (Proc.devRef .tc main_arg16)).trans
    ((by kept_host hostOps3_1 : W11 m ρ c (Proc.devRef .tc main_arg16) = W10 m ρ c (Proc.devRef .tc main_arg16)).trans
    (by kept_host hostOps3 : W10 m ρ c (Proc.devRef .tc main_arg16) = W9 m ρ c (Proc.devRef .tc main_arg16)))))

/-- The joined edge features, as the launch reads them: the edge embedding beside the previous edge features. -/
theorem efc_written : W13 m ρ c (Proc.devRef .tc main_v22) = Cert.Spec.cat2 256 (W9 m ρ c (Proc.devRef .tc main_v9)) (W9 m ρ c (Proc.devRef .tc main_v17_0)) :=
  (by kept_host hostOps3_3 : W13 m ρ c (Proc.devRef .tc main_v22) = W12 m ρ c (Proc.devRef .tc main_v22)).trans
  ((by kept_host hostOps3_2 : W12 m ρ c (Proc.devRef .tc main_v22) = W11 m ρ c (Proc.devRef .tc main_v22)).trans
  ((by kept_host hostOps3_1 : W11 m ρ c (Proc.devRef .tc main_v22) = W10 m ρ c (Proc.devRef .tc main_v22)).trans
  (glue3_v22 (W9 m ρ c))))

/-- The joined node features: the node embedding beside the messages summed into their targets. -/
theorem nfc_written : W10 m ρ c (Proc.devRef .tc main_v21) = Cert.Spec.cat2 256 (W9 m ρ c (Proc.devRef .tc main_v6)) (scK (colIdx (W9 m ρ c (Proc.devRef .tc main_v3))) (W9 m ρ c (Proc.devRef .tc main_v17_1))) :=
  glue3_v21 (W9 m ρ c)

/-- The target rows, as the launch reads them: the joined node features gathered at the target index words. -/
theorem xi_written (hI : ∀ e : S100000.Idx, ((W9 m ρ c (Proc.devRef .tc main_v3) : IVec S100000 32) e).toNat < 20000) :
    W13 m ρ c (Proc.devRef .tc main_v23) = gK (Cert.Spec.cat2 256 (W9 m ρ c (Proc.devRef .tc main_v6)) (scK (colIdx (W9 m ρ c (Proc.devRef .tc main_v3))) (W9 m ρ c (Proc.devRef .tc main_v17_1)))) (nrmIdx (W9 m ρ c (Proc.devRef .tc main_v3))) := by
  have e3 : W10 m ρ c (Proc.devRef .tc main_v3) = W9 m ρ c (Proc.devRef .tc main_v3) := by kept_host hostOps3
  refine (by kept_host hostOps3_3 : W13 m ρ c (Proc.devRef .tc main_v23) = W12 m ρ c (Proc.devRef .tc main_v23)).trans
    ((by kept_host hostOps3_2 : W12 m ρ c (Proc.devRef .tc main_v23) = W11 m ρ c (Proc.devRef .tc main_v23)).trans ?_)
  refine (take_call2 (W10 m ρ c) (by rw [e3]; exact hI)).trans ?_
  rw [e3, nfc_written]
  rfl

/-- The source rows, as the launch reads them: the joined node features gathered at the source index words. -/
theorem xj_written (hJ : ∀ e : S100000.Idx, ((W9 m ρ c (Proc.devRef .tc main_v1) : IVec S100000 32) e).toNat < 20000) :
    W13 m ρ c (Proc.devRef .tc main_v24) = gK (Cert.Spec.cat2 256 (W9 m ρ c (Proc.devRef .tc main_v6)) (scK (colIdx (W9 m ρ c (Proc.devRef .tc main_v3))) (W9 m ρ c (Proc.devRef .tc main_v17_1)))) (nrmIdx (W9 m ρ c (Proc.devRef .tc main_v1))) := by
  have e1 : W11 m ρ c (Proc.devRef .tc main_v1) = W9 m ρ c (Proc.devRef .tc main_v1) :=
    (by kept_host hostOps3_1 : W11 m ρ c (Proc.devRef .tc main_v1) = W10 m ρ c (Proc.devRef .tc main_v1)).trans
      (by kept_host hostOps3 : W10 m ρ c (Proc.devRef .tc main_v1) = W9 m ρ c (Proc.devRef .tc main_v1))
  have e21 : W11 m ρ c (Proc.devRef .tc main_v21) = W10 m ρ c (Proc.devRef .tc main_v21) := by kept_host hostOps3_1
  refine (by kept_host hostOps3_3 : W13 m ρ c (Proc.devRef .tc main_v24) = W12 m ρ c (Proc.devRef .tc main_v24)).trans ?_
  refine (take_call3 (W11 m ρ c) (by rw [e1]; exact hJ)).trans ?_
  rw [e1, e21, nfc_written]
  rfl

/-! ## What the step's launch leaves -/

/-- The new edge features: the edge update of what the launch reads. -/
theorem edge_left : W14 m ρ c (Proc.devRef .tc main_v28_0)
    = Cert.Spec.edgeUpd (W13 m ρ c (Proc.devRef .tc main_v23)) (W13 m ρ c (Proc.devRef .tc main_v24)) (W13 m ρ c (Proc.devRef .tc main_v22))
        (W13 m ρ c (Proc.devRef .tc main_arg11)) (W13 m ρ c (Proc.devRef .tc main_v25)) (W13 m ρ c (Proc.devRef .tc main_arg13))
        (W13 m ρ c (Proc.devRef .tc main_v26)) :=
  (W14_arr m ρ c 9).trans (Cert.KernelIdeal.Region3.arr9 (V13 m ρ) c)

/-- The messages: the message of the target rows and the new edge features. -/
theorem msg_left : W14 m ρ c (Proc.devRef .tc main_v28_1)
    = Cert.Spec.msgOf (W13 m ρ c (Proc.devRef .tc main_v23)) (Cert.Spec.edgeUpd (W13 m ρ c (Proc.devRef .tc main_v23)) (W13 m ρ c (Proc.devRef .tc main_v24)) (W13 m ρ c (Proc.devRef .tc main_v22))
        (W13 m ρ c (Proc.devRef .tc main_arg11)) (W13 m ρ c (Proc.devRef .tc main_v25)) (W13 m ρ c (Proc.devRef .tc main_arg13))
        (W13 m ρ c (Proc.devRef .tc main_v26)) : Cert.Spec.Mat 100000 128)
        (W13 m ρ c (Proc.devRef .tc main_arg15)) (W13 m ρ c (Proc.devRef .tc main_v27)) :=
  (W14_arr m ρ c 10).trans (Cert.KernelIdeal.Region3.arr10 (V13 m ρ) c)

/-! ## The round -/

/-- Round 2 of message passing, from the contents the previous region left to the contents this round's region
    leaves: the new edge features are the round's second component, and the messages summed into their target
    nodes its first. -/
theorem round2 (NF0 : Cert.Spec.Mat 20000 128) (EF0 : Cert.Spec.Mat 100000 128) (I J : IVec S100000 32) (S : Cert.Spec.St 20000 100000 128)
    (M11 : Cert.Spec.Mat 768 64) (B12 : Cert.Spec.Vc 64) (M13 : Cert.Spec.Mat 64 128) (B14 : Cert.Spec.Vc 128)
    (M15 : Cert.Spec.Mat 384 128) (B16 : Cert.Spec.Vc 128)
    (h6 : W9 m ρ c (Proc.devRef .tc main_v6) = NF0) (h9 : W9 m ρ c (Proc.devRef .tc main_v9) = EF0)
    (h3 : W9 m ρ c (Proc.devRef .tc main_v3) = I) (h1 : W9 m ρ c (Proc.devRef .tc main_v1) = J)
    (hef : W9 m ρ c (Proc.devRef .tc main_v17_0) = S.2)
    (hnf : scK (colIdx I) (W9 m ρ c (Proc.devRef .tc main_v17_1)) = S.1)
    (h11 : W9 m ρ c (Proc.devRef .tc main_arg11) = M11) (h12 : W9 m ρ c (Proc.devRef .tc main_arg12) = B12)
    (h13 : W9 m ρ c (Proc.devRef .tc main_arg13) = M13) (h14 : W9 m ρ c (Proc.devRef .tc main_arg14) = B14)
    (h15 : W9 m ρ c (Proc.devRef .tc main_arg15) = M15) (h16 : W9 m ρ c (Proc.devRef .tc main_arg16) = B16)
    (hI : ∀ e : S100000.Idx, (I e).toNat < 20000) (hJ : ∀ e : S100000.Idx, (J e).toNat < 20000) :
    W14 m ρ c (Proc.devRef .tc main_v28_0)
        = (Cert.Spec.step gK scK NF0 EF0 (nrmIdx I) (nrmIdx J) (colIdx I) M11 (Cert.Spec.row B12) M13 (Cert.Spec.row B14) M15 (Cert.Spec.row B16) S).2
      ∧ scK (colIdx I) (W14 m ρ c (Proc.devRef .tc main_v28_1))
        = (Cert.Spec.step gK scK NF0 EF0 (nrmIdx I) (nrmIdx J) (colIdx I) M11 (Cert.Spec.row B12) M13 (Cert.Spec.row B14) M15 (Cert.Spec.row B16) S).1 := by
  have hI' : ∀ e : S100000.Idx, ((W9 m ρ c (Proc.devRef .tc main_v3) : IVec S100000 32) e).toNat < 20000 := by
    rw [h3]; exact hI
  have hJ' : ∀ e : S100000.Idx, ((W9 m ρ c (Proc.devRef .tc main_v1) : IVec S100000 32) e).toNat < 20000 := by
    rw [h1]; exact hJ
  have exi := xi_written m ρ c hI'
  have exj := xj_written m ρ c hJ'
  have eefc := efc_written m ρ c
  rw [h6, h3, hnf] at exi
  rw [h6, h3, h1, hnf] at exj
  rw [h9, hef] at eefc
  constructor
  · rw [edge_left, exi, exj, eefc, w0_carried, b0_written, w1_carried, b1_written, h11, h12, h13, h14]
    rfl
  · rw [msg_left, exi, exj, eefc, w0_carried, b0_written, w1_carried, b1_written, wm_carried, bm_written, h11, h12, h13,
      h14, h15, h16]
    rfl

end Cert.KernelIdeal.Step2

end
-- ==== Proof.KRegion4.lean ====
/-
  One message-passing step, read as mathematics. The step's grid has 100 points; at point t it holds rows
  1000 t … 1000 t + 999 of the three feature arrays and the whole of the weight and bias arrays, and writes back rows
  1000 t … 1000 t + 999 of the new edge features and of the messages. Entry by entry, what it stores is the edge update
  relu(relu([xi | xj | efc] · w₀ + b₀) · w₁ + b₁) and the message relu([xi | ef'] · w + b) of the rows it holds; a row of
  either reads only the same row of the feature arrays, so block t of the result is block t of the same function of the
  whole arrays, and the 100 blocks fill the two result arrays.
-/
import proofs.«403211_j60627758350346_1_alg».proof.Proof.Gen.KernelIdeal.Frame
import proofs.«403211_j60627758350346_1_alg».proof.Proof.Spec
import proofs.«403211_j60627758350346_1_alg».proof.Proof.LibDot
import proofs.«403211_j60627758350346_1_alg».proof.Proof.LibConcat
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Region4

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b))

/-! ## A row of the network reads the same row of its inputs -/

/-- The affine layer at row `r` reads row `r` of its input only. -/
theorem linAt_row {R R' K C : Nat} {x : Cert.Spec.Mat R K} {x' : Cert.Spec.Mat R' K} (w : Cert.Spec.Mat K C)
    (b : Cert.Spec.Mat 1 C) {r : Fin R} {r' : Fin R'} (h : ∀ k : Fin K, x (ix2 r k) = x' (ix2 r' k)) (c : Fin C) :
    Cert.Spec.linAt x w b r c = Cert.Spec.linAt x' w b r' c := by
  unfold Cert.Spec.linAt
  rw [Finset.sum_congr rfl fun k _ => by rw [h k]]

/-- Three matrices side by side, at row `r`, read row `r` of each. -/
theorem cat3At_row {R R' A B C N : Nat} {a : Cert.Spec.Mat R A} {a' : Cert.Spec.Mat R' A} {b : Cert.Spec.Mat R B}
    {b' : Cert.Spec.Mat R' B} {c : Cert.Spec.Mat R C} {c' : Cert.Spec.Mat R' C} {r : Fin R} {r' : Fin R'}
    (ha : ∀ k : Fin A, a (ix2 r k) = a' (ix2 r' k)) (hb : ∀ k : Fin B, b (ix2 r k) = b' (ix2 r' k))
    (hc : ∀ k : Fin C, c (ix2 r k) = c' (ix2 r' k)) (k : Fin N) :
    Cert.Spec.cat3At a b c r k = Cert.Spec.cat3At a' b' c' r' k := by
  unfold Cert.Spec.cat3At
  split_ifs
  · exact ha _
  · exact hb _
  · exact hc _
  · rfl

/-- Two matrices side by side, at row `r`, read row `r` of each. -/
theorem cat2At_row {R R' A B N : Nat} {a : Cert.Spec.Mat R A} {a' : Cert.Spec.Mat R' A} {b : Cert.Spec.Mat R B}
    {b' : Cert.Spec.Mat R' B} {r : Fin R} {r' : Fin R'}
    (ha : ∀ k : Fin A, a (ix2 r k) = a' (ix2 r' k)) (hb : ∀ k : Fin B, b (ix2 r k) = b' (ix2 r' k)) (k : Fin N) :
    Cert.Spec.cat2At a b r k = Cert.Spec.cat2At a' b' r' k := by
  unfold Cert.Spec.cat2At
  split_ifs
  · exact ha _
  · exact hb _
  · rfl

/-- The edge update at row `r` reads row `r` of the three feature matrices. -/
theorem edgeUpd_row {R R' A B C K H D : Nat} {xi : Cert.Spec.Mat R A} {xi' : Cert.Spec.Mat R' A} {xj : Cert.Spec.Mat R B}
    {xj' : Cert.Spec.Mat R' B} {efc : Cert.Spec.Mat R C} {efc' : Cert.Spec.Mat R' C} (w0 : Cert.Spec.Mat K H)
    (b0 : Cert.Spec.Mat 1 H) (w1 : Cert.Spec.Mat H D) (b1 : Cert.Spec.Mat 1 D) {r : Fin R} {r' : Fin R'}
    (hi : ∀ k : Fin A, xi (ix2 r k) = xi' (ix2 r' k)) (hj : ∀ k : Fin B, xj (ix2 r k) = xj' (ix2 r' k))
    (he : ∀ k : Fin C, efc (ix2 r k) = efc' (ix2 r' k)) (c : Fin D) :
    Cert.Spec.edgeUpd xi xj efc w0 b0 w1 b1 (ix2 r c) = Cert.Spec.edgeUpd xi' xj' efc' w0 b0 w1 b1 (ix2 r' c) := by
  show max (Cert.Spec.linAt (Cert.Spec.relu (Cert.Spec.lin (Cert.Spec.cat3 K xi xj efc) w0 b0)) w1 b1 r c) 0
    = max (Cert.Spec.linAt (Cert.Spec.relu (Cert.Spec.lin (Cert.Spec.cat3 K xi' xj' efc') w0 b0)) w1 b1 r' c) 0
  refine congrArg (fun v => max v 0) (linAt_row w1 b1 (fun k => ?_) c)
  show max (Cert.Spec.linAt (Cert.Spec.cat3 K xi xj efc) w0 b0 r k) 0
    = max (Cert.Spec.linAt (Cert.Spec.cat3 K xi' xj' efc') w0 b0 r' k) 0
  exact congrArg (fun v => max v 0) (linAt_row w0 b0 (fun j => cat3At_row hi hj he j) k)

/-- The message at row `r` reads row `r` of the target rows and of the edge features. -/
theorem msgOf_row {R R' A D K C : Nat} {xi : Cert.Spec.Mat R A} {xi' : Cert.Spec.Mat R' A} {ef : Cert.Spec.Mat R D}
    {ef' : Cert.Spec.Mat R' D} (w : Cert.Spec.Mat K C) (b : Cert.Spec.Mat 1 C) {r : Fin R} {r' : Fin R'}
    (hi : ∀ k : Fin A, xi (ix2 r k) = xi' (ix2 r' k)) (he : ∀ k : Fin D, ef (ix2 r k) = ef' (ix2 r' k)) (c : Fin C) :
    Cert.Spec.msgOf xi ef w b (ix2 r c) = Cert.Spec.msgOf xi' ef' w b (ix2 r' c) := by
  show max (Cert.Spec.linAt (Cert.Spec.cat2 K xi ef) w b r c) 0 = max (Cert.Spec.linAt (Cert.Spec.cat2 K xi' ef') w b r' c) 0
  exact congrArg (fun v => max v 0) (linAt_row w b (fun j => cat2At_row hi he j) c)

/-! ## The kernel's layers at an entry -/

/-- One layer as the kernel computes it — operands narrowed (no change over the extended reals), the product into the
    zero accumulator, the bias row broadcast down the rows and added — is the affine layer, entry by entry. -/
theorem layer_at {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ .f32) (w : FVec Ideal ⟨2, ![K, C]⟩ .f32) (b : FVec Ideal ⟨2, ![1, C]⟩ .f32)
    (hx : FTy.bits .bf16 < FTy.bits .f32) (hs : (⟨2, ![1, C]⟩ : Shape).ShapeCasts ⟨2, ![1, C]⟩)
    (hb : (⟨2, ![1, C]⟩ : Shape).Broadcasts ⟨2, ![R, C]⟩) (r : Fin R) (c : Fin C) :
    addf (matmul d none (truncf .bf16 x hx) (truncf .bf16 w hx) (constant ⟨2, ![R, C]⟩ .f32 0x00000000#32))
        (broadcastTo ⟨2, ![R, C]⟩ (shapeCast ⟨2, ![1, C]⟩ b hs) hb) (ix2 r c) = Cert.Spec.linAt x w b r c := by
  rw [addf_apply, shapeCast_self, broadcastTo_1b_ab_apply]
  exact congrArg (· + b (ix2 (0 : Fin 1) c)) (Cert.LibDot.matmul_zero_at d hl hr hln hrn hlb hrb none _ _ r c)

/-- The rectifier as the kernel computes it: the larger of the entry and the zero word, which is 0. -/
theorem rectify_at {s : Shape} (v : FVec Ideal s .f32) (i : s.Idx) :
    maximumf v (broadcast s (Scalar.ofBits (F := Ideal) .f32 0x00000000#32)) i = max (v i) 0 := by
  rw [maximumf_apply, broadcast_apply]
  exact congrArg (max (v i)) Ideal.ofBits_zero_f32

/-! ## The kernel's two stored values at an entry -/

/-- The new edge features the kernel stores, entry by entry: the edge update of the three feature blocks. -/
theorem edge_payload_at (x0 x1 x2 : Vec Ideal S1000x256 .f32) (x3 : Vec Ideal S768x64 .f32) (x4 : Vec Ideal S1x64 .f32)
    (x5 : Vec Ideal S64x128 .f32) (x6 : Vec Ideal S1x128 .f32) (p : Fin 1000) (q : Fin 128) :
    k4_pay3 x0 x1 x2 x3 x4 x5 x6 (ix2 p q) = Cert.Spec.edgeUpd x0 x1 x2 x3 x4 x5 x6 (ix2 p q) := by
  unfold k4_pay3 k4_pay2
  dsimp only
  rw [rectify_at]
  refine congrArg (fun v => max v 0) ?_
  refine (layer_at dot_S1000x64_S64x128_S1000x128_1_0_0_1_n_n rfl rfl rfl rfl rfl rfl _ x5 x6 _ _ _ p q).trans ?_
  show Cert.Spec.linAt _ x5 x6 p q
    = Cert.Spec.linAt (Cert.Spec.relu (Cert.Spec.lin (Cert.Spec.cat3 768 x0 x1 x2) x3 x4)) x5 x6 p q
  refine linAt_row x5 x6 (fun k => ?_) q
  rw [rectify_at]
  refine congrArg (fun v => max v 0) ?_
  refine (layer_at dot_S1000x768_S768x64_S1000x64_1_0_0_1_n_n rfl rfl rfl rfl rfl rfl _ x3 x4 _ _ _ p k).trans ?_
  show Cert.Spec.linAt _ x3 x4 p k = Cert.Spec.linAt (Cert.Spec.cat3 768 x0 x1 x2) x3 x4 p k
  refine linAt_row x3 x4 (fun j => ?_) k
  rw [shapeCast_self, shapeCast_self, shapeCast_self]
  exact Cert.LibConcat.concat3_at _ x0 x1 x2 p j

/-- The messages the kernel stores, entry by entry: the message of the target block and the new edge features. -/
theorem msg_payload_at (x0 x1 x2 : Vec Ideal S1000x256 .f32) (x3 : Vec Ideal S768x64 .f32) (x4 : Vec Ideal S1x64 .f32)
    (x5 : Vec Ideal S64x128 .f32) (x6 : Vec Ideal S1x128 .f32) (x7 : Vec Ideal S384x128 .f32) (x8 : Vec Ideal S1x128 .f32)
    (p : Fin 1000) (q : Fin 128) :
    k4_pay1 (k4_pay4 x0 x1 x2 x3 x4 x5 x6 x7 x8) (ix2 p q)
      = Cert.Spec.msgOf x0 (Cert.Spec.edgeUpd x0 x1 x2 x3 x4 x5 x6 : Cert.Spec.Mat 1000 128) x7 x8 (ix2 p q) := by
  unfold k4_pay1 k4_pay4 k4_pay2
  dsimp only
  rw [rectify_at]
  refine congrArg (fun v => max v 0) ?_
  refine (layer_at dot_S1000x384_S384x128_S1000x128_1_0_0_1_n_n rfl rfl rfl rfl rfl rfl _ x7 x8 _ _ _ p q).trans ?_
  show Cert.Spec.linAt _ x7 x8 p q
    = Cert.Spec.linAt (Cert.Spec.cat2 384 x0 (Cert.Spec.edgeUpd x0 x1 x2 x3 x4 x5 x6 : Cert.Spec.Mat 1000 128)) x7 x8 p q
  refine linAt_row x7 x8 (fun j => ?_) q
  rw [shapeCast_self]
  refine (Cert.LibConcat.concat2_at _ x0 (k4_pay3 x0 x1 x2 x3 x4 x5 x6) p j).trans ?_
  exact cat2At_row (fun _ => rfl) (fun k => edge_payload_at x0 x1 x2 x3 x4 x5 x6 p k) j

/-! ## Where each window's block sits -/

theorem offsets_zero : (![0, 0] : Fin 2 → Nat) = fun _ => 0 := funext fun a => by fin_cases a <;> rfl

/-- The index maps over the grid: at point `t` the three feature windows and the two output windows
    are at block (t, 0), the weight and bias windows at block (0, 0). -/
theorem index_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = t.val ∧ win4_9.index t (1 : Fin 2) = 0)
    ∧ (win4_10.index t (0 : Fin 2) = t.val ∧ win4_10.index t (1 : Fin 2) = 0) :=
  (by decide +kernel : ∀ t : Fin grid4.N, _)

/-- The grid has 100 points, so row `y` of the block at point `t` is a row of the array. -/
theorem row_lt (t : Fin cfg4.N) (y : Fin 1000) : t.val * 1000 + y.val < 100000 := by
  have h : t.val < 100 := lt_of_lt_of_eq t.isLt N_4
  have := y.isLt
  omega

/-- Window 0's block at point `t`, entry (y, k), is its array's entry (1000 t + y, k). -/
theorem xi_block_at (c : Dev nD) (t : Fin cfg4.N) (y : Fin 1000) (k : Fin 256) :
    (iblk4 V c 0 t : Vec Ideal S1000x256 .f32) (ix2 y k) = V c main_v34 (ix2 ⟨t.val * 1000 + y.val, row_lt t y⟩ k) := by
  obtain ⟨⟨e0, e1⟩, -⟩ := index_facts t
  show V c main_v34 (((cfg4.win 0).blk t).view.emb (ix2 y k)) = _
  refine congrArg (V c main_v34) (funext fun a => Fin.ext ?_)
  match a with
  | ⟨0, _⟩ => show win4_0.index t (0 : Fin 2) * 1000 + 1 * y.val = t.val * 1000 + y.val; rw [e0]; omega
  | ⟨1, _⟩ => show win4_0.index t (1 : Fin 2) * 256 + 1 * k.val = k.val; rw [e1]; omega

/-- Window 1's block at point `t`, entry (y, k), is its array's entry (1000 t + y, k). -/
theorem xj_block_at (c : Dev nD) (t : Fin cfg4.N) (y : Fin 1000) (k : Fin 256) :
    (iblk4 V c 1 t : Vec Ideal S1000x256 .f32) (ix2 y k) = V c main_v35 (ix2 ⟨t.val * 1000 + y.val, row_lt t y⟩ k) := by
  obtain ⟨-, ⟨e0, e1⟩, -⟩ := index_facts t
  show V c main_v35 (((cfg4.win 1).blk t).view.emb (ix2 y k)) = _
  refine congrArg (V c main_v35) (funext fun a => Fin.ext ?_)
  match a with
  | ⟨0, _⟩ => show win4_1.index t (0 : Fin 2) * 1000 + 1 * y.val = t.val * 1000 + y.val; rw [e0]; omega
  | ⟨1, _⟩ => show win4_1.index t (1 : Fin 2) * 256 + 1 * k.val = k.val; rw [e1]; omega

/-- Window 2's block at point `t`, entry (y, k), is its array's entry (1000 t + y, k). -/
theorem efc_block_at (c : Dev nD) (t : Fin cfg4.N) (y : Fin 1000) (k : Fin 256) :
    (iblk4 V c 2 t : Vec Ideal S1000x256 .f32) (ix2 y k) = V c main_v33 (ix2 ⟨t.val * 1000 + y.val, row_lt t y⟩ k) := by
  obtain ⟨-, -, ⟨e0, e1⟩, -⟩ := index_facts t
  show V c main_v33 (((cfg4.win 2).blk t).view.emb (ix2 y k)) = _
  refine congrArg (V c main_v33) (funext fun a => Fin.ext ?_)
  match a with
  | ⟨0, _⟩ => show win4_2.index t (0 : Fin 2) * 1000 + 1 * y.val = t.val * 1000 + y.val; rw [e0]; omega
  | ⟨1, _⟩ => show win4_2.index t (1 : Fin 2) * 256 + 1 * k.val = k.val; rw [e1]; omega

/-- Window 3's block at every point is its whole array. -/
theorem w0_block_whole (c : Dev nD) (t : Fin cfg4.N) : (iblk4 V c 3 t : Vec Ideal S768x64 .f32) = V c main_arg11 := by
  obtain ⟨-, -, -, ⟨e0, e1⟩, -⟩ := index_facts t
  funext y
  show V c main_arg11 (((cfg4.win 3).blk t).view.emb y) = V c main_arg11 y
  refine congrArg (V c main_arg11) (funext fun a => Fin.ext ?_)
  match a with
  | ⟨0, _⟩ => show win4_3.index t (0 : Fin 2) * 768 + 1 * (y 0).val = (y 0).val; rw [e0]; omega
  | ⟨1, _⟩ => show win4_3.index t (1 : Fin 2) * 64 + 1 * (y 1).val = (y 1).val; rw [e1]; omega

/-- Window 4's block at every point is its whole array. -/
theorem b0_block_whole (c : Dev nD) (t : Fin cfg4.N) : (iblk4 V c 4 t : Vec Ideal S1x64 .f32) = V c main_v36 := by
  obtain ⟨-, -, -, -, ⟨e0, e1⟩, -⟩ := index_facts t
  funext y
  show V c main_v36 (((cfg4.win 4).blk t).view.emb y) = V c main_v36 y
  refine congrArg (V c main_v36) (funext fun a => Fin.ext ?_)
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

/-- Window 5's block at every point is its whole array. -/
theorem w1_block_whole (c : Dev nD) (t : Fin cfg4.N) : (iblk4 V c 5 t : Vec Ideal S64x128 .f32) = V c main_arg13 := by
  obtain ⟨-, -, -, -, -, ⟨e0, e1⟩, -⟩ := index_facts t
  funext y
  show V c main_arg13 (((cfg4.win 5).blk t).view.emb y) = V c main_arg13 y
  refine congrArg (V c main_arg13) (funext fun a => Fin.ext ?_)
  match a with
  | ⟨0, _⟩ => show win4_5.index t (0 : Fin 2) * 64 + 1 * (y 0).val = (y 0).val; rw [e0]; omega
  | ⟨1, _⟩ => show win4_5.index t (1 : Fin 2) * 128 + 1 * (y 1).val = (y 1).val; rw [e1]; omega

/-- Window 6's block at every point is its whole array. -/
theorem b1_block_whole (c : Dev nD) (t : Fin cfg4.N) : (iblk4 V c 6 t : Vec Ideal S1x128 .f32) = V c main_v37 := by
  obtain ⟨-, -, -, -, -, -, ⟨e0, e1⟩, -⟩ := index_facts t
  funext y
  show V c main_v37 (((cfg4.win 6).blk t).view.emb y) = V c main_v37 y
  refine congrArg (V c main_v37) (funext fun a => Fin.ext ?_)
  match a with
  | ⟨0, _⟩ => show win4_6.index t (0 : Fin 2) * 1 + 1 * (y 0).val = (y 0).val; rw [e0]; omega
  | ⟨1, _⟩ => show win4_6.index t (1 : Fin 2) * 128 + 1 * (y 1).val = (y 1).val; rw [e1]; omega

/-- Window 7's block at every point is its whole array. -/
theorem wm_block_whole (c : Dev nD) (t : Fin cfg4.N) : (iblk4 V c 7 t : Vec Ideal S384x128 .f32) = V c main_arg15 := by
  obtain ⟨-, -, -, -, -, -, -, ⟨e0, e1⟩, -⟩ := index_facts t
  funext y
  show V c main_arg15 (((cfg4.win 7).blk t).view.emb y) = V c main_arg15 y
  refine congrArg (V c main_arg15) (funext fun a => Fin.ext ?_)
  match a with
  | ⟨0, _⟩ => show win4_7.index t (0 : Fin 2) * 384 + 1 * (y 0).val = (y 0).val; rw [e0]; omega
  | ⟨1, _⟩ => show win4_7.index t (1 : Fin 2) * 128 + 1 * (y 1).val = (y 1).val; rw [e1]; omega

/-- Window 8's block at every point is its whole array. -/
theorem bm_block_whole (c : Dev nD) (t : Fin cfg4.N) : (iblk4 V c 8 t : Vec Ideal S1x128 .f32) = V c main_v38 := by
  obtain ⟨-, -, -, -, -, -, -, -, ⟨e0, e1⟩, -⟩ := index_facts t
  funext y
  show V c main_v38 (((cfg4.win 8).blk t).view.emb y) = V c main_v38 y
  refine congrArg (V c main_v38) (funext fun a => Fin.ext ?_)
  match a with
  | ⟨0, _⟩ => show win4_8.index t (0 : Fin 2) * 1 + 1 * (y 0).val = (y 0).val; rw [e0]; omega
  | ⟨1, _⟩ => show win4_8.index t (1 : Fin 2) * 128 + 1 * (y 1).val = (y 1).val; rw [e1]; omega

/-! ## What each point writes back -/

/-- An entry of an output block at point `t` sits in the array at row 1000 t + p, same column (window 9). -/
theorem edge_entry_row (t : Fin cfg4.N) (p : Fin 1000) (q : Fin 128) :
    ((cfg4.win 9).blk t).view.emb (ix2 p q) = ix2 ⟨t.val * 1000 + p.val, row_lt t p⟩ q := by
  obtain ⟨-, -, -, -, -, -, -, -, -, ⟨e0, e1⟩, -⟩ := index_facts t
  refine funext fun a => Fin.ext ?_
  match a with
  | ⟨0, _⟩ => show win4_9.index t (0 : Fin 2) * 1000 + 1 * p.val = t.val * 1000 + p.val; rw [e0]; omega
  | ⟨1, _⟩ => show win4_9.index t (1 : Fin 2) * 128 + 1 * q.val = q.val; rw [e1]; omega

/-- The same for window 10. -/
theorem msg_entry_row (t : Fin cfg4.N) (p : Fin 1000) (q : Fin 128) :
    ((cfg4.win 10).blk t).view.emb (ix2 p q) = ix2 ⟨t.val * 1000 + p.val, row_lt t p⟩ q := by
  obtain ⟨-, -, -, -, -, -, -, -, -, -, e0, e1⟩ := index_facts t
  refine funext fun a => Fin.ext ?_
  match a with
  | ⟨0, _⟩ => show win4_10.index t (0 : Fin 2) * 1000 + 1 * p.val = t.val * 1000 + p.val; rw [e0]; omega
  | ⟨1, _⟩ => show win4_10.index t (1 : Fin 2) * 128 + 1 * q.val = q.val; rw [e1]; omega

/-- Point `t` writes back, to the new edge features, block `t` of the edge update of the whole arrays. -/
theorem edge_flushed (c : Dev nD) (t : Fin cfg4.N) :
    (dat4 (F := Ideal) V c).flushed 9 t = ((cfg4.win 9).blk t).view.read (Elt Ideal) (Cert.Spec.edgeUpd (V c main_v34) (V c main_v35) (V c main_v33) (V c main_arg11) (V c main_v36) (V c main_arg13) (V c main_v37)) := by
  show (cfg4.win 9).cut (grid4.coords t) ((dat4 V c).after 9 t) = _
  rw [after4_9]
  unfold out4_9
  rw [View.canon_unit_zero offsets_zero]
  simp only [View.ld_unit_zero (S := S1000x256) offsets_zero, View.ld_unit_zero (S := S768x64) offsets_zero,
    View.ld_unit_zero (S := S1x64) offsets_zero, View.ld_unit_zero (S := S64x128) offsets_zero,
    View.ld_unit_zero (S := S1x128) offsets_zero]
  funext j
  obtain ⟨p, q, rfl⟩ : ∃ (p : Fin 1000) (q : Fin 128), j = ix2 p q := ⟨j 0, j 1, eq_ix2 j⟩
  show k4_pay3 (iblk4 V c 0 t) (iblk4 V c 1 t) (iblk4 V c 2 t) (iblk4 V c 3 t) (iblk4 V c 4 t) (iblk4 V c 5 t) (iblk4 V c 6 t) (ix2 p q)
    = (Cert.Spec.edgeUpd (V c main_v34) (V c main_v35) (V c main_v33) (V c main_arg11) (V c main_v36) (V c main_arg13) (V c main_v37)) (((cfg4.win 9).blk t).view.emb (ix2 p q))
  rw [edge_entry_row t p q, edge_payload_at, w0_block_whole V c t, b0_block_whole V c t, w1_block_whole V c t, b1_block_whole V c t]
  exact edgeUpd_row _ _ _ _ (fun k => xi_block_at V c t p k) (fun k => xj_block_at V c t p k) (fun k => efc_block_at V c t p k) q

/-- Point `t` writes back, to the messages, block `t` of the message of the whole arrays. -/
theorem msg_flushed (c : Dev nD) (t : Fin cfg4.N) :
    (dat4 (F := Ideal) V c).flushed 10 t = ((cfg4.win 10).blk t).view.read (Elt Ideal)
      (Cert.Spec.msgOf (V c main_v34) (Cert.Spec.edgeUpd (V c main_v34) (V c main_v35) (V c main_v33) (V c main_arg11) (V c main_v36) (V c main_arg13) (V c main_v37) : Cert.Spec.Mat 100000 128) (V c main_arg15) (V c main_v38)) := by
  show (cfg4.win 10).cut (grid4.coords t) ((dat4 V c).after 10 t) = _
  rw [after4_10]
  unfold out4_10
  rw [View.canon_unit_zero offsets_zero]
  simp only [View.ld_unit_zero (S := S1000x256) offsets_zero, View.ld_unit_zero (S := S768x64) offsets_zero,
    View.ld_unit_zero (S := S1x64) offsets_zero, View.ld_unit_zero (S := S64x128) offsets_zero,
    View.ld_unit_zero (S := S1x128) offsets_zero, View.ld_unit_zero (S := S384x128) offsets_zero]
  funext j
  obtain ⟨p, q, rfl⟩ : ∃ (p : Fin 1000) (q : Fin 128), j = ix2 p q := ⟨j 0, j 1, eq_ix2 j⟩
  show k4_pay1 (k4_pay4 (iblk4 V c 0 t) (iblk4 V c 1 t) (iblk4 V c 2 t) (iblk4 V c 3 t) (iblk4 V c 4 t) (iblk4 V c 5 t)
      (iblk4 V c 6 t) (iblk4 V c 7 t) (iblk4 V c 8 t)) (ix2 p q)
    = (Cert.Spec.msgOf (V c main_v34) (Cert.Spec.edgeUpd (V c main_v34) (V c main_v35) (V c main_v33) (V c main_arg11) (V c main_v36) (V c main_arg13) (V c main_v37) : Cert.Spec.Mat 100000 128) (V c main_arg15) (V c main_v38)) (((cfg4.win 10).blk t).view.emb (ix2 p q))
  rw [msg_entry_row t p q, msg_payload_at, w0_block_whole V c t, b0_block_whole V c t, w1_block_whole V c t, b1_block_whole V c t,
    wm_block_whole V c t, bm_block_whole V c t]
  exact msgOf_row _ _ (fun k => xi_block_at V c t p k)
    (fun k => edgeUpd_row _ _ _ _ (fun k => xi_block_at V c t p k) (fun k => xj_block_at V c t p k)
      (fun k => efc_block_at V c t p k) k) q

/-! ## The blocks fill the arrays -/

/-- Row `r` is row `r % 1000` of the block of point `r / 1000`. -/
theorem row_split (r : Fin 100000) : ∃ (t : Fin cfg4.N) (p : Fin 1000), r = ⟨t.val * 1000 + p.val, row_lt t p⟩ := by
  have hr := r.isLt
  exact ⟨⟨r.val / 1000, lt_of_lt_of_eq (show r.val / 1000 < 100 by omega) N_4.symm⟩, ⟨r.val % 1000, Nat.mod_lt _ (by omega)⟩,
    Fin.ext (show r.val = r.val / 1000 * 1000 + r.val % 1000 by omega)⟩

/-- Every entry of the new edge features is in some point's block, and every point writes its block back. -/
theorem edge_covered (i : S100000x128.Idx) :
    ∃ t : Fin cfg4.N, (cfg4.win 9).flush t = true ∧ i ∈ ((cfg4.win 9).blk t).view.set := by
  obtain ⟨r, q, rfl⟩ : ∃ (r : Fin 100000) (q : Fin 128), i = ix2 r q := ⟨i 0, i 1, eq_ix2 i⟩
  obtain ⟨t, p, rfl⟩ := row_split r
  refine ⟨t, flush4_9 t, ?_⟩
  rw [← edge_entry_row t p q]
  exact ((cfg4.win 9).blk t).view.emb_mem_set _

/-- Every entry of the messages is in some point's block, and every point writes its block back. -/
theorem msg_covered (i : S100000x128.Idx) :
    ∃ t : Fin cfg4.N, (cfg4.win 10).flush t = true ∧ i ∈ ((cfg4.win 10).blk t).view.set := by
  obtain ⟨r, q, rfl⟩ : ∃ (r : Fin 100000) (q : Fin 128), i = ix2 r q := ⟨i 0, i 1, eq_ix2 i⟩
  obtain ⟨t, p, rfl⟩ := row_split r
  refine ⟨t, flush4_10 t, ?_⟩
  rw [← msg_entry_row t p q]
  exact ((cfg4.win 10).blk t).view.emb_mem_set _

/-! ## The two arrays after the step -/

/-- The new edge features after the step: the edge update of the arrays the step was entered with. -/
theorem arr9 (c : Dev nD) : (dat4 (F := Ideal) V c).arrAt 9 cfg4.N
      = Cert.Spec.edgeUpd (V c main_v34) (V c main_v35) (V c main_v33) (V c main_arg11) (V c main_v36) (V c main_arg13) (V c main_v37) :=
  (dat4 (F := Ideal) V c).arrAt_eq_of_cover 9 _ (fun t _ => edge_flushed V c t) edge_covered

/-- The messages after the step: the message of the target rows and the new edge features. -/
theorem arr10 (c : Dev nD) : (dat4 (F := Ideal) V c).arrAt 10 cfg4.N
      = Cert.Spec.msgOf (V c main_v34) (Cert.Spec.edgeUpd (V c main_v34) (V c main_v35) (V c main_v33) (V c main_arg11) (V c main_v36) (V c main_arg13) (V c main_v37) : Cert.Spec.Mat 100000 128) (V c main_arg15) (V c main_v38) :=
  (dat4 (F := Ideal) V c).arrAt_eq_of_cover 10 _ (fun t _ => msg_flushed V c t) msg_covered

end Cert.KernelIdeal.Region4

end
-- ==== Proof.KStep3.lean ====
/-
  One round of message passing through the run: from what the previous step's launch left to what this round's
  launch leaves. Between the two launches the host joins the node embedding with the messages summed into their
  target nodes and the edge embedding with the previous edge features, gathers the joined node rows at the target and
  source index words, and recasts the three bias vectors as rows; the launch then leaves the edge update and the
  message of those. Every other buffer is written once and carried unchanged, so the round's two results are the two
  components of the network's step at the carried state.
-/
import proofs.«403211_j60627758350346_1_alg».proof.Proof.Gen.KernelIdeal.Frame
import proofs.«403211_j60627758350346_1_alg».proof.Proof.Spec
import proofs.«403211_j60627758350346_1_alg».proof.Proof.SpecNet
import proofs.«403211_j60627758350346_1_alg».proof.Proof.KNames
import proofs.«403211_j60627758350346_1_alg».proof.Proof.KGlue
import proofs.«403211_j60627758350346_1_alg».proof.Proof.KTake
import proofs.«403211_j60627758350346_1_alg».proof.Proof.LibKeep
import proofs.«403211_j60627758350346_1_alg».proof.Proof.KRegion4
import Idealize.ShloMosaic.Lib.StableHlo.Run

noncomputable section

namespace Cert.KernelIdeal.Step3

open Idealize.ShloMosaic Idealize.ShloMosaic.TcCoe Idealize.SL.Sem Idealize.ShloMosaic.StableHlo
open Cert.KernelIdeal Cert.KernelIdeal.Gen Cert.KernelIdeal.Names Cert.KernelIdeal.Glue Cert.KernelIdeal.Take Cert.LibKeep

variable (m : (ℓ : Loc nD τ sig) → Buf (Elt Ideal) ℓ) (ρ : Dev nD → PrngReg) (c : Dev nD)

/-! ## What the step's launch reads, in terms of what the previous launch left

  Between the two launches the host joins the node embedding with the messages summed into their targets and the
  edge embedding with the previous edge features, gathers the joined node rows at the two index vectors, and recasts
  the three bias vectors as rows; every other buffer is carried unchanged. -/

/-- The first layer's weights are carried unchanged to the launch. -/
theorem w0_carried : W18 m ρ c (Proc.devRef .tc main_arg11) = W14 m ρ c (Proc.devRef .tc main_arg11) :=
  (by kept_host hostOps4_3 : W18 m ρ c (Proc.devRef .tc main_arg11) = W17 m ρ c (Proc.devRef .tc main_arg11)).trans
  ((by kept_host hostOps4_2 : W17 m ρ c (Proc.devRef .tc main_arg11) = W16 m ρ c (Proc.devRef .tc main_arg11)).trans
  ((by kept_host hostOps4_1 : W16 m ρ c (Proc.devRef .tc main_arg11) = W15 m ρ c (Proc.devRef .tc main_arg11)).trans
  (by kept_host hostOps4 : W15 m ρ c (Proc.devRef .tc main_arg11) = W14 m ρ c (Proc.devRef .tc main_arg11))))

/-- The second layer's weights are carried unchanged to the launch. -/
theorem w1_carried : W18 m ρ c (Proc.devRef .tc main_arg13) = W14 m ρ c (Proc.devRef .tc main_arg13) :=
  (by kept_host hostOps4_3 : W18 m ρ c (Proc.devRef .tc main_arg13) = W17 m ρ c (Proc.devRef .tc main_arg13)).trans
  ((by kept_host hostOps4_2 : W17 m ρ c (Proc.devRef .tc main_arg13) = W16 m ρ c (Proc.devRef .tc main_arg13)).trans
  ((by kept_host hostOps4_1 : W16 m ρ c (Proc.devRef .tc main_arg13) = W15 m ρ c (Proc.devRef .tc main_arg13)).trans
  (by kept_host hostOps4 : W15 m ρ c (Proc.devRef .tc main_arg13) = W14 m ρ c (Proc.devRef .tc main_arg13))))

/-- The message layer's weights are carried unchanged to the launch. -/
theorem wm_carried : W18 m ρ c (Proc.devRef .tc main_arg15) = W14 m ρ c (Proc.devRef .tc main_arg15) :=
  (by kept_host hostOps4_3 : W18 m ρ c (Proc.devRef .tc main_arg15) = W17 m ρ c (Proc.devRef .tc main_arg15)).trans
  ((by kept_host hostOps4_2 : W17 m ρ c (Proc.devRef .tc main_arg15) = W16 m ρ c (Proc.devRef .tc main_arg15)).trans
  ((by kept_host hostOps4_1 : W16 m ρ c (Proc.devRef .tc main_arg15) = W15 m ρ c (Proc.devRef .tc main_arg15)).trans
  (by kept_host hostOps4 : W15 m ρ c (Proc.devRef .tc main_arg15) = W14 m ρ c (Proc.devRef .tc main_arg15))))

/-- The first layer's bias, as the launch reads it: the bias vector as a row. -/
theorem b0_written : W18 m ρ c (Proc.devRef .tc main_v36) = Cert.Spec.row (W14 m ρ c (Proc.devRef .tc main_arg12)) :=
  (glue4_v36 (W17 m ρ c)).trans (congrArg (Cert.Spec.row (C := 64))
    ((by kept_host hostOps4_2 : W17 m ρ c (Proc.devRef .tc main_arg12) = W16 m ρ c (Proc.devRef .tc main_arg12)).trans
    ((by kept_host hostOps4_1 : W16 m ρ c (Proc.devRef .tc main_arg12) = W15 m ρ c (Proc.devRef .tc main_arg12)).trans
    (by kept_host hostOps4 : W15 m ρ c (Proc.devRef .tc main_arg12) = W14 m ρ c (Proc.devRef .tc main_arg12)))))

/-- The second layer's bias, as the launch reads it: the bias vector as a row. -/
theorem b1_written : W18 m ρ c (Proc.devRef .tc main_v37) = Cert.Spec.row (W14 m ρ c (Proc.devRef .tc main_arg14)) :=
  (glue4_v37 (W17 m ρ c)).trans (congrArg (Cert.Spec.row (C := 128))
    ((by kept_host hostOps4_2 : W17 m ρ c (Proc.devRef .tc main_arg14) = W16 m ρ c (Proc.devRef .tc main_arg14)).trans
    ((by kept_host hostOps4_1 : W16 m ρ c (Proc.devRef .tc main_arg14) = W15 m ρ c (Proc.devRef .tc main_arg14)).trans
    (by kept_host hostOps4 : W15 m ρ c (Proc.devRef .tc main_arg14) = W14 m ρ c (Proc.devRef .tc main_arg14)))))

/-- The message layer's bias, as the launch reads it: the bias vector as a row. -/
theorem bm_written : W18 m ρ c (Proc.devRef .tc main_v38) = Cert.Spec.row (W14 m ρ c (Proc.devRef .tc main_arg16)) :=
  (glue4_v38 (W17 m ρ c)).trans (congrArg (Cert.Spec.row (C := 128))
    ((by kept_host hostOps4_2 : W17 m ρ c (Proc.devRef .tc main_arg16) = W16 m ρ c (Proc.devRef .tc main_arg16)).trans
    ((by kept_host hostOps4_1 : W16 m ρ c (Proc.devRef .tc main_arg16) = W15 m ρ c (Proc.devRef .tc main_arg16)).trans
    (by kept_host hostOps4 : W15 m ρ c (Proc.devRef .tc main_arg16) = W14 m ρ c (Proc.devRef .tc main_arg16)))))

/-- The joined edge features, as the launch reads them: the edge embedding beside the previous edge features. -/
theorem efc_written : W18 m ρ c (Proc.devRef .tc main_v33) = Cert.Spec.cat2 256 (W14 m ρ c (Proc.devRef .tc main_v9)) (W14 m ρ c (Proc.devRef .tc main_v28_0)) :=
  (by kept_host hostOps4_3 : W18 m ρ c (Proc.devRef .tc main_v33) = W17 m ρ c (Proc.devRef .tc main_v33)).trans
  ((by kept_host hostOps4_2 : W17 m ρ c (Proc.devRef .tc main_v33) = W16 m ρ c (Proc.devRef .tc main_v33)).trans
  ((by kept_host hostOps4_1 : W16 m ρ c (Proc.devRef .tc main_v33) = W15 m ρ c (Proc.devRef .tc main_v33)).trans
  (glue4_v33 (W14 m ρ c))))

/-- The joined node features: the node embedding beside the messages summed into their targets. -/
theorem nfc_written : W15 m ρ c (Proc.devRef .tc main_v32) = Cert.Spec.cat2 256 (W14 m ρ c (Proc.devRef .tc main_v6)) (scK (colIdx (W14 m ρ c (Proc.devRef .tc main_v3))) (W14 m ρ c (Proc.devRef .tc main_v28_1))) :=
  glue4_v32 (W14 m ρ c)

/-- The target rows, as the launch reads them: the joined node features gathered at the target index words. -/
theorem xi_written (hI : ∀ e : S100000.Idx, ((W14 m ρ c (Proc.devRef .tc main_v3) : IVec S100000 32) e).toNat < 20000) :
    W18 m ρ c (Proc.devRef .tc main_v34) = gK (Cert.Spec.cat2 256 (W14 m ρ c (Proc.devRef .tc main_v6)) (scK (colIdx (W14 m ρ c (Proc.devRef .tc main_v3))) (W14 m ρ c (Proc.devRef .tc main_v28_1)))) (nrmIdx (W14 m ρ c (Proc.devRef .tc main_v3))) := by
  have e3 : W15 m ρ c (Proc.devRef .tc main_v3) = W14 m ρ c (Proc.devRef .tc main_v3) := by kept_host hostOps4
  refine (by kept_host hostOps4_3 : W18 m ρ c (Proc.devRef .tc main_v34) = W17 m ρ c (Proc.devRef .tc main_v34)).trans
    ((by kept_host hostOps4_2 : W17 m ρ c (Proc.devRef .tc main_v34) = W16 m ρ c (Proc.devRef .tc main_v34)).trans ?_)
  refine (take_call4 (W15 m ρ c) (by rw [e3]; exact hI)).trans ?_
  rw [e3, nfc_written]
  rfl

/-- The source rows, as the launch reads them: the joined node features gathered at the source index words. -/
theorem xj_written (hJ : ∀ e : S100000.Idx, ((W14 m ρ c (Proc.devRef .tc main_v1) : IVec S100000 32) e).toNat < 20000) :
    W18 m ρ c (Proc.devRef .tc main_v35) = gK (Cert.Spec.cat2 256 (W14 m ρ c (Proc.devRef .tc main_v6)) (scK (colIdx (W14 m ρ c (Proc.devRef .tc main_v3))) (W14 m ρ c (Proc.devRef .tc main_v28_1)))) (nrmIdx (W14 m ρ c (Proc.devRef .tc main_v1))) := by
  have e1 : W16 m ρ c (Proc.devRef .tc main_v1) = W14 m ρ c (Proc.devRef .tc main_v1) :=
    (by kept_host hostOps4_1 : W16 m ρ c (Proc.devRef .tc main_v1) = W15 m ρ c (Proc.devRef .tc main_v1)).trans
      (by kept_host hostOps4 : W15 m ρ c (Proc.devRef .tc main_v1) = W14 m ρ c (Proc.devRef .tc main_v1))
  have e21 : W16 m ρ c (Proc.devRef .tc main_v32) = W15 m ρ c (Proc.devRef .tc main_v32) := by kept_host hostOps4_1
  refine (by kept_host hostOps4_3 : W18 m ρ c (Proc.devRef .tc main_v35) = W17 m ρ c (Proc.devRef .tc main_v35)).trans ?_
  refine (take_call5 (W16 m ρ c) (by rw [e1]; exact hJ)).trans ?_
  rw [e1, e21, nfc_written]
  rfl

/-! ## What the step's launch leaves -/

/-- The new edge features: the edge update of what the launch reads. -/
theorem edge_left : W19 m ρ c (Proc.devRef .tc main_v39_0)
    = Cert.Spec.edgeUpd (W18 m ρ c (Proc.devRef .tc main_v34)) (W18 m ρ c (Proc.devRef .tc main_v35)) (W18 m ρ c (Proc.devRef .tc main_v33))
        (W18 m ρ c (Proc.devRef .tc main_arg11)) (W18 m ρ c (Proc.devRef .tc main_v36)) (W18 m ρ c (Proc.devRef .tc main_arg13))
        (W18 m ρ c (Proc.devRef .tc main_v37)) :=
  (W19_arr m ρ c 9).trans (Cert.KernelIdeal.Region4.arr9 (V18 m ρ) c)

/-- The messages: the message of the target rows and the new edge features. -/
theorem msg_left : W19 m ρ c (Proc.devRef .tc main_v39_1)
    = Cert.Spec.msgOf (W18 m ρ c (Proc.devRef .tc main_v34)) (Cert.Spec.edgeUpd (W18 m ρ c (Proc.devRef .tc main_v34)) (W18 m ρ c (Proc.devRef .tc main_v35)) (W18 m ρ c (Proc.devRef .tc main_v33))
        (W18 m ρ c (Proc.devRef .tc main_arg11)) (W18 m ρ c (Proc.devRef .tc main_v36)) (W18 m ρ c (Proc.devRef .tc main_arg13))
        (W18 m ρ c (Proc.devRef .tc main_v37)) : Cert.Spec.Mat 100000 128)
        (W18 m ρ c (Proc.devRef .tc main_arg15)) (W18 m ρ c (Proc.devRef .tc main_v38)) :=
  (W19_arr m ρ c 10).trans (Cert.KernelIdeal.Region4.arr10 (V18 m ρ) c)

/-! ## The round -/

/-- Round 3 of message passing, from the contents the previous region left to the contents this round's region
    leaves: the new edge features are the round's second component, and the messages summed into their target
    nodes its first. -/
theorem round3 (NF0 : Cert.Spec.Mat 20000 128) (EF0 : Cert.Spec.Mat 100000 128) (I J : IVec S100000 32) (S : Cert.Spec.St 20000 100000 128)
    (M11 : Cert.Spec.Mat 768 64) (B12 : Cert.Spec.Vc 64) (M13 : Cert.Spec.Mat 64 128) (B14 : Cert.Spec.Vc 128)
    (M15 : Cert.Spec.Mat 384 128) (B16 : Cert.Spec.Vc 128)
    (h6 : W14 m ρ c (Proc.devRef .tc main_v6) = NF0) (h9 : W14 m ρ c (Proc.devRef .tc main_v9) = EF0)
    (h3 : W14 m ρ c (Proc.devRef .tc main_v3) = I) (h1 : W14 m ρ c (Proc.devRef .tc main_v1) = J)
    (hef : W14 m ρ c (Proc.devRef .tc main_v28_0) = S.2)
    (hnf : scK (colIdx I) (W14 m ρ c (Proc.devRef .tc main_v28_1)) = S.1)
    (h11 : W14 m ρ c (Proc.devRef .tc main_arg11) = M11) (h12 : W14 m ρ c (Proc.devRef .tc main_arg12) = B12)
    (h13 : W14 m ρ c (Proc.devRef .tc main_arg13) = M13) (h14 : W14 m ρ c (Proc.devRef .tc main_arg14) = B14)
    (h15 : W14 m ρ c (Proc.devRef .tc main_arg15) = M15) (h16 : W14 m ρ c (Proc.devRef .tc main_arg16) = B16)
    (hI : ∀ e : S100000.Idx, (I e).toNat < 20000) (hJ : ∀ e : S100000.Idx, (J e).toNat < 20000) :
    W19 m ρ c (Proc.devRef .tc main_v39_0)
        = (Cert.Spec.step gK scK NF0 EF0 (nrmIdx I) (nrmIdx J) (colIdx I) M11 (Cert.Spec.row B12) M13 (Cert.Spec.row B14) M15 (Cert.Spec.row B16) S).2
      ∧ scK (colIdx I) (W19 m ρ c (Proc.devRef .tc main_v39_1))
        = (Cert.Spec.step gK scK NF0 EF0 (nrmIdx I) (nrmIdx J) (colIdx I) M11 (Cert.Spec.row B12) M13 (Cert.Spec.row B14) M15 (Cert.Spec.row B16) S).1 := by
  have hI' : ∀ e : S100000.Idx, ((W14 m ρ c (Proc.devRef .tc main_v3) : IVec S100000 32) e).toNat < 20000 := by
    rw [h3]; exact hI
  have hJ' : ∀ e : S100000.Idx, ((W14 m ρ c (Proc.devRef .tc main_v1) : IVec S100000 32) e).toNat < 20000 := by
    rw [h1]; exact hJ
  have exi := xi_written m ρ c hI'
  have exj := xj_written m ρ c hJ'
  have eefc := efc_written m ρ c
  rw [h6, h3, hnf] at exi
  rw [h6, h3, h1, hnf] at exj
  rw [h9, hef] at eefc
  constructor
  · rw [edge_left, exi, exj, eefc, w0_carried, b0_written, w1_carried, b1_written, h11, h12, h13, h14]
    rfl
  · rw [msg_left, exi, exj, eefc, w0_carried, b0_written, w1_carried, b1_written, wm_carried, bm_written, h11, h12, h13,
      h14, h15, h16]
    rfl

end Cert.KernelIdeal.Step3

end
-- ==== Proof.KRegion5.lean ====
/-
  One message-passing step, read as mathematics. The step's grid has 100 points; at point t it holds rows
  1000 t … 1000 t + 999 of the three feature arrays and the whole of the weight and bias arrays, and writes back rows
  1000 t … 1000 t + 999 of the new edge features and of the messages. Entry by entry, what it stores is the edge update
  relu(relu([xi | xj | efc] · w₀ + b₀) · w₁ + b₁) and the message relu([xi | ef'] · w + b) of the rows it holds; a row of
  either reads only the same row of the feature arrays, so block t of the result is block t of the same function of the
  whole arrays, and the 100 blocks fill the two result arrays.
-/
import proofs.«403211_j60627758350346_1_alg».proof.Proof.Gen.KernelIdeal.Frame
import proofs.«403211_j60627758350346_1_alg».proof.Proof.Spec
import proofs.«403211_j60627758350346_1_alg».proof.Proof.LibDot
import proofs.«403211_j60627758350346_1_alg».proof.Proof.LibConcat
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Region5

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b))

/-! ## A row of the network reads the same row of its inputs -/

/-- The affine layer at row `r` reads row `r` of its input only. -/
theorem linAt_row {R R' K C : Nat} {x : Cert.Spec.Mat R K} {x' : Cert.Spec.Mat R' K} (w : Cert.Spec.Mat K C)
    (b : Cert.Spec.Mat 1 C) {r : Fin R} {r' : Fin R'} (h : ∀ k : Fin K, x (ix2 r k) = x' (ix2 r' k)) (c : Fin C) :
    Cert.Spec.linAt x w b r c = Cert.Spec.linAt x' w b r' c := by
  unfold Cert.Spec.linAt
  rw [Finset.sum_congr rfl fun k _ => by rw [h k]]

/-- Three matrices side by side, at row `r`, read row `r` of each. -/
theorem cat3At_row {R R' A B C N : Nat} {a : Cert.Spec.Mat R A} {a' : Cert.Spec.Mat R' A} {b : Cert.Spec.Mat R B}
    {b' : Cert.Spec.Mat R' B} {c : Cert.Spec.Mat R C} {c' : Cert.Spec.Mat R' C} {r : Fin R} {r' : Fin R'}
    (ha : ∀ k : Fin A, a (ix2 r k) = a' (ix2 r' k)) (hb : ∀ k : Fin B, b (ix2 r k) = b' (ix2 r' k))
    (hc : ∀ k : Fin C, c (ix2 r k) = c' (ix2 r' k)) (k : Fin N) :
    Cert.Spec.cat3At a b c r k = Cert.Spec.cat3At a' b' c' r' k := by
  unfold Cert.Spec.cat3At
  split_ifs
  · exact ha _
  · exact hb _
  · exact hc _
  · rfl

/-- Two matrices side by side, at row `r`, read row `r` of each. -/
theorem cat2At_row {R R' A B N : Nat} {a : Cert.Spec.Mat R A} {a' : Cert.Spec.Mat R' A} {b : Cert.Spec.Mat R B}
    {b' : Cert.Spec.Mat R' B} {r : Fin R} {r' : Fin R'}
    (ha : ∀ k : Fin A, a (ix2 r k) = a' (ix2 r' k)) (hb : ∀ k : Fin B, b (ix2 r k) = b' (ix2 r' k)) (k : Fin N) :
    Cert.Spec.cat2At a b r k = Cert.Spec.cat2At a' b' r' k := by
  unfold Cert.Spec.cat2At
  split_ifs
  · exact ha _
  · exact hb _
  · rfl

/-- The edge update at row `r` reads row `r` of the three feature matrices. -/
theorem edgeUpd_row {R R' A B C K H D : Nat} {xi : Cert.Spec.Mat R A} {xi' : Cert.Spec.Mat R' A} {xj : Cert.Spec.Mat R B}
    {xj' : Cert.Spec.Mat R' B} {efc : Cert.Spec.Mat R C} {efc' : Cert.Spec.Mat R' C} (w0 : Cert.Spec.Mat K H)
    (b0 : Cert.Spec.Mat 1 H) (w1 : Cert.Spec.Mat H D) (b1 : Cert.Spec.Mat 1 D) {r : Fin R} {r' : Fin R'}
    (hi : ∀ k : Fin A, xi (ix2 r k) = xi' (ix2 r' k)) (hj : ∀ k : Fin B, xj (ix2 r k) = xj' (ix2 r' k))
    (he : ∀ k : Fin C, efc (ix2 r k) = efc' (ix2 r' k)) (c : Fin D) :
    Cert.Spec.edgeUpd xi xj efc w0 b0 w1 b1 (ix2 r c) = Cert.Spec.edgeUpd xi' xj' efc' w0 b0 w1 b1 (ix2 r' c) := by
  show max (Cert.Spec.linAt (Cert.Spec.relu (Cert.Spec.lin (Cert.Spec.cat3 K xi xj efc) w0 b0)) w1 b1 r c) 0
    = max (Cert.Spec.linAt (Cert.Spec.relu (Cert.Spec.lin (Cert.Spec.cat3 K xi' xj' efc') w0 b0)) w1 b1 r' c) 0
  refine congrArg (fun v => max v 0) (linAt_row w1 b1 (fun k => ?_) c)
  show max (Cert.Spec.linAt (Cert.Spec.cat3 K xi xj efc) w0 b0 r k) 0
    = max (Cert.Spec.linAt (Cert.Spec.cat3 K xi' xj' efc') w0 b0 r' k) 0
  exact congrArg (fun v => max v 0) (linAt_row w0 b0 (fun j => cat3At_row hi hj he j) k)

/-- The message at row `r` reads row `r` of the target rows and of the edge features. -/
theorem msgOf_row {R R' A D K C : Nat} {xi : Cert.Spec.Mat R A} {xi' : Cert.Spec.Mat R' A} {ef : Cert.Spec.Mat R D}
    {ef' : Cert.Spec.Mat R' D} (w : Cert.Spec.Mat K C) (b : Cert.Spec.Mat 1 C) {r : Fin R} {r' : Fin R'}
    (hi : ∀ k : Fin A, xi (ix2 r k) = xi' (ix2 r' k)) (he : ∀ k : Fin D, ef (ix2 r k) = ef' (ix2 r' k)) (c : Fin C) :
    Cert.Spec.msgOf xi ef w b (ix2 r c) = Cert.Spec.msgOf xi' ef' w b (ix2 r' c) := by
  show max (Cert.Spec.linAt (Cert.Spec.cat2 K xi ef) w b r c) 0 = max (Cert.Spec.linAt (Cert.Spec.cat2 K xi' ef') w b r' c) 0
  exact congrArg (fun v => max v 0) (linAt_row w b (fun j => cat2At_row hi he j) c)

/-! ## The kernel's layers at an entry -/

/-- One layer as the kernel computes it — operands narrowed (no change over the extended reals), the product into the
    zero accumulator, the bias row broadcast down the rows and added — is the affine layer, entry by entry. -/
theorem layer_at {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ .f32) (w : FVec Ideal ⟨2, ![K, C]⟩ .f32) (b : FVec Ideal ⟨2, ![1, C]⟩ .f32)
    (hx : FTy.bits .bf16 < FTy.bits .f32) (hs : (⟨2, ![1, C]⟩ : Shape).ShapeCasts ⟨2, ![1, C]⟩)
    (hb : (⟨2, ![1, C]⟩ : Shape).Broadcasts ⟨2, ![R, C]⟩) (r : Fin R) (c : Fin C) :
    addf (matmul d none (truncf .bf16 x hx) (truncf .bf16 w hx) (constant ⟨2, ![R, C]⟩ .f32 0x00000000#32))
        (broadcastTo ⟨2, ![R, C]⟩ (shapeCast ⟨2, ![1, C]⟩ b hs) hb) (ix2 r c) = Cert.Spec.linAt x w b r c := by
  rw [addf_apply, shapeCast_self, broadcastTo_1b_ab_apply]
  exact congrArg (· + b (ix2 (0 : Fin 1) c)) (Cert.LibDot.matmul_zero_at d hl hr hln hrn hlb hrb none _ _ r c)

/-- The rectifier as the kernel computes it: the larger of the entry and the zero word, which is 0. -/
theorem rectify_at {s : Shape} (v : FVec Ideal s .f32) (i : s.Idx) :
    maximumf v (broadcast s (Scalar.ofBits (F := Ideal) .f32 0x00000000#32)) i = max (v i) 0 := by
  rw [maximumf_apply, broadcast_apply]
  exact congrArg (max (v i)) Ideal.ofBits_zero_f32

/-! ## The kernel's two stored values at an entry -/

/-- The new edge features the kernel stores, entry by entry: the edge update of the three feature blocks. -/
theorem edge_payload_at (x0 x1 x2 : Vec Ideal S1000x256 .f32) (x3 : Vec Ideal S768x64 .f32) (x4 : Vec Ideal S1x64 .f32)
    (x5 : Vec Ideal S64x128 .f32) (x6 : Vec Ideal S1x128 .f32) (p : Fin 1000) (q : Fin 128) :
    k5_pay3 x0 x1 x2 x3 x4 x5 x6 (ix2 p q) = Cert.Spec.edgeUpd x0 x1 x2 x3 x4 x5 x6 (ix2 p q) := by
  unfold k5_pay3 k5_pay2
  dsimp only
  rw [rectify_at]
  refine congrArg (fun v => max v 0) ?_
  refine (layer_at dot_S1000x64_S64x128_S1000x128_1_0_0_1_n_n rfl rfl rfl rfl rfl rfl _ x5 x6 _ _ _ p q).trans ?_
  show Cert.Spec.linAt _ x5 x6 p q
    = Cert.Spec.linAt (Cert.Spec.relu (Cert.Spec.lin (Cert.Spec.cat3 768 x0 x1 x2) x3 x4)) x5 x6 p q
  refine linAt_row x5 x6 (fun k => ?_) q
  rw [rectify_at]
  refine congrArg (fun v => max v 0) ?_
  refine (layer_at dot_S1000x768_S768x64_S1000x64_1_0_0_1_n_n rfl rfl rfl rfl rfl rfl _ x3 x4 _ _ _ p k).trans ?_
  show Cert.Spec.linAt _ x3 x4 p k = Cert.Spec.linAt (Cert.Spec.cat3 768 x0 x1 x2) x3 x4 p k
  refine linAt_row x3 x4 (fun j => ?_) k
  rw [shapeCast_self, shapeCast_self, shapeCast_self]
  exact Cert.LibConcat.concat3_at _ x0 x1 x2 p j

/-- The messages the kernel stores, entry by entry: the message of the target block and the new edge features. -/
theorem msg_payload_at (x0 x1 x2 : Vec Ideal S1000x256 .f32) (x3 : Vec Ideal S768x64 .f32) (x4 : Vec Ideal S1x64 .f32)
    (x5 : Vec Ideal S64x128 .f32) (x6 : Vec Ideal S1x128 .f32) (x7 : Vec Ideal S384x128 .f32) (x8 : Vec Ideal S1x128 .f32)
    (p : Fin 1000) (q : Fin 128) :
    k5_pay1 (k5_pay4 x0 x1 x2 x3 x4 x5 x6 x7 x8) (ix2 p q)
      = Cert.Spec.msgOf x0 (Cert.Spec.edgeUpd x0 x1 x2 x3 x4 x5 x6 : Cert.Spec.Mat 1000 128) x7 x8 (ix2 p q) := by
  unfold k5_pay1 k5_pay4 k5_pay2
  dsimp only
  rw [rectify_at]
  refine congrArg (fun v => max v 0) ?_
  refine (layer_at dot_S1000x384_S384x128_S1000x128_1_0_0_1_n_n rfl rfl rfl rfl rfl rfl _ x7 x8 _ _ _ p q).trans ?_
  show Cert.Spec.linAt _ x7 x8 p q
    = Cert.Spec.linAt (Cert.Spec.cat2 384 x0 (Cert.Spec.edgeUpd x0 x1 x2 x3 x4 x5 x6 : Cert.Spec.Mat 1000 128)) x7 x8 p q
  refine linAt_row x7 x8 (fun j => ?_) q
  rw [shapeCast_self]
  refine (Cert.LibConcat.concat2_at _ x0 (k5_pay3 x0 x1 x2 x3 x4 x5 x6) p j).trans ?_
  exact cat2At_row (fun _ => rfl) (fun k => edge_payload_at x0 x1 x2 x3 x4 x5 x6 p k) j

/-! ## Where each window's block sits -/

theorem offsets_zero : (![0, 0] : Fin 2 → Nat) = fun _ => 0 := funext fun a => by fin_cases a <;> rfl

/-- The index maps over the grid: at point `t` the three feature windows and the two output windows
    are at block (t, 0), the weight and bias windows at block (0, 0). -/
theorem index_facts : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = 0 ∧ win5_8.index t (1 : Fin 2) = 0)
    ∧ (win5_9.index t (0 : Fin 2) = t.val ∧ win5_9.index t (1 : Fin 2) = 0)
    ∧ (win5_10.index t (0 : Fin 2) = t.val ∧ win5_10.index t (1 : Fin 2) = 0) :=
  (by decide +kernel : ∀ t : Fin grid5.N, _)

/-- The grid has 100 points, so row `y` of the block at point `t` is a row of the array. -/
theorem row_lt (t : Fin cfg5.N) (y : Fin 1000) : t.val * 1000 + y.val < 100000 := by
  have h : t.val < 100 := lt_of_lt_of_eq t.isLt N_5
  have := y.isLt
  omega

/-- Window 0's block at point `t`, entry (y, k), is its array's entry (1000 t + y, k). -/
theorem xi_block_at (c : Dev nD) (t : Fin cfg5.N) (y : Fin 1000) (k : Fin 256) :
    (iblk5 V c 0 t : Vec Ideal S1000x256 .f32) (ix2 y k) = V c main_v45 (ix2 ⟨t.val * 1000 + y.val, row_lt t y⟩ k) := by
  obtain ⟨⟨e0, e1⟩, -⟩ := index_facts t
  show V c main_v45 (((cfg5.win 0).blk t).view.emb (ix2 y k)) = _
  refine congrArg (V c main_v45) (funext fun a => Fin.ext ?_)
  match a with
  | ⟨0, _⟩ => show win5_0.index t (0 : Fin 2) * 1000 + 1 * y.val = t.val * 1000 + y.val; rw [e0]; omega
  | ⟨1, _⟩ => show win5_0.index t (1 : Fin 2) * 256 + 1 * k.val = k.val; rw [e1]; omega

/-- Window 1's block at point `t`, entry (y, k), is its array's entry (1000 t + y, k). -/
theorem xj_block_at (c : Dev nD) (t : Fin cfg5.N) (y : Fin 1000) (k : Fin 256) :
    (iblk5 V c 1 t : Vec Ideal S1000x256 .f32) (ix2 y k) = V c main_v46 (ix2 ⟨t.val * 1000 + y.val, row_lt t y⟩ k) := by
  obtain ⟨-, ⟨e0, e1⟩, -⟩ := index_facts t
  show V c main_v46 (((cfg5.win 1).blk t).view.emb (ix2 y k)) = _
  refine congrArg (V c main_v46) (funext fun a => Fin.ext ?_)
  match a with
  | ⟨0, _⟩ => show win5_1.index t (0 : Fin 2) * 1000 + 1 * y.val = t.val * 1000 + y.val; rw [e0]; omega
  | ⟨1, _⟩ => show win5_1.index t (1 : Fin 2) * 256 + 1 * k.val = k.val; rw [e1]; omega

/-- Window 2's block at point `t`, entry (y, k), is its array's entry (1000 t + y, k). -/
theorem efc_block_at (c : Dev nD) (t : Fin cfg5.N) (y : Fin 1000) (k : Fin 256) :
    (iblk5 V c 2 t : Vec Ideal S1000x256 .f32) (ix2 y k) = V c main_v44 (ix2 ⟨t.val * 1000 + y.val, row_lt t y⟩ k) := by
  obtain ⟨-, -, ⟨e0, e1⟩, -⟩ := index_facts t
  show V c main_v44 (((cfg5.win 2).blk t).view.emb (ix2 y k)) = _
  refine congrArg (V c main_v44) (funext fun a => Fin.ext ?_)
  match a with
  | ⟨0, _⟩ => show win5_2.index t (0 : Fin 2) * 1000 + 1 * y.val = t.val * 1000 + y.val; rw [e0]; omega
  | ⟨1, _⟩ => show win5_2.index t (1 : Fin 2) * 256 + 1 * k.val = k.val; rw [e1]; omega

/-- Window 3's block at every point is its whole array. -/
theorem w0_block_whole (c : Dev nD) (t : Fin cfg5.N) : (iblk5 V c 3 t : Vec Ideal S768x64 .f32) = V c main_arg11 := by
  obtain ⟨-, -, -, ⟨e0, e1⟩, -⟩ := index_facts t
  funext y
  show V c main_arg11 (((cfg5.win 3).blk t).view.emb y) = V c main_arg11 y
  refine congrArg (V c main_arg11) (funext fun a => Fin.ext ?_)
  match a with
  | ⟨0, _⟩ => show win5_3.index t (0 : Fin 2) * 768 + 1 * (y 0).val = (y 0).val; rw [e0]; omega
  | ⟨1, _⟩ => show win5_3.index t (1 : Fin 2) * 64 + 1 * (y 1).val = (y 1).val; rw [e1]; omega

/-- Window 4's block at every point is its whole array. -/
theorem b0_block_whole (c : Dev nD) (t : Fin cfg5.N) : (iblk5 V c 4 t : Vec Ideal S1x64 .f32) = V c main_v47 := by
  obtain ⟨-, -, -, -, ⟨e0, e1⟩, -⟩ := index_facts t
  funext y
  show V c main_v47 (((cfg5.win 4).blk t).view.emb y) = V c main_v47 y
  refine congrArg (V c main_v47) (funext fun a => Fin.ext ?_)
  match a with
  | ⟨0, _⟩ => show win5_4.index t (0 : Fin 2) * 1 + 1 * (y 0).val = (y 0).val; rw [e0]; omega
  | ⟨1, _⟩ => show win5_4.index t (1 : Fin 2) * 64 + 1 * (y 1).val = (y 1).val; rw [e1]; omega

/-- Window 5's block at every point is its whole array. -/
theorem w1_block_whole (c : Dev nD) (t : Fin cfg5.N) : (iblk5 V c 5 t : Vec Ideal S64x128 .f32) = V c main_arg13 := by
  obtain ⟨-, -, -, -, -, ⟨e0, e1⟩, -⟩ := index_facts t
  funext y
  show V c main_arg13 (((cfg5.win 5).blk t).view.emb y) = V c main_arg13 y
  refine congrArg (V c main_arg13) (funext fun a => Fin.ext ?_)
  match a with
  | ⟨0, _⟩ => show win5_5.index t (0 : Fin 2) * 64 + 1 * (y 0).val = (y 0).val; rw [e0]; omega
  | ⟨1, _⟩ => show win5_5.index t (1 : Fin 2) * 128 + 1 * (y 1).val = (y 1).val; rw [e1]; omega

/-- Window 6's block at every point is its whole array. -/
theorem b1_block_whole (c : Dev nD) (t : Fin cfg5.N) : (iblk5 V c 6 t : Vec Ideal S1x128 .f32) = V c main_v48 := by
  obtain ⟨-, -, -, -, -, -, ⟨e0, e1⟩, -⟩ := index_facts t
  funext y
  show V c main_v48 (((cfg5.win 6).blk t).view.emb y) = V c main_v48 y
  refine congrArg (V c main_v48) (funext fun a => Fin.ext ?_)
  match a with
  | ⟨0, _⟩ => show win5_6.index t (0 : Fin 2) * 1 + 1 * (y 0).val = (y 0).val; rw [e0]; omega
  | ⟨1, _⟩ => show win5_6.index t (1 : Fin 2) * 128 + 1 * (y 1).val = (y 1).val; rw [e1]; omega

/-- Window 7's block at every point is its whole array. -/
theorem wm_block_whole (c : Dev nD) (t : Fin cfg5.N) : (iblk5 V c 7 t : Vec Ideal S384x128 .f32) = V c main_arg15 := by
  obtain ⟨-, -, -, -, -, -, -, ⟨e0, e1⟩, -⟩ := index_facts t
  funext y
  show V c main_arg15 (((cfg5.win 7).blk t).view.emb y) = V c main_arg15 y
  refine congrArg (V c main_arg15) (funext fun a => Fin.ext ?_)
  match a with
  | ⟨0, _⟩ => show win5_7.index t (0 : Fin 2) * 384 + 1 * (y 0).val = (y 0).val; rw [e0]; omega
  | ⟨1, _⟩ => show win5_7.index t (1 : Fin 2) * 128 + 1 * (y 1).val = (y 1).val; rw [e1]; omega

/-- Window 8's block at every point is its whole array. -/
theorem bm_block_whole (c : Dev nD) (t : Fin cfg5.N) : (iblk5 V c 8 t : Vec Ideal S1x128 .f32) = V c main_v49 := by
  obtain ⟨-, -, -, -, -, -, -, -, ⟨e0, e1⟩, -⟩ := index_facts t
  funext y
  show V c main_v49 (((cfg5.win 8).blk t).view.emb y) = V c main_v49 y
  refine congrArg (V c main_v49) (funext fun a => Fin.ext ?_)
  match a with
  | ⟨0, _⟩ => show win5_8.index t (0 : Fin 2) * 1 + 1 * (y 0).val = (y 0).val; rw [e0]; omega
  | ⟨1, _⟩ => show win5_8.index t (1 : Fin 2) * 128 + 1 * (y 1).val = (y 1).val; rw [e1]; omega

/-! ## What each point writes back -/

/-- An entry of an output block at point `t` sits in the array at row 1000 t + p, same column (window 9). -/
theorem edge_entry_row (t : Fin cfg5.N) (p : Fin 1000) (q : Fin 128) :
    ((cfg5.win 9).blk t).view.emb (ix2 p q) = ix2 ⟨t.val * 1000 + p.val, row_lt t p⟩ q := by
  obtain ⟨-, -, -, -, -, -, -, -, -, ⟨e0, e1⟩, -⟩ := index_facts t
  refine funext fun a => Fin.ext ?_
  match a with
  | ⟨0, _⟩ => show win5_9.index t (0 : Fin 2) * 1000 + 1 * p.val = t.val * 1000 + p.val; rw [e0]; omega
  | ⟨1, _⟩ => show win5_9.index t (1 : Fin 2) * 128 + 1 * q.val = q.val; rw [e1]; omega

/-- The same for window 10. -/
theorem msg_entry_row (t : Fin cfg5.N) (p : Fin 1000) (q : Fin 128) :
    ((cfg5.win 10).blk t).view.emb (ix2 p q) = ix2 ⟨t.val * 1000 + p.val, row_lt t p⟩ q := by
  obtain ⟨-, -, -, -, -, -, -, -, -, -, e0, e1⟩ := index_facts t
  refine funext fun a => Fin.ext ?_
  match a with
  | ⟨0, _⟩ => show win5_10.index t (0 : Fin 2) * 1000 + 1 * p.val = t.val * 1000 + p.val; rw [e0]; omega
  | ⟨1, _⟩ => show win5_10.index t (1 : Fin 2) * 128 + 1 * q.val = q.val; rw [e1]; omega

/-- Point `t` writes back, to the new edge features, block `t` of the edge update of the whole arrays. -/
theorem edge_flushed (c : Dev nD) (t : Fin cfg5.N) :
    (dat5 (F := Ideal) V c).flushed 9 t = ((cfg5.win 9).blk t).view.read (Elt Ideal) (Cert.Spec.edgeUpd (V c main_v45) (V c main_v46) (V c main_v44) (V c main_arg11) (V c main_v47) (V c main_arg13) (V c main_v48)) := by
  show (cfg5.win 9).cut (grid5.coords t) ((dat5 V c).after 9 t) = _
  rw [after5_9]
  unfold out5_9
  rw [View.canon_unit_zero offsets_zero]
  simp only [View.ld_unit_zero (S := S1000x256) offsets_zero, View.ld_unit_zero (S := S768x64) offsets_zero,
    View.ld_unit_zero (S := S1x64) offsets_zero, View.ld_unit_zero (S := S64x128) offsets_zero,
    View.ld_unit_zero (S := S1x128) offsets_zero]
  funext j
  obtain ⟨p, q, rfl⟩ : ∃ (p : Fin 1000) (q : Fin 128), j = ix2 p q := ⟨j 0, j 1, eq_ix2 j⟩
  show k5_pay3 (iblk5 V c 0 t) (iblk5 V c 1 t) (iblk5 V c 2 t) (iblk5 V c 3 t) (iblk5 V c 4 t) (iblk5 V c 5 t) (iblk5 V c 6 t) (ix2 p q)
    = (Cert.Spec.edgeUpd (V c main_v45) (V c main_v46) (V c main_v44) (V c main_arg11) (V c main_v47) (V c main_arg13) (V c main_v48)) (((cfg5.win 9).blk t).view.emb (ix2 p q))
  rw [edge_entry_row t p q, edge_payload_at, w0_block_whole V c t, b0_block_whole V c t, w1_block_whole V c t, b1_block_whole V c t]
  exact edgeUpd_row _ _ _ _ (fun k => xi_block_at V c t p k) (fun k => xj_block_at V c t p k) (fun k => efc_block_at V c t p k) q

/-- Point `t` writes back, to the messages, block `t` of the message of the whole arrays. -/
theorem msg_flushed (c : Dev nD) (t : Fin cfg5.N) :
    (dat5 (F := Ideal) V c).flushed 10 t = ((cfg5.win 10).blk t).view.read (Elt Ideal)
      (Cert.Spec.msgOf (V c main_v45) (Cert.Spec.edgeUpd (V c main_v45) (V c main_v46) (V c main_v44) (V c main_arg11) (V c main_v47) (V c main_arg13) (V c main_v48) : Cert.Spec.Mat 100000 128) (V c main_arg15) (V c main_v49)) := by
  show (cfg5.win 10).cut (grid5.coords t) ((dat5 V c).after 10 t) = _
  rw [after5_10]
  unfold out5_10
  rw [View.canon_unit_zero offsets_zero]
  simp only [View.ld_unit_zero (S := S1000x256) offsets_zero, View.ld_unit_zero (S := S768x64) offsets_zero,
    View.ld_unit_zero (S := S1x64) offsets_zero, View.ld_unit_zero (S := S64x128) offsets_zero,
    View.ld_unit_zero (S := S1x128) offsets_zero, View.ld_unit_zero (S := S384x128) offsets_zero]
  funext j
  obtain ⟨p, q, rfl⟩ : ∃ (p : Fin 1000) (q : Fin 128), j = ix2 p q := ⟨j 0, j 1, eq_ix2 j⟩
  show k5_pay1 (k5_pay4 (iblk5 V c 0 t) (iblk5 V c 1 t) (iblk5 V c 2 t) (iblk5 V c 3 t) (iblk5 V c 4 t) (iblk5 V c 5 t)
      (iblk5 V c 6 t) (iblk5 V c 7 t) (iblk5 V c 8 t)) (ix2 p q)
    = (Cert.Spec.msgOf (V c main_v45) (Cert.Spec.edgeUpd (V c main_v45) (V c main_v46) (V c main_v44) (V c main_arg11) (V c main_v47) (V c main_arg13) (V c main_v48) : Cert.Spec.Mat 100000 128) (V c main_arg15) (V c main_v49)) (((cfg5.win 10).blk t).view.emb (ix2 p q))
  rw [msg_entry_row t p q, msg_payload_at, w0_block_whole V c t, b0_block_whole V c t, w1_block_whole V c t, b1_block_whole V c t,
    wm_block_whole V c t, bm_block_whole V c t]
  exact msgOf_row _ _ (fun k => xi_block_at V c t p k)
    (fun k => edgeUpd_row _ _ _ _ (fun k => xi_block_at V c t p k) (fun k => xj_block_at V c t p k)
      (fun k => efc_block_at V c t p k) k) q

/-! ## The blocks fill the arrays -/

/-- Row `r` is row `r % 1000` of the block of point `r / 1000`. -/
theorem row_split (r : Fin 100000) : ∃ (t : Fin cfg5.N) (p : Fin 1000), r = ⟨t.val * 1000 + p.val, row_lt t p⟩ := by
  have hr := r.isLt
  exact ⟨⟨r.val / 1000, lt_of_lt_of_eq (show r.val / 1000 < 100 by omega) N_5.symm⟩, ⟨r.val % 1000, Nat.mod_lt _ (by omega)⟩,
    Fin.ext (show r.val = r.val / 1000 * 1000 + r.val % 1000 by omega)⟩

/-- Every entry of the new edge features is in some point's block, and every point writes its block back. -/
theorem edge_covered (i : S100000x128.Idx) :
    ∃ t : Fin cfg5.N, (cfg5.win 9).flush t = true ∧ i ∈ ((cfg5.win 9).blk t).view.set := by
  obtain ⟨r, q, rfl⟩ : ∃ (r : Fin 100000) (q : Fin 128), i = ix2 r q := ⟨i 0, i 1, eq_ix2 i⟩
  obtain ⟨t, p, rfl⟩ := row_split r
  refine ⟨t, flush5_9 t, ?_⟩
  rw [← edge_entry_row t p q]
  exact ((cfg5.win 9).blk t).view.emb_mem_set _

/-- Every entry of the messages is in some point's block, and every point writes its block back. -/
theorem msg_covered (i : S100000x128.Idx) :
    ∃ t : Fin cfg5.N, (cfg5.win 10).flush t = true ∧ i ∈ ((cfg5.win 10).blk t).view.set := by
  obtain ⟨r, q, rfl⟩ : ∃ (r : Fin 100000) (q : Fin 128), i = ix2 r q := ⟨i 0, i 1, eq_ix2 i⟩
  obtain ⟨t, p, rfl⟩ := row_split r
  refine ⟨t, flush5_10 t, ?_⟩
  rw [← msg_entry_row t p q]
  exact ((cfg5.win 10).blk t).view.emb_mem_set _

/-! ## The two arrays after the step -/

/-- The new edge features after the step: the edge update of the arrays the step was entered with. -/
theorem arr9 (c : Dev nD) : (dat5 (F := Ideal) V c).arrAt 9 cfg5.N
      = Cert.Spec.edgeUpd (V c main_v45) (V c main_v46) (V c main_v44) (V c main_arg11) (V c main_v47) (V c main_arg13) (V c main_v48) :=
  (dat5 (F := Ideal) V c).arrAt_eq_of_cover 9 _ (fun t _ => edge_flushed V c t) edge_covered

/-- The messages after the step: the message of the target rows and the new edge features. -/
theorem arr10 (c : Dev nD) : (dat5 (F := Ideal) V c).arrAt 10 cfg5.N
      = Cert.Spec.msgOf (V c main_v45) (Cert.Spec.edgeUpd (V c main_v45) (V c main_v46) (V c main_v44) (V c main_arg11) (V c main_v47) (V c main_arg13) (V c main_v48) : Cert.Spec.Mat 100000 128) (V c main_arg15) (V c main_v49) :=
  (dat5 (F := Ideal) V c).arrAt_eq_of_cover 10 _ (fun t _ => msg_flushed V c t) msg_covered

end Cert.KernelIdeal.Region5

end
-- ==== Proof.KStep4.lean ====
/-
  One round of message passing through the run: from what the previous step's launch left to what this round's
  launch leaves. Between the two launches the host joins the node embedding with the messages summed into their
  target nodes and the edge embedding with the previous edge features, gathers the joined node rows at the target and
  source index words, and recasts the three bias vectors as rows; the launch then leaves the edge update and the
  message of those. Every other buffer is written once and carried unchanged, so the round's two results are the two
  components of the network's step at the carried state.
-/
import proofs.«403211_j60627758350346_1_alg».proof.Proof.Gen.KernelIdeal.Frame
import proofs.«403211_j60627758350346_1_alg».proof.Proof.Spec
import proofs.«403211_j60627758350346_1_alg».proof.Proof.SpecNet
import proofs.«403211_j60627758350346_1_alg».proof.Proof.KNames
import proofs.«403211_j60627758350346_1_alg».proof.Proof.KGlue
import proofs.«403211_j60627758350346_1_alg».proof.Proof.KTake
import proofs.«403211_j60627758350346_1_alg».proof.Proof.LibKeep
import proofs.«403211_j60627758350346_1_alg».proof.Proof.KRegion5
import Idealize.ShloMosaic.Lib.StableHlo.Run

noncomputable section

namespace Cert.KernelIdeal.Step4

open Idealize.ShloMosaic Idealize.ShloMosaic.TcCoe Idealize.SL.Sem Idealize.ShloMosaic.StableHlo
open Cert.KernelIdeal Cert.KernelIdeal.Gen Cert.KernelIdeal.Names Cert.KernelIdeal.Glue Cert.KernelIdeal.Take Cert.LibKeep

variable (m : (ℓ : Loc nD τ sig) → Buf (Elt Ideal) ℓ) (ρ : Dev nD → PrngReg) (c : Dev nD)

/-! ## What the step's launch reads, in terms of what the previous launch left

  Between the two launches the host joins the node embedding with the messages summed into their targets and the
  edge embedding with the previous edge features, gathers the joined node rows at the two index vectors, and recasts
  the three bias vectors as rows; every other buffer is carried unchanged. -/

/-- The first layer's weights are carried unchanged to the launch. -/
theorem w0_carried : W23 m ρ c (Proc.devRef .tc main_arg11) = W19 m ρ c (Proc.devRef .tc main_arg11) :=
  (by kept_host hostOps5_3 : W23 m ρ c (Proc.devRef .tc main_arg11) = W22 m ρ c (Proc.devRef .tc main_arg11)).trans
  ((by kept_host hostOps5_2 : W22 m ρ c (Proc.devRef .tc main_arg11) = W21 m ρ c (Proc.devRef .tc main_arg11)).trans
  ((by kept_host hostOps5_1 : W21 m ρ c (Proc.devRef .tc main_arg11) = W20 m ρ c (Proc.devRef .tc main_arg11)).trans
  (by kept_host hostOps5 : W20 m ρ c (Proc.devRef .tc main_arg11) = W19 m ρ c (Proc.devRef .tc main_arg11))))

/-- The second layer's weights are carried unchanged to the launch. -/
theorem w1_carried : W23 m ρ c (Proc.devRef .tc main_arg13) = W19 m ρ c (Proc.devRef .tc main_arg13) :=
  (by kept_host hostOps5_3 : W23 m ρ c (Proc.devRef .tc main_arg13) = W22 m ρ c (Proc.devRef .tc main_arg13)).trans
  ((by kept_host hostOps5_2 : W22 m ρ c (Proc.devRef .tc main_arg13) = W21 m ρ c (Proc.devRef .tc main_arg13)).trans
  ((by kept_host hostOps5_1 : W21 m ρ c (Proc.devRef .tc main_arg13) = W20 m ρ c (Proc.devRef .tc main_arg13)).trans
  (by kept_host hostOps5 : W20 m ρ c (Proc.devRef .tc main_arg13) = W19 m ρ c (Proc.devRef .tc main_arg13))))

/-- The message layer's weights are carried unchanged to the launch. -/
theorem wm_carried : W23 m ρ c (Proc.devRef .tc main_arg15) = W19 m ρ c (Proc.devRef .tc main_arg15) :=
  (by kept_host hostOps5_3 : W23 m ρ c (Proc.devRef .tc main_arg15) = W22 m ρ c (Proc.devRef .tc main_arg15)).trans
  ((by kept_host hostOps5_2 : W22 m ρ c (Proc.devRef .tc main_arg15) = W21 m ρ c (Proc.devRef .tc main_arg15)).trans
  ((by kept_host hostOps5_1 : W21 m ρ c (Proc.devRef .tc main_arg15) = W20 m ρ c (Proc.devRef .tc main_arg15)).trans
  (by kept_host hostOps5 : W20 m ρ c (Proc.devRef .tc main_arg15) = W19 m ρ c (Proc.devRef .tc main_arg15))))

/-- The first layer's bias, as the launch reads it: the bias vector as a row. -/
theorem b0_written : W23 m ρ c (Proc.devRef .tc main_v47) = Cert.Spec.row (W19 m ρ c (Proc.devRef .tc main_arg12)) :=
  (glue5_v47 (W22 m ρ c)).trans (congrArg (Cert.Spec.row (C := 64))
    ((by kept_host hostOps5_2 : W22 m ρ c (Proc.devRef .tc main_arg12) = W21 m ρ c (Proc.devRef .tc main_arg12)).trans
    ((by kept_host hostOps5_1 : W21 m ρ c (Proc.devRef .tc main_arg12) = W20 m ρ c (Proc.devRef .tc main_arg12)).trans
    (by kept_host hostOps5 : W20 m ρ c (Proc.devRef .tc main_arg12) = W19 m ρ c (Proc.devRef .tc main_arg12)))))

/-- The second layer's bias, as the launch reads it: the bias vector as a row. -/
theorem b1_written : W23 m ρ c (Proc.devRef .tc main_v48) = Cert.Spec.row (W19 m ρ c (Proc.devRef .tc main_arg14)) :=
  (glue5_v48 (W22 m ρ c)).trans (congrArg (Cert.Spec.row (C := 128))
    ((by kept_host hostOps5_2 : W22 m ρ c (Proc.devRef .tc main_arg14) = W21 m ρ c (Proc.devRef .tc main_arg14)).trans
    ((by kept_host hostOps5_1 : W21 m ρ c (Proc.devRef .tc main_arg14) = W20 m ρ c (Proc.devRef .tc main_arg14)).trans
    (by kept_host hostOps5 : W20 m ρ c (Proc.devRef .tc main_arg14) = W19 m ρ c (Proc.devRef .tc main_arg14)))))

/-- The message layer's bias, as the launch reads it: the bias vector as a row. -/
theorem bm_written : W23 m ρ c (Proc.devRef .tc main_v49) = Cert.Spec.row (W19 m ρ c (Proc.devRef .tc main_arg16)) :=
  (glue5_v49 (W22 m ρ c)).trans (congrArg (Cert.Spec.row (C := 128))
    ((by kept_host hostOps5_2 : W22 m ρ c (Proc.devRef .tc main_arg16) = W21 m ρ c (Proc.devRef .tc main_arg16)).trans
    ((by kept_host hostOps5_1 : W21 m ρ c (Proc.devRef .tc main_arg16) = W20 m ρ c (Proc.devRef .tc main_arg16)).trans
    (by kept_host hostOps5 : W20 m ρ c (Proc.devRef .tc main_arg16) = W19 m ρ c (Proc.devRef .tc main_arg16)))))

/-- The joined edge features, as the launch reads them: the edge embedding beside the previous edge features. -/
theorem efc_written : W23 m ρ c (Proc.devRef .tc main_v44) = Cert.Spec.cat2 256 (W19 m ρ c (Proc.devRef .tc main_v9)) (W19 m ρ c (Proc.devRef .tc main_v39_0)) :=
  (by kept_host hostOps5_3 : W23 m ρ c (Proc.devRef .tc main_v44) = W22 m ρ c (Proc.devRef .tc main_v44)).trans
  ((by kept_host hostOps5_2 : W22 m ρ c (Proc.devRef .tc main_v44) = W21 m ρ c (Proc.devRef .tc main_v44)).trans
  ((by kept_host hostOps5_1 : W21 m ρ c (Proc.devRef .tc main_v44) = W20 m ρ c (Proc.devRef .tc main_v44)).trans
  (glue5_v44 (W19 m ρ c))))

/-- The joined node features: the node embedding beside the messages summed into their targets. -/
theorem nfc_written : W20 m ρ c (Proc.devRef .tc main_v43) = Cert.Spec.cat2 256 (W19 m ρ c (Proc.devRef .tc main_v6)) (scK (colIdx (W19 m ρ c (Proc.devRef .tc main_v3))) (W19 m ρ c (Proc.devRef .tc main_v39_1))) :=
  glue5_v43 (W19 m ρ c)

/-- The target rows, as the launch reads them: the joined node features gathered at the target index words. -/
theorem xi_written (hI : ∀ e : S100000.Idx, ((W19 m ρ c (Proc.devRef .tc main_v3) : IVec S100000 32) e).toNat < 20000) :
    W23 m ρ c (Proc.devRef .tc main_v45) = gK (Cert.Spec.cat2 256 (W19 m ρ c (Proc.devRef .tc main_v6)) (scK (colIdx (W19 m ρ c (Proc.devRef .tc main_v3))) (W19 m ρ c (Proc.devRef .tc main_v39_1)))) (nrmIdx (W19 m ρ c (Proc.devRef .tc main_v3))) := by
  have e3 : W20 m ρ c (Proc.devRef .tc main_v3) = W19 m ρ c (Proc.devRef .tc main_v3) := by kept_host hostOps5
  refine (by kept_host hostOps5_3 : W23 m ρ c (Proc.devRef .tc main_v45) = W22 m ρ c (Proc.devRef .tc main_v45)).trans
    ((by kept_host hostOps5_2 : W22 m ρ c (Proc.devRef .tc main_v45) = W21 m ρ c (Proc.devRef .tc main_v45)).trans ?_)
  refine (take_call6 (W20 m ρ c) (by rw [e3]; exact hI)).trans ?_
  rw [e3, nfc_written]
  rfl

/-- The source rows, as the launch reads them: the joined node features gathered at the source index words. -/
theorem xj_written (hJ : ∀ e : S100000.Idx, ((W19 m ρ c (Proc.devRef .tc main_v1) : IVec S100000 32) e).toNat < 20000) :
    W23 m ρ c (Proc.devRef .tc main_v46) = gK (Cert.Spec.cat2 256 (W19 m ρ c (Proc.devRef .tc main_v6)) (scK (colIdx (W19 m ρ c (Proc.devRef .tc main_v3))) (W19 m ρ c (Proc.devRef .tc main_v39_1)))) (nrmIdx (W19 m ρ c (Proc.devRef .tc main_v1))) := by
  have e1 : W21 m ρ c (Proc.devRef .tc main_v1) = W19 m ρ c (Proc.devRef .tc main_v1) :=
    (by kept_host hostOps5_1 : W21 m ρ c (Proc.devRef .tc main_v1) = W20 m ρ c (Proc.devRef .tc main_v1)).trans
      (by kept_host hostOps5 : W20 m ρ c (Proc.devRef .tc main_v1) = W19 m ρ c (Proc.devRef .tc main_v1))
  have e21 : W21 m ρ c (Proc.devRef .tc main_v43) = W20 m ρ c (Proc.devRef .tc main_v43) := by kept_host hostOps5_1
  refine (by kept_host hostOps5_3 : W23 m ρ c (Proc.devRef .tc main_v46) = W22 m ρ c (Proc.devRef .tc main_v46)).trans ?_
  refine (take_call7 (W21 m ρ c) (by rw [e1]; exact hJ)).trans ?_
  rw [e1, e21, nfc_written]
  rfl

/-! ## What the step's launch leaves -/

/-- The new edge features: the edge update of what the launch reads. -/
theorem edge_left : W24 m ρ c (Proc.devRef .tc main_v50_0)
    = Cert.Spec.edgeUpd (W23 m ρ c (Proc.devRef .tc main_v45)) (W23 m ρ c (Proc.devRef .tc main_v46)) (W23 m ρ c (Proc.devRef .tc main_v44))
        (W23 m ρ c (Proc.devRef .tc main_arg11)) (W23 m ρ c (Proc.devRef .tc main_v47)) (W23 m ρ c (Proc.devRef .tc main_arg13))
        (W23 m ρ c (Proc.devRef .tc main_v48)) :=
  (W24_arr m ρ c 9).trans (Cert.KernelIdeal.Region5.arr9 (V23 m ρ) c)

/-- The messages: the message of the target rows and the new edge features. -/
theorem msg_left : W24 m ρ c (Proc.devRef .tc main_v50_1)
    = Cert.Spec.msgOf (W23 m ρ c (Proc.devRef .tc main_v45)) (Cert.Spec.edgeUpd (W23 m ρ c (Proc.devRef .tc main_v45)) (W23 m ρ c (Proc.devRef .tc main_v46)) (W23 m ρ c (Proc.devRef .tc main_v44))
        (W23 m ρ c (Proc.devRef .tc main_arg11)) (W23 m ρ c (Proc.devRef .tc main_v47)) (W23 m ρ c (Proc.devRef .tc main_arg13))
        (W23 m ρ c (Proc.devRef .tc main_v48)) : Cert.Spec.Mat 100000 128)
        (W23 m ρ c (Proc.devRef .tc main_arg15)) (W23 m ρ c (Proc.devRef .tc main_v49)) :=
  (W24_arr m ρ c 10).trans (Cert.KernelIdeal.Region5.arr10 (V23 m ρ) c)

/-! ## The round -/

/-- Round 4 of message passing, from the contents the previous region left to the contents this round's region
    leaves: the new edge features are the round's second component, and the messages summed into their target
    nodes its first. -/
theorem round4 (NF0 : Cert.Spec.Mat 20000 128) (EF0 : Cert.Spec.Mat 100000 128) (I J : IVec S100000 32) (S : Cert.Spec.St 20000 100000 128)
    (M11 : Cert.Spec.Mat 768 64) (B12 : Cert.Spec.Vc 64) (M13 : Cert.Spec.Mat 64 128) (B14 : Cert.Spec.Vc 128)
    (M15 : Cert.Spec.Mat 384 128) (B16 : Cert.Spec.Vc 128)
    (h6 : W19 m ρ c (Proc.devRef .tc main_v6) = NF0) (h9 : W19 m ρ c (Proc.devRef .tc main_v9) = EF0)
    (h3 : W19 m ρ c (Proc.devRef .tc main_v3) = I) (h1 : W19 m ρ c (Proc.devRef .tc main_v1) = J)
    (hef : W19 m ρ c (Proc.devRef .tc main_v39_0) = S.2)
    (hnf : scK (colIdx I) (W19 m ρ c (Proc.devRef .tc main_v39_1)) = S.1)
    (h11 : W19 m ρ c (Proc.devRef .tc main_arg11) = M11) (h12 : W19 m ρ c (Proc.devRef .tc main_arg12) = B12)
    (h13 : W19 m ρ c (Proc.devRef .tc main_arg13) = M13) (h14 : W19 m ρ c (Proc.devRef .tc main_arg14) = B14)
    (h15 : W19 m ρ c (Proc.devRef .tc main_arg15) = M15) (h16 : W19 m ρ c (Proc.devRef .tc main_arg16) = B16)
    (hI : ∀ e : S100000.Idx, (I e).toNat < 20000) (hJ : ∀ e : S100000.Idx, (J e).toNat < 20000) :
    W24 m ρ c (Proc.devRef .tc main_v50_0)
        = (Cert.Spec.step gK scK NF0 EF0 (nrmIdx I) (nrmIdx J) (colIdx I) M11 (Cert.Spec.row B12) M13 (Cert.Spec.row B14) M15 (Cert.Spec.row B16) S).2
      ∧ scK (colIdx I) (W24 m ρ c (Proc.devRef .tc main_v50_1))
        = (Cert.Spec.step gK scK NF0 EF0 (nrmIdx I) (nrmIdx J) (colIdx I) M11 (Cert.Spec.row B12) M13 (Cert.Spec.row B14) M15 (Cert.Spec.row B16) S).1 := by
  have hI' : ∀ e : S100000.Idx, ((W19 m ρ c (Proc.devRef .tc main_v3) : IVec S100000 32) e).toNat < 20000 := by
    rw [h3]; exact hI
  have hJ' : ∀ e : S100000.Idx, ((W19 m ρ c (Proc.devRef .tc main_v1) : IVec S100000 32) e).toNat < 20000 := by
    rw [h1]; exact hJ
  have exi := xi_written m ρ c hI'
  have exj := xj_written m ρ c hJ'
  have eefc := efc_written m ρ c
  rw [h6, h3, hnf] at exi
  rw [h6, h3, h1, hnf] at exj
  rw [h9, hef] at eefc
  constructor
  · rw [edge_left, exi, exj, eefc, w0_carried, b0_written, w1_carried, b1_written, h11, h12, h13, h14]
    rfl
  · rw [msg_left, exi, exj, eefc, w0_carried, b0_written, w1_carried, b1_written, wm_carried, bm_written, h11, h12, h13,
      h14, h15, h16]
    rfl

end Cert.KernelIdeal.Step4

end
-- ==== Proof.KCarry2.lean ====
/-
  Buffers no operation writes between two region exits keep their contents: the contents at region exit W2
  of every buffer a later segment still reads, in terms of the previous exit's.
-/
import proofs.«403211_j60627758350346_1_alg».proof.Proof.Gen.KernelIdeal.Frame
import proofs.«403211_j60627758350346_1_alg».proof.Proof.LibKeep
import Idealize.ShloMosaic.Lib.StableHlo.Run
import Idealize.ShloMosaic.PureOps.Ideal

noncomputable section

namespace Cert.KernelIdeal.Carry

open Idealize.ShloMosaic Idealize.ShloMosaic.TcCoe Idealize.SL.Sem Idealize.ShloMosaic.StableHlo
open Cert.KernelIdeal Cert.KernelIdeal.Gen Cert.LibKeep

variable (m : (ℓ : Loc nD τ sig) → Buf (Elt Ideal) ℓ) (ρ : Dev nD → PrngReg) (c : Dev nD)

theorem carry2_arg1 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by kept_host hostOps0
    _ = m ((c : Thread nD τ).loc main_arg1) := rfl

theorem carry2_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by kept_host hostOps0
    _ = m ((c : Thread nD τ).loc main_arg7) := rfl

theorem carry2_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by kept_host hostOps0
    _ = m ((c : Thread nD τ).loc main_arg8) := rfl

theorem carry2_arg9 : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by kept_host hostOps0
    _ = m ((c : Thread nD τ).loc main_arg9) := rfl

theorem carry2_arg10 : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := by kept_host hostOps0
    _ = m ((c : Thread nD τ).loc main_arg10) := rfl

theorem carry2_arg11 : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := by kept_host hostOps0
    _ = m ((c : Thread nD τ).loc main_arg11) := rfl

theorem carry2_arg12 : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := by kept_host hostOps0
    _ = m ((c : Thread nD τ).loc main_arg12) := rfl

theorem carry2_arg13 : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := by kept_host hostOps0
    _ = m ((c : Thread nD τ).loc main_arg13) := rfl

theorem carry2_arg14 : W2 m ρ c (Proc.devRef .tc main_arg14) = m ((c : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) := by kept_host hostOps0
    _ = m ((c : Thread nD τ).loc main_arg14) := rfl

theorem carry2_arg15 : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := by kept_host hostOps0
    _ = m ((c : Thread nD τ).loc main_arg15) := rfl

theorem carry2_arg16 : W2 m ρ c (Proc.devRef .tc main_arg16) = m ((c : Thread nD τ).loc main_arg16) :=
  calc W2 m ρ c (Proc.devRef .tc main_arg16)
    _ = W1 m ρ c (Proc.devRef .tc main_arg16) := W2_of_ne m ρ c main_arg16 (by decide)
    _ = W0 m ρ c (Proc.devRef .tc main_arg16) := by kept_host hostOps0
    _ = m ((c : Thread nD τ).loc main_arg16) := rfl

theorem carry2_arg17 : W2 m ρ c (Proc.devRef .tc main_arg17) = m ((c : Thread nD τ).loc main_arg17) :=
  calc W2 m ρ c (Proc.devRef .tc main_arg17)
    _ = W1 m ρ c (Proc.devRef .tc main_arg17) := W2_of_ne m ρ c main_arg17 (by decide)
    _ = W0 m ρ c (Proc.devRef .tc main_arg17) := by kept_host hostOps0
    _ = m ((c : Thread nD τ).loc main_arg17) := rfl

theorem carry2_arg18 : W2 m ρ c (Proc.devRef .tc main_arg18) = m ((c : Thread nD τ).loc main_arg18) :=
  calc W2 m ρ c (Proc.devRef .tc main_arg18)
    _ = W1 m ρ c (Proc.devRef .tc main_arg18) := W2_of_ne m ρ c main_arg18 (by decide)
    _ = W0 m ρ c (Proc.devRef .tc main_arg18) := by kept_host hostOps0
    _ = m ((c : Thread nD τ).loc main_arg18) := rfl

theorem carry2_arg19 : W2 m ρ c (Proc.devRef .tc main_arg19) = m ((c : Thread nD τ).loc main_arg19) :=
  calc W2 m ρ c (Proc.devRef .tc main_arg19)
    _ = W1 m ρ c (Proc.devRef .tc main_arg19) := W2_of_ne m ρ c main_arg19 (by decide)
    _ = W0 m ρ c (Proc.devRef .tc main_arg19) := by kept_host hostOps0
    _ = m ((c : Thread nD τ).loc main_arg19) := rfl

theorem carry2_arg20 : W2 m ρ c (Proc.devRef .tc main_arg20) = m ((c : Thread nD τ).loc main_arg20) :=
  calc W2 m ρ c (Proc.devRef .tc main_arg20)
    _ = W1 m ρ c (Proc.devRef .tc main_arg20) := W2_of_ne m ρ c main_arg20 (by decide)
    _ = W0 m ρ c (Proc.devRef .tc main_arg20) := by kept_host hostOps0
    _ = m ((c : Thread nD τ).loc main_arg20) := rfl

theorem carry2_arg21 : W2 m ρ c (Proc.devRef .tc main_arg21) = m ((c : Thread nD τ).loc main_arg21) :=
  calc W2 m ρ c (Proc.devRef .tc main_arg21)
    _ = W1 m ρ c (Proc.devRef .tc main_arg21) := W2_of_ne m ρ c main_arg21 (by decide)
    _ = W0 m ρ c (Proc.devRef .tc main_arg21) := by kept_host hostOps0
    _ = m ((c : Thread nD τ).loc main_arg21) := rfl

theorem carry2_arg22 : W2 m ρ c (Proc.devRef .tc main_arg22) = m ((c : Thread nD τ).loc main_arg22) :=
  calc W2 m ρ c (Proc.devRef .tc main_arg22)
    _ = W1 m ρ c (Proc.devRef .tc main_arg22) := W2_of_ne m ρ c main_arg22 (by decide)
    _ = W0 m ρ c (Proc.devRef .tc main_arg22) := by kept_host hostOps0
    _ = m ((c : Thread nD τ).loc main_arg22) := rfl

end Cert.KernelIdeal.Carry

end
-- ==== Proof.KCarry4.lean ====
/-
  Buffers no operation writes between two region exits keep their contents: the contents at region exit W4
  of every buffer a later segment still reads, in terms of the previous exit's.
-/
import proofs.«403211_j60627758350346_1_alg».proof.Proof.Gen.KernelIdeal.Frame
import proofs.«403211_j60627758350346_1_alg».proof.Proof.LibKeep
import Idealize.ShloMosaic.Lib.StableHlo.Run
import Idealize.ShloMosaic.PureOps.Ideal

noncomputable section

namespace Cert.KernelIdeal.Carry

open Idealize.ShloMosaic Idealize.ShloMosaic.TcCoe Idealize.SL.Sem Idealize.ShloMosaic.StableHlo
open Cert.KernelIdeal Cert.KernelIdeal.Gen Cert.LibKeep

variable (m : (ℓ : Loc nD τ sig) → Buf (Elt Ideal) ℓ) (ρ : Dev nD → PrngReg) (c : Dev nD)

theorem carry4_v6 : W4 m ρ c (Proc.devRef .tc main_v6) = W2 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := by kept_host hostOps1

theorem carry4_v3 : W4 m ρ c (Proc.devRef .tc main_v3) = W2 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by kept_host hostOps1

theorem carry4_v1 : W4 m ρ c (Proc.devRef .tc main_v1) = W2 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by kept_host hostOps1

theorem carry4_arg11 : W4 m ρ c (Proc.devRef .tc main_arg11) = W2 m ρ c (Proc.devRef .tc main_arg11) :=
  calc W4 m ρ c (Proc.devRef .tc main_arg11)
    _ = W3 m ρ c (Proc.devRef .tc main_arg11) := W4_of_ne m ρ c main_arg11 (by decide)
    _ = W2 m ρ c (Proc.devRef .tc main_arg11) := by kept_host hostOps1

theorem carry4_arg12 : W4 m ρ c (Proc.devRef .tc main_arg12) = W2 m ρ c (Proc.devRef .tc main_arg12) :=
  calc W4 m ρ c (Proc.devRef .tc main_arg12)
    _ = W3 m ρ c (Proc.devRef .tc main_arg12) := W4_of_ne m ρ c main_arg12 (by decide)
    _ = W2 m ρ c (Proc.devRef .tc main_arg12) := by kept_host hostOps1

theorem carry4_arg13 : W4 m ρ c (Proc.devRef .tc main_arg13) = W2 m ρ c (Proc.devRef .tc main_arg13) :=
  calc W4 m ρ c (Proc.devRef .tc main_arg13)
    _ = W3 m ρ c (Proc.devRef .tc main_arg13) := W4_of_ne m ρ c main_arg13 (by decide)
    _ = W2 m ρ c (Proc.devRef .tc main_arg13) := by kept_host hostOps1

theorem carry4_arg14 : W4 m ρ c (Proc.devRef .tc main_arg14) = W2 m ρ c (Proc.devRef .tc main_arg14) :=
  calc W4 m ρ c (Proc.devRef .tc main_arg14)
    _ = W3 m ρ c (Proc.devRef .tc main_arg14) := W4_of_ne m ρ c main_arg14 (by decide)
    _ = W2 m ρ c (Proc.devRef .tc main_arg14) := by kept_host hostOps1

theorem carry4_arg15 : W4 m ρ c (Proc.devRef .tc main_arg15) = W2 m ρ c (Proc.devRef .tc main_arg15) :=
  calc W4 m ρ c (Proc.devRef .tc main_arg15)
    _ = W3 m ρ c (Proc.devRef .tc main_arg15) := W4_of_ne m ρ c main_arg15 (by decide)
    _ = W2 m ρ c (Proc.devRef .tc main_arg15) := by kept_host hostOps1

theorem carry4_arg16 : W4 m ρ c (Proc.devRef .tc main_arg16) = W2 m ρ c (Proc.devRef .tc main_arg16) :=
  calc W4 m ρ c (Proc.devRef .tc main_arg16)
    _ = W3 m ρ c (Proc.devRef .tc main_arg16) := W4_of_ne m ρ c main_arg16 (by decide)
    _ = W2 m ρ c (Proc.devRef .tc main_arg16) := by kept_host hostOps1

theorem carry4_arg17 : W4 m ρ c (Proc.devRef .tc main_arg17) = W2 m ρ c (Proc.devRef .tc main_arg17) :=
  calc W4 m ρ c (Proc.devRef .tc main_arg17)
    _ = W3 m ρ c (Proc.devRef .tc main_arg17) := W4_of_ne m ρ c main_arg17 (by decide)
    _ = W2 m ρ c (Proc.devRef .tc main_arg17) := by kept_host hostOps1

theorem carry4_arg18 : W4 m ρ c (Proc.devRef .tc main_arg18) = W2 m ρ c (Proc.devRef .tc main_arg18) :=
  calc W4 m ρ c (Proc.devRef .tc main_arg18)
    _ = W3 m ρ c (Proc.devRef .tc main_arg18) := W4_of_ne m ρ c main_arg18 (by decide)
    _ = W2 m ρ c (Proc.devRef .tc main_arg18) := by kept_host hostOps1

theorem carry4_arg19 : W4 m ρ c (Proc.devRef .tc main_arg19) = W2 m ρ c (Proc.devRef .tc main_arg19) :=
  calc W4 m ρ c (Proc.devRef .tc main_arg19)
    _ = W3 m ρ c (Proc.devRef .tc main_arg19) := W4_of_ne m ρ c main_arg19 (by decide)
    _ = W2 m ρ c (Proc.devRef .tc main_arg19) := by kept_host hostOps1

theorem carry4_arg20 : W4 m ρ c (Proc.devRef .tc main_arg20) = W2 m ρ c (Proc.devRef .tc main_arg20) :=
  calc W4 m ρ c (Proc.devRef .tc main_arg20)
    _ = W3 m ρ c (Proc.devRef .tc main_arg20) := W4_of_ne m ρ c main_arg20 (by decide)
    _ = W2 m ρ c (Proc.devRef .tc main_arg20) := by kept_host hostOps1

theorem carry4_arg21 : W4 m ρ c (Proc.devRef .tc main_arg21) = W2 m ρ c (Proc.devRef .tc main_arg21) :=
  calc W4 m ρ c (Proc.devRef .tc main_arg21)
    _ = W3 m ρ c (Proc.devRef .tc main_arg21) := W4_of_ne m ρ c main_arg21 (by decide)
    _ = W2 m ρ c (Proc.devRef .tc main_arg21) := by kept_host hostOps1

theorem carry4_arg22 : W4 m ρ c (Proc.devRef .tc main_arg22) = W2 m ρ c (Proc.devRef .tc main_arg22) :=
  calc W4 m ρ c (Proc.devRef .tc main_arg22)
    _ = W3 m ρ c (Proc.devRef .tc main_arg22) := W4_of_ne m ρ c main_arg22 (by decide)
    _ = W2 m ρ c (Proc.devRef .tc main_arg22) := by kept_host hostOps1

end Cert.KernelIdeal.Carry

end
-- ==== Proof.KCarry9.lean ====
/-
  Buffers no operation writes between two region exits keep their contents: the contents at region exit W9
  of every buffer a later segment still reads, in terms of the previous exit's.
-/
import proofs.«403211_j60627758350346_1_alg».proof.Proof.Gen.KernelIdeal.Frame
import proofs.«403211_j60627758350346_1_alg».proof.Proof.LibKeep
import Idealize.ShloMosaic.Lib.StableHlo.Run
import Idealize.ShloMosaic.PureOps.Ideal

noncomputable section

namespace Cert.KernelIdeal.Carry

open Idealize.ShloMosaic Idealize.ShloMosaic.TcCoe Idealize.SL.Sem Idealize.ShloMosaic.StableHlo
open Cert.KernelIdeal Cert.KernelIdeal.Gen Cert.LibKeep

variable (m : (ℓ : Loc nD τ sig) → Buf (Elt Ideal) ℓ) (ρ : Dev nD → PrngReg) (c : Dev nD)

theorem carry9_v6 : W9 m ρ c (Proc.devRef .tc main_v6) = W4 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := by kept_host hostOps2_3
    _ = W6 m ρ c (Proc.devRef .tc main_v6) := by kept_host hostOps2_2
    _ = W5 m ρ c (Proc.devRef .tc main_v6) := by kept_host hostOps2_1
    _ = W4 m ρ c (Proc.devRef .tc main_v6) := by kept_host hostOps2

theorem carry9_v9 : W9 m ρ c (Proc.devRef .tc main_v9) = W4 m ρ c (Proc.devRef .tc main_v9) :=
  calc W9 m ρ c (Proc.devRef .tc main_v9)
    _ = W8 m ρ c (Proc.devRef .tc main_v9) := W9_of_ne m ρ c main_v9 (by decide)
    _ = W7 m ρ c (Proc.devRef .tc main_v9) := by kept_host hostOps2_3
    _ = W6 m ρ c (Proc.devRef .tc main_v9) := by kept_host hostOps2_2
    _ = W5 m ρ c (Proc.devRef .tc main_v9) := by kept_host hostOps2_1
    _ = W4 m ρ c (Proc.devRef .tc main_v9) := by kept_host hostOps2

theorem carry9_v3 : W9 m ρ c (Proc.devRef .tc main_v3) = W4 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := by kept_host hostOps2_3
    _ = W6 m ρ c (Proc.devRef .tc main_v3) := by kept_host hostOps2_2
    _ = W5 m ρ c (Proc.devRef .tc main_v3) := by kept_host hostOps2_1
    _ = W4 m ρ c (Proc.devRef .tc main_v3) := by kept_host hostOps2

theorem carry9_v1 : W9 m ρ c (Proc.devRef .tc main_v1) = W4 m ρ c (Proc.devRef .tc main_v1) :=
  calc W9 m ρ c (Proc.devRef .tc main_v1)
    _ = W8 m ρ c (Proc.devRef .tc main_v1) := W9_of_ne m ρ c main_v1 (by decide)
    _ = W7 m ρ c (Proc.devRef .tc main_v1) := by kept_host hostOps2_3
    _ = W6 m ρ c (Proc.devRef .tc main_v1) := by kept_host hostOps2_2
    _ = W5 m ρ c (Proc.devRef .tc main_v1) := by kept_host hostOps2_1
    _ = W4 m ρ c (Proc.devRef .tc main_v1) := by kept_host hostOps2

theorem carry9_arg11 : W9 m ρ c (Proc.devRef .tc main_arg11) = W4 m ρ c (Proc.devRef .tc main_arg11) :=
  calc W9 m ρ c (Proc.devRef .tc main_arg11)
    _ = W8 m ρ c (Proc.devRef .tc main_arg11) := (W9_arr m ρ c 3).trans (((dat2 (V8 m ρ) c).arrAt_in 3 rfl _).trans (A_eq2 (V8 m ρ) c 3))
    _ = W7 m ρ c (Proc.devRef .tc main_arg11) := by kept_host hostOps2_3
    _ = W6 m ρ c (Proc.devRef .tc main_arg11) := by kept_host hostOps2_2
    _ = W5 m ρ c (Proc.devRef .tc main_arg11) := by kept_host hostOps2_1
    _ = W4 m ρ c (Proc.devRef .tc main_arg11) := by kept_host hostOps2

theorem carry9_arg12 : W9 m ρ c (Proc.devRef .tc main_arg12) = W4 m ρ c (Proc.devRef .tc main_arg12) :=
  calc W9 m ρ c (Proc.devRef .tc main_arg12)
    _ = W8 m ρ c (Proc.devRef .tc main_arg12) := W9_of_ne m ρ c main_arg12 (by decide)
    _ = W7 m ρ c (Proc.devRef .tc main_arg12) := by kept_host hostOps2_3
    _ = W6 m ρ c (Proc.devRef .tc main_arg12) := by kept_host hostOps2_2
    _ = W5 m ρ c (Proc.devRef .tc main_arg12) := by kept_host hostOps2_1
    _ = W4 m ρ c (Proc.devRef .tc main_arg12) := by kept_host hostOps2

theorem carry9_arg13 : W9 m ρ c (Proc.devRef .tc main_arg13) = W4 m ρ c (Proc.devRef .tc main_arg13) :=
  calc W9 m ρ c (Proc.devRef .tc main_arg13)
    _ = W8 m ρ c (Proc.devRef .tc main_arg13) := (W9_arr m ρ c 5).trans (((dat2 (V8 m ρ) c).arrAt_in 5 rfl _).trans (A_eq2 (V8 m ρ) c 5))
    _ = W7 m ρ c (Proc.devRef .tc main_arg13) := by kept_host hostOps2_3
    _ = W6 m ρ c (Proc.devRef .tc main_arg13) := by kept_host hostOps2_2
    _ = W5 m ρ c (Proc.devRef .tc main_arg13) := by kept_host hostOps2_1
    _ = W4 m ρ c (Proc.devRef .tc main_arg13) := by kept_host hostOps2

theorem carry9_arg14 : W9 m ρ c (Proc.devRef .tc main_arg14) = W4 m ρ c (Proc.devRef .tc main_arg14) :=
  calc W9 m ρ c (Proc.devRef .tc main_arg14)
    _ = W8 m ρ c (Proc.devRef .tc main_arg14) := W9_of_ne m ρ c main_arg14 (by decide)
    _ = W7 m ρ c (Proc.devRef .tc main_arg14) := by kept_host hostOps2_3
    _ = W6 m ρ c (Proc.devRef .tc main_arg14) := by kept_host hostOps2_2
    _ = W5 m ρ c (Proc.devRef .tc main_arg14) := by kept_host hostOps2_1
    _ = W4 m ρ c (Proc.devRef .tc main_arg14) := by kept_host hostOps2

theorem carry9_arg15 : W9 m ρ c (Proc.devRef .tc main_arg15) = W4 m ρ c (Proc.devRef .tc main_arg15) :=
  calc W9 m ρ c (Proc.devRef .tc main_arg15)
    _ = W8 m ρ c (Proc.devRef .tc main_arg15) := (W9_arr m ρ c 7).trans (((dat2 (V8 m ρ) c).arrAt_in 7 rfl _).trans (A_eq2 (V8 m ρ) c 7))
    _ = W7 m ρ c (Proc.devRef .tc main_arg15) := by kept_host hostOps2_3
    _ = W6 m ρ c (Proc.devRef .tc main_arg15) := by kept_host hostOps2_2
    _ = W5 m ρ c (Proc.devRef .tc main_arg15) := by kept_host hostOps2_1
    _ = W4 m ρ c (Proc.devRef .tc main_arg15) := by kept_host hostOps2

theorem carry9_arg16 : W9 m ρ c (Proc.devRef .tc main_arg16) = W4 m ρ c (Proc.devRef .tc main_arg16) :=
  calc W9 m ρ c (Proc.devRef .tc main_arg16)
    _ = W8 m ρ c (Proc.devRef .tc main_arg16) := W9_of_ne m ρ c main_arg16 (by decide)
    _ = W7 m ρ c (Proc.devRef .tc main_arg16) := by kept_host hostOps2_3
    _ = W6 m ρ c (Proc.devRef .tc main_arg16) := by kept_host hostOps2_2
    _ = W5 m ρ c (Proc.devRef .tc main_arg16) := by kept_host hostOps2_1
    _ = W4 m ρ c (Proc.devRef .tc main_arg16) := by kept_host hostOps2

theorem carry9_arg17 : W9 m ρ c (Proc.devRef .tc main_arg17) = W4 m ρ c (Proc.devRef .tc main_arg17) :=
  calc W9 m ρ c (Proc.devRef .tc main_arg17)
    _ = W8 m ρ c (Proc.devRef .tc main_arg17) := W9_of_ne m ρ c main_arg17 (by decide)
    _ = W7 m ρ c (Proc.devRef .tc main_arg17) := by kept_host hostOps2_3
    _ = W6 m ρ c (Proc.devRef .tc main_arg17) := by kept_host hostOps2_2
    _ = W5 m ρ c (Proc.devRef .tc main_arg17) := by kept_host hostOps2_1
    _ = W4 m ρ c (Proc.devRef .tc main_arg17) := by kept_host hostOps2

theorem carry9_arg18 : W9 m ρ c (Proc.devRef .tc main_arg18) = W4 m ρ c (Proc.devRef .tc main_arg18) :=
  calc W9 m ρ c (Proc.devRef .tc main_arg18)
    _ = W8 m ρ c (Proc.devRef .tc main_arg18) := W9_of_ne m ρ c main_arg18 (by decide)
    _ = W7 m ρ c (Proc.devRef .tc main_arg18) := by kept_host hostOps2_3
    _ = W6 m ρ c (Proc.devRef .tc main_arg18) := by kept_host hostOps2_2
    _ = W5 m ρ c (Proc.devRef .tc main_arg18) := by kept_host hostOps2_1
    _ = W4 m ρ c (Proc.devRef .tc main_arg18) := by kept_host hostOps2

theorem carry9_arg19 : W9 m ρ c (Proc.devRef .tc main_arg19) = W4 m ρ c (Proc.devRef .tc main_arg19) :=
  calc W9 m ρ c (Proc.devRef .tc main_arg19)
    _ = W8 m ρ c (Proc.devRef .tc main_arg19) := W9_of_ne m ρ c main_arg19 (by decide)
    _ = W7 m ρ c (Proc.devRef .tc main_arg19) := by kept_host hostOps2_3
    _ = W6 m ρ c (Proc.devRef .tc main_arg19) := by kept_host hostOps2_2
    _ = W5 m ρ c (Proc.devRef .tc main_arg19) := by kept_host hostOps2_1
    _ = W4 m ρ c (Proc.devRef .tc main_arg19) := by kept_host hostOps2

theorem carry9_arg20 : W9 m ρ c (Proc.devRef .tc main_arg20) = W4 m ρ c (Proc.devRef .tc main_arg20) :=
  calc W9 m ρ c (Proc.devRef .tc main_arg20)
    _ = W8 m ρ c (Proc.devRef .tc main_arg20) := W9_of_ne m ρ c main_arg20 (by decide)
    _ = W7 m ρ c (Proc.devRef .tc main_arg20) := by kept_host hostOps2_3
    _ = W6 m ρ c (Proc.devRef .tc main_arg20) := by kept_host hostOps2_2
    _ = W5 m ρ c (Proc.devRef .tc main_arg20) := by kept_host hostOps2_1
    _ = W4 m ρ c (Proc.devRef .tc main_arg20) := by kept_host hostOps2

theorem carry9_arg21 : W9 m ρ c (Proc.devRef .tc main_arg21) = W4 m ρ c (Proc.devRef .tc main_arg21) :=
  calc W9 m ρ c (Proc.devRef .tc main_arg21)
    _ = W8 m ρ c (Proc.devRef .tc main_arg21) := W9_of_ne m ρ c main_arg21 (by decide)
    _ = W7 m ρ c (Proc.devRef .tc main_arg21) := by kept_host hostOps2_3
    _ = W6 m ρ c (Proc.devRef .tc main_arg21) := by kept_host hostOps2_2
    _ = W5 m ρ c (Proc.devRef .tc main_arg21) := by kept_host hostOps2_1
    _ = W4 m ρ c (Proc.devRef .tc main_arg21) := by kept_host hostOps2

theorem carry9_arg22 : W9 m ρ c (Proc.devRef .tc main_arg22) = W4 m ρ c (Proc.devRef .tc main_arg22) :=
  calc W9 m ρ c (Proc.devRef .tc main_arg22)
    _ = W8 m ρ c (Proc.devRef .tc main_arg22) := W9_of_ne m ρ c main_arg22 (by decide)
    _ = W7 m ρ c (Proc.devRef .tc main_arg22) := by kept_host hostOps2_3
    _ = W6 m ρ c (Proc.devRef .tc main_arg22) := by kept_host hostOps2_2
    _ = W5 m ρ c (Proc.devRef .tc main_arg22) := by kept_host hostOps2_1
    _ = W4 m ρ c (Proc.devRef .tc main_arg22) := by kept_host hostOps2

end Cert.KernelIdeal.Carry

end
-- ==== Proof.KCarry14.lean ====
/-
  Buffers no operation writes between two region exits keep their contents: the contents at region exit W14
  of every buffer a later segment still reads, in terms of the previous exit's.
-/
import proofs.«403211_j60627758350346_1_alg».proof.Proof.Gen.KernelIdeal.Frame
import proofs.«403211_j60627758350346_1_alg».proof.Proof.LibKeep
import Idealize.ShloMosaic.Lib.StableHlo.Run
import Idealize.ShloMosaic.PureOps.Ideal

noncomputable section

namespace Cert.KernelIdeal.Carry

open Idealize.ShloMosaic Idealize.ShloMosaic.TcCoe Idealize.SL.Sem Idealize.ShloMosaic.StableHlo
open Cert.KernelIdeal Cert.KernelIdeal.Gen Cert.LibKeep

variable (m : (ℓ : Loc nD τ sig) → Buf (Elt Ideal) ℓ) (ρ : Dev nD → PrngReg) (c : Dev nD)

theorem carry14_v6 : W14 m ρ c (Proc.devRef .tc main_v6) = W9 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := by kept_host hostOps3_3
    _ = W11 m ρ c (Proc.devRef .tc main_v6) := by kept_host hostOps3_2
    _ = W10 m ρ c (Proc.devRef .tc main_v6) := by kept_host hostOps3_1
    _ = W9 m ρ c (Proc.devRef .tc main_v6) := by kept_host hostOps3

theorem carry14_v9 : W14 m ρ c (Proc.devRef .tc main_v9) = W9 m ρ c (Proc.devRef .tc main_v9) :=
  calc W14 m ρ c (Proc.devRef .tc main_v9)
    _ = W13 m ρ c (Proc.devRef .tc main_v9) := W14_of_ne m ρ c main_v9 (by decide)
    _ = W12 m ρ c (Proc.devRef .tc main_v9) := by kept_host hostOps3_3
    _ = W11 m ρ c (Proc.devRef .tc main_v9) := by kept_host hostOps3_2
    _ = W10 m ρ c (Proc.devRef .tc main_v9) := by kept_host hostOps3_1
    _ = W9 m ρ c (Proc.devRef .tc main_v9) := by kept_host hostOps3

theorem carry14_v3 : W14 m ρ c (Proc.devRef .tc main_v3) = W9 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := by kept_host hostOps3_3
    _ = W11 m ρ c (Proc.devRef .tc main_v3) := by kept_host hostOps3_2
    _ = W10 m ρ c (Proc.devRef .tc main_v3) := by kept_host hostOps3_1
    _ = W9 m ρ c (Proc.devRef .tc main_v3) := by kept_host hostOps3

theorem carry14_v1 : W14 m ρ c (Proc.devRef .tc main_v1) = W9 m ρ c (Proc.devRef .tc main_v1) :=
  calc W14 m ρ c (Proc.devRef .tc main_v1)
    _ = W13 m ρ c (Proc.devRef .tc main_v1) := W14_of_ne m ρ c main_v1 (by decide)
    _ = W12 m ρ c (Proc.devRef .tc main_v1) := by kept_host hostOps3_3
    _ = W11 m ρ c (Proc.devRef .tc main_v1) := by kept_host hostOps3_2
    _ = W10 m ρ c (Proc.devRef .tc main_v1) := by kept_host hostOps3_1
    _ = W9 m ρ c (Proc.devRef .tc main_v1) := by kept_host hostOps3

theorem carry14_arg11 : W14 m ρ c (Proc.devRef .tc main_arg11) = W9 m ρ c (Proc.devRef .tc main_arg11) :=
  calc W14 m ρ c (Proc.devRef .tc main_arg11)
    _ = W13 m ρ c (Proc.devRef .tc main_arg11) := (W14_arr m ρ c 3).trans (((dat3 (V13 m ρ) c).arrAt_in 3 rfl _).trans (A_eq3 (V13 m ρ) c 3))
    _ = W12 m ρ c (Proc.devRef .tc main_arg11) := by kept_host hostOps3_3
    _ = W11 m ρ c (Proc.devRef .tc main_arg11) := by kept_host hostOps3_2
    _ = W10 m ρ c (Proc.devRef .tc main_arg11) := by kept_host hostOps3_1
    _ = W9 m ρ c (Proc.devRef .tc main_arg11) := by kept_host hostOps3

theorem carry14_arg12 : W14 m ρ c (Proc.devRef .tc main_arg12) = W9 m ρ c (Proc.devRef .tc main_arg12) :=
  calc W14 m ρ c (Proc.devRef .tc main_arg12)
    _ = W13 m ρ c (Proc.devRef .tc main_arg12) := W14_of_ne m ρ c main_arg12 (by decide)
    _ = W12 m ρ c (Proc.devRef .tc main_arg12) := by kept_host hostOps3_3
    _ = W11 m ρ c (Proc.devRef .tc main_arg12) := by kept_host hostOps3_2
    _ = W10 m ρ c (Proc.devRef .tc main_arg12) := by kept_host hostOps3_1
    _ = W9 m ρ c (Proc.devRef .tc main_arg12) := by kept_host hostOps3

theorem carry14_arg13 : W14 m ρ c (Proc.devRef .tc main_arg13) = W9 m ρ c (Proc.devRef .tc main_arg13) :=
  calc W14 m ρ c (Proc.devRef .tc main_arg13)
    _ = W13 m ρ c (Proc.devRef .tc main_arg13) := (W14_arr m ρ c 5).trans (((dat3 (V13 m ρ) c).arrAt_in 5 rfl _).trans (A_eq3 (V13 m ρ) c 5))
    _ = W12 m ρ c (Proc.devRef .tc main_arg13) := by kept_host hostOps3_3
    _ = W11 m ρ c (Proc.devRef .tc main_arg13) := by kept_host hostOps3_2
    _ = W10 m ρ c (Proc.devRef .tc main_arg13) := by kept_host hostOps3_1
    _ = W9 m ρ c (Proc.devRef .tc main_arg13) := by kept_host hostOps3

theorem carry14_arg14 : W14 m ρ c (Proc.devRef .tc main_arg14) = W9 m ρ c (Proc.devRef .tc main_arg14) :=
  calc W14 m ρ c (Proc.devRef .tc main_arg14)
    _ = W13 m ρ c (Proc.devRef .tc main_arg14) := W14_of_ne m ρ c main_arg14 (by decide)
    _ = W12 m ρ c (Proc.devRef .tc main_arg14) := by kept_host hostOps3_3
    _ = W11 m ρ c (Proc.devRef .tc main_arg14) := by kept_host hostOps3_2
    _ = W10 m ρ c (Proc.devRef .tc main_arg14) := by kept_host hostOps3_1
    _ = W9 m ρ c (Proc.devRef .tc main_arg14) := by kept_host hostOps3

theorem carry14_arg15 : W14 m ρ c (Proc.devRef .tc main_arg15) = W9 m ρ c (Proc.devRef .tc main_arg15) :=
  calc W14 m ρ c (Proc.devRef .tc main_arg15)
    _ = W13 m ρ c (Proc.devRef .tc main_arg15) := (W14_arr m ρ c 7).trans (((dat3 (V13 m ρ) c).arrAt_in 7 rfl _).trans (A_eq3 (V13 m ρ) c 7))
    _ = W12 m ρ c (Proc.devRef .tc main_arg15) := by kept_host hostOps3_3
    _ = W11 m ρ c (Proc.devRef .tc main_arg15) := by kept_host hostOps3_2
    _ = W10 m ρ c (Proc.devRef .tc main_arg15) := by kept_host hostOps3_1
    _ = W9 m ρ c (Proc.devRef .tc main_arg15) := by kept_host hostOps3

theorem carry14_arg16 : W14 m ρ c (Proc.devRef .tc main_arg16) = W9 m ρ c (Proc.devRef .tc main_arg16) :=
  calc W14 m ρ c (Proc.devRef .tc main_arg16)
    _ = W13 m ρ c (Proc.devRef .tc main_arg16) := W14_of_ne m ρ c main_arg16 (by decide)
    _ = W12 m ρ c (Proc.devRef .tc main_arg16) := by kept_host hostOps3_3
    _ = W11 m ρ c (Proc.devRef .tc main_arg16) := by kept_host hostOps3_2
    _ = W10 m ρ c (Proc.devRef .tc main_arg16) := by kept_host hostOps3_1
    _ = W9 m ρ c (Proc.devRef .tc main_arg16) := by kept_host hostOps3

theorem carry14_arg17 : W14 m ρ c (Proc.devRef .tc main_arg17) = W9 m ρ c (Proc.devRef .tc main_arg17) :=
  calc W14 m ρ c (Proc.devRef .tc main_arg17)
    _ = W13 m ρ c (Proc.devRef .tc main_arg17) := W14_of_ne m ρ c main_arg17 (by decide)
    _ = W12 m ρ c (Proc.devRef .tc main_arg17) := by kept_host hostOps3_3
    _ = W11 m ρ c (Proc.devRef .tc main_arg17) := by kept_host hostOps3_2
    _ = W10 m ρ c (Proc.devRef .tc main_arg17) := by kept_host hostOps3_1
    _ = W9 m ρ c (Proc.devRef .tc main_arg17) := by kept_host hostOps3

theorem carry14_arg18 : W14 m ρ c (Proc.devRef .tc main_arg18) = W9 m ρ c (Proc.devRef .tc main_arg18) :=
  calc W14 m ρ c (Proc.devRef .tc main_arg18)
    _ = W13 m ρ c (Proc.devRef .tc main_arg18) := W14_of_ne m ρ c main_arg18 (by decide)
    _ = W12 m ρ c (Proc.devRef .tc main_arg18) := by kept_host hostOps3_3
    _ = W11 m ρ c (Proc.devRef .tc main_arg18) := by kept_host hostOps3_2
    _ = W10 m ρ c (Proc.devRef .tc main_arg18) := by kept_host hostOps3_1
    _ = W9 m ρ c (Proc.devRef .tc main_arg18) := by kept_host hostOps3

theorem carry14_arg19 : W14 m ρ c (Proc.devRef .tc main_arg19) = W9 m ρ c (Proc.devRef .tc main_arg19) :=
  calc W14 m ρ c (Proc.devRef .tc main_arg19)
    _ = W13 m ρ c (Proc.devRef .tc main_arg19) := W14_of_ne m ρ c main_arg19 (by decide)
    _ = W12 m ρ c (Proc.devRef .tc main_arg19) := by kept_host hostOps3_3
    _ = W11 m ρ c (Proc.devRef .tc main_arg19) := by kept_host hostOps3_2
    _ = W10 m ρ c (Proc.devRef .tc main_arg19) := by kept_host hostOps3_1
    _ = W9 m ρ c (Proc.devRef .tc main_arg19) := by kept_host hostOps3

theorem carry14_arg20 : W14 m ρ c (Proc.devRef .tc main_arg20) = W9 m ρ c (Proc.devRef .tc main_arg20) :=
  calc W14 m ρ c (Proc.devRef .tc main_arg20)
    _ = W13 m ρ c (Proc.devRef .tc main_arg20) := W14_of_ne m ρ c main_arg20 (by decide)
    _ = W12 m ρ c (Proc.devRef .tc main_arg20) := by kept_host hostOps3_3
    _ = W11 m ρ c (Proc.devRef .tc main_arg20) := by kept_host hostOps3_2
    _ = W10 m ρ c (Proc.devRef .tc main_arg20) := by kept_host hostOps3_1
    _ = W9 m ρ c (Proc.devRef .tc main_arg20) := by kept_host hostOps3

theorem carry14_arg21 : W14 m ρ c (Proc.devRef .tc main_arg21) = W9 m ρ c (Proc.devRef .tc main_arg21) :=
  calc W14 m ρ c (Proc.devRef .tc main_arg21)
    _ = W13 m ρ c (Proc.devRef .tc main_arg21) := W14_of_ne m ρ c main_arg21 (by decide)
    _ = W12 m ρ c (Proc.devRef .tc main_arg21) := by kept_host hostOps3_3
    _ = W11 m ρ c (Proc.devRef .tc main_arg21) := by kept_host hostOps3_2
    _ = W10 m ρ c (Proc.devRef .tc main_arg21) := by kept_host hostOps3_1
    _ = W9 m ρ c (Proc.devRef .tc main_arg21) := by kept_host hostOps3

theorem carry14_arg22 : W14 m ρ c (Proc.devRef .tc main_arg22) = W9 m ρ c (Proc.devRef .tc main_arg22) :=
  calc W14 m ρ c (Proc.devRef .tc main_arg22)
    _ = W13 m ρ c (Proc.devRef .tc main_arg22) := W14_of_ne m ρ c main_arg22 (by decide)
    _ = W12 m ρ c (Proc.devRef .tc main_arg22) := by kept_host hostOps3_3
    _ = W11 m ρ c (Proc.devRef .tc main_arg22) := by kept_host hostOps3_2
    _ = W10 m ρ c (Proc.devRef .tc main_arg22) := by kept_host hostOps3_1
    _ = W9 m ρ c (Proc.devRef .tc main_arg22) := by kept_host hostOps3

end Cert.KernelIdeal.Carry

end
-- ==== Proof.KCarry19.lean ====
/-
  Buffers no operation writes between two region exits keep their contents: the contents at region exit W19
  of every buffer a later segment still reads, in terms of the previous exit's.
-/
import proofs.«403211_j60627758350346_1_alg».proof.Proof.Gen.KernelIdeal.Frame
import proofs.«403211_j60627758350346_1_alg».proof.Proof.LibKeep
import Idealize.ShloMosaic.Lib.StableHlo.Run
import Idealize.ShloMosaic.PureOps.Ideal

noncomputable section

namespace Cert.KernelIdeal.Carry

open Idealize.ShloMosaic Idealize.ShloMosaic.TcCoe Idealize.SL.Sem Idealize.ShloMosaic.StableHlo
open Cert.KernelIdeal Cert.KernelIdeal.Gen Cert.LibKeep

variable (m : (ℓ : Loc nD τ sig) → Buf (Elt Ideal) ℓ) (ρ : Dev nD → PrngReg) (c : Dev nD)

theorem carry19_v6 : W19 m ρ c (Proc.devRef .tc main_v6) = W14 m ρ c (Proc.devRef .tc main_v6) :=
  calc W19 m ρ c (Proc.devRef .tc main_v6)
    _ = W18 m ρ c (Proc.devRef .tc main_v6) := W19_of_ne m ρ c main_v6 (by decide)
    _ = W17 m ρ c (Proc.devRef .tc main_v6) := by kept_host hostOps4_3
    _ = W16 m ρ c (Proc.devRef .tc main_v6) := by kept_host hostOps4_2
    _ = W15 m ρ c (Proc.devRef .tc main_v6) := by kept_host hostOps4_1
    _ = W14 m ρ c (Proc.devRef .tc main_v6) := by kept_host hostOps4

theorem carry19_v9 : W19 m ρ c (Proc.devRef .tc main_v9) = W14 m ρ c (Proc.devRef .tc main_v9) :=
  calc W19 m ρ c (Proc.devRef .tc main_v9)
    _ = W18 m ρ c (Proc.devRef .tc main_v9) := W19_of_ne m ρ c main_v9 (by decide)
    _ = W17 m ρ c (Proc.devRef .tc main_v9) := by kept_host hostOps4_3
    _ = W16 m ρ c (Proc.devRef .tc main_v9) := by kept_host hostOps4_2
    _ = W15 m ρ c (Proc.devRef .tc main_v9) := by kept_host hostOps4_1
    _ = W14 m ρ c (Proc.devRef .tc main_v9) := by kept_host hostOps4

theorem carry19_v3 : W19 m ρ c (Proc.devRef .tc main_v3) = W14 m ρ c (Proc.devRef .tc main_v3) :=
  calc W19 m ρ c (Proc.devRef .tc main_v3)
    _ = W18 m ρ c (Proc.devRef .tc main_v3) := W19_of_ne m ρ c main_v3 (by decide)
    _ = W17 m ρ c (Proc.devRef .tc main_v3) := by kept_host hostOps4_3
    _ = W16 m ρ c (Proc.devRef .tc main_v3) := by kept_host hostOps4_2
    _ = W15 m ρ c (Proc.devRef .tc main_v3) := by kept_host hostOps4_1
    _ = W14 m ρ c (Proc.devRef .tc main_v3) := by kept_host hostOps4

theorem carry19_v1 : W19 m ρ c (Proc.devRef .tc main_v1) = W14 m ρ c (Proc.devRef .tc main_v1) :=
  calc W19 m ρ c (Proc.devRef .tc main_v1)
    _ = W18 m ρ c (Proc.devRef .tc main_v1) := W19_of_ne m ρ c main_v1 (by decide)
    _ = W17 m ρ c (Proc.devRef .tc main_v1) := by kept_host hostOps4_3
    _ = W16 m ρ c (Proc.devRef .tc main_v1) := by kept_host hostOps4_2
    _ = W15 m ρ c (Proc.devRef .tc main_v1) := by kept_host hostOps4_1
    _ = W14 m ρ c (Proc.devRef .tc main_v1) := by kept_host hostOps4

theorem carry19_arg11 : W19 m ρ c (Proc.devRef .tc main_arg11) = W14 m ρ c (Proc.devRef .tc main_arg11) :=
  calc W19 m ρ c (Proc.devRef .tc main_arg11)
    _ = W18 m ρ c (Proc.devRef .tc main_arg11) := (W19_arr m ρ c 3).trans (((dat4 (V18 m ρ) c).arrAt_in 3 rfl _).trans (A_eq4 (V18 m ρ) c 3))
    _ = W17 m ρ c (Proc.devRef .tc main_arg11) := by kept_host hostOps4_3
    _ = W16 m ρ c (Proc.devRef .tc main_arg11) := by kept_host hostOps4_2
    _ = W15 m ρ c (Proc.devRef .tc main_arg11) := by kept_host hostOps4_1
    _ = W14 m ρ c (Proc.devRef .tc main_arg11) := by kept_host hostOps4

theorem carry19_arg12 : W19 m ρ c (Proc.devRef .tc main_arg12) = W14 m ρ c (Proc.devRef .tc main_arg12) :=
  calc W19 m ρ c (Proc.devRef .tc main_arg12)
    _ = W18 m ρ c (Proc.devRef .tc main_arg12) := W19_of_ne m ρ c main_arg12 (by decide)
    _ = W17 m ρ c (Proc.devRef .tc main_arg12) := by kept_host hostOps4_3
    _ = W16 m ρ c (Proc.devRef .tc main_arg12) := by kept_host hostOps4_2
    _ = W15 m ρ c (Proc.devRef .tc main_arg12) := by kept_host hostOps4_1
    _ = W14 m ρ c (Proc.devRef .tc main_arg12) := by kept_host hostOps4

theorem carry19_arg13 : W19 m ρ c (Proc.devRef .tc main_arg13) = W14 m ρ c (Proc.devRef .tc main_arg13) :=
  calc W19 m ρ c (Proc.devRef .tc main_arg13)
    _ = W18 m ρ c (Proc.devRef .tc main_arg13) := (W19_arr m ρ c 5).trans (((dat4 (V18 m ρ) c).arrAt_in 5 rfl _).trans (A_eq4 (V18 m ρ) c 5))
    _ = W17 m ρ c (Proc.devRef .tc main_arg13) := by kept_host hostOps4_3
    _ = W16 m ρ c (Proc.devRef .tc main_arg13) := by kept_host hostOps4_2
    _ = W15 m ρ c (Proc.devRef .tc main_arg13) := by kept_host hostOps4_1
    _ = W14 m ρ c (Proc.devRef .tc main_arg13) := by kept_host hostOps4

theorem carry19_arg14 : W19 m ρ c (Proc.devRef .tc main_arg14) = W14 m ρ c (Proc.devRef .tc main_arg14) :=
  calc W19 m ρ c (Proc.devRef .tc main_arg14)
    _ = W18 m ρ c (Proc.devRef .tc main_arg14) := W19_of_ne m ρ c main_arg14 (by decide)
    _ = W17 m ρ c (Proc.devRef .tc main_arg14) := by kept_host hostOps4_3
    _ = W16 m ρ c (Proc.devRef .tc main_arg14) := by kept_host hostOps4_2
    _ = W15 m ρ c (Proc.devRef .tc main_arg14) := by kept_host hostOps4_1
    _ = W14 m ρ c (Proc.devRef .tc main_arg14) := by kept_host hostOps4

theorem carry19_arg15 : W19 m ρ c (Proc.devRef .tc main_arg15) = W14 m ρ c (Proc.devRef .tc main_arg15) :=
  calc W19 m ρ c (Proc.devRef .tc main_arg15)
    _ = W18 m ρ c (Proc.devRef .tc main_arg15) := (W19_arr m ρ c 7).trans (((dat4 (V18 m ρ) c).arrAt_in 7 rfl _).trans (A_eq4 (V18 m ρ) c 7))
    _ = W17 m ρ c (Proc.devRef .tc main_arg15) := by kept_host hostOps4_3
    _ = W16 m ρ c (Proc.devRef .tc main_arg15) := by kept_host hostOps4_2
    _ = W15 m ρ c (Proc.devRef .tc main_arg15) := by kept_host hostOps4_1
    _ = W14 m ρ c (Proc.devRef .tc main_arg15) := by kept_host hostOps4

theorem carry19_arg16 : W19 m ρ c (Proc.devRef .tc main_arg16) = W14 m ρ c (Proc.devRef .tc main_arg16) :=
  calc W19 m ρ c (Proc.devRef .tc main_arg16)
    _ = W18 m ρ c (Proc.devRef .tc main_arg16) := W19_of_ne m ρ c main_arg16 (by decide)
    _ = W17 m ρ c (Proc.devRef .tc main_arg16) := by kept_host hostOps4_3
    _ = W16 m ρ c (Proc.devRef .tc main_arg16) := by kept_host hostOps4_2
    _ = W15 m ρ c (Proc.devRef .tc main_arg16) := by kept_host hostOps4_1
    _ = W14 m ρ c (Proc.devRef .tc main_arg16) := by kept_host hostOps4

theorem carry19_arg17 : W19 m ρ c (Proc.devRef .tc main_arg17) = W14 m ρ c (Proc.devRef .tc main_arg17) :=
  calc W19 m ρ c (Proc.devRef .tc main_arg17)
    _ = W18 m ρ c (Proc.devRef .tc main_arg17) := W19_of_ne m ρ c main_arg17 (by decide)
    _ = W17 m ρ c (Proc.devRef .tc main_arg17) := by kept_host hostOps4_3
    _ = W16 m ρ c (Proc.devRef .tc main_arg17) := by kept_host hostOps4_2
    _ = W15 m ρ c (Proc.devRef .tc main_arg17) := by kept_host hostOps4_1
    _ = W14 m ρ c (Proc.devRef .tc main_arg17) := by kept_host hostOps4

theorem carry19_arg18 : W19 m ρ c (Proc.devRef .tc main_arg18) = W14 m ρ c (Proc.devRef .tc main_arg18) :=
  calc W19 m ρ c (Proc.devRef .tc main_arg18)
    _ = W18 m ρ c (Proc.devRef .tc main_arg18) := W19_of_ne m ρ c main_arg18 (by decide)
    _ = W17 m ρ c (Proc.devRef .tc main_arg18) := by kept_host hostOps4_3
    _ = W16 m ρ c (Proc.devRef .tc main_arg18) := by kept_host hostOps4_2
    _ = W15 m ρ c (Proc.devRef .tc main_arg18) := by kept_host hostOps4_1
    _ = W14 m ρ c (Proc.devRef .tc main_arg18) := by kept_host hostOps4

theorem carry19_arg19 : W19 m ρ c (Proc.devRef .tc main_arg19) = W14 m ρ c (Proc.devRef .tc main_arg19) :=
  calc W19 m ρ c (Proc.devRef .tc main_arg19)
    _ = W18 m ρ c (Proc.devRef .tc main_arg19) := W19_of_ne m ρ c main_arg19 (by decide)
    _ = W17 m ρ c (Proc.devRef .tc main_arg19) := by kept_host hostOps4_3
    _ = W16 m ρ c (Proc.devRef .tc main_arg19) := by kept_host hostOps4_2
    _ = W15 m ρ c (Proc.devRef .tc main_arg19) := by kept_host hostOps4_1
    _ = W14 m ρ c (Proc.devRef .tc main_arg19) := by kept_host hostOps4

theorem carry19_arg20 : W19 m ρ c (Proc.devRef .tc main_arg20) = W14 m ρ c (Proc.devRef .tc main_arg20) :=
  calc W19 m ρ c (Proc.devRef .tc main_arg20)
    _ = W18 m ρ c (Proc.devRef .tc main_arg20) := W19_of_ne m ρ c main_arg20 (by decide)
    _ = W17 m ρ c (Proc.devRef .tc main_arg20) := by kept_host hostOps4_3
    _ = W16 m ρ c (Proc.devRef .tc main_arg20) := by kept_host hostOps4_2
    _ = W15 m ρ c (Proc.devRef .tc main_arg20) := by kept_host hostOps4_1
    _ = W14 m ρ c (Proc.devRef .tc main_arg20) := by kept_host hostOps4

theorem carry19_arg21 : W19 m ρ c (Proc.devRef .tc main_arg21) = W14 m ρ c (Proc.devRef .tc main_arg21) :=
  calc W19 m ρ c (Proc.devRef .tc main_arg21)
    _ = W18 m ρ c (Proc.devRef .tc main_arg21) := W19_of_ne m ρ c main_arg21 (by decide)
    _ = W17 m ρ c (Proc.devRef .tc main_arg21) := by kept_host hostOps4_3
    _ = W16 m ρ c (Proc.devRef .tc main_arg21) := by kept_host hostOps4_2
    _ = W15 m ρ c (Proc.devRef .tc main_arg21) := by kept_host hostOps4_1
    _ = W14 m ρ c (Proc.devRef .tc main_arg21) := by kept_host hostOps4

theorem carry19_arg22 : W19 m ρ c (Proc.devRef .tc main_arg22) = W14 m ρ c (Proc.devRef .tc main_arg22) :=
  calc W19 m ρ c (Proc.devRef .tc main_arg22)
    _ = W18 m ρ c (Proc.devRef .tc main_arg22) := W19_of_ne m ρ c main_arg22 (by decide)
    _ = W17 m ρ c (Proc.devRef .tc main_arg22) := by kept_host hostOps4_3
    _ = W16 m ρ c (Proc.devRef .tc main_arg22) := by kept_host hostOps4_2
    _ = W15 m ρ c (Proc.devRef .tc main_arg22) := by kept_host hostOps4_1
    _ = W14 m ρ c (Proc.devRef .tc main_arg22) := by kept_host hostOps4

end Cert.KernelIdeal.Carry

end
-- ==== Proof.KCarry24.lean ====
/-
  Buffers no operation writes between two region exits keep their contents: the contents at region exit W24
  of every buffer a later segment still reads, in terms of the previous exit's.
-/
import proofs.«403211_j60627758350346_1_alg».proof.Proof.Gen.KernelIdeal.Frame
import proofs.«403211_j60627758350346_1_alg».proof.Proof.LibKeep
import Idealize.ShloMosaic.Lib.StableHlo.Run
import Idealize.ShloMosaic.PureOps.Ideal

noncomputable section

namespace Cert.KernelIdeal.Carry

open Idealize.ShloMosaic Idealize.ShloMosaic.TcCoe Idealize.SL.Sem Idealize.ShloMosaic.StableHlo
open Cert.KernelIdeal Cert.KernelIdeal.Gen Cert.LibKeep

variable (m : (ℓ : Loc nD τ sig) → Buf (Elt Ideal) ℓ) (ρ : Dev nD → PrngReg) (c : Dev nD)

theorem carry24_arg17 : W24 m ρ c (Proc.devRef .tc main_arg17) = W19 m ρ c (Proc.devRef .tc main_arg17) :=
  calc W24 m ρ c (Proc.devRef .tc main_arg17)
    _ = W23 m ρ c (Proc.devRef .tc main_arg17) := W24_of_ne m ρ c main_arg17 (by decide)
    _ = W22 m ρ c (Proc.devRef .tc main_arg17) := by kept_host hostOps5_3
    _ = W21 m ρ c (Proc.devRef .tc main_arg17) := by kept_host hostOps5_2
    _ = W20 m ρ c (Proc.devRef .tc main_arg17) := by kept_host hostOps5_1
    _ = W19 m ρ c (Proc.devRef .tc main_arg17) := by kept_host hostOps5

theorem carry24_arg18 : W24 m ρ c (Proc.devRef .tc main_arg18) = W19 m ρ c (Proc.devRef .tc main_arg18) :=
  calc W24 m ρ c (Proc.devRef .tc main_arg18)
    _ = W23 m ρ c (Proc.devRef .tc main_arg18) := W24_of_ne m ρ c main_arg18 (by decide)
    _ = W22 m ρ c (Proc.devRef .tc main_arg18) := by kept_host hostOps5_3
    _ = W21 m ρ c (Proc.devRef .tc main_arg18) := by kept_host hostOps5_2
    _ = W20 m ρ c (Proc.devRef .tc main_arg18) := by kept_host hostOps5_1
    _ = W19 m ρ c (Proc.devRef .tc main_arg18) := by kept_host hostOps5

theorem carry24_arg19 : W24 m ρ c (Proc.devRef .tc main_arg19) = W19 m ρ c (Proc.devRef .tc main_arg19) :=
  calc W24 m ρ c (Proc.devRef .tc main_arg19)
    _ = W23 m ρ c (Proc.devRef .tc main_arg19) := W24_of_ne m ρ c main_arg19 (by decide)
    _ = W22 m ρ c (Proc.devRef .tc main_arg19) := by kept_host hostOps5_3
    _ = W21 m ρ c (Proc.devRef .tc main_arg19) := by kept_host hostOps5_2
    _ = W20 m ρ c (Proc.devRef .tc main_arg19) := by kept_host hostOps5_1
    _ = W19 m ρ c (Proc.devRef .tc main_arg19) := by kept_host hostOps5

theorem carry24_arg20 : W24 m ρ c (Proc.devRef .tc main_arg20) = W19 m ρ c (Proc.devRef .tc main_arg20) :=
  calc W24 m ρ c (Proc.devRef .tc main_arg20)
    _ = W23 m ρ c (Proc.devRef .tc main_arg20) := W24_of_ne m ρ c main_arg20 (by decide)
    _ = W22 m ρ c (Proc.devRef .tc main_arg20) := by kept_host hostOps5_3
    _ = W21 m ρ c (Proc.devRef .tc main_arg20) := by kept_host hostOps5_2
    _ = W20 m ρ c (Proc.devRef .tc main_arg20) := by kept_host hostOps5_1
    _ = W19 m ρ c (Proc.devRef .tc main_arg20) := by kept_host hostOps5

theorem carry24_arg21 : W24 m ρ c (Proc.devRef .tc main_arg21) = W19 m ρ c (Proc.devRef .tc main_arg21) :=
  calc W24 m ρ c (Proc.devRef .tc main_arg21)
    _ = W23 m ρ c (Proc.devRef .tc main_arg21) := W24_of_ne m ρ c main_arg21 (by decide)
    _ = W22 m ρ c (Proc.devRef .tc main_arg21) := by kept_host hostOps5_3
    _ = W21 m ρ c (Proc.devRef .tc main_arg21) := by kept_host hostOps5_2
    _ = W20 m ρ c (Proc.devRef .tc main_arg21) := by kept_host hostOps5_1
    _ = W19 m ρ c (Proc.devRef .tc main_arg21) := by kept_host hostOps5

theorem carry24_arg22 : W24 m ρ c (Proc.devRef .tc main_arg22) = W19 m ρ c (Proc.devRef .tc main_arg22) :=
  calc W24 m ρ c (Proc.devRef .tc main_arg22)
    _ = W23 m ρ c (Proc.devRef .tc main_arg22) := W24_of_ne m ρ c main_arg22 (by decide)
    _ = W22 m ρ c (Proc.devRef .tc main_arg22) := by kept_host hostOps5_3
    _ = W21 m ρ c (Proc.devRef .tc main_arg22) := by kept_host hostOps5_2
    _ = W20 m ρ c (Proc.devRef .tc main_arg22) := by kept_host hostOps5_1
    _ = W19 m ρ c (Proc.devRef .tc main_arg22) := by kept_host hostOps5

end Cert.KernelIdeal.Carry

end
-- ==== Proof.KAssemble.lean ====
/-
  The kernel's result array as the network of the launch's arguments. The run's buffer contents are followed from
  the launch to the last region: the two embeddings, the four rounds — each round's region reads the rows gathered
  from the features the previous one left, and what it leaves is the round's function of them — and the classifier on
  the last edge features. Every index word of the edge table lies in the node table's range, so each gather of
  the kernel's program (which would fill a row it cannot find) is the plain gather.
-/
import proofs.«403211_j60627758350346_1_alg».proof.Proof.SpecNet
import proofs.«403211_j60627758350346_1_alg».proof.Proof.KNames
import proofs.«403211_j60627758350346_1_alg».proof.Proof.KGlue
import proofs.«403211_j60627758350346_1_alg».proof.Proof.KTake
import proofs.«403211_j60627758350346_1_alg».proof.Proof.KHead
import proofs.«403211_j60627758350346_1_alg».proof.Proof.KTail
import proofs.«403211_j60627758350346_1_alg».proof.Proof.KStep1
import proofs.«403211_j60627758350346_1_alg».proof.Proof.KStep2
import proofs.«403211_j60627758350346_1_alg».proof.Proof.KStep3
import proofs.«403211_j60627758350346_1_alg».proof.Proof.KStep4
import proofs.«403211_j60627758350346_1_alg».proof.Proof.KCarry2
import proofs.«403211_j60627758350346_1_alg».proof.Proof.KCarry4
import proofs.«403211_j60627758350346_1_alg».proof.Proof.KCarry9
import proofs.«403211_j60627758350346_1_alg».proof.Proof.KCarry14
import proofs.«403211_j60627758350346_1_alg».proof.Proof.KCarry19
import proofs.«403211_j60627758350346_1_alg».proof.Proof.KCarry24

noncomputable section

namespace Cert.KernelIdeal.Assemble

open Idealize.ShloMosaic Idealize.ShloMosaic.TcCoe Idealize.SL.Sem Idealize.ShloMosaic.StableHlo Idealize.ShloMosaic.ValueIdx
open Cert.KernelIdeal Cert.KernelIdeal.Gen Cert.KernelIdeal.Names Cert.KernelIdeal.Glue Cert.KernelIdeal.Take
open Cert.KernelIdeal.Carry

variable (m : (ℓ : Loc nD τ sig) → Buf (Elt Ideal) ℓ) (ρ : Dev nD → PrngReg) (c : Dev nD)

/-- The node embedding of the launch's arguments. -/
abbrev nf0 : Cert.Spec.Mat 20000 128 :=
  Cert.Spec.mlp2 (m ((c : Thread nD τ).loc main_arg0)) (m ((c : Thread nD τ).loc main_arg3)) (Cert.Spec.row (m ((c : Thread nD τ).loc main_arg4))) (m ((c : Thread nD τ).loc main_arg5)) (Cert.Spec.row (m ((c : Thread nD τ).loc main_arg6)))
/-- The edge embedding of the launch's arguments. -/
abbrev ef0 : Cert.Spec.Mat 100000 128 :=
  Cert.Spec.mlp2 (m ((c : Thread nD τ).loc main_arg1)) (m ((c : Thread nD τ).loc main_arg7)) (Cert.Spec.row (m ((c : Thread nD τ).loc main_arg8))) (m ((c : Thread nD τ).loc main_arg9)) (Cert.Spec.row (m ((c : Thread nD τ).loc main_arg10)))
/-- The target and the source index words of the launch's edge table. -/
abbrev iw : IVec S100000 32 := Cert.Spec.idxRow 1 (m ((c : Thread nD τ).loc main_arg2))
abbrev jw : IVec S100000 32 := Cert.Spec.idxRow 0 (m ((c : Thread nD τ).loc main_arg2))
/-- One round of message passing over the launch's arguments. -/
abbrev round (s : Cert.Spec.St 20000 100000 128) : Cert.Spec.St 20000 100000 128 :=
  Cert.Spec.step gK scK (nf0 m c) (ef0 m c) (nrmIdx (iw m c)) (nrmIdx (jw m c)) (colIdx (iw m c))
    (m ((c : Thread nD τ).loc main_arg11)) (Cert.Spec.row (m ((c : Thread nD τ).loc main_arg12))) (m ((c : Thread nD τ).loc main_arg13)) (Cert.Spec.row (m ((c : Thread nD τ).loc main_arg14))) (m ((c : Thread nD τ).loc main_arg15)) (Cert.Spec.row (m ((c : Thread nD τ).loc main_arg16))) s

/-- The result array after the run is the network of the launch's arguments, provided every index word of the edge
    table, read unsigned, is below the number of nodes. -/
theorem kernel_value
    (hidx : ∀ (p : Fin 2) (e : Fin 100000), (((m ((c : Thread nD τ).loc main_arg2)) : IVec S2x100000 32) (ix2 p e)).toNat < 20000) :
    W26 m ρ c (Proc.devRef .tc main_v57)
      = Cert.Spec.net gK scK nrmIdx colIdx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  have hI : ∀ e : S100000.Idx, ((iw m c) e).toNat < 20000 := fun e => hidx 1 (e 0)
  have hJ : ∀ e : S100000.Idx, ((jw m c) e).toNat < 20000 := fun e => hidx 0 (e 0)
  -- the embeddings and the index words, as region 1 leaves them
  have e4_v6 : W4 m ρ c (Proc.devRef .tc main_v6) = nf0 m c := (carry4_v6 m ρ c).trans (Cert.KernelIdeal.Head.nf0_at_W2 m ρ c)
  have e4_v9 : W4 m ρ c (Proc.devRef .tc main_v9) = ef0 m c :=
    Cert.KernelIdeal.Head.ef0_at_W4 m ρ c (carry2_arg1 m ρ c) (carry2_arg7 m ρ c) (carry2_arg8 m ρ c) (carry2_arg9 m ρ c) (carry2_arg10 m ρ c)
  have e4_v3 : W4 m ρ c (Proc.devRef .tc main_v3) = iw m c := (carry4_v3 m ρ c).trans (Cert.KernelIdeal.Head.i_at_W2 m ρ c)
  have e4_v1 : W4 m ρ c (Proc.devRef .tc main_v1) = jw m c := (carry4_v1 m ρ c).trans (Cert.KernelIdeal.Head.j_at_W2 m ρ c)
  have e4_a11 : W4 m ρ c (Proc.devRef .tc main_arg11) = (m ((c : Thread nD τ).loc main_arg11)) := (carry4_arg11 m ρ c).trans (carry2_arg11 m ρ c)
  have e4_a12 : W4 m ρ c (Proc.devRef .tc main_arg12) = (m ((c : Thread nD τ).loc main_arg12)) := (carry4_arg12 m ρ c).trans (carry2_arg12 m ρ c)
  have e4_a13 : W4 m ρ c (Proc.devRef .tc main_arg13) = (m ((c : Thread nD τ).loc main_arg13)) := (carry4_arg13 m ρ c).trans (carry2_arg13 m ρ c)
  have e4_a14 : W4 m ρ c (Proc.devRef .tc main_arg14) = (m ((c : Thread nD τ).loc main_arg14)) := (carry4_arg14 m ρ c).trans (carry2_arg14 m ρ c)
  have e4_a15 : W4 m ρ c (Proc.devRef .tc main_arg15) = (m ((c : Thread nD τ).loc main_arg15)) := (carry4_arg15 m ρ c).trans (carry2_arg15 m ρ c)
  have e4_a16 : W4 m ρ c (Proc.devRef .tc main_arg16) = (m ((c : Thread nD τ).loc main_arg16)) := (carry4_arg16 m ρ c).trans (carry2_arg16 m ρ c)
  have e4_a17 : W4 m ρ c (Proc.devRef .tc main_arg17) = (m ((c : Thread nD τ).loc main_arg17)) := (carry4_arg17 m ρ c).trans (carry2_arg17 m ρ c)
  have e4_a18 : W4 m ρ c (Proc.devRef .tc main_arg18) = (m ((c : Thread nD τ).loc main_arg18)) := (carry4_arg18 m ρ c).trans (carry2_arg18 m ρ c)
  have e4_a19 : W4 m ρ c (Proc.devRef .tc main_arg19) = (m ((c : Thread nD τ).loc main_arg19)) := (carry4_arg19 m ρ c).trans (carry2_arg19 m ρ c)
  have e4_a20 : W4 m ρ c (Proc.devRef .tc main_arg20) = (m ((c : Thread nD τ).loc main_arg20)) := (carry4_arg20 m ρ c).trans (carry2_arg20 m ρ c)
  have e4_a21 : W4 m ρ c (Proc.devRef .tc main_arg21) = (m ((c : Thread nD τ).loc main_arg21)) := (carry4_arg21 m ρ c).trans (carry2_arg21 m ρ c)
  have e4_a22 : W4 m ρ c (Proc.devRef .tc main_arg22) = (m ((c : Thread nD τ).loc main_arg22)) := (carry4_arg22 m ρ c).trans (carry2_arg22 m ρ c)
  -- round 1
  obtain ⟨r1e, r1n⟩ := Cert.KernelIdeal.Step1.round1 m ρ c (nf0 m c) (ef0 m c) (iw m c) (jw m c) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    e4_v6 e4_v9 e4_v3 e4_v1 e4_a11 e4_a12 e4_a13 e4_a14 e4_a15 e4_a16 hI hJ
  have e9_v6 : W9 m ρ c (Proc.devRef .tc main_v6) = nf0 m c := (carry9_v6 m ρ c).trans e4_v6
  have e9_v9 : W9 m ρ c (Proc.devRef .tc main_v9) = ef0 m c := (carry9_v9 m ρ c).trans e4_v9
  have e9_v3 : W9 m ρ c (Proc.devRef .tc main_v3) = iw m c := (carry9_v3 m ρ c).trans e4_v3
  have e9_v1 : W9 m ρ c (Proc.devRef .tc main_v1) = jw m c := (carry9_v1 m ρ c).trans e4_v1
  have e9_a11 : W9 m ρ c (Proc.devRef .tc main_arg11) = (m ((c : Thread nD τ).loc main_arg11)) := (carry9_arg11 m ρ c).trans e4_a11
  have e9_a12 : W9 m ρ c (Proc.devRef .tc main_arg12) = (m ((c : Thread nD τ).loc main_arg12)) := (carry9_arg12 m ρ c).trans e4_a12
  have e9_a13 : W9 m ρ c (Proc.devRef .tc main_arg13) = (m ((c : Thread nD τ).loc main_arg13)) := (carry9_arg13 m ρ c).trans e4_a13
  have e9_a14 : W9 m ρ c (Proc.devRef .tc main_arg14) = (m ((c : Thread nD τ).loc main_arg14)) := (carry9_arg14 m ρ c).trans e4_a14
  have e9_a15 : W9 m ρ c (Proc.devRef .tc main_arg15) = (m ((c : Thread nD τ).loc main_arg15)) := (carry9_arg15 m ρ c).trans e4_a15
  have e9_a16 : W9 m ρ c (Proc.devRef .tc main_arg16) = (m ((c : Thread nD τ).loc main_arg16)) := (carry9_arg16 m ρ c).trans e4_a16
  have e9_a17 : W9 m ρ c (Proc.devRef .tc main_arg17) = (m ((c : Thread nD τ).loc main_arg17)) := (carry9_arg17 m ρ c).trans e4_a17
  have e9_a18 : W9 m ρ c (Proc.devRef .tc main_arg18) = (m ((c : Thread nD τ).loc main_arg18)) := (carry9_arg18 m ρ c).trans e4_a18
  have e9_a19 : W9 m ρ c (Proc.devRef .tc main_arg19) = (m ((c : Thread nD τ).loc main_arg19)) := (carry9_arg19 m ρ c).trans e4_a19
  have e9_a20 : W9 m ρ c (Proc.devRef .tc main_arg20) = (m ((c : Thread nD τ).loc main_arg20)) := (carry9_arg20 m ρ c).trans e4_a20
  have e9_a21 : W9 m ρ c (Proc.devRef .tc main_arg21) = (m ((c : Thread nD τ).loc main_arg21)) := (carry9_arg21 m ρ c).trans e4_a21
  have e9_a22 : W9 m ρ c (Proc.devRef .tc main_arg22) = (m ((c : Thread nD τ).loc main_arg22)) := (carry9_arg22 m ρ c).trans e4_a22
  -- round 2
  obtain ⟨r2e, r2n⟩ := Cert.KernelIdeal.Step2.round2 m ρ c (nf0 m c) (ef0 m c) (iw m c) (jw m c) (round m c ((nf0 m c, ef0 m c))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    e9_v6 e9_v9 e9_v3 e9_v1 r1e r1n e9_a11 e9_a12 e9_a13 e9_a14 e9_a15 e9_a16 hI hJ
  have e14_v6 : W14 m ρ c (Proc.devRef .tc main_v6) = nf0 m c := (carry14_v6 m ρ c).trans e9_v6
  have e14_v9 : W14 m ρ c (Proc.devRef .tc main_v9) = ef0 m c := (carry14_v9 m ρ c).trans e9_v9
  have e14_v3 : W14 m ρ c (Proc.devRef .tc main_v3) = iw m c := (carry14_v3 m ρ c).trans e9_v3
  have e14_v1 : W14 m ρ c (Proc.devRef .tc main_v1) = jw m c := (carry14_v1 m ρ c).trans e9_v1
  have e14_a11 : W14 m ρ c (Proc.devRef .tc main_arg11) = (m ((c : Thread nD τ).loc main_arg11)) := (carry14_arg11 m ρ c).trans e9_a11
  have e14_a12 : W14 m ρ c (Proc.devRef .tc main_arg12) = (m ((c : Thread nD τ).loc main_arg12)) := (carry14_arg12 m ρ c).trans e9_a12
  have e14_a13 : W14 m ρ c (Proc.devRef .tc main_arg13) = (m ((c : Thread nD τ).loc main_arg13)) := (carry14_arg13 m ρ c).trans e9_a13
  have e14_a14 : W14 m ρ c (Proc.devRef .tc main_arg14) = (m ((c : Thread nD τ).loc main_arg14)) := (carry14_arg14 m ρ c).trans e9_a14
  have e14_a15 : W14 m ρ c (Proc.devRef .tc main_arg15) = (m ((c : Thread nD τ).loc main_arg15)) := (carry14_arg15 m ρ c).trans e9_a15
  have e14_a16 : W14 m ρ c (Proc.devRef .tc main_arg16) = (m ((c : Thread nD τ).loc main_arg16)) := (carry14_arg16 m ρ c).trans e9_a16
  have e14_a17 : W14 m ρ c (Proc.devRef .tc main_arg17) = (m ((c : Thread nD τ).loc main_arg17)) := (carry14_arg17 m ρ c).trans e9_a17
  have e14_a18 : W14 m ρ c (Proc.devRef .tc main_arg18) = (m ((c : Thread nD τ).loc main_arg18)) := (carry14_arg18 m ρ c).trans e9_a18
  have e14_a19 : W14 m ρ c (Proc.devRef .tc main_arg19) = (m ((c : Thread nD τ).loc main_arg19)) := (carry14_arg19 m ρ c).trans e9_a19
  have e14_a20 : W14 m ρ c (Proc.devRef .tc main_arg20) = (m ((c : Thread nD τ).loc main_arg20)) := (carry14_arg20 m ρ c).trans e9_a20
  have e14_a21 : W14 m ρ c (Proc.devRef .tc main_arg21) = (m ((c : Thread nD τ).loc main_arg21)) := (carry14_arg21 m ρ c).trans e9_a21
  have e14_a22 : W14 m ρ c (Proc.devRef .tc main_arg22) = (m ((c : Thread nD τ).loc main_arg22)) := (carry14_arg22 m ρ c).trans e9_a22
  -- round 3
  obtain ⟨r3e, r3n⟩ := Cert.KernelIdeal.Step3.round3 m ρ c (nf0 m c) (ef0 m c) (iw m c) (jw m c) (round m c (round m c ((nf0 m c, ef0 m c)))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    e14_v6 e14_v9 e14_v3 e14_v1 r2e r2n e14_a11 e14_a12 e14_a13 e14_a14 e14_a15 e14_a16 hI hJ
  have e19_v6 : W19 m ρ c (Proc.devRef .tc main_v6) = nf0 m c := (carry19_v6 m ρ c).trans e14_v6
  have e19_v9 : W19 m ρ c (Proc.devRef .tc main_v9) = ef0 m c := (carry19_v9 m ρ c).trans e14_v9
  have e19_v3 : W19 m ρ c (Proc.devRef .tc main_v3) = iw m c := (carry19_v3 m ρ c).trans e14_v3
  have e19_v1 : W19 m ρ c (Proc.devRef .tc main_v1) = jw m c := (carry19_v1 m ρ c).trans e14_v1
  have e19_a11 : W19 m ρ c (Proc.devRef .tc main_arg11) = (m ((c : Thread nD τ).loc main_arg11)) := (carry19_arg11 m ρ c).trans e14_a11
  have e19_a12 : W19 m ρ c (Proc.devRef .tc main_arg12) = (m ((c : Thread nD τ).loc main_arg12)) := (carry19_arg12 m ρ c).trans e14_a12
  have e19_a13 : W19 m ρ c (Proc.devRef .tc main_arg13) = (m ((c : Thread nD τ).loc main_arg13)) := (carry19_arg13 m ρ c).trans e14_a13
  have e19_a14 : W19 m ρ c (Proc.devRef .tc main_arg14) = (m ((c : Thread nD τ).loc main_arg14)) := (carry19_arg14 m ρ c).trans e14_a14
  have e19_a15 : W19 m ρ c (Proc.devRef .tc main_arg15) = (m ((c : Thread nD τ).loc main_arg15)) := (carry19_arg15 m ρ c).trans e14_a15
  have e19_a16 : W19 m ρ c (Proc.devRef .tc main_arg16) = (m ((c : Thread nD τ).loc main_arg16)) := (carry19_arg16 m ρ c).trans e14_a16
  have e19_a17 : W19 m ρ c (Proc.devRef .tc main_arg17) = (m ((c : Thread nD τ).loc main_arg17)) := (carry19_arg17 m ρ c).trans e14_a17
  have e19_a18 : W19 m ρ c (Proc.devRef .tc main_arg18) = (m ((c : Thread nD τ).loc main_arg18)) := (carry19_arg18 m ρ c).trans e14_a18
  have e19_a19 : W19 m ρ c (Proc.devRef .tc main_arg19) = (m ((c : Thread nD τ).loc main_arg19)) := (carry19_arg19 m ρ c).trans e14_a19
  have e19_a20 : W19 m ρ c (Proc.devRef .tc main_arg20) = (m ((c : Thread nD τ).loc main_arg20)) := (carry19_arg20 m ρ c).trans e14_a20
  have e19_a21 : W19 m ρ c (Proc.devRef .tc main_arg21) = (m ((c : Thread nD τ).loc main_arg21)) := (carry19_arg21 m ρ c).trans e14_a21
  have e19_a22 : W19 m ρ c (Proc.devRef .tc main_arg22) = (m ((c : Thread nD τ).loc main_arg22)) := (carry19_arg22 m ρ c).trans e14_a22
  -- round 4
  obtain ⟨r4e, r4n⟩ := Cert.KernelIdeal.Step4.round4 m ρ c (nf0 m c) (ef0 m c) (iw m c) (jw m c) (round m c (round m c (round m c ((nf0 m c, ef0 m c))))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    e19_v6 e19_v9 e19_v3 e19_v1 r3e r3n e19_a11 e19_a12 e19_a13 e19_a14 e19_a15 e19_a16 hI hJ
  have e24_a17 : W24 m ρ c (Proc.devRef .tc main_arg17) = (m ((c : Thread nD τ).loc main_arg17)) := (carry24_arg17 m ρ c).trans e19_a17
  have e24_a18 : W24 m ρ c (Proc.devRef .tc main_arg18) = (m ((c : Thread nD τ).loc main_arg18)) := (carry24_arg18 m ρ c).trans e19_a18
  have e24_a19 : W24 m ρ c (Proc.devRef .tc main_arg19) = (m ((c : Thread nD τ).loc main_arg19)) := (carry24_arg19 m ρ c).trans e19_a19
  have e24_a20 : W24 m ρ c (Proc.devRef .tc main_arg20) = (m ((c : Thread nD τ).loc main_arg20)) := (carry24_arg20 m ρ c).trans e19_a20
  have e24_a21 : W24 m ρ c (Proc.devRef .tc main_arg21) = (m ((c : Thread nD τ).loc main_arg21)) := (carry24_arg21 m ρ c).trans e19_a21
  have e24_a22 : W24 m ρ c (Proc.devRef .tc main_arg22) = (m ((c : Thread nD τ).loc main_arg22)) := (carry24_arg22 m ρ c).trans e19_a22
  -- the classifier on the last edge features
  refine (Cert.KernelIdeal.Tail.out_at_W26 m ρ c _ (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) r4e e24_a17 e24_a18 e24_a19 e24_a20 e24_a21 e24_a22).trans ?_
  rfl

end Cert.KernelIdeal.Assemble

end
-- ==== Proof.Claims.lean ====
/-
  The five claims. The frames of the two kernel programs are the generated ones; the reference's frame is its run
  with the result dropped; the idealization rewrote nothing. The algebraic claim: under the precondition every
  index word of the edge table lies in the node table's range, so the idealized kernel's result array is the network
  of the arguments (the kernel's chain through its seven regions), and the reference's result is the same network of
  its arguments (its operations read chunk by chunk); the two programs gather rows and sum messages by the same host
  operations, and the arguments agree.
-/
import proofs.«403211_j60627758350346_1_alg».proof.Defs
import proofs.«403211_j60627758350346_1_alg».proof.Proof.Gen.Kernel.Frame
import proofs.«403211_j60627758350346_1_alg».proof.Proof.Gen.KernelIdeal.Frame
import proofs.«403211_j60627758350346_1_alg».proof.Proof.Gen.Pre_finite_inputs
import proofs.«403211_j60627758350346_1_alg».proof.Proof.RefRun
import proofs.«403211_j60627758350346_1_alg».proof.Proof.RefArgs
import proofs.«403211_j60627758350346_1_alg».proof.Proof.RefAssemble
import proofs.«403211_j60627758350346_1_alg».proof.Proof.KRun
import proofs.«403211_j60627758350346_1_alg».proof.Proof.KAssemble
import proofs.«403211_j60627758350346_1_alg».proof.Proof.PreRange

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.RefArgs.arg0_kept m c),
      (h c Cert.ReferenceIdeal.main_arg1).trans (Cert.ReferenceIdeal.RefArgs.arg1_kept m c),
      (h c Cert.ReferenceIdeal.main_arg2).trans (Cert.ReferenceIdeal.RefArgs.arg2_kept m c),
      (h c Cert.ReferenceIdeal.main_arg3).trans (Cert.ReferenceIdeal.RefArgs.arg3_kept m c),
      (h c Cert.ReferenceIdeal.main_arg4).trans (Cert.ReferenceIdeal.RefArgs.arg4_kept m c),
      (h c Cert.ReferenceIdeal.main_arg5).trans (Cert.ReferenceIdeal.RefArgs.arg5_kept m c),
      (h c Cert.ReferenceIdeal.main_arg6).trans (Cert.ReferenceIdeal.RefArgs.arg6_kept m c),
      (h c Cert.ReferenceIdeal.main_arg7).trans (Cert.ReferenceIdeal.RefArgs.arg7_kept m c),
      (h c Cert.ReferenceIdeal.main_arg8).trans (Cert.ReferenceIdeal.RefArgs.arg8_kept m c),
      (h c Cert.ReferenceIdeal.main_arg9).trans (Cert.ReferenceIdeal.RefArgs.arg9_kept m c),
      (h c Cert.ReferenceIdeal.main_arg10).trans (Cert.ReferenceIdeal.RefArgs.arg10_kept m c),
      (h c Cert.ReferenceIdeal.main_arg11).trans (Cert.ReferenceIdeal.RefArgs.arg11_kept m c),
      (h c Cert.ReferenceIdeal.main_arg12).trans (Cert.ReferenceIdeal.RefArgs.arg12_kept m c),
      (h c Cert.ReferenceIdeal.main_arg13).trans (Cert.ReferenceIdeal.RefArgs.arg13_kept m c),
      (h c Cert.ReferenceIdeal.main_arg14).trans (Cert.ReferenceIdeal.RefArgs.arg14_kept m c),
      (h c Cert.ReferenceIdeal.main_arg15).trans (Cert.ReferenceIdeal.RefArgs.arg15_kept m c),
      (h c Cert.ReferenceIdeal.main_arg16).trans (Cert.ReferenceIdeal.RefArgs.arg16_kept m c),
      (h c Cert.ReferenceIdeal.main_arg17).trans (Cert.ReferenceIdeal.RefArgs.arg17_kept m c),
      (h c Cert.ReferenceIdeal.main_arg18).trans (Cert.ReferenceIdeal.RefArgs.arg18_kept m c),
      (h c Cert.ReferenceIdeal.main_arg19).trans (Cert.ReferenceIdeal.RefArgs.arg19_kept m c),
      (h c Cert.ReferenceIdeal.main_arg20).trans (Cert.ReferenceIdeal.RefArgs.arg20_kept m c),
      (h c Cert.ReferenceIdeal.main_arg21).trans (Cert.ReferenceIdeal.RefArgs.arg21_kept m c),
      (h c Cert.ReferenceIdeal.main_arg22).trans (Cert.ReferenceIdeal.RefArgs.arg22_kept m c)⟩)
    (Cert.ReferenceIdeal.RefRun.run (F := Ideal) m ρ)

theorem preserves : Cert.preserves_Kernel_KernelIdeal := trivial

/-- Under the precondition every index word of the edge table, read unsigned, is below the number of nodes. -/
theorem index_words_in_range (m : (ℓ : Loc Cert.KernelIdeal.nD Cert.KernelIdeal.τ Cert.KernelIdeal.sig) → Buf (Elt Ideal) ℓ)
    (hpre : Cert.Pre_KernelIdeal m) (c : Dev Cert.KernelIdeal.nD) (p : Fin 2) (e : Fin 100000) :
    (((m ((c.tc : Thread Cert.KernelIdeal.nD Cert.KernelIdeal.τ).loc Cert.KernelIdeal.main_arg2)) : IVec Cert.KernelIdeal.S2x100000 32) (ValueIdx.ix2 p e)).toNat < 20000 :=
  Cert.PreRange.index_range _ _ _ _ _ _ _ _ _ _ _ _ _ _ _ _ _ _ _ _ _ _ _ (hpre c) p e

theorem algebraic : Cert.algebraic_KernelIdeal_ReferenceIdeal := by
  intro m ρ m' ρ' hpre hagree
  refine ⟨fun c => Cert.Spec.net Cert.KernelIdeal.Names.gK Cert.KernelIdeal.Glue.scK Cert.KernelIdeal.Take.nrmIdx Cert.KernelIdeal.Glue.colIdx
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.KernelIdeal.Assemble.kernel_value m ρ c (index_words_in_range m hpre c)), (h c).2⟩)
      (Cert.KernelIdeal.Run.run_named (F := Ideal) m ρ)
  · refine (θ_run Cert.ReferenceIdeal.defs _ _).mono (fun r h c =>
      ⟨(h c Cert.ReferenceIdeal.main_v179).trans ((Cert.ReferenceIdeal.RefAssemble.ref_value m' c).trans ?_),
      (h c Cert.ReferenceIdeal.main_arg0).trans (Cert.ReferenceIdeal.RefArgs.arg0_kept m' c),
      (h c Cert.ReferenceIdeal.main_arg1).trans (Cert.ReferenceIdeal.RefArgs.arg1_kept m' c),
      (h c Cert.ReferenceIdeal.main_arg2).trans (Cert.ReferenceIdeal.RefArgs.arg2_kept m' c),
      (h c Cert.ReferenceIdeal.main_arg3).trans (Cert.ReferenceIdeal.RefArgs.arg3_kept m' c),
      (h c Cert.ReferenceIdeal.main_arg4).trans (Cert.ReferenceIdeal.RefArgs.arg4_kept m' c),
      (h c Cert.ReferenceIdeal.main_arg5).trans (Cert.ReferenceIdeal.RefArgs.arg5_kept m' c),
      (h c Cert.ReferenceIdeal.main_arg6).trans (Cert.ReferenceIdeal.RefArgs.arg6_kept m' c),
      (h c Cert.ReferenceIdeal.main_arg7).trans (Cert.ReferenceIdeal.RefArgs.arg7_kept m' c),
      (h c Cert.ReferenceIdeal.main_arg8).trans (Cert.ReferenceIdeal.RefArgs.arg8_kept m' c),
      (h c Cert.ReferenceIdeal.main_arg9).trans (Cert.ReferenceIdeal.RefArgs.arg9_kept m' c),
      (h c Cert.ReferenceIdeal.main_arg10).trans (Cert.ReferenceIdeal.RefArgs.arg10_kept m' c),
      (h c Cert.ReferenceIdeal.main_arg11).trans (Cert.ReferenceIdeal.RefArgs.arg11_kept m' c),
      (h c Cert.ReferenceIdeal.main_arg12).trans (Cert.ReferenceIdeal.RefArgs.arg12_kept m' c),
      (h c Cert.ReferenceIdeal.main_arg13).trans (Cert.ReferenceIdeal.RefArgs.arg13_kept m' c),
      (h c Cert.ReferenceIdeal.main_arg14).trans (Cert.ReferenceIdeal.RefArgs.arg14_kept m' c),
      (h c Cert.ReferenceIdeal.main_arg15).trans (Cert.ReferenceIdeal.RefArgs.arg15_kept m' c),
      (h c Cert.ReferenceIdeal.main_arg16).trans (Cert.ReferenceIdeal.RefArgs.arg16_kept m' c),
      (h c Cert.ReferenceIdeal.main_arg17).trans (Cert.ReferenceIdeal.RefArgs.arg17_kept m' c),
      (h c Cert.ReferenceIdeal.main_arg18).trans (Cert.ReferenceIdeal.RefArgs.arg18_kept m' c),
      (h c Cert.ReferenceIdeal.main_arg19).trans (Cert.ReferenceIdeal.RefArgs.arg19_kept m' c),
      (h c Cert.ReferenceIdeal.main_arg20).trans (Cert.ReferenceIdeal.RefArgs.arg20_kept m' c),
      (h c Cert.ReferenceIdeal.main_arg21).trans (Cert.ReferenceIdeal.RefArgs.arg21_kept m' c),
      (h c Cert.ReferenceIdeal.main_arg22).trans (Cert.ReferenceIdeal.RefArgs.arg22_kept m' c)⟩)
      (Cert.ReferenceIdeal.RefRun.run (F := Ideal) m' ρ')
    obtain ⟨h0, h1, h2, h3, h4, h5, h6, h7, h8, h9, h10, h11, h12, h13, h14, h15, h16, h17, h18, h19, h20, h21, h22⟩ := hagree c
    rw [h0, h1, h2, h3, h4, h5, h6, h7, h8, h9, h10, h11, h12, h13, h14, h15, h16, h17, h18, h19, h20, h21, h22]
    rfl

end Cert.Proof.Claims

end
-- ==== Proof.lean ====
/-
  The certificate's claim: the kernel, its idealization and the idealized reference run without a fault and leave
  their arguments unchanged; the idealization rewrote nothing; and over the extended reals, on finite inputs whose
  edge-table words index existing nodes, the idealized kernel and the idealized reference end with equal results.
  The parts are proved in Proof/Claims.lean.
-/
import proofs.«403211_j60627758350346_1_alg».proof.Defs
import proofs.«403211_j60627758350346_1_alg».proof.Proof.Gen.Kernel
import proofs.«403211_j60627758350346_1_alg».proof.Proof.Gen.KernelIdeal
import proofs.«403211_j60627758350346_1_alg».proof.Proof.Gen.ReferenceIdeal
import proofs.«403211_j60627758350346_1_alg».proof.Proof.Gen.Pre_finite_inputs
import proofs.«403211_j60627758350346_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_kernel, Cert.Proof.Claims.frame_kernelIdeal, Cert.Proof.Claims.frame_referenceIdeal,
    Cert.Proof.Claims.preserves, Cert.Proof.Claims.algebraic⟩

end Cert.Proof

end
